-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x800000 : Shape := ⟨2, ![2, 800000]⟩
abbrev S800000x1 : Shape := ⟨2, ![800000, 1]⟩
abbrev S16x64 : Shape := ⟨2, ![16, 64]⟩
abbrev S64 : Shape := ⟨1, ![64]⟩
abbrev S64x64 : Shape := ⟨2, ![64, 64]⟩
abbrev S3x1x64 : Shape := ⟨3, ![3, 1, 64]⟩
abbrev S3x64 : Shape := ⟨2, ![3, 64]⟩
abbrev S3x64x64 : Shape := ⟨3, ![3, 64, 64]⟩
abbrev S64x32 : Shape := ⟨2, ![64, 32]⟩
abbrev S32 : Shape := ⟨1, ![32]⟩
abbrev S_ : Shape := ⟨0, ![]⟩
abbrev S1x800000 : Shape := ⟨2, ![1, 800000]⟩
abbrev S800000 : Shape := ⟨1, ![800000]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x1x64 : S_.BroadcastsInDim S3x1x64 (![] : Fin 0 → Fin S3x1x64.rank)
  reducesTo_S3x1x64_S_d0_1_2 : S3x1x64.ReducesTo [0, 1, 2] S_
  bcast_S_S3x64 : S_.BroadcastsInDim S3x64 (![] : Fin 0 → Fin S3x64.rank)
  reducesTo_S3x64_S_d0_1 : S3x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part5 {F : FTy → Type} [FloatOps F] (main_v78 : IVec S_ 1) (main_v82 : IVec S800000 1) (main_v84 : IVec S800000 32) (main_v85 : IVec S800000 32) : IVec S_ 1 :=
  let main_v86 : IVec S800000 1 := cmpi .slt main_v84 main_v85
  let main_v87 : IVec S800000 1 := andi main_v82 main_v86
  let main_c_32 : IVec S_ 1 := constantI S_ 1 1#1
  let main_v88 : IVec S_ 1 := (fun x v => Host.reduce IntOp.andi x v reducesTo_S800000_S_d0 h_S_) main_v87 main_c_32
  let main_v89 : IVec S_ 1 := andi main_v78 main_v88
  main_v89

def fn_part4 {F : FTy → Type} [FloatOps F] (main_arg1 : IVec S2x800000 32) (main_arg15 : FVec F S64x32 .f32) (main_arg16 : FVec F S32 .f32) (main_v63 : IVec S_ 1) (main_v67 : IVec S_ 1) : IVec S_ 1 :=
  let main_v68 : IVec S_ 1 := andi main_v63 main_v67
  let main_v69 : FVec F S64x32 .f32 := Host.absf main_arg15
  let main_cst_26 : FVec F S_ .f32 := constant S_ .f32 0x7F800000#32
  let main_v70 : FVec F S64x32 .f32 := broadcastInDim S64x32 ![] bcast_S_S64x32 main_cst_26
  let main_v71 : IVec S64x32 1 := cmpf .olt main_v69 main_v70
  let main_c_27 : IVec S_ 1 := constantI S_ 1 1#1
  let main_v72 : IVec S_ 1 := (fun x v => Host.reduce IntOp.andi x v reducesTo_S64x32_S_d0_1 h_S_) main_v71 main_c_27
  let main_v73 : IVec S_ 1 := andi main_v68 main_v72
  let main_v74 : FVec F S32 .f32 := Host.absf main_arg16
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : IVec S1x800000 32 := (extractStridedSlice S1x800000 ![0, 0] · slices_S2x800000_S1x800000_0_0) main_arg1
  let main_v80 : IVec S800000 32 := shapeCast S800000 main_v79 shapeCasts_S1x800000_S800000
  let main_c_30 : IVec S_ 32 := constantI S_ 32 4294917296#32
  let main_v81 : IVec S800000 32 := broadcastInDim S800000 ![] bcast_S_S800000 main_c_30
  let main_v82 : IVec S800000 1 := cmpi .sge main_v80 main_v81
  let main_v83 : IVec S1x800000 32 := (extractStridedSlice S1x800000 ![0, 0] · slices_S2x800000_S1x800000_0_0) main_arg1
  let main_v84 : IVec S800000 32 := shapeCast S800000 main_v83 shapeCasts_S1x800000_S800000
  let main_c_31 : IVec S_ 32 := constantI S_ 32 50000#32
  let main_v85 : IVec S800000 32 := broadcastInDim S800000 ![] bcast_S_S800000 main_c_31
  fn_part5 (F := F) main_v78 main_v82 main_v84 main_v85

def fn_part3 {F : FTy → Type} [FloatOps F] (main_arg1 : IVec S2x800000 32) (main_arg12 : FVec F S3x64 .f32) (main_arg13 : FVec F S64x64 .f32) (main_arg14 : FVec F S64 .f32) (main_arg15 : FVec F S64x32 .f32) (main_arg16 : FVec F S32 .f32) (main_v48 : IVec S_ 1) (main_v49 : FVec F S3x64x64 .f32) (main_v50 : FVec F S3x64x64 .f32) : IVec S_ 1 :=
  let main_v51 : IVec S3x64x64 1 := cmpf .olt main_v49 main_v50
  let main_c_19 : IVec S_ 1 := constantI S_ 1 1#1
  let main_v52 : IVec S_ 1 := (fun x v => Host.reduce IntOp.andi x v reducesTo_S3x64x64_S_d0_1_2 h_S_) main_v51 main_c_19
  let main_v53 : IVec S_ 1 := andi main_v48 main_v52
  let main_v54 : FVec F S3x64 .f32 := Host.absf main_arg12
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_arg15 main_arg16 main_v63 main_v67

def fn_part2 {F : FTy → Type} [FloatOps F] (main_arg1 : IVec S2x800000 32) (main_arg8 : FVec F S3x64 .f32) (main_arg9 : FVec F S3x64x64 .f32) (main_arg10 : FVec F S3x64 .f32) (main_arg11 : FVec F S3x64x64 .f32) (main_arg12 : FVec F S3x64 .f32) (main_arg13 : FVec F S64x64 .f32) (main_arg14 : FVec F S64 .f32) (main_arg15 : FVec F S64x32 .f32) (main_arg16 : FVec F S32 .f32) (main_v33 : IVec S_ 1) : IVec S_ 1 :=
  let main_v34 : FVec F S3x64 .f32 := Host.absf main_arg8
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64x64 .f32 := Host.absf main_arg9
  let main_cst_14 : FVec F S_ .f32 := constant S_ .f32 0x7F800000#32
  let main_v40 : FVec F S3x64x64 .f32 := broadcastInDim S3x64x64 ![] bcast_S_S3x64x64 main_cst_14
  let main_v41 : IVec S3x64x64 1 := cmpf .olt main_v39 main_v40
  let main_c_15 : IVec S_ 1 := constantI S_ 1 1#1
  let main_v42 : IVec S_ 1 := (fun x v => Host.reduce IntOp.andi x v reducesTo_S3x64x64_S_d0_1_2 h_S_) main_v41 main_c_15
  let main_v43 : IVec S_ 1 := andi main_v38 main_v42
  let main_v44 : FVec F S3x64 .f32 := Host.absf main_arg10
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64x64 .f32 := Host.absf main_arg11
  let main_cst_18 : FVec F S_ .f32 := constant S_ .f32 0x7F800000#32
  let main_v50 : FVec F S3x64x64 .f32 := broadcastInDim S3x64x64 ![] bcast_S_S3x64x64 main_cst_18
  fn_part3 (F := F) main_arg1 main_arg12 main_arg13 main_arg14 main_arg15 main_arg16 main_v48 main_v49 main_v50

def fn_part1 {F : FTy → Type} [FloatOps F] (main_arg1 : IVec S2x800000 32) (main_arg5 : FVec F S64x64 .f32) (main_arg6 : FVec F S64 .f32) (main_arg7 : FVec F S3x1x64 .f32) (main_arg8 : FVec F S3x64 .f32) (main_arg9 : FVec F S3x64x64 .f32) (main_arg10 : FVec F S3x64 .f32) (main_arg11 : FVec F S3x64x64 .f32) (main_arg12 : FVec F S3x64 .f32) (main_arg13 : FVec F S64x64 .f32) (main_arg14 : FVec F S64 .f32) (main_arg15 : FVec F S64x32 .f32) (main_arg16 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x1x64 .f32 := Host.absf main_arg7
  let main_cst_10 : FVec F S_ .f32 := constant S_ .f32 0x7F800000#32
  let main_v30 : FVec F S3x1x64 .f32 := broadcastInDim S3x1x64 ![] bcast_S_S3x1x64 main_cst_10
  let main_v31 : IVec S3x1x64 1 := cmpf .olt main_v29 main_v30
  let main_c_11 : IVec S_ 1 := constantI S_ 1 1#1
  let main_v32 : IVec S_ 1 := (fun x v => Host.reduce IntOp.andi x v reducesTo_S3x1x64_S_d0_1_2 h_S_) main_v31 main_c_11
  let main_v33 : IVec S_ 1 := andi main_v28 main_v32
  fn_part2 (F := F) main_arg1 main_arg8 main_arg9 main_arg10 main_arg11 main_arg12 main_arg13 main_arg14 main_arg15 main_arg16 main_v33

def fn {F : FTy → Type} [FloatOps F] (main_arg0 : FVec F S50000x16 .f32) (main_arg1 : IVec S2x800000 32) (main_arg2 : FVec F S800000x1 .f32) (main_arg3 : FVec F S16x64 .f32) (main_arg4 : FVec F S64 .f32) (main_arg5 : FVec F S64x64 .f32) (main_arg6 : FVec F S64 .f32) (main_arg7 : FVec F S3x1x64 .f32) (main_arg8 : FVec F S3x64 .f32) (main_arg9 : FVec F S3x64x64 .f32) (main_arg10 : FVec F S3x64 .f32) (main_arg11 : FVec F S3x64x64 .f32) (main_arg12 : FVec F S3x64 .f32) (main_arg13 : FVec F S64x64 .f32) (main_arg14 : FVec F S64 .f32) (main_arg15 : FVec F S64x32 .f32) (main_arg16 : FVec F S32 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S16x64 .f32 := Host.absf main_arg3
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_arg11 main_arg12 main_arg13 main_arg14 main_arg15 main_arg16 main_v13 main_v16
-- ==== Kernel.lean ====
abbrev S50000x16 : Shape := ⟨2, ![50000, 16]⟩
abbrev S2x800000 : Shape := ⟨2, ![2, 800000]⟩
abbrev S800000x1 : Shape := ⟨2, ![800000, 1]⟩
abbrev S16x64 : Shape := ⟨2, ![16, 64]⟩
abbrev S64 : Shape := ⟨1, ![64]⟩
abbrev S64x64 : Shape := ⟨2, ![64, 64]⟩
abbrev S3x1x64 : Shape := ⟨3, ![3, 1, 64]⟩
abbrev S3x64 : Shape := ⟨2, ![3, 64]⟩
abbrev S3x64x64 : Shape := ⟨3, ![3, 64, 64]⟩
abbrev S64x32 : Shape := ⟨2, ![64, 32]⟩
abbrev S32 : Shape := ⟨1, ![32]⟩
abbrev S1x64 : Shape := ⟨2, ![1, 64]⟩
abbrev S50000x64 : Shape := ⟨2, ![50000, 64]⟩
abbrev S10000x16 : Shape := ⟨2, ![10000, 16]⟩
abbrev S10000x64 : Shape := ⟨2, ![10000, 64]⟩
abbrev S1x800000 : Shape := ⟨2, ![1, 800000]⟩
abbrev S800000 : Shape := ⟨1, ![800000]⟩
abbrev S_ : Shape := ⟨0, ![]⟩
abbrev S1 : Shape := ⟨1, ![1]⟩
abbrev S1x1 : Shape := ⟨2, ![1, 1]⟩
abbrev S800000x64 : Shape := ⟨2, ![800000, 64]⟩
abbrev S1x1x64 : Shape := ⟨3, ![1, 1, 64]⟩
abbrev S8000x64 : Shape := ⟨2, ![8000, 64]⟩
abbrev S8000x1 : Shape := ⟨2, ![8000, 1]⟩
abbrev S1x64x64 : Shape := ⟨3, ![1, 64, 64]⟩
abbrev S5000x64 : Shape := ⟨2, ![5000, 64]⟩
abbrev S1x32 : Shape := ⟨2, ![1, 32]⟩
abbrev S50000x32 : Shape := ⟨2, ![50000, 32]⟩
abbrev S10000x32 : Shape := ⟨2, ![10000, 32]⟩

abbrev nBuf : Space → Nat
  | .hbm => 159
  | .vmem => 70
  | .smem => 0
  | _ => 0

abbrev hbmTy0_0 (i : Nat) : BufTy := match i % 128 with
  | 0 => ⟨S50000x16, .f32⟩
  | 1 => ⟨S2x800000, .i32⟩
  | 2 => ⟨S800000x1, .f32⟩
  | 3 => ⟨S16x64, .f32⟩
  | 4 => ⟨S64, .f32⟩
  | 5 => ⟨S64x64, .f32⟩
  | 6 => ⟨S64, .f32⟩
  | 7 => ⟨S3x1x64, .f32⟩
  | 8 => ⟨S3x64, .f32⟩
  | 9 => ⟨S3x64x64, .f32⟩
  | 10 => ⟨S3x64, .f32⟩
  | 11 => ⟨S3x64x64, .f32⟩
  | 12 => ⟨S3x64, .f32⟩
  | 13 => ⟨S64x64, .f32⟩
  | 14 => ⟨S64, .f32⟩
  | 15 => ⟨S64x32, .f32⟩
  | 16 => ⟨S32, .f32⟩
  | 17 => ⟨S1x64, .f32⟩
  | 18 => ⟨S1x64, .f32⟩
  | 19 => ⟨S50000x64, .f32⟩
  | 20 => ⟨S1x800000, .i32⟩
  | 21 => ⟨S800000, .i32⟩
  | 22 => ⟨S1x800000, .i32⟩
  | 23 => ⟨S800000, .i32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S1, .i32⟩
  | 33 => ⟨S_, .i32⟩
  | 34 => ⟨S800000x1, .i32⟩
  | 35 => ⟨S800000x1, .i1⟩
  | 36 => ⟨S1x1, .i32⟩
  | 37 => ⟨S800000x1, .i32⟩
  | 38 => ⟨S800000x1, .i1⟩
  | 39 => ⟨S800000x1, .i1⟩
  | 40 => ⟨S_, .i1⟩
  | 41 => ⟨S800000, .i1⟩
  | 42 => ⟨S800000x64, .f32⟩
  | 43 => ⟨S800000x64, .i1⟩
  | 44 => ⟨S_, .f32⟩
  | 45 => ⟨S800000x64, .f32⟩
  | 46 => ⟨S800000x64, .f32⟩
  | 47 => ⟨S1x1x64, .f32⟩
  | 48 => ⟨S1x64, .f32⟩
  | 49 => ⟨S1x64, .f32⟩
  | 50 => ⟨S64, .f32⟩
  | 51 => ⟨S1x64, .f32⟩
  | 52 => ⟨S800000x64, .f32⟩
  | 53 => ⟨S_, .f32⟩
  | 54 => ⟨S50000x64, .f32⟩
  | 55 => ⟨S800000x1, .i32⟩
  | 56 => ⟨S50000x64, .f32⟩
  | 57 => ⟨S1x64x64, .f32⟩
  | 58 => ⟨S64x64, .f32⟩
  | 59 => ⟨S1x64, .f32⟩
  | 60 => ⟨S64, .f32⟩
  | 61 => ⟨S1x64x64, .f32⟩
  | 62 => ⟨S64x64, .f32⟩
  | 63 => ⟨S1x64, .f32⟩
  | 64 => ⟨S64, .f32⟩
  | 65 => ⟨S1x64, .f32⟩
  | 66 => ⟨S1x64, .f32⟩
  | 67 => ⟨S50000x64, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S1, .i32⟩
  | 77 => ⟨S_, .i32⟩
  | 78 => ⟨S800000x1, .i32⟩
  | 79 => ⟨S800000x1, .i1⟩
  | 80 => ⟨S1x1, .i32⟩
  | 81 => ⟨S800000x1, .i32⟩
  | 82 => ⟨S800000x1, .i1⟩
  | 83 => ⟨S800000x1, .i1⟩
  | 84 => ⟨S_, .i1⟩
  | 85 => ⟨S800000, .i1⟩
  | 86 => ⟨S800000x64, .f32⟩
  | 87 => ⟨S800000x64, .i1⟩
  | 88 => ⟨S_, .f32⟩
  | 89 => ⟨S800000x64, .f32⟩
  | 90 => ⟨S800000x64, .f32⟩
  | 91 => ⟨S1x1x64, .f32⟩
  | 92 => ⟨S1x64, .f32⟩
  | 93 => ⟨S1x64, .f32⟩
  | 94 => ⟨S64, .f32⟩
  | 95 => ⟨S1x64, .f32⟩
  | 96 => ⟨S800000x64, .f32⟩
  | 97 => ⟨S_, .f32⟩
  | 98 => ⟨S50000x64, .f32⟩
  | 99 => ⟨S800000x1, .i32⟩
  | 100 => ⟨S50000x64, .f32⟩
  | 101 => ⟨S1x64x64, .f32⟩
  | 102 => ⟨S64x64, .f32⟩
  | 103 => ⟨S1x64, .f32⟩
  | 104 => ⟨S64, .f32⟩
  | 105 => ⟨S1x64x64, .f32⟩
  | 106 => ⟨S64x64, .f32⟩
  | 107 => ⟨S1x64, .f32⟩
  | 108 => ⟨S64, .f32⟩
  | 109 => ⟨S1x64, .f32⟩
  | 110 => ⟨S1x64, .f32⟩
  | 111 => ⟨S50000x64, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S1, .i32⟩
  | 121 => ⟨S_, .i32⟩
  | 122 => ⟨S800000x1, .i32⟩
  | 123 => ⟨S800000x1, .i1⟩
  | 124 => ⟨S1x1, .i32⟩
  | 125 => ⟨S800000x1, .i32⟩
  | 126 => ⟨S800000x1, .i1⟩
  | 127 => ⟨S800000x1, .i1⟩
  | _ => ⟨S50000x16, .f32⟩

abbrev hbmTy0_1 (i : Nat) : BufTy := match i % 128 with
  | 0 => ⟨S_, .i1⟩
  | 1 => ⟨S800000, .i1⟩
  | 2 => ⟨S800000x64, .f32⟩
  | 3 => ⟨S800000x64, .i1⟩
  | 4 => ⟨S_, .f32⟩
  | 5 => ⟨S800000x64, .f32⟩
  | 6 => ⟨S800000x64, .f32⟩
  | 7 => ⟨S1x1x64, .f32⟩
  | 8 => ⟨S1x64, .f32⟩
  | 9 => ⟨S1x64, .f32⟩
  | 10 => ⟨S64, .f32⟩
  | 11 => ⟨S1x64, .f32⟩
  | 12 => ⟨S800000x64, .f32⟩
  | 13 => ⟨S_, .f32⟩
  | 14 => ⟨S50000x64, .f32⟩
  | 15 => ⟨S800000x1, .i32⟩
  | 16 => ⟨S50000x64, .f32⟩
  | 17 => ⟨S1x64x64, .f32⟩
  | 18 => ⟨S64x64, .f32⟩
  | 19 => ⟨S1x64, .f32⟩
  | 20 => ⟨S64, .f32⟩
  | 21 => ⟨S1x64x64, .f32⟩
  | 22 => ⟨S64x64, .f32⟩
  | 23 => ⟨S1x64, .f32⟩
  | 24 => ⟨S64, .f32⟩
  | 25 => ⟨S1x64, .f32⟩
  | 26 => ⟨S1x64, .f32⟩
  | 27 => ⟨S50000x64, .f32⟩
  | 28 => ⟨S1x64, .f32⟩
  | 29 => ⟨S1x32, .f32⟩
  | 30 => ⟨S50000x32, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | .local _ .vmem, ⟨0, _⟩ => ⟨S10000x16, .f32⟩
  | .local _ .vmem, ⟨1, _⟩ => ⟨S10000x16, .f32⟩
  | .local _ .vmem, ⟨2, _⟩ => ⟨S16x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S8000x64, .f32⟩
  | .local _ .vmem, ⟨9, _⟩ => ⟨S8000x64, .f32⟩
  | .local _ .vmem, ⟨10, _⟩ => ⟨S8000x1, .f32⟩
  | .local _ .vmem, ⟨11, _⟩ => ⟨S8000x1, .f32⟩
  | .local _ .vmem, ⟨12, _⟩ => ⟨S1x64, .f32⟩
  | .local _ .vmem, ⟨13, _⟩ => ⟨S1x64, .f32⟩
  | .local _ .vmem, ⟨14, _⟩ => ⟨S8000x64, .f32⟩
  | .local _ .vmem, ⟨15, _⟩ => ⟨S8000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S8000x64, .f32⟩
  | .local _ .vmem, ⟨27, _⟩ => ⟨S8000x64, .f32⟩
  | .local _ .vmem, ⟨28, _⟩ => ⟨S8000x1, .f32⟩
  | .local _ .vmem, ⟨29, _⟩ => ⟨S8000x1, .f32⟩
  | .local _ .vmem, ⟨30, _⟩ => ⟨S1x64, .f32⟩
  | .local _ .vmem, ⟨31, _⟩ => ⟨S1x64, .f32⟩
  | .local _ .vmem, ⟨32, _⟩ => ⟨S8000x64, .f32⟩
  | .local _ .vmem, ⟨33, _⟩ => ⟨S8000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S1x64, .f32⟩
  | .local _ .vmem, ⟨40, _⟩ => ⟨S64x64, .f32⟩
  | .local _ .vmem, ⟨41, _⟩ => ⟨S1x64, .f32⟩
  | .local _ .vmem, ⟨42, _⟩ => ⟨S5000x64, .f32⟩
  | .local _ .vmem, ⟨43, _⟩ => ⟨S5000x64, .f32⟩
  | .local _ .vmem, ⟨44, _⟩ => ⟨S8000x64, .f32⟩
  | .local _ .vmem, ⟨45, _⟩ => ⟨S8000x64, .f32⟩
  | .local _ .vmem, ⟨46, _⟩ => ⟨S8000x1, .f32⟩
  | .local _ .vmem, ⟨47, _⟩ => ⟨S8000x1, .f32⟩
  | .local _ .vmem, ⟨48, _⟩ => ⟨S1x64, .f32⟩
  | .local _ .vmem, ⟨49, _⟩ => ⟨S1x64, .f32⟩
  | .local _ .vmem, ⟨50, _⟩ => ⟨S8000x64, .f32⟩
  | .local _ .vmem, ⟨51, _⟩ => ⟨S8000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S64x64, .f32⟩
  | .local _ .vmem, ⟨57, _⟩ => ⟨S1x64, .f32⟩
  | .local _ .vmem, ⟨58, _⟩ => ⟨S64x64, .f32⟩
  | .local _ .vmem, ⟨59, _⟩ => ⟨S1x64, .f32⟩
  | .local _ .vmem, ⟨60, _⟩ => ⟨S5000x64, .f32⟩
  | .local _ .vmem, ⟨61, _⟩ => ⟨S5000x64, .f32⟩
  | .local _ .vmem, ⟨62, _⟩ => ⟨S10000x64, .f32⟩
  | .local _ .vmem, ⟨63, _⟩ => ⟨S10000x64, .f32⟩
  | .local _ .vmem, ⟨64, _⟩ => ⟨S64x64, .f32⟩
  | .local _ .vmem, ⟨65, _⟩ => ⟨S1x64, .f32⟩
  | .local _ .vmem, ⟨66, _⟩ => ⟨S64x32, .f32⟩
  | .local _ .vmem, ⟨67, _⟩ => ⟨S1x32, .f32⟩
  | .local _ .vmem, ⟨68, _⟩ => ⟨S10000x32, .f32⟩
  | .local _ .vmem, ⟨69, _⟩ => ⟨S10000x32, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  ofTc nBuf bufTy 0 70 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_cst : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_call1_c : Ref sig .tc := ⟨.hbm, 68, rfl⟩
abbrev main_call1_v0 : Ref sig .tc := ⟨.hbm, 69, rfl⟩
abbrev main_call1_v1 : Ref sig .tc := ⟨.hbm, 70, rfl⟩
abbrev main_call1_c_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_c_1 : Ref sig .tc := ⟨.hbm, 76, rfl⟩
abbrev main_call1_c_2 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_3 : Ref sig .tc := ⟨.hbm, 84, rfl⟩
abbrev main_call1_v12 : Ref sig .tc := ⟨.hbm, 85, rfl⟩
abbrev main_call1_v13 : Ref sig .tc := ⟨.hbm, 86, rfl⟩
abbrev main_call1_v14 : Ref sig .tc := ⟨.hbm, 87, rfl⟩
abbrev main_call1_cst : Ref sig .tc := ⟨.hbm, 88, rfl⟩
abbrev main_call1_v15 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_cst_0 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_call2_c : Ref sig .tc := ⟨.hbm, 112, rfl⟩
abbrev main_call2_v0 : Ref sig .tc := ⟨.hbm, 113, rfl⟩
abbrev main_call2_v1 : Ref sig .tc := ⟨.hbm, 114, rfl⟩
abbrev main_call2_c_0 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_c_1 : Ref sig .tc := ⟨.hbm, 120, rfl⟩
abbrev main_call2_c_2 : Ref sig .tc := ⟨.hbm, 121, rfl⟩
abbrev main_call2_v6 : Ref sig .tc := ⟨.hbm, 122, rfl⟩
abbrev main_call2_v7 : Ref sig .tc := ⟨.hbm, 123, rfl⟩
abbrev main_call2_v8 : Ref sig .tc := ⟨.hbm, 124, rfl⟩
abbrev main_call2_v9 : Ref sig .tc := ⟨.hbm, 125, rfl⟩
abbrev main_call2_v10 : Ref sig .tc := ⟨.hbm, 126, rfl⟩
abbrev main_call2_v11 : Ref sig .tc := ⟨.hbm, 127, rfl⟩
abbrev main_call2_c_3 : Ref sig .tc := ⟨.hbm, 128, rfl⟩
abbrev main_call2_v12 : Ref sig .tc := ⟨.hbm, 129, rfl⟩
abbrev main_call2_v13 : Ref sig .tc := ⟨.hbm, 130, rfl⟩
abbrev main_call2_v14 : Ref sig .tc := ⟨.hbm, 131, rfl⟩
abbrev main_call2_cst : Ref sig .tc := ⟨.hbm, 132, rfl⟩
abbrev main_call2_v15 : Ref sig .tc := ⟨.hbm, 133, rfl⟩
abbrev main_v49 : Ref sig .tc := ⟨.hbm, 134, rfl⟩
abbrev main_v50 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_cst_1 : Ref sig .tc := ⟨.hbm, 141, rfl⟩
abbrev main_v56 : Ref sig .tc := ⟨.hbm, 142, rfl⟩
abbrev main_v57 : Ref sig .tc := ⟨.hbm, 143, rfl⟩
abbrev main_v58 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg6_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg4_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc6_stg6_0 : Ref sig .tc := ⟨.vmem, 60, rfl⟩
abbrev cc6_stg6_1 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg2_0 : Ref sig .tc := ⟨.vmem, 65, rfl⟩
abbrev cc7_stg3_0 : Ref sig .tc := ⟨.vmem, 66, rfl⟩
abbrev cc7_stg4_0 : Ref sig .tc := ⟨.vmem, 67, rfl⟩
abbrev cc7_stg5_0 : Ref sig .tc := ⟨.vmem, 68, rfl⟩
abbrev cc7_stg5_1 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem6_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc5_sem4_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem3_0 : DmaSem sig := 57
abbrev cc6_sem4_0 : DmaSem sig := 58
abbrev cc6_sem5_0 : DmaSem sig := 59
abbrev cc6_sem6_0 : DmaSem sig := 60
abbrev cc6_sem6_1 : DmaSem sig := 61
abbrev cc7_sem0_0 : DmaSem sig := 62
abbrev cc7_sem0_1 : DmaSem sig := 63
abbrev cc7_sem1_0 : DmaSem sig := 64
abbrev cc7_sem2_0 : DmaSem sig := 65
abbrev cc7_sem3_0 : DmaSem sig := 66
abbrev cc7_sem4_0 : DmaSem sig := 67
abbrev cc7_sem5_0 : DmaSem sig := 68
abbrev cc7_sem5_1 : DmaSem sig := 69

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S8000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S8000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x32 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S10000x32 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  shapeCasts_S64_S1x64 : S64.ShapeCasts S1x64
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S10000x64_S10000x64_0_0 : ∀ a, (![0, 0] : Fin 2 → Nat) a + S10000x64.size a ≤ S10000x64.size a
  h_S10000x64 : 0 < S10000x64.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S3x1x64_S1x1x64_0_0_0 : S3x1x64.Slices ![0, 0, 0] S1x1x64
  shapeCasts_S1x1x64_S1x64 : S1x1x64.ShapeCasts S1x64
  slices_S3x64_S1x64_0_0 : S3x64.Slices ![0, 0] S1x64
  shapeCasts_S1x64_S64 : S1x64.ShapeCasts S64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  broadcasts_S8000x1_S8000x64 : S8000x1.Broadcasts S8000x64
  broadcasts_S1x64_S8000x64 : S1x64.Broadcasts S8000x64
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  shapeCasts_S64x64_S64x64 : S64x64.ShapeCasts S64x64
  broadcasts_S1x64_S5000x64 : S1x64.Broadcasts S5000x64
  slices_S3x1x64_S1x1x64_1_0_0 : S3x1x64.Slices ![1, 0, 0] S1x1x64
  slices_S3x64_S1x64_1_0 : S3x64.Slices ![1, 0] S1x64
  slices_S3x64x64_S1x64x64_1_0_0 : S3x64x64.Slices ![1, 0, 0] S1x64x64
  slices_S3x1x64_S1x1x64_2_0_0 : S3x1x64.Slices ![2, 0, 0] S1x1x64
  slices_S3x64_S1x64_2_0 : S3x64.Slices ![2, 0] S1x64
  slices_S3x64x64_S1x64x64_2_0_0 : S3x64x64.Slices ![2, 0, 0] S1x64x64
  shapeCasts_S32_S1x32 : S32.ShapeCasts S1x32
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  dot_S10000x16_S16x64_S10000x64_1_0_0_1_n_n_wf : DotDims.WF S10000x16 S16x64 S10000x64 [1] [0] [0] [1] [] []
  dot_S10000x64_S64x64_S10000x64_1_0_0_1_n_n_wf : DotDims.WF S10000x64 S64x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S50000x16.size a
  hwx0_0 : ∀ i : grid0.Coords, EltTy.bits .f32 = 32 ∨ (Rect.block (s := S50000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S50000x64.size a
  hwx0_5 : ∀ i : grid0.Coords, EltTy.bits .f32 = 32 ∨ (Rect.block (s := S50000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S800000x64.size a
  hwx1_0 : ∀ i : grid1.Coords, EltTy.bits .f32 = 32 ∨ (Rect.block (s := S800000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S800000x1.size a
  hwx1_1 : ∀ i : grid1.Coords, EltTy.bits .f32 = 32 ∨ (Rect.block (s := S800000x1) S8000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x64.size a ≤ S800000x64.size a
  hwx1_4 : ∀ i : grid1.Coords, EltTy.bits .f32 = 32 ∨ (Rect.block (s := S800000x64) S8000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S800000x64.size a
  hwx3_0 : ∀ i : grid3.Coords, EltTy.bits .f32 = 32 ∨ (Rect.block (s := S800000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x1.size a ≤ S800000x1.size a
  hwx3_1 : ∀ i : grid3.Coords, EltTy.bits .f32 = 32 ∨ (Rect.block (s := S800000x1) S8000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8000x64.size a ≤ S800000x64.size a
  hwx3_4 : ∀ i : grid3.Coords, EltTy.bits .f32 = 32 ∨ (Rect.block (s := S800000x64) S8000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x64.size a ≤ S800000x64.size a
  hwx5_0 : ∀ i : grid5.Coords, EltTy.bits .f32 = 32 ∨ (Rect.block (s := S800000x64) S8000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x1.size a ≤ S800000x1.size a
  hwx5_1 : ∀ i : grid5.Coords, EltTy.bits .f32 = 32 ∨ (Rect.block (s := S800000x1) S8000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S8000x64.size a ≤ S800000x64.size a
  hwx5_4 : ∀ i : grid5.Coords, EltTy.bits .f32 = 32 ∨ (Rect.block (s := S800000x64) S8000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x64.size a ≤ S50000x64.size a
  hwx6_6 : ∀ i : grid6.Coords, EltTy.bits .f32 = 32 ∨ (Rect.block (s := S50000x64) S5000x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S50000x64.size a
  hwx7_0 : ∀ i : grid7.Coords, EltTy.bits .f32 = 32 ∨ (Rect.block (s := S50000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x32.size a ≤ S64x32.size a
  hwx7_3 : ∀ i : grid7.Coords, EltTy.bits .f32 = 32 ∨ (Rect.block (s := S64x32) S64x32.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x32.size a ≤ S1x32.size a
  hwx7_4 : ∀ i : grid7.Coords, EltTy.bits .f32 = 32 ∨ (Rect.block (s := S1x32) S1x32.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S10000x32.size a ≤ S50000x32.size a
  hwx7_5 : ∀ i : grid7.Coords, EltTy.bits .f32 = 32 ∨ (Rect.block (s := S50000x32) S10000x32.size (cc7_transform_5 i) (hinb7_5 i)).WholeWords (EltTy.packing .f32)

variable [Facts₀]

def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_arg0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S8000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v16) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v27) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v28) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S8000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v33) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v34) S8000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v37) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v27) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v39) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v46) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v43) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v47) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v48) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v49) S8000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg2) S8000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v51) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v54) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v55) S8000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v58) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v48) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v60) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v67) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v64) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v68) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v69) S5000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v69) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg13) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v70) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg15) S64x32.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v71) S1x32.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v72) S10000x32.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x16 : Shape := ⟨2, ![50000, 16]⟩
abbrev S2x800000 : Shape := ⟨2, ![2, 800000]⟩
abbrev S800000x1 : Shape := ⟨2, ![800000, 1]⟩
abbrev S16x64 : Shape := ⟨2, ![16, 64]⟩
abbrev S64 : Shape := ⟨1, ![64]⟩
abbrev S64x64 : Shape := ⟨2, ![64, 64]⟩
abbrev S3x1x64 : Shape := ⟨3, ![3, 1, 64]⟩
abbrev S3x64 : Shape := ⟨2, ![3, 64]⟩
abbrev S3x64x64 : Shape := ⟨3, ![3, 64, 64]⟩
abbrev S64x32 : Shape := ⟨2, ![64, 32]⟩
abbrev S32 : Shape := ⟨1, ![32]⟩
abbrev S50000x64 : Shape := ⟨2, ![50000, 64]⟩
abbrev S1x64 : Shape := ⟨2, ![1, 64]⟩
abbrev S_ : Shape := ⟨0, ![]⟩
abbrev S1x800000 : Shape := ⟨2, ![1, 800000]⟩
abbrev S800000 : Shape := ⟨1, ![800000]⟩
abbrev S1x1x64 : Shape := ⟨3, ![1, 1, 64]⟩
abbrev S800000x64 : Shape := ⟨2, ![800000, 64]⟩
abbrev S1x64x64 : Shape := ⟨3, ![1, 64, 64]⟩
abbrev S50000x32 : Shape := ⟨2, ![50000, 32]⟩
abbrev S1x32 : Shape := ⟨2, ![1, 32]⟩

abbrev nBuf : Space → Nat
  | .hbm => 208
  | .vmem => 0
  | .smem => 0
  | _ => 0

abbrev hbmTy0_0 (i : Nat) : BufTy := match i % 128 with
  | 0 => ⟨S50000x16, .f32⟩
  | 1 => ⟨S2x800000, .i32⟩
  | 2 => ⟨S800000x1, .f32⟩
  | 3 => ⟨S16x64, .f32⟩
  | 4 => ⟨S64, .f32⟩
  | 5 => ⟨S64x64, .f32⟩
  | 6 => ⟨S64, .f32⟩
  | 7 => ⟨S3x1x64, .f32⟩
  | 8 => ⟨S3x64, .f32⟩
  | 9 => ⟨S3x64x64, .f32⟩
  | 10 => ⟨S3x64, .f32⟩
  | 11 => ⟨S3x64x64, .f32⟩
  | 12 => ⟨S3x64, .f32⟩
  | 13 => ⟨S64x64, .f32⟩
  | 14 => ⟨S64, .f32⟩
  | 15 => ⟨S64x32, .f32⟩
  | 16 => ⟨S32, .f32⟩
  | 17 => ⟨S50000x64, .f32⟩
  | 18 => ⟨S1x64, .f32⟩
  | 19 => ⟨S50000x64, .f32⟩
  | 20 => ⟨S50000x64, .f32⟩
  | 21 => ⟨S_, .f32⟩
  | 22 => ⟨S_, .f32⟩
  | 23 => ⟨S50000x64, .f32⟩
  | 24 => ⟨S50000x64, .i1⟩
  | 25 => ⟨S_, .f32⟩
  | 26 => ⟨S50000x64, .f32⟩
  | 27 => ⟨S50000x64, .f32⟩
  | 28 => ⟨S50000x64, .f32⟩
  | 29 => ⟨S50000x64, .f32⟩
  | 30 => ⟨S1x64, .f32⟩
  | 31 => ⟨S50000x64, .f32⟩
  | 32 => ⟨S50000x64, .f32⟩
  | 33 => ⟨S50000x64, .f32⟩
  | 34 => ⟨S1x800000, .i32⟩
  | 35 => ⟨S800000, .i32⟩
  | 36 => ⟨S1x800000, .i32⟩
  | 37 => ⟨S800000, .i32⟩
  | 38 => ⟨S1x1x64, .f32⟩
  | 39 => ⟨S1x64, .f32⟩
  | 40 => ⟨S800000x64, .f32⟩
  | 41 => ⟨S1x64, .f32⟩
  | 42 => ⟨S64, .f32⟩
  | 43 => ⟨S1x64, .f32⟩
  | 44 => ⟨S800000x64, .f32⟩
  | 45 => ⟨S800000x64, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S800000x64, .f32⟩
  | 56 => ⟨S_, .f32⟩
  | 57 => ⟨S800000x64, .f32⟩
  | 58 => ⟨S800000x64, .f32⟩
  | 59 => ⟨S_, .f32⟩
  | 60 => ⟨S50000x64, .f32⟩
  | 61 => ⟨S800000x1, .i32⟩
  | 62 => ⟨S50000x64, .f32⟩
  | 63 => ⟨S50000x64, .f32⟩
  | 64 => ⟨S1x64x64, .f32⟩
  | 65 => ⟨S64x64, .f32⟩
  | 66 => ⟨S50000x64, .f32⟩
  | 67 => ⟨S1x64, .f32⟩
  | 68 => ⟨S64, .f32⟩
  | 69 => ⟨S1x64, .f32⟩
  | 70 => ⟨S50000x64, .f32⟩
  | 71 => ⟨S50000x64, .f32⟩
  | 72 => ⟨S_, .f32⟩
  | 73 => ⟨S_, .f32⟩
  | 74 => ⟨S50000x64, .f32⟩
  | 75 => ⟨S50000x64, .i1⟩
  | 76 => ⟨S_, .f32⟩
  | 77 => ⟨S50000x64, .f32⟩
  | 78 => ⟨S50000x64, .f32⟩
  | 79 => ⟨S50000x64, .f32⟩
  | 80 => ⟨S1x64x64, .f32⟩
  | 81 => ⟨S64x64, .f32⟩
  | 82 => ⟨S50000x64, .f32⟩
  | 83 => ⟨S1x64, .f32⟩
  | 84 => ⟨S64, .f32⟩
  | 85 => ⟨S1x64, .f32⟩
  | 86 => ⟨S50000x64, .f32⟩
  | 87 => ⟨S50000x64, .f32⟩
  | 88 => ⟨S50000x64, .f32⟩
  | 89 => ⟨S1x1x64, .f32⟩
  | 90 => ⟨S1x64, .f32⟩
  | 91 => ⟨S800000x64, .f32⟩
  | 92 => ⟨S1x64, .f32⟩
  | 93 => ⟨S64, .f32⟩
  | 94 => ⟨S1x64, .f32⟩
  | 95 => ⟨S800000x64, .f32⟩
  | 96 => ⟨S800000x64, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x64, .f32⟩
  | 106 => ⟨S800000x64, .f32⟩
  | 107 => ⟨S_, .f32⟩
  | 108 => ⟨S800000x64, .f32⟩
  | 109 => ⟨S800000x64, .f32⟩
  | 110 => ⟨S_, .f32⟩
  | 111 => ⟨S50000x64, .f32⟩
  | 112 => ⟨S800000x1, .i32⟩
  | 113 => ⟨S50000x64, .f32⟩
  | 114 => ⟨S50000x64, .f32⟩
  | 115 => ⟨S1x64x64, .f32⟩
  | 116 => ⟨S64x64, .f32⟩
  | 117 => ⟨S50000x64, .f32⟩
  | 118 => ⟨S1x64, .f32⟩
  | 119 => ⟨S64, .f32⟩
  | 120 => ⟨S1x64, .f32⟩
  | 121 => ⟨S50000x64, .f32⟩
  | 122 => ⟨S50000x64, .f32⟩
  | 123 => ⟨S_, .f32⟩
  | 124 => ⟨S_, .f32⟩
  | 125 => ⟨S50000x64, .f32⟩
  | 126 => ⟨S50000x64, .i1⟩
  | 127 => ⟨S_, .f32⟩
  | _ => ⟨S50000x16, .f32⟩

abbrev hbmTy0_1 (i : Nat) : BufTy := match i % 128 with
  | 0 => ⟨S50000x64, .f32⟩
  | 1 => ⟨S50000x64, .f32⟩
  | 2 => ⟨S50000x64, .f32⟩
  | 3 => ⟨S1x64x64, .f32⟩
  | 4 => ⟨S64x64, .f32⟩
  | 5 => ⟨S50000x64, .f32⟩
  | 6 => ⟨S1x64, .f32⟩
  | 7 => ⟨S64, .f32⟩
  | 8 => ⟨S1x64, .f32⟩
  | 9 => ⟨S50000x64, .f32⟩
  | 10 => ⟨S50000x64, .f32⟩
  | 11 => ⟨S50000x64, .f32⟩
  | 12 => ⟨S1x1x64, .f32⟩
  | 13 => ⟨S1x64, .f32⟩
  | 14 => ⟨S800000x64, .f32⟩
  | 15 => ⟨S1x64, .f32⟩
  | 16 => ⟨S64, .f32⟩
  | 17 => ⟨S1x64, .f32⟩
  | 18 => ⟨S800000x64, .f32⟩
  | 19 => ⟨S800000x64, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x64, .f32⟩
  | 29 => ⟨S800000x64, .f32⟩
  | 30 => ⟨S_, .f32⟩
  | 31 => ⟨S800000x64, .f32⟩
  | 32 => ⟨S800000x64, .f32⟩
  | 33 => ⟨S_, .f32⟩
  | 34 => ⟨S50000x64, .f32⟩
  | 35 => ⟨S800000x1, .i32⟩
  | 36 => ⟨S50000x64, .f32⟩
  | 37 => ⟨S50000x64, .f32⟩
  | 38 => ⟨S1x64x64, .f32⟩
  | 39 => ⟨S64x64, .f32⟩
  | 40 => ⟨S50000x64, .f32⟩
  | 41 => ⟨S1x64, .f32⟩
  | 42 => ⟨S64, .f32⟩
  | 43 => ⟨S1x64, .f32⟩
  | 44 => ⟨S50000x64, .f32⟩
  | 45 => ⟨S50000x64, .f32⟩
  | 46 => ⟨S_, .f32⟩
  | 47 => ⟨S_, .f32⟩
  | 48 => ⟨S50000x64, .f32⟩
  | 49 => ⟨S50000x64, .i1⟩
  | 50 => ⟨S_, .f32⟩
  | 51 => ⟨S50000x64, .f32⟩
  | 52 => ⟨S50000x64, .f32⟩
  | 53 => ⟨S50000x64, .f32⟩
  | 54 => ⟨S1x64x64, .f32⟩
  | 55 => ⟨S64x64, .f32⟩
  | 56 => ⟨S50000x64, .f32⟩
  | 57 => ⟨S1x64, .f32⟩
  | 58 => ⟨S64, .f32⟩
  | 59 => ⟨S1x64, .f32⟩
  | 60 => ⟨S50000x64, .f32⟩
  | 61 => ⟨S50000x64, .f32⟩
  | 62 => ⟨S50000x64, .f32⟩
  | 63 => ⟨S50000x64, .f32⟩
  | 64 => ⟨S1x64, .f32⟩
  | 65 => ⟨S50000x64, .f32⟩
  | 66 => ⟨S50000x64, .f32⟩
  | 67 => ⟨S_, .f32⟩
  | 68 => ⟨S_, .f32⟩
  | 69 => ⟨S50000x64, .f32⟩
  | 70 => ⟨S50000x64, .i1⟩
  | 71 => ⟨S_, .f32⟩
  | 72 => ⟨S50000x64, .f32⟩
  | 73 => ⟨S50000x64, .f32⟩
  | 74 => ⟨S50000x64, .f32⟩
  | 75 => ⟨S50000x32, .f32⟩
  | 76 => ⟨S1x32, .f32⟩
  | 77 => ⟨S50000x32, .f32⟩
  | 78 => ⟨S50000x32, .f32⟩
  | 79 => ⟨S50000x32, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c : Ref sig .tc := ⟨.hbm, 46, rfl⟩
abbrev main_v22 : Ref sig .tc := ⟨.hbm, 47, rfl⟩
abbrev main_v23 : Ref sig .tc := ⟨.hbm, 48, rfl⟩
abbrev main_c_0 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_call1_cst : Ref sig .tc := ⟨.hbm, 56, rfl⟩
abbrev main_call1_v0 : Ref sig .tc := ⟨.hbm, 57, rfl⟩
abbrev main_v30 : Ref sig .tc := ⟨.hbm, 58, rfl⟩
abbrev main_cst_1 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_2 : Ref sig .tc := ⟨.hbm, 72, rfl⟩
abbrev main_call2_cst : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_c_3 : Ref sig .tc := ⟨.hbm, 97, rfl⟩
abbrev main_v61 : Ref sig .tc := ⟨.hbm, 98, rfl⟩
abbrev main_v62 : Ref sig .tc := ⟨.hbm, 99, rfl⟩
abbrev main_c_4 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_call3_cst : Ref sig .tc := ⟨.hbm, 107, rfl⟩
abbrev main_call3_v0 : Ref sig .tc := ⟨.hbm, 108, rfl⟩
abbrev main_v69 : Ref sig .tc := ⟨.hbm, 109, rfl⟩
abbrev main_cst_5 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_6 : Ref sig .tc := ⟨.hbm, 123, rfl⟩
abbrev main_call4_cst : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_c_7 : Ref sig .tc := ⟨.hbm, 148, rfl⟩
abbrev main_v100 : Ref sig .tc := ⟨.hbm, 149, rfl⟩
abbrev main_v101 : Ref sig .tc := ⟨.hbm, 150, rfl⟩
abbrev main_c_8 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_call5_cst : Ref sig .tc := ⟨.hbm, 158, rfl⟩
abbrev main_call5_v0 : Ref sig .tc := ⟨.hbm, 159, rfl⟩
abbrev main_v108 : Ref sig .tc := ⟨.hbm, 160, rfl⟩
abbrev main_cst_9 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_cst_10 : Ref sig .tc := ⟨.hbm, 174, rfl⟩
abbrev main_call6_cst : Ref sig .tc := ⟨.hbm, 175, rfl⟩
abbrev main_call6_v0 : Ref sig .tc := ⟨.hbm, 176, rfl⟩
abbrev main_call6_v1 : Ref sig .tc := ⟨.hbm, 177, rfl⟩
abbrev main_call6_v2 : Ref sig .tc := ⟨.hbm, 178, rfl⟩
abbrev main_call6_v3 : Ref sig .tc := ⟨.hbm, 179, rfl⟩
abbrev main_call6_v4 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_cst_11 : Ref sig .tc := ⟨.hbm, 195, rfl⟩
abbrev main_call7_cst : Ref sig .tc := ⟨.hbm, 196, rfl⟩
abbrev main_call7_v0 : Ref sig .tc := ⟨.hbm, 197, rfl⟩
abbrev main_call7_v1 : Ref sig .tc := ⟨.hbm, 198, rfl⟩
abbrev main_call7_v2 : Ref sig .tc := ⟨.hbm, 199, rfl⟩
abbrev main_call7_v3 : Ref sig .tc := ⟨.hbm, 200, rfl⟩
abbrev main_call7_v4 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x1x64_S1x1x64_0_0_0 : S3x1x64.Slices ![0, 0, 0] S1x1x64
  shapeCasts_S1x1x64_S1x64 : S1x1x64.ShapeCasts S1x64
  slices_S3x64_S1x64_0_0 : S3x64.Slices ![0, 0] S1x64
  shapeCasts_S1x64_S64 : S1x64.ShapeCasts S64
  bcast_S1x64_S800000x64_0_1 : S1x64.BroadcastsInDim S800000x64 (![0, 1] : Fin 2 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  slices_S3x64x64_S1x64x64_0_0_0 : S3x64x64.Slices ![0, 0, 0] S1x64x64
  shapeCasts_S1x64x64_S64x64 : S1x64x64.ShapeCasts S64x64
  slices_S3x1x64_S1x1x64_1_0_0 : S3x1x64.Slices ![1, 0, 0] S1x1x64
  slices_S3x64_S1x64_1_0 : S3x64.Slices ![1, 0] S1x64
  slices_S3x64x64_S1x64x64_1_0_0 : S3x64x64.Slices ![1, 0, 0] S1x64x64
  slices_S3x1x64_S1x1x64_2_0_0 : S3x1x64.Slices ![2, 0, 0] S1x1x64
  slices_S3x64_S1x64_2_0 : S3x64.Slices ![2, 0] S1x64
  slices_S3x64x64_S1x64x64_2_0_0 : S3x64x64.Slices ![2, 0, 0] S1x64x64
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  dot_S50000x16_S16x64_S50000x64_1_0_0_1_n_n_wf : DotDims.WF S50000x16 S16x64 S50000x64 [1] [0] [0] [1] [] []
  dot_S50000x64_S64x64_S50000x64_1_0_0_1_n_n_wf : DotDims.WF S50000x64 S64x64 S50000x64 [1] [0] [0] [1] [] []
  dot_S800000x1_S1x64_S800000x64_1_0_0_1_n_n_wf : DotDims.WF S800000x1 S1x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x32_S50000x32_1_0_0_1_n_n_wf : DotDims.WF S50000x64 S64x32 S50000x32 [1] [0] [0] [1] [] []

variable [Facts₀]

def dot_S50000x16_S16x64_S50000x64_1_0_0_1_n_n : DotDims S50000x16 S16x64 S50000x64 where
  lhsContracting := [1]
  rhsContracting := [0]
  lhsNonContracting := [0]
  rhsNonContracting := [1]
  lhsBatch := []
  rhsBatch := []
  wf := dot_S50000x16_S16x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x1_S1x64_S800000x64_1_0_0_1_n_n : DotDims S800000x1 S1x64 S800000x64 where
  lhsContracting := [1]
  rhsContracting := [0]
  lhsNonContracting := [0]
  rhsNonContracting := [1]
  lhsBatch := []
  rhsBatch := []
  wf := dot_S800000x1_S1x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf

class Facts : Prop extends Facts₀ where

variable [Facts]
-- ==== Proof.Spec.lean ====
/-
  The mathematics both programs compute, index by index, over the extended reals.

  A node's features pass through two-layer perceptrons: a row `x[r, :]` of a matrix goes to
  `tanh (lrelu (x[r, :] · W0 + b0) · W1 + b1)`, where `lrelu v = v` for `v ≥ 0` and `slope · v` otherwise, the
  slope the binary32 number nearest 0.01, and each product with a weight matrix is a plain finite sum over the
  contracted axis. An edge's message is `max (h_src + (w · We + be)) 0` with `w` the edge's one weight, and a node's
  update is the perceptron of `agg + h`. The biases arrive as one-row matrices.
-/
import Idealize.ShloMosaic.PureOps.Ideal
import Idealize.ShloMosaic.PureOps.Ideal.Laws
import Idealize.ShloMosaic.Lib.ValueIdx

noncomputable section

open Idealize.ShloMosaic

namespace Cert.Spec

/-- The leaky rectifier: the value itself where it is at least zero, the slope times it elsewhere. -/
def lrelu (x : Ideal .f32) : Ideal .f32 :=
  Scalar.select (FloatOps.cmpf .oge x (Ideal.ofBits .f32 0x00000000#32)) x (Ideal.ofBits .f32 0x3C23D70A#32 * x)

/-- Row `i 0` of `x` through the first layer, at hidden unit `k`: `lrelu (∑ j, x[r, j] · W0[j, k] + b0[0, k])`. -/
def hidAt {n din dh : Nat} (x : FVec Ideal ⟨2, ![n, din]⟩ .f32) (W0 : FVec Ideal ⟨2, ![din, dh]⟩ .f32)
    (b0 : FVec Ideal ⟨2, ![1, dh]⟩ .f32) (r : Fin n) (k : Fin dh) : Ideal .f32 :=
  lrelu ((∑ j : Fin din, x (ValueIdx.ix2 r j) * W0 (ValueIdx.ix2 j k)) + b0 (ValueIdx.ix2 0 k))

/-- The two-layer perceptron applied to every row: `tanh (∑ k, hid[r, k] · W1[k, c] + b1[0, c])`. -/
def mlpAt {n din dh dout : Nat} (x : FVec Ideal ⟨2, ![n, din]⟩ .f32) (W0 : FVec Ideal ⟨2, ![din, dh]⟩ .f32)
    (b0 : FVec Ideal ⟨2, ![1, dh]⟩ .f32) (W1 : FVec Ideal ⟨2, ![dh, dout]⟩ .f32) (b1 : FVec Ideal ⟨2, ![1, dout]⟩ .f32) :
    FVec Ideal ⟨2, ![n, dout]⟩ .f32 := fun i =>
  Ideal.tanh ((∑ k : Fin dh, hidAt x W0 b0 (i 0) k * W1 (ValueIdx.ix2 k (i 1))) + b1 (ValueIdx.ix2 0 (i 1)))

/-- An edge's message: the gathered source row plus the edge's embedding `w · We + be`, rectified at zero. -/
def edgeAt {n d : Nat} (hsrc : FVec Ideal ⟨2, ![n, d]⟩ .f32) (ew : FVec Ideal ⟨2, ![n, 1]⟩ .f32)
    (we : FVec Ideal ⟨2, ![1, d]⟩ .f32) (be : FVec Ideal ⟨2, ![1, d]⟩ .f32) : FVec Ideal ⟨2, ![n, d]⟩ .f32 := fun i =>
  max (hsrc i + (ew (ValueIdx.ix2 (i 0) 0) * we (ValueIdx.ix2 0 (i 1)) + be (ValueIdx.ix2 0 (i 1)))) (Ideal.ofBits .f32 0x00000000#32)

/-- A node's update: the perceptron of the aggregated messages plus the node's own features. -/
def nodeAt {n d dout : Nat} (agg h : FVec Ideal ⟨2, ![n, d]⟩ .f32) (W0 : FVec Ideal ⟨2, ![d, d]⟩ .f32)
    (b0 : FVec Ideal ⟨2, ![1, d]⟩ .f32) (W1 : FVec Ideal ⟨2, ![d, dout]⟩ .f32) (b1 : FVec Ideal ⟨2, ![1, dout]⟩ .f32) :
    FVec Ideal ⟨2, ![n, dout]⟩ .f32 :=
  mlpAt (fun i => agg i + h i) W0 b0 W1 b1

end Cert.Spec

end
-- ==== Proof.SpecNet.lean ====
/-
  The whole network as one function of the seventeen argument arrays, over the extended reals.

  `h₀` is the perceptron of the node features. Each of the three layers gathers, for every edge, the row of `h` at the
  edge's source node (a negative index counted from the end, as array indexing does), forms the edge's message, sums
  the messages into their destination nodes, and updates every node by the layer's perceptron of `agg + h`; the layer's
  weights are slice `k` of the stacked weight arrays. The result is the last perceptron of `h₃`. The gather and the
  scatter-add are the host operations themselves, the same on both sides, taken over their dimension records.
-/
import proofs.«425574_j14697378087540_1_alg».proof.Proof.Spec
import Idealize.ShloMosaic.PureOps.ShapeOps
import Idealize.ShloMosaic.PureOps.Contract

noncomputable section

open Idealize.ShloMosaic

namespace Cert.Spec

abbrev SN64 : Shape := ⟨2, ![50000, 64]⟩
abbrev SE64 : Shape := ⟨2, ![800000, 64]⟩
abbrev SE1 : Shape := ⟨2, ![800000, 1]⟩

/-- Row `r` of the edge list, as a vector over the edges. -/
def edgeRow (ei : IVec ⟨2, ![2, 800000]⟩ 32) (r : Fin 2) : IVec ⟨1, ![800000]⟩ 32 := fun i => ei (ValueIdx.ix2 r (i 0))

/-- A source index as the gather takes it: a negative one counted from the end (`s + 50000`), one column. -/
def wrapIdx (s : IVec ⟨1, ![800000]⟩ 32) : IVec SE1 32 := fun i =>
  Scalar.select (IntOp.cmpi .slt (s (ValueIdx.ix1 (i 0))) 0#32) (IntOp.addi (s (ValueIdx.ix1 (i 0))) 50000#32) (s (ValueIdx.ix1 (i 0)))

/-- The destination indices as the scatter takes them: one column. -/
def colIdx (s : IVec ⟨1, ![800000]⟩ 32) : IVec SE1 32 := fun i => s (ValueIdx.ix1 (i 0))

/-- A bias vector as a one-row matrix. -/
def rowOf {d : Nat} (b : FVec Ideal ⟨1, ![d]⟩ .f32) : FVec Ideal ⟨2, ![1, d]⟩ .f32 := fun i => b (ValueIdx.ix1 (i 1))

/-- Slice `k` of a stack of matrices. -/
def sliceMat {a b : Nat} (W : FVec Ideal ⟨3, ![3, a, b]⟩ .f32) (k : Fin 3) : FVec Ideal ⟨2, ![a, b]⟩ .f32 :=
  fun i => W (ValueIdx.ix3 k (i 0) (i 1))

/-- Row `k` of a stack of bias vectors, as a one-row matrix. -/
def sliceRow {d : Nat} (B : FVec Ideal ⟨2, ![3, d]⟩ .f32) (k : Fin 3) : FVec Ideal ⟨2, ![1, d]⟩ .f32 :=
  fun i => B (ValueIdx.ix2 k (i 1))

/-- The rows of `h` at the edges' source nodes. -/
def gath (gd : GatherDims SN64 SE1 SE64) (h : FVec Ideal SN64 .f32) (ei : IVec ⟨2, ![2, 800000]⟩ 32) : FVec Ideal SE64 .f32 :=
  Host.gather gd h (wrapIdx (edgeRow ei 0))

/-- The messages summed into their destination nodes, from zero. -/
def scat (sd : ScatterDims SN64 SE1 SE64) (ei : IVec ⟨2, ![2, 800000]⟩ 32) (msg : FVec Ideal SE64 .f32) : FVec Ideal SN64 .f32 :=
  Host.scatterAdd sd (fun _ => Ideal.ofBits .f32 0x00000000#32) (colIdx (edgeRow ei 1)) msg

/-- One layer: gather, message, scatter-add, node update, with slice `k` of the stacked weights. -/
def layer (gd : GatherDims SN64 SE1 SE64) (sd : ScatterDims SN64 SE1 SE64) (ei : IVec ⟨2, ![2, 800000]⟩ 32)
    (ew : FVec Ideal SE1 .f32) (We : FVec Ideal ⟨3, ![3, 1, 64]⟩ .f32) (be : FVec Ideal ⟨2, ![3, 64]⟩ .f32)
    (Wm0 : FVec Ideal ⟨3, ![3, 64, 64]⟩ .f32) (bm0 : FVec Ideal ⟨2, ![3, 64]⟩ .f32)
    (Wm1 : FVec Ideal ⟨3, ![3, 64, 64]⟩ .f32) (bm1 : FVec Ideal ⟨2, ![3, 64]⟩ .f32) (k : Fin 3)
    (h : FVec Ideal SN64 .f32) : FVec Ideal SN64 .f32 :=
  nodeAt (scat sd ei (edgeAt (gath gd h ei) ew (sliceMat We k) (sliceRow be k))) h
    (sliceMat Wm0 k) (sliceRow bm0 k) (sliceMat Wm1 k) (sliceRow bm1 k)

/-- The network: the first perceptron, three layers, the last perceptron. -/
def net (gd : GatherDims SN64 SE1 SE64) (sd : ScatterDims SN64 SE1 SE64)
    (x : FVec Ideal ⟨2, ![50000, 16]⟩ .f32) (ei : IVec ⟨2, ![2, 800000]⟩ 32) (ew : FVec Ideal SE1 .f32)
    (Wp_in : FVec Ideal ⟨2, ![16, 64]⟩ .f32) (bp_in : FVec Ideal ⟨1, ![64]⟩ .f32)
    (Wp_h : FVec Ideal ⟨2, ![64, 64]⟩ .f32) (bp_h : FVec Ideal ⟨1, ![64]⟩ .f32)
    (We : FVec Ideal ⟨3, ![3, 1, 64]⟩ .f32) (be : FVec Ideal ⟨2, ![3, 64]⟩ .f32)
    (Wm0 : FVec Ideal ⟨3, ![3, 64, 64]⟩ .f32) (bm0 : FVec Ideal ⟨2, ![3, 64]⟩ .f32)
    (Wm1 : FVec Ideal ⟨3, ![3, 64, 64]⟩ .f32) (bm1 : FVec Ideal ⟨2, ![3, 64]⟩ .f32)
    (Wq0 : FVec Ideal ⟨2, ![64, 64]⟩ .f32) (bq0 : FVec Ideal ⟨1, ![64]⟩ .f32)
    (Wq1 : FVec Ideal ⟨2, ![64, 32]⟩ .f32) (bq1 : FVec Ideal ⟨1, ![32]⟩ .f32) : FVec Ideal ⟨2, ![50000, 32]⟩ .f32 :=
  let L := layer gd sd ei ew We be Wm0 bm0 Wm1 bm1
  mlpAt (L 2 (L 1 (L 0 (mlpAt x Wp_in (rowOf bp_in) Wp_h (rowOf bp_h))))) Wq0 (rowOf bq0) Wq1 (rowOf bq1)

end Cert.Spec

end
-- ==== Proof.KCarry.lean ====
/-
  Buffers that pass through steps of the program untouched.

  Between the launch and the return the program's buffers change only where a stretch of host operations writes its
  results and where a kernel region writes its output array. A buffer that a step does not write holds after the step
  what it held before it. Each lemma below follows one buffer from the boundary where it receives its value to a later
  boundary where it is read: every step in between leaves it alone (for a stretch, none of its operations writes the
  buffer; for a region, the buffer is none of the region's arrays).
-/
import proofs.«425574_j14697378087540_1_alg».proof.Proof.Gen.KernelIdeal.Frame
import Idealize.ShloMosaic.Lib.StableHlo.Run

noncomputable section

namespace Cert.KernelIdeal.Carry

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## A stretch of host operations leaves alone every buffer none of its operations writes -/

theorem keep_hostOps1_v2 (V : Valuation τ sig (Elt F)) : after hostOps1 V (Proc.devRef .tc main_v2) = V (Proc.devRef .tc main_v2) := by
  after_results
theorem keep_hostOps1_1_v2 (V : Valuation τ sig (Elt F)) : after hostOps1_1 V (Proc.devRef .tc main_v2) = V (Proc.devRef .tc main_v2) := by
  after_results
theorem keep_hostOps1_2_v2 (V : Valuation τ sig (Elt F)) : after hostOps1_2 V (Proc.devRef .tc main_v2) = V (Proc.devRef .tc main_v2) := by
  after_results
theorem keep_hostOps2_v2 (V : Valuation τ sig (Elt F)) : after hostOps2 V (Proc.devRef .tc main_v2) = V (Proc.devRef .tc main_v2) := by
  after_results
theorem keep_hostOps1_1_v4 (V : Valuation τ sig (Elt F)) : after hostOps1_1 V (Proc.devRef .tc main_v4) = V (Proc.devRef .tc main_v4) := by
  after_results
theorem keep_hostOps1_2_v4 (V : Valuation τ sig (Elt F)) : after hostOps1_2 V (Proc.devRef .tc main_v4) = V (Proc.devRef .tc main_v4) := by
  after_results
theorem keep_hostOps2_v4 (V : Valuation τ sig (Elt F)) : after hostOps2 V (Proc.devRef .tc main_v4) = V (Proc.devRef .tc main_v4) := by
  after_results
theorem keep_hostOps3_v4 (V : Valuation τ sig (Elt F)) : after hostOps3 V (Proc.devRef .tc main_v4) = V (Proc.devRef .tc main_v4) := by
  after_results
theorem keep_hostOps3_1_v4 (V : Valuation τ sig (Elt F)) : after hostOps3_1 V (Proc.devRef .tc main_v4) = V (Proc.devRef .tc main_v4) := by
  after_results
theorem keep_hostOps4_v4 (V : Valuation τ sig (Elt F)) : after hostOps4 V (Proc.devRef .tc main_v4) = V (Proc.devRef .tc main_v4) := by
  after_results
theorem keep_hostOps1_1_v6 (V : Valuation τ sig (Elt F)) : after hostOps1_1 V (Proc.devRef .tc main_v6) = V (Proc.devRef .tc main_v6) := by
  after_results
theorem keep_hostOps1_2_v6 (V : Valuation τ sig (Elt F)) : after hostOps1_2 V (Proc.devRef .tc main_v6) = V (Proc.devRef .tc main_v6) := by
  after_results
theorem keep_hostOps2_v6 (V : Valuation τ sig (Elt F)) : after hostOps2 V (Proc.devRef .tc main_v6) = V (Proc.devRef .tc main_v6) := by
  after_results
theorem keep_hostOps3_v6 (V : Valuation τ sig (Elt F)) : after hostOps3 V (Proc.devRef .tc main_v6) = V (Proc.devRef .tc main_v6) := by
  after_results
theorem keep_hostOps3_1_v6 (V : Valuation τ sig (Elt F)) : after hostOps3_1 V (Proc.devRef .tc main_v6) = V (Proc.devRef .tc main_v6) := by
  after_results
theorem keep_hostOps4_v6 (V : Valuation τ sig (Elt F)) : after hostOps4 V (Proc.devRef .tc main_v6) = V (Proc.devRef .tc main_v6) := by
  after_results
theorem keep_hostOps5_v6 (V : Valuation τ sig (Elt F)) : after hostOps5 V (Proc.devRef .tc main_v6) = V (Proc.devRef .tc main_v6) := by
  after_results
theorem keep_hostOps5_1_v6 (V : Valuation τ sig (Elt F)) : after hostOps5_1 V (Proc.devRef .tc main_v6) = V (Proc.devRef .tc main_v6) := by
  after_results
theorem keep_hostOps1_2_v7 (V : Valuation τ sig (Elt F)) : after hostOps1_2 V (Proc.devRef .tc main_v7) = V (Proc.devRef .tc main_v7) := by
  after_results
theorem keep_hostOps3_v27 (V : Valuation τ sig (Elt F)) : after hostOps3 V (Proc.devRef .tc main_v27) = V (Proc.devRef .tc main_v27) := by
  after_results
theorem keep_hostOps3_1_v27 (V : Valuation τ sig (Elt F)) : after hostOps3_1 V (Proc.devRef .tc main_v27) = V (Proc.devRef .tc main_v27) := by
  after_results
theorem keep_hostOps4_v27 (V : Valuation τ sig (Elt F)) : after hostOps4 V (Proc.devRef .tc main_v27) = V (Proc.devRef .tc main_v27) := by
  after_results
theorem keep_hostOps3_1_v28 (V : Valuation τ sig (Elt F)) : after hostOps3_1 V (Proc.devRef .tc main_v28) = V (Proc.devRef .tc main_v28) := by
  after_results
theorem keep_hostOps5_v48 (V : Valuation τ sig (Elt F)) : after hostOps5 V (Proc.devRef .tc main_v48) = V (Proc.devRef .tc main_v48) := by
  after_results
theorem keep_hostOps5_1_v48 (V : Valuation τ sig (Elt F)) : after hostOps5_1 V (Proc.devRef .tc main_v48) = V (Proc.devRef .tc main_v48) := by
  after_results
theorem keep_hostOps6_v48 (V : Valuation τ sig (Elt F)) : after hostOps6 V (Proc.devRef .tc main_v48) = V (Proc.devRef .tc main_v48) := by
  after_results
theorem keep_hostOps5_1_v49 (V : Valuation τ sig (Elt F)) : after hostOps5_1 V (Proc.devRef .tc main_v49) = V (Proc.devRef .tc main_v49) := by
  after_results
theorem keep_hostOps7_v69 (V : Valuation τ sig (Elt F)) : after hostOps7 V (Proc.devRef .tc main_v69) = V (Proc.devRef .tc main_v69) := by
  after_results
theorem keep_hostOps0_arg0 (V : Valuation τ sig (Elt F)) : after hostOps0 V (Proc.devRef .tc main_arg0) = V (Proc.devRef .tc main_arg0) := by
  after_results
theorem keep_hostOps0_arg3 (V : Valuation τ sig (Elt F)) : after hostOps0 V (Proc.devRef .tc main_arg3) = V (Proc.devRef .tc main_arg3) := by
  after_results
theorem keep_hostOps0_arg5 (V : Valuation τ sig (Elt F)) : after hostOps0 V (Proc.devRef .tc main_arg5) = V (Proc.devRef .tc main_arg5) := by
  after_results
theorem keep_hostOps0_arg1 (V : Valuation τ sig (Elt F)) : after hostOps0 V (Proc.devRef .tc main_arg1) = V (Proc.devRef .tc main_arg1) := by
  after_results
theorem keep_hostOps0_arg2 (V : Valuation τ sig (Elt F)) : after hostOps0 V (Proc.devRef .tc main_arg2) = V (Proc.devRef .tc main_arg2) := by
  after_results
theorem keep_hostOps1_arg2 (V : Valuation τ sig (Elt F)) : after hostOps1 V (Proc.devRef .tc main_arg2) = V (Proc.devRef .tc main_arg2) := by
  after_results
theorem keep_hostOps1_1_arg2 (V : Valuation τ sig (Elt F)) : after hostOps1_1 V (Proc.devRef .tc main_arg2) = V (Proc.devRef .tc main_arg2) := by
  after_results
theorem keep_hostOps1_2_arg2 (V : Valuation τ sig (Elt F)) : after hostOps1_2 V (Proc.devRef .tc main_arg2) = V (Proc.devRef .tc main_arg2) := by
  after_results
theorem keep_hostOps2_arg2 (V : Valuation τ sig (Elt F)) : after hostOps2 V (Proc.devRef .tc main_arg2) = V (Proc.devRef .tc main_arg2) := by
  after_results
theorem keep_hostOps3_arg2 (V : Valuation τ sig (Elt F)) : after hostOps3 V (Proc.devRef .tc main_arg2) = V (Proc.devRef .tc main_arg2) := by
  after_results
theorem keep_hostOps3_1_arg2 (V : Valuation τ sig (Elt F)) : after hostOps3_1 V (Proc.devRef .tc main_arg2) = V (Proc.devRef .tc main_arg2) := by
  after_results
theorem keep_hostOps4_arg2 (V : Valuation τ sig (Elt F)) : after hostOps4 V (Proc.devRef .tc main_arg2) = V (Proc.devRef .tc main_arg2) := by
  after_results
theorem keep_hostOps5_arg2 (V : Valuation τ sig (Elt F)) : after hostOps5 V (Proc.devRef .tc main_arg2) = V (Proc.devRef .tc main_arg2) := by
  after_results
theorem keep_hostOps5_1_arg2 (V : Valuation τ sig (Elt F)) : after hostOps5_1 V (Proc.devRef .tc main_arg2) = V (Proc.devRef .tc main_arg2) := by
  after_results
theorem keep_hostOps0_arg7 (V : Valuation τ sig (Elt F)) : after hostOps0 V (Proc.devRef .tc main_arg7) = V (Proc.devRef .tc main_arg7) := by
  after_results
theorem keep_hostOps1_arg7 (V : Valuation τ sig (Elt F)) : after hostOps1 V (Proc.devRef .tc main_arg7) = V (Proc.devRef .tc main_arg7) := by
  after_results
theorem keep_hostOps1_1_arg7 (V : Valuation τ sig (Elt F)) : after hostOps1_1 V (Proc.devRef .tc main_arg7) = V (Proc.devRef .tc main_arg7) := by
  after_results
theorem keep_hostOps1_2_arg7 (V : Valuation τ sig (Elt F)) : after hostOps1_2 V (Proc.devRef .tc main_arg7) = V (Proc.devRef .tc main_arg7) := by
  after_results
theorem keep_hostOps2_arg7 (V : Valuation τ sig (Elt F)) : after hostOps2 V (Proc.devRef .tc main_arg7) = V (Proc.devRef .tc main_arg7) := by
  after_results
theorem keep_hostOps3_arg7 (V : Valuation τ sig (Elt F)) : after hostOps3 V (Proc.devRef .tc main_arg7) = V (Proc.devRef .tc main_arg7) := by
  after_results
theorem keep_hostOps3_1_arg7 (V : Valuation τ sig (Elt F)) : after hostOps3_1 V (Proc.devRef .tc main_arg7) = V (Proc.devRef .tc main_arg7) := by
  after_results
theorem keep_hostOps4_arg7 (V : Valuation τ sig (Elt F)) : after hostOps4 V (Proc.devRef .tc main_arg7) = V (Proc.devRef .tc main_arg7) := by
  after_results
theorem keep_hostOps5_arg7 (V : Valuation τ sig (Elt F)) : after hostOps5 V (Proc.devRef .tc main_arg7) = V (Proc.devRef .tc main_arg7) := by
  after_results
theorem keep_hostOps0_arg8 (V : Valuation τ sig (Elt F)) : after hostOps0 V (Proc.devRef .tc main_arg8) = V (Proc.devRef .tc main_arg8) := by
  after_results
theorem keep_hostOps1_arg8 (V : Valuation τ sig (Elt F)) : after hostOps1 V (Proc.devRef .tc main_arg8) = V (Proc.devRef .tc main_arg8) := by
  after_results
theorem keep_hostOps1_1_arg8 (V : Valuation τ sig (Elt F)) : after hostOps1_1 V (Proc.devRef .tc main_arg8) = V (Proc.devRef .tc main_arg8) := by
  after_results
theorem keep_hostOps1_2_arg8 (V : Valuation τ sig (Elt F)) : after hostOps1_2 V (Proc.devRef .tc main_arg8) = V (Proc.devRef .tc main_arg8) := by
  after_results
theorem keep_hostOps2_arg8 (V : Valuation τ sig (Elt F)) : after hostOps2 V (Proc.devRef .tc main_arg8) = V (Proc.devRef .tc main_arg8) := by
  after_results
theorem keep_hostOps3_arg8 (V : Valuation τ sig (Elt F)) : after hostOps3 V (Proc.devRef .tc main_arg8) = V (Proc.devRef .tc main_arg8) := by
  after_results
theorem keep_hostOps3_1_arg8 (V : Valuation τ sig (Elt F)) : after hostOps3_1 V (Proc.devRef .tc main_arg8) = V (Proc.devRef .tc main_arg8) := by
  after_results
theorem keep_hostOps4_arg8 (V : Valuation τ sig (Elt F)) : after hostOps4 V (Proc.devRef .tc main_arg8) = V (Proc.devRef .tc main_arg8) := by
  after_results
theorem keep_hostOps5_arg8 (V : Valuation τ sig (Elt F)) : after hostOps5 V (Proc.devRef .tc main_arg8) = V (Proc.devRef .tc main_arg8) := by
  after_results
theorem keep_hostOps0_arg9 (V : Valuation τ sig (Elt F)) : after hostOps0 V (Proc.devRef .tc main_arg9) = V (Proc.devRef .tc main_arg9) := by
  after_results
theorem keep_hostOps1_arg9 (V : Valuation τ sig (Elt F)) : after hostOps1 V (Proc.devRef .tc main_arg9) = V (Proc.devRef .tc main_arg9) := by
  after_results
theorem keep_hostOps1_1_arg9 (V : Valuation τ sig (Elt F)) : after hostOps1_1 V (Proc.devRef .tc main_arg9) = V (Proc.devRef .tc main_arg9) := by
  after_results
theorem keep_hostOps1_2_arg9 (V : Valuation τ sig (Elt F)) : after hostOps1_2 V (Proc.devRef .tc main_arg9) = V (Proc.devRef .tc main_arg9) := by
  after_results
theorem keep_hostOps2_arg9 (V : Valuation τ sig (Elt F)) : after hostOps2 V (Proc.devRef .tc main_arg9) = V (Proc.devRef .tc main_arg9) := by
  after_results
theorem keep_hostOps3_arg9 (V : Valuation τ sig (Elt F)) : after hostOps3 V (Proc.devRef .tc main_arg9) = V (Proc.devRef .tc main_arg9) := by
  after_results
theorem keep_hostOps3_1_arg9 (V : Valuation τ sig (Elt F)) : after hostOps3_1 V (Proc.devRef .tc main_arg9) = V (Proc.devRef .tc main_arg9) := by
  after_results
theorem keep_hostOps4_arg9 (V : Valuation τ sig (Elt F)) : after hostOps4 V (Proc.devRef .tc main_arg9) = V (Proc.devRef .tc main_arg9) := by
  after_results
theorem keep_hostOps5_arg9 (V : Valuation τ sig (Elt F)) : after hostOps5 V (Proc.devRef .tc main_arg9) = V (Proc.devRef .tc main_arg9) := by
  after_results
theorem keep_hostOps5_1_arg9 (V : Valuation τ sig (Elt F)) : after hostOps5_1 V (Proc.devRef .tc main_arg9) = V (Proc.devRef .tc main_arg9) := by
  after_results
theorem keep_hostOps0_arg10 (V : Valuation τ sig (Elt F)) : after hostOps0 V (Proc.devRef .tc main_arg10) = V (Proc.devRef .tc main_arg10) := by
  after_results
theorem keep_hostOps1_arg10 (V : Valuation τ sig (Elt F)) : after hostOps1 V (Proc.devRef .tc main_arg10) = V (Proc.devRef .tc main_arg10) := by
  after_results
theorem keep_hostOps1_1_arg10 (V : Valuation τ sig (Elt F)) : after hostOps1_1 V (Proc.devRef .tc main_arg10) = V (Proc.devRef .tc main_arg10) := by
  after_results
theorem keep_hostOps1_2_arg10 (V : Valuation τ sig (Elt F)) : after hostOps1_2 V (Proc.devRef .tc main_arg10) = V (Proc.devRef .tc main_arg10) := by
  after_results
theorem keep_hostOps2_arg10 (V : Valuation τ sig (Elt F)) : after hostOps2 V (Proc.devRef .tc main_arg10) = V (Proc.devRef .tc main_arg10) := by
  after_results
theorem keep_hostOps3_arg10 (V : Valuation τ sig (Elt F)) : after hostOps3 V (Proc.devRef .tc main_arg10) = V (Proc.devRef .tc main_arg10) := by
  after_results
theorem keep_hostOps3_1_arg10 (V : Valuation τ sig (Elt F)) : after hostOps3_1 V (Proc.devRef .tc main_arg10) = V (Proc.devRef .tc main_arg10) := by
  after_results
theorem keep_hostOps4_arg10 (V : Valuation τ sig (Elt F)) : after hostOps4 V (Proc.devRef .tc main_arg10) = V (Proc.devRef .tc main_arg10) := by
  after_results
theorem keep_hostOps5_arg10 (V : Valuation τ sig (Elt F)) : after hostOps5 V (Proc.devRef .tc main_arg10) = V (Proc.devRef .tc main_arg10) := by
  after_results
theorem keep_hostOps5_1_arg10 (V : Valuation τ sig (Elt F)) : after hostOps5_1 V (Proc.devRef .tc main_arg10) = V (Proc.devRef .tc main_arg10) := by
  after_results
theorem keep_hostOps0_arg11 (V : Valuation τ sig (Elt F)) : after hostOps0 V (Proc.devRef .tc main_arg11) = V (Proc.devRef .tc main_arg11) := by
  after_results
theorem keep_hostOps1_arg11 (V : Valuation τ sig (Elt F)) : after hostOps1 V (Proc.devRef .tc main_arg11) = V (Proc.devRef .tc main_arg11) := by
  after_results
theorem keep_hostOps1_1_arg11 (V : Valuation τ sig (Elt F)) : after hostOps1_1 V (Proc.devRef .tc main_arg11) = V (Proc.devRef .tc main_arg11) := by
  after_results
theorem keep_hostOps1_2_arg11 (V : Valuation τ sig (Elt F)) : after hostOps1_2 V (Proc.devRef .tc main_arg11) = V (Proc.devRef .tc main_arg11) := by
  after_results
theorem keep_hostOps2_arg11 (V : Valuation τ sig (Elt F)) : after hostOps2 V (Proc.devRef .tc main_arg11) = V (Proc.devRef .tc main_arg11) := by
  after_results
theorem keep_hostOps3_arg11 (V : Valuation τ sig (Elt F)) : after hostOps3 V (Proc.devRef .tc main_arg11) = V (Proc.devRef .tc main_arg11) := by
  after_results
theorem keep_hostOps3_1_arg11 (V : Valuation τ sig (Elt F)) : after hostOps3_1 V (Proc.devRef .tc main_arg11) = V (Proc.devRef .tc main_arg11) := by
  after_results
theorem keep_hostOps4_arg11 (V : Valuation τ sig (Elt F)) : after hostOps4 V (Proc.devRef .tc main_arg11) = V (Proc.devRef .tc main_arg11) := by
  after_results
theorem keep_hostOps5_arg11 (V : Valuation τ sig (Elt F)) : after hostOps5 V (Proc.devRef .tc main_arg11) = V (Proc.devRef .tc main_arg11) := by
  after_results
theorem keep_hostOps5_1_arg11 (V : Valuation τ sig (Elt F)) : after hostOps5_1 V (Proc.devRef .tc main_arg11) = V (Proc.devRef .tc main_arg11) := by
  after_results
theorem keep_hostOps0_arg12 (V : Valuation τ sig (Elt F)) : after hostOps0 V (Proc.devRef .tc main_arg12) = V (Proc.devRef .tc main_arg12) := by
  after_results
theorem keep_hostOps1_arg12 (V : Valuation τ sig (Elt F)) : after hostOps1 V (Proc.devRef .tc main_arg12) = V (Proc.devRef .tc main_arg12) := by
  after_results
theorem keep_hostOps1_1_arg12 (V : Valuation τ sig (Elt F)) : after hostOps1_1 V (Proc.devRef .tc main_arg12) = V (Proc.devRef .tc main_arg12) := by
  after_results
theorem keep_hostOps1_2_arg12 (V : Valuation τ sig (Elt F)) : after hostOps1_2 V (Proc.devRef .tc main_arg12) = V (Proc.devRef .tc main_arg12) := by
  after_results
theorem keep_hostOps2_arg12 (V : Valuation τ sig (Elt F)) : after hostOps2 V (Proc.devRef .tc main_arg12) = V (Proc.devRef .tc main_arg12) := by
  after_results
theorem keep_hostOps3_arg12 (V : Valuation τ sig (Elt F)) : after hostOps3 V (Proc.devRef .tc main_arg12) = V (Proc.devRef .tc main_arg12) := by
  after_results
theorem keep_hostOps3_1_arg12 (V : Valuation τ sig (Elt F)) : after hostOps3_1 V (Proc.devRef .tc main_arg12) = V (Proc.devRef .tc main_arg12) := by
  after_results
theorem keep_hostOps4_arg12 (V : Valuation τ sig (Elt F)) : after hostOps4 V (Proc.devRef .tc main_arg12) = V (Proc.devRef .tc main_arg12) := by
  after_results
theorem keep_hostOps5_arg12 (V : Valuation τ sig (Elt F)) : after hostOps5 V (Proc.devRef .tc main_arg12) = V (Proc.devRef .tc main_arg12) := by
  after_results
theorem keep_hostOps5_1_arg12 (V : Valuation τ sig (Elt F)) : after hostOps5_1 V (Proc.devRef .tc main_arg12) = V (Proc.devRef .tc main_arg12) := by
  after_results
theorem keep_hostOps0_arg13 (V : Valuation τ sig (Elt F)) : after hostOps0 V (Proc.devRef .tc main_arg13) = V (Proc.devRef .tc main_arg13) := by
  after_results
theorem keep_hostOps1_arg13 (V : Valuation τ sig (Elt F)) : after hostOps1 V (Proc.devRef .tc main_arg13) = V (Proc.devRef .tc main_arg13) := by
  after_results
theorem keep_hostOps1_1_arg13 (V : Valuation τ sig (Elt F)) : after hostOps1_1 V (Proc.devRef .tc main_arg13) = V (Proc.devRef .tc main_arg13) := by
  after_results
theorem keep_hostOps1_2_arg13 (V : Valuation τ sig (Elt F)) : after hostOps1_2 V (Proc.devRef .tc main_arg13) = V (Proc.devRef .tc main_arg13) := by
  after_results
theorem keep_hostOps2_arg13 (V : Valuation τ sig (Elt F)) : after hostOps2 V (Proc.devRef .tc main_arg13) = V (Proc.devRef .tc main_arg13) := by
  after_results
theorem keep_hostOps3_arg13 (V : Valuation τ sig (Elt F)) : after hostOps3 V (Proc.devRef .tc main_arg13) = V (Proc.devRef .tc main_arg13) := by
  after_results
theorem keep_hostOps3_1_arg13 (V : Valuation τ sig (Elt F)) : after hostOps3_1 V (Proc.devRef .tc main_arg13) = V (Proc.devRef .tc main_arg13) := by
  after_results
theorem keep_hostOps4_arg13 (V : Valuation τ sig (Elt F)) : after hostOps4 V (Proc.devRef .tc main_arg13) = V (Proc.devRef .tc main_arg13) := by
  after_results
theorem keep_hostOps5_arg13 (V : Valuation τ sig (Elt F)) : after hostOps5 V (Proc.devRef .tc main_arg13) = V (Proc.devRef .tc main_arg13) := by
  after_results
theorem keep_hostOps5_1_arg13 (V : Valuation τ sig (Elt F)) : after hostOps5_1 V (Proc.devRef .tc main_arg13) = V (Proc.devRef .tc main_arg13) := by
  after_results
theorem keep_hostOps6_arg13 (V : Valuation τ sig (Elt F)) : after hostOps6 V (Proc.devRef .tc main_arg13) = V (Proc.devRef .tc main_arg13) := by
  after_results
theorem keep_hostOps7_arg13 (V : Valuation τ sig (Elt F)) : after hostOps7 V (Proc.devRef .tc main_arg13) = V (Proc.devRef .tc main_arg13) := by
  after_results
theorem keep_hostOps0_arg15 (V : Valuation τ sig (Elt F)) : after hostOps0 V (Proc.devRef .tc main_arg15) = V (Proc.devRef .tc main_arg15) := by
  after_results
theorem keep_hostOps1_arg15 (V : Valuation τ sig (Elt F)) : after hostOps1 V (Proc.devRef .tc main_arg15) = V (Proc.devRef .tc main_arg15) := by
  after_results
theorem keep_hostOps1_1_arg15 (V : Valuation τ sig (Elt F)) : after hostOps1_1 V (Proc.devRef .tc main_arg15) = V (Proc.devRef .tc main_arg15) := by
  after_results
theorem keep_hostOps1_2_arg15 (V : Valuation τ sig (Elt F)) : after hostOps1_2 V (Proc.devRef .tc main_arg15) = V (Proc.devRef .tc main_arg15) := by
  after_results
theorem keep_hostOps2_arg15 (V : Valuation τ sig (Elt F)) : after hostOps2 V (Proc.devRef .tc main_arg15) = V (Proc.devRef .tc main_arg15) := by
  after_results
theorem keep_hostOps3_arg15 (V : Valuation τ sig (Elt F)) : after hostOps3 V (Proc.devRef .tc main_arg15) = V (Proc.devRef .tc main_arg15) := by
  after_results
theorem keep_hostOps3_1_arg15 (V : Valuation τ sig (Elt F)) : after hostOps3_1 V (Proc.devRef .tc main_arg15) = V (Proc.devRef .tc main_arg15) := by
  after_results
theorem keep_hostOps4_arg15 (V : Valuation τ sig (Elt F)) : after hostOps4 V (Proc.devRef .tc main_arg15) = V (Proc.devRef .tc main_arg15) := by
  after_results
theorem keep_hostOps5_arg15 (V : Valuation τ sig (Elt F)) : after hostOps5 V (Proc.devRef .tc main_arg15) = V (Proc.devRef .tc main_arg15) := by
  after_results
theorem keep_hostOps5_1_arg15 (V : Valuation τ sig (Elt F)) : after hostOps5_1 V (Proc.devRef .tc main_arg15) = V (Proc.devRef .tc main_arg15) := by
  after_results
theorem keep_hostOps6_arg15 (V : Valuation τ sig (Elt F)) : after hostOps6 V (Proc.devRef .tc main_arg15) = V (Proc.devRef .tc main_arg15) := by
  after_results
theorem keep_hostOps7_arg15 (V : Valuation τ sig (Elt F)) : after hostOps7 V (Proc.devRef .tc main_arg15) = V (Proc.devRef .tc main_arg15) := by
  after_results
theorem keep_hostOps0_arg14 (V : Valuation τ sig (Elt F)) : after hostOps0 V (Proc.devRef .tc main_arg14) = V (Proc.devRef .tc main_arg14) := by
  after_results
theorem keep_hostOps1_arg14 (V : Valuation τ sig (Elt F)) : after hostOps1 V (Proc.devRef .tc main_arg14) = V (Proc.devRef .tc main_arg14) := by
  after_results
theorem keep_hostOps1_1_arg14 (V : Valuation τ sig (Elt F)) : after hostOps1_1 V (Proc.devRef .tc main_arg14) = V (Proc.devRef .tc main_arg14) := by
  after_results
theorem keep_hostOps1_2_arg14 (V : Valuation τ sig (Elt F)) : after hostOps1_2 V (Proc.devRef .tc main_arg14) = V (Proc.devRef .tc main_arg14) := by
  after_results
theorem keep_hostOps2_arg14 (V : Valuation τ sig (Elt F)) : after hostOps2 V (Proc.devRef .tc main_arg14) = V (Proc.devRef .tc main_arg14) := by
  after_results
theorem keep_hostOps3_arg14 (V : Valuation τ sig (Elt F)) : after hostOps3 V (Proc.devRef .tc main_arg14) = V (Proc.devRef .tc main_arg14) := by
  after_results
theorem keep_hostOps3_1_arg14 (V : Valuation τ sig (Elt F)) : after hostOps3_1 V (Proc.devRef .tc main_arg14) = V (Proc.devRef .tc main_arg14) := by
  after_results
theorem keep_hostOps4_arg14 (V : Valuation τ sig (Elt F)) : after hostOps4 V (Proc.devRef .tc main_arg14) = V (Proc.devRef .tc main_arg14) := by
  after_results
theorem keep_hostOps5_arg14 (V : Valuation τ sig (Elt F)) : after hostOps5 V (Proc.devRef .tc main_arg14) = V (Proc.devRef .tc main_arg14) := by
  after_results
theorem keep_hostOps5_1_arg14 (V : Valuation τ sig (Elt F)) : after hostOps5_1 V (Proc.devRef .tc main_arg14) = V (Proc.devRef .tc main_arg14) := by
  after_results
theorem keep_hostOps6_arg14 (V : Valuation τ sig (Elt F)) : after hostOps6 V (Proc.devRef .tc main_arg14) = V (Proc.devRef .tc main_arg14) := by
  after_results
theorem keep_hostOps0_arg16 (V : Valuation τ sig (Elt F)) : after hostOps0 V (Proc.devRef .tc main_arg16) = V (Proc.devRef .tc main_arg16) := by
  after_results
theorem keep_hostOps1_arg16 (V : Valuation τ sig (Elt F)) : after hostOps1 V (Proc.devRef .tc main_arg16) = V (Proc.devRef .tc main_arg16) := by
  after_results
theorem keep_hostOps1_1_arg16 (V : Valuation τ sig (Elt F)) : after hostOps1_1 V (Proc.devRef .tc main_arg16) = V (Proc.devRef .tc main_arg16) := by
  after_results
theorem keep_hostOps1_2_arg16 (V : Valuation τ sig (Elt F)) : after hostOps1_2 V (Proc.devRef .tc main_arg16) = V (Proc.devRef .tc main_arg16) := by
  after_results
theorem keep_hostOps2_arg16 (V : Valuation τ sig (Elt F)) : after hostOps2 V (Proc.devRef .tc main_arg16) = V (Proc.devRef .tc main_arg16) := by
  after_results
theorem keep_hostOps3_arg16 (V : Valuation τ sig (Elt F)) : after hostOps3 V (Proc.devRef .tc main_arg16) = V (Proc.devRef .tc main_arg16) := by
  after_results
theorem keep_hostOps3_1_arg16 (V : Valuation τ sig (Elt F)) : after hostOps3_1 V (Proc.devRef .tc main_arg16) = V (Proc.devRef .tc main_arg16) := by
  after_results
theorem keep_hostOps4_arg16 (V : Valuation τ sig (Elt F)) : after hostOps4 V (Proc.devRef .tc main_arg16) = V (Proc.devRef .tc main_arg16) := by
  after_results
theorem keep_hostOps5_arg16 (V : Valuation τ sig (Elt F)) : after hostOps5 V (Proc.devRef .tc main_arg16) = V (Proc.devRef .tc main_arg16) := by
  after_results
theorem keep_hostOps5_1_arg16 (V : Valuation τ sig (Elt F)) : after hostOps5_1 V (Proc.devRef .tc main_arg16) = V (Proc.devRef .tc main_arg16) := by
  after_results
theorem keep_hostOps6_arg16 (V : Valuation τ sig (Elt F)) : after hostOps6 V (Proc.devRef .tc main_arg16) = V (Proc.devRef .tc main_arg16) := by
  after_results

/-! ## Each buffer followed from where it receives its value to where it is read -/

/-- `main_v2` at boundary 3 holds what it held at boundary 2. -/
theorem at3_v2 (c : Dev nD) : W3 m ρ c (Proc.devRef .tc main_v2) = W2 m ρ c (Proc.devRef .tc main_v2) :=
  keep_hostOps1_v2 (W2 m ρ c)
/-- `main_v2` at boundary 4 holds what it held at boundary 2. -/
theorem at4_v2 (c : Dev nD) : W4 m ρ c (Proc.devRef .tc main_v2) = W2 m ρ c (Proc.devRef .tc main_v2) :=
  (keep_hostOps1_1_v2 (W3 m ρ c)).trans (at3_v2 m ρ c)
/-- `main_v2` at boundary 5 holds what it held at boundary 2. -/
theorem at5_v2 (c : Dev nD) : W5 m ρ c (Proc.devRef .tc main_v2) = W2 m ρ c (Proc.devRef .tc main_v2) :=
  (keep_hostOps1_2_v2 (W4 m ρ c)).trans (at4_v2 m ρ c)
/-- `main_v2` at boundary 6 holds what it held at boundary 2. -/
theorem at6_v2 (c : Dev nD) : W6 m ρ c (Proc.devRef .tc main_v2) = W2 m ρ c (Proc.devRef .tc main_v2) :=
  (W6_of_ne m ρ c main_v2 (by decide)).trans (at5_v2 m ρ c)
/-- `main_v2` at boundary 7 holds what it held at boundary 2. -/
theorem at7_v2 (c : Dev nD) : W7 m ρ c (Proc.devRef .tc main_v2) = W2 m ρ c (Proc.devRef .tc main_v2) :=
  (keep_hostOps2_v2 (W6 m ρ c)).trans (at6_v2 m ρ c)

/-- `main_v4` at boundary 4 holds what it held at boundary 3. -/
theorem at4_v4 (c : Dev nD) : W4 m ρ c (Proc.devRef .tc main_v4) = W3 m ρ c (Proc.devRef .tc main_v4) :=
  keep_hostOps1_1_v4 (W3 m ρ c)
/-- `main_v4` at boundary 5 holds what it held at boundary 3. -/
theorem at5_v4 (c : Dev nD) : W5 m ρ c (Proc.devRef .tc main_v4) = W3 m ρ c (Proc.devRef .tc main_v4) :=
  (keep_hostOps1_2_v4 (W4 m ρ c)).trans (at4_v4 m ρ c)
/-- `main_v4` at boundary 6 holds what it held at boundary 3. -/
theorem at6_v4 (c : Dev nD) : W6 m ρ c (Proc.devRef .tc main_v4) = W3 m ρ c (Proc.devRef .tc main_v4) :=
  (W6_of_ne m ρ c main_v4 (by decide)).trans (at5_v4 m ρ c)
/-- `main_v4` at boundary 7 holds what it held at boundary 3. -/
theorem at7_v4 (c : Dev nD) : W7 m ρ c (Proc.devRef .tc main_v4) = W3 m ρ c (Proc.devRef .tc main_v4) :=
  (keep_hostOps2_v4 (W6 m ρ c)).trans (at6_v4 m ρ c)
/-- `main_v4` at boundary 8 holds what it held at boundary 3. -/
theorem at8_v4 (c : Dev nD) : W8 m ρ c (Proc.devRef .tc main_v4) = W3 m ρ c (Proc.devRef .tc main_v4) :=
  (W8_of_ne m ρ c main_v4 (by decide)).trans (at7_v4 m ρ c)
/-- `main_v4` at boundary 9 holds what it held at boundary 3. -/
theorem at9_v4 (c : Dev nD) : W9 m ρ c (Proc.devRef .tc main_v4) = W3 m ρ c (Proc.devRef .tc main_v4) :=
  (keep_hostOps3_v4 (W8 m ρ c)).trans (at8_v4 m ρ c)
/-- `main_v4` at boundary 10 holds what it held at boundary 3. -/
theorem at10_v4 (c : Dev nD) : W10 m ρ c (Proc.devRef .tc main_v4) = W3 m ρ c (Proc.devRef .tc main_v4) :=
  (keep_hostOps3_1_v4 (W9 m ρ c)).trans (at9_v4 m ρ c)
/-- `main_v4` at boundary 11 holds what it held at boundary 3. -/
theorem at11_v4 (c : Dev nD) : W11 m ρ c (Proc.devRef .tc main_v4) = W3 m ρ c (Proc.devRef .tc main_v4) :=
  (W11_of_ne m ρ c main_v4 (by decide)).trans (at10_v4 m ρ c)
/-- `main_v4` at boundary 12 holds what it held at boundary 3. -/
theorem at12_v4 (c : Dev nD) : W12 m ρ c (Proc.devRef .tc main_v4) = W3 m ρ c (Proc.devRef .tc main_v4) :=
  (keep_hostOps4_v4 (W11 m ρ c)).trans (at11_v4 m ρ c)
/-- `main_v4` at boundary 13 holds what it held at boundary 3. -/
theorem at13_v4 (c : Dev nD) : W13 m ρ c (Proc.devRef .tc main_v4) = W3 m ρ c (Proc.devRef .tc main_v4) :=
  (W13_of_ne m ρ c main_v4 (by decide)).trans (at12_v4 m ρ c)

/-- `main_v6` at boundary 4 holds what it held at boundary 3. -/
theorem at4_v6 (c : Dev nD) : W4 m ρ c (Proc.devRef .tc main_v6) = W3 m ρ c (Proc.devRef .tc main_v6) :=
  keep_hostOps1_1_v6 (W3 m ρ c)
/-- `main_v6` at boundary 5 holds what it held at boundary 3. -/
theorem at5_v6 (c : Dev nD) : W5 m ρ c (Proc.devRef .tc main_v6) = W3 m ρ c (Proc.devRef .tc main_v6) :=
  (keep_hostOps1_2_v6 (W4 m ρ c)).trans (at4_v6 m ρ c)
/-- `main_v6` at boundary 6 holds what it held at boundary 3. -/
theorem at6_v6 (c : Dev nD) : W6 m ρ c (Proc.devRef .tc main_v6) = W3 m ρ c (Proc.devRef .tc main_v6) :=
  (W6_of_ne m ρ c main_v6 (by decide)).trans (at5_v6 m ρ c)
/-- `main_v6` at boundary 7 holds what it held at boundary 3. -/
theorem at7_v6 (c : Dev nD) : W7 m ρ c (Proc.devRef .tc main_v6) = W3 m ρ c (Proc.devRef .tc main_v6) :=
  (keep_hostOps2_v6 (W6 m ρ c)).trans (at6_v6 m ρ c)
/-- `main_v6` at boundary 8 holds what it held at boundary 3. -/
theorem at8_v6 (c : Dev nD) : W8 m ρ c (Proc.devRef .tc main_v6) = W3 m ρ c (Proc.devRef .tc main_v6) :=
  (W8_of_ne m ρ c main_v6 (by decide)).trans (at7_v6 m ρ c)
/-- `main_v6` at boundary 9 holds what it held at boundary 3. -/
theorem at9_v6 (c : Dev nD) : W9 m ρ c (Proc.devRef .tc main_v6) = W3 m ρ c (Proc.devRef .tc main_v6) :=
  (keep_hostOps3_v6 (W8 m ρ c)).trans (at8_v6 m ρ c)
/-- `main_v6` at boundary 10 holds what it held at boundary 3. -/
theorem at10_v6 (c : Dev nD) : W10 m ρ c (Proc.devRef .tc main_v6) = W3 m ρ c (Proc.devRef .tc main_v6) :=
  (keep_hostOps3_1_v6 (W9 m ρ c)).trans (at9_v6 m ρ c)
/-- `main_v6` at boundary 11 holds what it held at boundary 3. -/
theorem at11_v6 (c : Dev nD) : W11 m ρ c (Proc.devRef .tc main_v6) = W3 m ρ c (Proc.devRef .tc main_v6) :=
  (W11_of_ne m ρ c main_v6 (by decide)).trans (at10_v6 m ρ c)
/-- `main_v6` at boundary 12 holds what it held at boundary 3. -/
theorem at12_v6 (c : Dev nD) : W12 m ρ c (Proc.devRef .tc main_v6) = W3 m ρ c (Proc.devRef .tc main_v6) :=
  (keep_hostOps4_v6 (W11 m ρ c)).trans (at11_v6 m ρ c)
/-- `main_v6` at boundary 13 holds what it held at boundary 3. -/
theorem at13_v6 (c : Dev nD) : W13 m ρ c (Proc.devRef .tc main_v6) = W3 m ρ c (Proc.devRef .tc main_v6) :=
  (W13_of_ne m ρ c main_v6 (by decide)).trans (at12_v6 m ρ c)
/-- `main_v6` at boundary 14 holds what it held at boundary 3. -/
theorem at14_v6 (c : Dev nD) : W14 m ρ c (Proc.devRef .tc main_v6) = W3 m ρ c (Proc.devRef .tc main_v6) :=
  (keep_hostOps5_v6 (W13 m ρ c)).trans (at13_v6 m ρ c)
/-- `main_v6` at boundary 15 holds what it held at boundary 3. -/
theorem at15_v6 (c : Dev nD) : W15 m ρ c (Proc.devRef .tc main_v6) = W3 m ρ c (Proc.devRef .tc main_v6) :=
  (keep_hostOps5_1_v6 (W14 m ρ c)).trans (at14_v6 m ρ c)
/-- `main_v6` at boundary 16 holds what it held at boundary 3. -/
theorem at16_v6 (c : Dev nD) : W16 m ρ c (Proc.devRef .tc main_v6) = W3 m ρ c (Proc.devRef .tc main_v6) :=
  (W16_of_ne m ρ c main_v6 (by decide)).trans (at15_v6 m ρ c)

/-- `main_v7` at boundary 5 holds what it held at boundary 4. -/
theorem at5_v7 (c : Dev nD) : W5 m ρ c (Proc.devRef .tc main_v7) = W4 m ρ c (Proc.devRef .tc main_v7) :=
  keep_hostOps1_2_v7 (W4 m ρ c)

/-- `main_v27` at boundary 9 holds what it held at boundary 8. -/
theorem at9_v27 (c : Dev nD) : W9 m ρ c (Proc.devRef .tc main_v27) = W8 m ρ c (Proc.devRef .tc main_v27) :=
  keep_hostOps3_v27 (W8 m ρ c)
/-- `main_v27` at boundary 10 holds what it held at boundary 8. -/
theorem at10_v27 (c : Dev nD) : W10 m ρ c (Proc.devRef .tc main_v27) = W8 m ρ c (Proc.devRef .tc main_v27) :=
  (keep_hostOps3_1_v27 (W9 m ρ c)).trans (at9_v27 m ρ c)
/-- `main_v27` at boundary 11 holds what it held at boundary 8. -/
theorem at11_v27 (c : Dev nD) : W11 m ρ c (Proc.devRef .tc main_v27) = W8 m ρ c (Proc.devRef .tc main_v27) :=
  (W11_of_ne m ρ c main_v27 (by decide)).trans (at10_v27 m ρ c)
/-- `main_v27` at boundary 12 holds what it held at boundary 8. -/
theorem at12_v27 (c : Dev nD) : W12 m ρ c (Proc.devRef .tc main_v27) = W8 m ρ c (Proc.devRef .tc main_v27) :=
  (keep_hostOps4_v27 (W11 m ρ c)).trans (at11_v27 m ρ c)

/-- `main_v28` at boundary 10 holds what it held at boundary 9. -/
theorem at10_v28 (c : Dev nD) : W10 m ρ c (Proc.devRef .tc main_v28) = W9 m ρ c (Proc.devRef .tc main_v28) :=
  keep_hostOps3_1_v28 (W9 m ρ c)

/-- `main_v48` at boundary 14 holds what it held at boundary 13. -/
theorem at14_v48 (c : Dev nD) : W14 m ρ c (Proc.devRef .tc main_v48) = W13 m ρ c (Proc.devRef .tc main_v48) :=
  keep_hostOps5_v48 (W13 m ρ c)
/-- `main_v48` at boundary 15 holds what it held at boundary 13. -/
theorem at15_v48 (c : Dev nD) : W15 m ρ c (Proc.devRef .tc main_v48) = W13 m ρ c (Proc.devRef .tc main_v48) :=
  (keep_hostOps5_1_v48 (W14 m ρ c)).trans (at14_v48 m ρ c)
/-- `main_v48` at boundary 16 holds what it held at boundary 13. -/
theorem at16_v48 (c : Dev nD) : W16 m ρ c (Proc.devRef .tc main_v48) = W13 m ρ c (Proc.devRef .tc main_v48) :=
  (W16_of_ne m ρ c main_v48 (by decide)).trans (at15_v48 m ρ c)
/-- `main_v48` at boundary 17 holds what it held at boundary 13. -/
theorem at17_v48 (c : Dev nD) : W17 m ρ c (Proc.devRef .tc main_v48) = W13 m ρ c (Proc.devRef .tc main_v48) :=
  (keep_hostOps6_v48 (W16 m ρ c)).trans (at16_v48 m ρ c)

/-- `main_v49` at boundary 15 holds what it held at boundary 14. -/
theorem at15_v49 (c : Dev nD) : W15 m ρ c (Proc.devRef .tc main_v49) = W14 m ρ c (Proc.devRef .tc main_v49) :=
  keep_hostOps5_1_v49 (W14 m ρ c)

/-- `main_v69` at boundary 19 holds what it held at boundary 18. -/
theorem at19_v69 (c : Dev nD) : W19 m ρ c (Proc.devRef .tc main_v69) = W18 m ρ c (Proc.devRef .tc main_v69) :=
  keep_hostOps7_v69 (W18 m ρ c)

/-- `main_arg0` at boundary 1 holds what it held at boundary 0. -/
theorem at1_arg0 (c : Dev nD) : W1 m ρ c (Proc.devRef .tc main_arg0) = m ((c : Thread nD τ).loc main_arg0) :=
  keep_hostOps0_arg0 (W0 m ρ c)

/-- `main_arg3` at boundary 1 holds what it held at boundary 0. -/
theorem at1_arg3 (c : Dev nD) : W1 m ρ c (Proc.devRef .tc main_arg3) = m ((c : Thread nD τ).loc main_arg3) :=
  keep_hostOps0_arg3 (W0 m ρ c)

/-- `main_arg5` at boundary 1 holds what it held at boundary 0. -/
theorem at1_arg5 (c : Dev nD) : W1 m ρ c (Proc.devRef .tc main_arg5) = m ((c : Thread nD τ).loc main_arg5) :=
  keep_hostOps0_arg5 (W0 m ρ c)

/-- `main_arg1` at boundary 1 holds what it held at boundary 0. -/
theorem at1_arg1 (c : Dev nD) : W1 m ρ c (Proc.devRef .tc main_arg1) = m ((c : Thread nD τ).loc main_arg1) :=
  keep_hostOps0_arg1 (W0 m ρ c)
/-- `main_arg1` at boundary 2 holds what it held at boundary 0. -/
theorem at2_arg1 (c : Dev nD) : W2 m ρ c (Proc.devRef .tc main_arg1) = m ((c : Thread nD τ).loc main_arg1) :=
  (W2_of_ne m ρ c main_arg1 (by decide)).trans (at1_arg1 m ρ c)

/-- `main_arg2` at boundary 1 holds what it held at boundary 0. -/
theorem at1_arg2 (c : Dev nD) : W1 m ρ c (Proc.devRef .tc main_arg2) = m ((c : Thread nD τ).loc main_arg2) :=
  keep_hostOps0_arg2 (W0 m ρ c)
/-- `main_arg2` at boundary 2 holds what it held at boundary 0. -/
theorem at2_arg2 (c : Dev nD) : W2 m ρ c (Proc.devRef .tc main_arg2) = m ((c : Thread nD τ).loc main_arg2) :=
  (W2_of_ne m ρ c main_arg2 (by decide)).trans (at1_arg2 m ρ c)
/-- `main_arg2` at boundary 3 holds what it held at boundary 0. -/
theorem at3_arg2 (c : Dev nD) : W3 m ρ c (Proc.devRef .tc main_arg2) = m ((c : Thread nD τ).loc main_arg2) :=
  (keep_hostOps1_arg2 (W2 m ρ c)).trans (at2_arg2 m ρ c)
/-- `main_arg2` at boundary 4 holds what it held at boundary 0. -/
theorem at4_arg2 (c : Dev nD) : W4 m ρ c (Proc.devRef .tc main_arg2) = m ((c : Thread nD τ).loc main_arg2) :=
  (keep_hostOps1_1_arg2 (W3 m ρ c)).trans (at3_arg2 m ρ c)
/-- `main_arg2` at boundary 5 holds what it held at boundary 0. -/
theorem at5_arg2 (c : Dev nD) : W5 m ρ c (Proc.devRef .tc main_arg2) = m ((c : Thread nD τ).loc main_arg2) :=
  (keep_hostOps1_2_arg2 (W4 m ρ c)).trans (at4_arg2 m ρ c)
/-- `main_arg2` at boundary 6 holds what it held at boundary 0. -/
theorem at6_arg2 (c : Dev nD) : W6 m ρ c (Proc.devRef .tc main_arg2) = m ((c : Thread nD τ).loc main_arg2) :=
  ((W6_arr m ρ c 1).trans (((dat1 (V5 m ρ) c).arrAt_in 1 rfl _).trans (A_eq1 (V5 m ρ) c 1))).trans (at5_arg2 m ρ c)
/-- `main_arg2` at boundary 7 holds what it held at boundary 0. -/
theorem at7_arg2 (c : Dev nD) : W7 m ρ c (Proc.devRef .tc main_arg2) = m ((c : Thread nD τ).loc main_arg2) :=
  (keep_hostOps2_arg2 (W6 m ρ c)).trans (at6_arg2 m ρ c)
/-- `main_arg2` at boundary 8 holds what it held at boundary 0. -/
theorem at8_arg2 (c : Dev nD) : W8 m ρ c (Proc.devRef .tc main_arg2) = m ((c : Thread nD τ).loc main_arg2) :=
  (W8_of_ne m ρ c main_arg2 (by decide)).trans (at7_arg2 m ρ c)
/-- `main_arg2` at boundary 9 holds what it held at boundary 0. -/
theorem at9_arg2 (c : Dev nD) : W9 m ρ c (Proc.devRef .tc main_arg2) = m ((c : Thread nD τ).loc main_arg2) :=
  (keep_hostOps3_arg2 (W8 m ρ c)).trans (at8_arg2 m ρ c)
/-- `main_arg2` at boundary 10 holds what it held at boundary 0. -/
theorem at10_arg2 (c : Dev nD) : W10 m ρ c (Proc.devRef .tc main_arg2) = m ((c : Thread nD τ).loc main_arg2) :=
  (keep_hostOps3_1_arg2 (W9 m ρ c)).trans (at9_arg2 m ρ c)
/-- `main_arg2` at boundary 11 holds what it held at boundary 0. -/
theorem at11_arg2 (c : Dev nD) : W11 m ρ c (Proc.devRef .tc main_arg2) = m ((c : Thread nD τ).loc main_arg2) :=
  ((W11_arr m ρ c 1).trans (((dat3 (V10 m ρ) c).arrAt_in 1 rfl _).trans (A_eq3 (V10 m ρ) c 1))).trans (at10_arg2 m ρ c)
/-- `main_arg2` at boundary 12 holds what it held at boundary 0. -/
theorem at12_arg2 (c : Dev nD) : W12 m ρ c (Proc.devRef .tc main_arg2) = m ((c : Thread nD τ).loc main_arg2) :=
  (keep_hostOps4_arg2 (W11 m ρ c)).trans (at11_arg2 m ρ c)
/-- `main_arg2` at boundary 13 holds what it held at boundary 0. -/
theorem at13_arg2 (c : Dev nD) : W13 m ρ c (Proc.devRef .tc main_arg2) = m ((c : Thread nD τ).loc main_arg2) :=
  (W13_of_ne m ρ c main_arg2 (by decide)).trans (at12_arg2 m ρ c)
/-- `main_arg2` at boundary 14 holds what it held at boundary 0. -/
theorem at14_arg2 (c : Dev nD) : W14 m ρ c (Proc.devRef .tc main_arg2) = m ((c : Thread nD τ).loc main_arg2) :=
  (keep_hostOps5_arg2 (W13 m ρ c)).trans (at13_arg2 m ρ c)
/-- `main_arg2` at boundary 15 holds what it held at boundary 0. -/
theorem at15_arg2 (c : Dev nD) : W15 m ρ c (Proc.devRef .tc main_arg2) = m ((c : Thread nD τ).loc main_arg2) :=
  (keep_hostOps5_1_arg2 (W14 m ρ c)).trans (at14_arg2 m ρ c)

/-- `main_arg7` at boundary 1 holds what it held at boundary 0. -/
theorem at1_arg7 (c : Dev nD) : W1 m ρ c (Proc.devRef .tc main_arg7) = m ((c : Thread nD τ).loc main_arg7) :=
  keep_hostOps0_arg7 (W0 m ρ c)
/-- `main_arg7` at boundary 2 holds what it held at boundary 0. -/
theorem at2_arg7 (c : Dev nD) : W2 m ρ c (Proc.devRef .tc main_arg7) = m ((c : Thread nD τ).loc main_arg7) :=
  (W2_of_ne m ρ c main_arg7 (by decide)).trans (at1_arg7 m ρ c)
/-- `main_arg7` at boundary 3 holds what it held at boundary 0. -/
theorem at3_arg7 (c : Dev nD) : W3 m ρ c (Proc.devRef .tc main_arg7) = m ((c : Thread nD τ).loc main_arg7) :=
  (keep_hostOps1_arg7 (W2 m ρ c)).trans (at2_arg7 m ρ c)
/-- `main_arg7` at boundary 4 holds what it held at boundary 0. -/
theorem at4_arg7 (c : Dev nD) : W4 m ρ c (Proc.devRef .tc main_arg7) = m ((c : Thread nD τ).loc main_arg7) :=
  (keep_hostOps1_1_arg7 (W3 m ρ c)).trans (at3_arg7 m ρ c)
/-- `main_arg7` at boundary 5 holds what it held at boundary 0. -/
theorem at5_arg7 (c : Dev nD) : W5 m ρ c (Proc.devRef .tc main_arg7) = m ((c : Thread nD τ).loc main_arg7) :=
  (keep_hostOps1_2_arg7 (W4 m ρ c)).trans (at4_arg7 m ρ c)
/-- `main_arg7` at boundary 6 holds what it held at boundary 0. -/
theorem at6_arg7 (c : Dev nD) : W6 m ρ c (Proc.devRef .tc main_arg7) = m ((c : Thread nD τ).loc main_arg7) :=
  (W6_of_ne m ρ c main_arg7 (by decide)).trans (at5_arg7 m ρ c)
/-- `main_arg7` at boundary 7 holds what it held at boundary 0. -/
theorem at7_arg7 (c : Dev nD) : W7 m ρ c (Proc.devRef .tc main_arg7) = m ((c : Thread nD τ).loc main_arg7) :=
  (keep_hostOps2_arg7 (W6 m ρ c)).trans (at6_arg7 m ρ c)
/-- `main_arg7` at boundary 8 holds what it held at boundary 0. -/
theorem at8_arg7 (c : Dev nD) : W8 m ρ c (Proc.devRef .tc main_arg7) = m ((c : Thread nD τ).loc main_arg7) :=
  (W8_of_ne m ρ c main_arg7 (by decide)).trans (at7_arg7 m ρ c)
/-- `main_arg7` at boundary 9 holds what it held at boundary 0. -/
theorem at9_arg7 (c : Dev nD) : W9 m ρ c (Proc.devRef .tc main_arg7) = m ((c : Thread nD τ).loc main_arg7) :=
  (keep_hostOps3_arg7 (W8 m ρ c)).trans (at8_arg7 m ρ c)
/-- `main_arg7` at boundary 10 holds what it held at boundary 0. -/
theorem at10_arg7 (c : Dev nD) : W10 m ρ c (Proc.devRef .tc main_arg7) = m ((c : Thread nD τ).loc main_arg7) :=
  (keep_hostOps3_1_arg7 (W9 m ρ c)).trans (at9_arg7 m ρ c)
/-- `main_arg7` at boundary 11 holds what it held at boundary 0. -/
theorem at11_arg7 (c : Dev nD) : W11 m ρ c (Proc.devRef .tc main_arg7) = m ((c : Thread nD τ).loc main_arg7) :=
  (W11_of_ne m ρ c main_arg7 (by decide)).trans (at10_arg7 m ρ c)
/-- `main_arg7` at boundary 12 holds what it held at boundary 0. -/
theorem at12_arg7 (c : Dev nD) : W12 m ρ c (Proc.devRef .tc main_arg7) = m ((c : Thread nD τ).loc main_arg7) :=
  (keep_hostOps4_arg7 (W11 m ρ c)).trans (at11_arg7 m ρ c)
/-- `main_arg7` at boundary 13 holds what it held at boundary 0. -/
theorem at13_arg7 (c : Dev nD) : W13 m ρ c (Proc.devRef .tc main_arg7) = m ((c : Thread nD τ).loc main_arg7) :=
  (W13_of_ne m ρ c main_arg7 (by decide)).trans (at12_arg7 m ρ c)
/-- `main_arg7` at boundary 14 holds what it held at boundary 0. -/
theorem at14_arg7 (c : Dev nD) : W14 m ρ c (Proc.devRef .tc main_arg7) = m ((c : Thread nD τ).loc main_arg7) :=
  (keep_hostOps5_arg7 (W13 m ρ c)).trans (at13_arg7 m ρ c)

/-- `main_arg8` at boundary 1 holds what it held at boundary 0. -/
theorem at1_arg8 (c : Dev nD) : W1 m ρ c (Proc.devRef .tc main_arg8) = m ((c : Thread nD τ).loc main_arg8) :=
  keep_hostOps0_arg8 (W0 m ρ c)
/-- `main_arg8` at boundary 2 holds what it held at boundary 0. -/
theorem at2_arg8 (c : Dev nD) : W2 m ρ c (Proc.devRef .tc main_arg8) = m ((c : Thread nD τ).loc main_arg8) :=
  (W2_of_ne m ρ c main_arg8 (by decide)).trans (at1_arg8 m ρ c)
/-- `main_arg8` at boundary 3 holds what it held at boundary 0. -/
theorem at3_arg8 (c : Dev nD) : W3 m ρ c (Proc.devRef .tc main_arg8) = m ((c : Thread nD τ).loc main_arg8) :=
  (keep_hostOps1_arg8 (W2 m ρ c)).trans (at2_arg8 m ρ c)
/-- `main_arg8` at boundary 4 holds what it held at boundary 0. -/
theorem at4_arg8 (c : Dev nD) : W4 m ρ c (Proc.devRef .tc main_arg8) = m ((c : Thread nD τ).loc main_arg8) :=
  (keep_hostOps1_1_arg8 (W3 m ρ c)).trans (at3_arg8 m ρ c)
/-- `main_arg8` at boundary 5 holds what it held at boundary 0. -/
theorem at5_arg8 (c : Dev nD) : W5 m ρ c (Proc.devRef .tc main_arg8) = m ((c : Thread nD τ).loc main_arg8) :=
  (keep_hostOps1_2_arg8 (W4 m ρ c)).trans (at4_arg8 m ρ c)
/-- `main_arg8` at boundary 6 holds what it held at boundary 0. -/
theorem at6_arg8 (c : Dev nD) : W6 m ρ c (Proc.devRef .tc main_arg8) = m ((c : Thread nD τ).loc main_arg8) :=
  (W6_of_ne m ρ c main_arg8 (by decide)).trans (at5_arg8 m ρ c)
/-- `main_arg8` at boundary 7 holds what it held at boundary 0. -/
theorem at7_arg8 (c : Dev nD) : W7 m ρ c (Proc.devRef .tc main_arg8) = m ((c : Thread nD τ).loc main_arg8) :=
  (keep_hostOps2_arg8 (W6 m ρ c)).trans (at6_arg8 m ρ c)
/-- `main_arg8` at boundary 8 holds what it held at boundary 0. -/
theorem at8_arg8 (c : Dev nD) : W8 m ρ c (Proc.devRef .tc main_arg8) = m ((c : Thread nD τ).loc main_arg8) :=
  (W8_of_ne m ρ c main_arg8 (by decide)).trans (at7_arg8 m ρ c)
/-- `main_arg8` at boundary 9 holds what it held at boundary 0. -/
theorem at9_arg8 (c : Dev nD) : W9 m ρ c (Proc.devRef .tc main_arg8) = m ((c : Thread nD τ).loc main_arg8) :=
  (keep_hostOps3_arg8 (W8 m ρ c)).trans (at8_arg8 m ρ c)
/-- `main_arg8` at boundary 10 holds what it held at boundary 0. -/
theorem at10_arg8 (c : Dev nD) : W10 m ρ c (Proc.devRef .tc main_arg8) = m ((c : Thread nD τ).loc main_arg8) :=
  (keep_hostOps3_1_arg8 (W9 m ρ c)).trans (at9_arg8 m ρ c)
/-- `main_arg8` at boundary 11 holds what it held at boundary 0. -/
theorem at11_arg8 (c : Dev nD) : W11 m ρ c (Proc.devRef .tc main_arg8) = m ((c : Thread nD τ).loc main_arg8) :=
  (W11_of_ne m ρ c main_arg8 (by decide)).trans (at10_arg8 m ρ c)
/-- `main_arg8` at boundary 12 holds what it held at boundary 0. -/
theorem at12_arg8 (c : Dev nD) : W12 m ρ c (Proc.devRef .tc main_arg8) = m ((c : Thread nD τ).loc main_arg8) :=
  (keep_hostOps4_arg8 (W11 m ρ c)).trans (at11_arg8 m ρ c)
/-- `main_arg8` at boundary 13 holds what it held at boundary 0. -/
theorem at13_arg8 (c : Dev nD) : W13 m ρ c (Proc.devRef .tc main_arg8) = m ((c : Thread nD τ).loc main_arg8) :=
  (W13_of_ne m ρ c main_arg8 (by decide)).trans (at12_arg8 m ρ c)
/-- `main_arg8` at boundary 14 holds what it held at boundary 0. -/
theorem at14_arg8 (c : Dev nD) : W14 m ρ c (Proc.devRef .tc main_arg8) = m ((c : Thread nD τ).loc main_arg8) :=
  (keep_hostOps5_arg8 (W13 m ρ c)).trans (at13_arg8 m ρ c)

/-- `main_arg9` at boundary 1 holds what it held at boundary 0. -/
theorem at1_arg9 (c : Dev nD) : W1 m ρ c (Proc.devRef .tc main_arg9) = m ((c : Thread nD τ).loc main_arg9) :=
  keep_hostOps0_arg9 (W0 m ρ c)
/-- `main_arg9` at boundary 2 holds what it held at boundary 0. -/
theorem at2_arg9 (c : Dev nD) : W2 m ρ c (Proc.devRef .tc main_arg9) = m ((c : Thread nD τ).loc main_arg9) :=
  (W2_of_ne m ρ c main_arg9 (by decide)).trans (at1_arg9 m ρ c)
/-- `main_arg9` at boundary 3 holds what it held at boundary 0. -/
theorem at3_arg9 (c : Dev nD) : W3 m ρ c (Proc.devRef .tc main_arg9) = m ((c : Thread nD τ).loc main_arg9) :=
  (keep_hostOps1_arg9 (W2 m ρ c)).trans (at2_arg9 m ρ c)
/-- `main_arg9` at boundary 4 holds what it held at boundary 0. -/
theorem at4_arg9 (c : Dev nD) : W4 m ρ c (Proc.devRef .tc main_arg9) = m ((c : Thread nD τ).loc main_arg9) :=
  (keep_hostOps1_1_arg9 (W3 m ρ c)).trans (at3_arg9 m ρ c)
/-- `main_arg9` at boundary 5 holds what it held at boundary 0. -/
theorem at5_arg9 (c : Dev nD) : W5 m ρ c (Proc.devRef .tc main_arg9) = m ((c : Thread nD τ).loc main_arg9) :=
  (keep_hostOps1_2_arg9 (W4 m ρ c)).trans (at4_arg9 m ρ c)
/-- `main_arg9` at boundary 6 holds what it held at boundary 0. -/
theorem at6_arg9 (c : Dev nD) : W6 m ρ c (Proc.devRef .tc main_arg9) = m ((c : Thread nD τ).loc main_arg9) :=
  (W6_of_ne m ρ c main_arg9 (by decide)).trans (at5_arg9 m ρ c)
/-- `main_arg9` at boundary 7 holds what it held at boundary 0. -/
theorem at7_arg9 (c : Dev nD) : W7 m ρ c (Proc.devRef .tc main_arg9) = m ((c : Thread nD τ).loc main_arg9) :=
  (keep_hostOps2_arg9 (W6 m ρ c)).trans (at6_arg9 m ρ c)
/-- `main_arg9` at boundary 8 holds what it held at boundary 0. -/
theorem at8_arg9 (c : Dev nD) : W8 m ρ c (Proc.devRef .tc main_arg9) = m ((c : Thread nD τ).loc main_arg9) :=
  (W8_of_ne m ρ c main_arg9 (by decide)).trans (at7_arg9 m ρ c)
/-- `main_arg9` at boundary 9 holds what it held at boundary 0. -/
theorem at9_arg9 (c : Dev nD) : W9 m ρ c (Proc.devRef .tc main_arg9) = m ((c : Thread nD τ).loc main_arg9) :=
  (keep_hostOps3_arg9 (W8 m ρ c)).trans (at8_arg9 m ρ c)
/-- `main_arg9` at boundary 10 holds what it held at boundary 0. -/
theorem at10_arg9 (c : Dev nD) : W10 m ρ c (Proc.devRef .tc main_arg9) = m ((c : Thread nD τ).loc main_arg9) :=
  (keep_hostOps3_1_arg9 (W9 m ρ c)).trans (at9_arg9 m ρ c)
/-- `main_arg9` at boundary 11 holds what it held at boundary 0. -/
theorem at11_arg9 (c : Dev nD) : W11 m ρ c (Proc.devRef .tc main_arg9) = m ((c : Thread nD τ).loc main_arg9) :=
  (W11_of_ne m ρ c main_arg9 (by decide)).trans (at10_arg9 m ρ c)
/-- `main_arg9` at boundary 12 holds what it held at boundary 0. -/
theorem at12_arg9 (c : Dev nD) : W12 m ρ c (Proc.devRef .tc main_arg9) = m ((c : Thread nD τ).loc main_arg9) :=
  (keep_hostOps4_arg9 (W11 m ρ c)).trans (at11_arg9 m ρ c)
/-- `main_arg9` at boundary 13 holds what it held at boundary 0. -/
theorem at13_arg9 (c : Dev nD) : W13 m ρ c (Proc.devRef .tc main_arg9) = m ((c : Thread nD τ).loc main_arg9) :=
  (W13_of_ne m ρ c main_arg9 (by decide)).trans (at12_arg9 m ρ c)
/-- `main_arg9` at boundary 14 holds what it held at boundary 0. -/
theorem at14_arg9 (c : Dev nD) : W14 m ρ c (Proc.devRef .tc main_arg9) = m ((c : Thread nD τ).loc main_arg9) :=
  (keep_hostOps5_arg9 (W13 m ρ c)).trans (at13_arg9 m ρ c)
/-- `main_arg9` at boundary 15 holds what it held at boundary 0. -/
theorem at15_arg9 (c : Dev nD) : W15 m ρ c (Proc.devRef .tc main_arg9) = m ((c : Thread nD τ).loc main_arg9) :=
  (keep_hostOps5_1_arg9 (W14 m ρ c)).trans (at14_arg9 m ρ c)
/-- `main_arg9` at boundary 16 holds what it held at boundary 0. -/
theorem at16_arg9 (c : Dev nD) : W16 m ρ c (Proc.devRef .tc main_arg9) = m ((c : Thread nD τ).loc main_arg9) :=
  (W16_of_ne m ρ c main_arg9 (by decide)).trans (at15_arg9 m ρ c)

/-- `main_arg10` at boundary 1 holds what it held at boundary 0. -/
theorem at1_arg10 (c : Dev nD) : W1 m ρ c (Proc.devRef .tc main_arg10) = m ((c : Thread nD τ).loc main_arg10) :=
  keep_hostOps0_arg10 (W0 m ρ c)
/-- `main_arg10` at boundary 2 holds what it held at boundary 0. -/
theorem at2_arg10 (c : Dev nD) : W2 m ρ c (Proc.devRef .tc main_arg10) = m ((c : Thread nD τ).loc main_arg10) :=
  (W2_of_ne m ρ c main_arg10 (by decide)).trans (at1_arg10 m ρ c)
/-- `main_arg10` at boundary 3 holds what it held at boundary 0. -/
theorem at3_arg10 (c : Dev nD) : W3 m ρ c (Proc.devRef .tc main_arg10) = m ((c : Thread nD τ).loc main_arg10) :=
  (keep_hostOps1_arg10 (W2 m ρ c)).trans (at2_arg10 m ρ c)
/-- `main_arg10` at boundary 4 holds what it held at boundary 0. -/
theorem at4_arg10 (c : Dev nD) : W4 m ρ c (Proc.devRef .tc main_arg10) = m ((c : Thread nD τ).loc main_arg10) :=
  (keep_hostOps1_1_arg10 (W3 m ρ c)).trans (at3_arg10 m ρ c)
/-- `main_arg10` at boundary 5 holds what it held at boundary 0. -/
theorem at5_arg10 (c : Dev nD) : W5 m ρ c (Proc.devRef .tc main_arg10) = m ((c : Thread nD τ).loc main_arg10) :=
  (keep_hostOps1_2_arg10 (W4 m ρ c)).trans (at4_arg10 m ρ c)
/-- `main_arg10` at boundary 6 holds what it held at boundary 0. -/
theorem at6_arg10 (c : Dev nD) : W6 m ρ c (Proc.devRef .tc main_arg10) = m ((c : Thread nD τ).loc main_arg10) :=
  (W6_of_ne m ρ c main_arg10 (by decide)).trans (at5_arg10 m ρ c)
/-- `main_arg10` at boundary 7 holds what it held at boundary 0. -/
theorem at7_arg10 (c : Dev nD) : W7 m ρ c (Proc.devRef .tc main_arg10) = m ((c : Thread nD τ).loc main_arg10) :=
  (keep_hostOps2_arg10 (W6 m ρ c)).trans (at6_arg10 m ρ c)
/-- `main_arg10` at boundary 8 holds what it held at boundary 0. -/
theorem at8_arg10 (c : Dev nD) : W8 m ρ c (Proc.devRef .tc main_arg10) = m ((c : Thread nD τ).loc main_arg10) :=
  (W8_of_ne m ρ c main_arg10 (by decide)).trans (at7_arg10 m ρ c)
/-- `main_arg10` at boundary 9 holds what it held at boundary 0. -/
theorem at9_arg10 (c : Dev nD) : W9 m ρ c (Proc.devRef .tc main_arg10) = m ((c : Thread nD τ).loc main_arg10) :=
  (keep_hostOps3_arg10 (W8 m ρ c)).trans (at8_arg10 m ρ c)
/-- `main_arg10` at boundary 10 holds what it held at boundary 0. -/
theorem at10_arg10 (c : Dev nD) : W10 m ρ c (Proc.devRef .tc main_arg10) = m ((c : Thread nD τ).loc main_arg10) :=
  (keep_hostOps3_1_arg10 (W9 m ρ c)).trans (at9_arg10 m ρ c)
/-- `main_arg10` at boundary 11 holds what it held at boundary 0. -/
theorem at11_arg10 (c : Dev nD) : W11 m ρ c (Proc.devRef .tc main_arg10) = m ((c : Thread nD τ).loc main_arg10) :=
  (W11_of_ne m ρ c main_arg10 (by decide)).trans (at10_arg10 m ρ c)
/-- `main_arg10` at boundary 12 holds what it held at boundary 0. -/
theorem at12_arg10 (c : Dev nD) : W12 m ρ c (Proc.devRef .tc main_arg10) = m ((c : Thread nD τ).loc main_arg10) :=
  (keep_hostOps4_arg10 (W11 m ρ c)).trans (at11_arg10 m ρ c)
/-- `main_arg10` at boundary 13 holds what it held at boundary 0. -/
theorem at13_arg10 (c : Dev nD) : W13 m ρ c (Proc.devRef .tc main_arg10) = m ((c : Thread nD τ).loc main_arg10) :=
  (W13_of_ne m ρ c main_arg10 (by decide)).trans (at12_arg10 m ρ c)
/-- `main_arg10` at boundary 14 holds what it held at boundary 0. -/
theorem at14_arg10 (c : Dev nD) : W14 m ρ c (Proc.devRef .tc main_arg10) = m ((c : Thread nD τ).loc main_arg10) :=
  (keep_hostOps5_arg10 (W13 m ρ c)).trans (at13_arg10 m ρ c)
/-- `main_arg10` at boundary 15 holds what it held at boundary 0. -/
theorem at15_arg10 (c : Dev nD) : W15 m ρ c (Proc.devRef .tc main_arg10) = m ((c : Thread nD τ).loc main_arg10) :=
  (keep_hostOps5_1_arg10 (W14 m ρ c)).trans (at14_arg10 m ρ c)
/-- `main_arg10` at boundary 16 holds what it held at boundary 0. -/
theorem at16_arg10 (c : Dev nD) : W16 m ρ c (Proc.devRef .tc main_arg10) = m ((c : Thread nD τ).loc main_arg10) :=
  (W16_of_ne m ρ c main_arg10 (by decide)).trans (at15_arg10 m ρ c)

/-- `main_arg11` at boundary 1 holds what it held at boundary 0. -/
theorem at1_arg11 (c : Dev nD) : W1 m ρ c (Proc.devRef .tc main_arg11) = m ((c : Thread nD τ).loc main_arg11) :=
  keep_hostOps0_arg11 (W0 m ρ c)
/-- `main_arg11` at boundary 2 holds what it held at boundary 0. -/
theorem at2_arg11 (c : Dev nD) : W2 m ρ c (Proc.devRef .tc main_arg11) = m ((c : Thread nD τ).loc main_arg11) :=
  (W2_of_ne m ρ c main_arg11 (by decide)).trans (at1_arg11 m ρ c)
/-- `main_arg11` at boundary 3 holds what it held at boundary 0. -/
theorem at3_arg11 (c : Dev nD) : W3 m ρ c (Proc.devRef .tc main_arg11) = m ((c : Thread nD τ).loc main_arg11) :=
  (keep_hostOps1_arg11 (W2 m ρ c)).trans (at2_arg11 m ρ c)
/-- `main_arg11` at boundary 4 holds what it held at boundary 0. -/
theorem at4_arg11 (c : Dev nD) : W4 m ρ c (Proc.devRef .tc main_arg11) = m ((c : Thread nD τ).loc main_arg11) :=
  (keep_hostOps1_1_arg11 (W3 m ρ c)).trans (at3_arg11 m ρ c)
/-- `main_arg11` at boundary 5 holds what it held at boundary 0. -/
theorem at5_arg11 (c : Dev nD) : W5 m ρ c (Proc.devRef .tc main_arg11) = m ((c : Thread nD τ).loc main_arg11) :=
  (keep_hostOps1_2_arg11 (W4 m ρ c)).trans (at4_arg11 m ρ c)
/-- `main_arg11` at boundary 6 holds what it held at boundary 0. -/
theorem at6_arg11 (c : Dev nD) : W6 m ρ c (Proc.devRef .tc main_arg11) = m ((c : Thread nD τ).loc main_arg11) :=
  (W6_of_ne m ρ c main_arg11 (by decide)).trans (at5_arg11 m ρ c)
/-- `main_arg11` at boundary 7 holds what it held at boundary 0. -/
theorem at7_arg11 (c : Dev nD) : W7 m ρ c (Proc.devRef .tc main_arg11) = m ((c : Thread nD τ).loc main_arg11) :=
  (keep_hostOps2_arg11 (W6 m ρ c)).trans (at6_arg11 m ρ c)
/-- `main_arg11` at boundary 8 holds what it held at boundary 0. -/
theorem at8_arg11 (c : Dev nD) : W8 m ρ c (Proc.devRef .tc main_arg11) = m ((c : Thread nD τ).loc main_arg11) :=
  (W8_of_ne m ρ c main_arg11 (by decide)).trans (at7_arg11 m ρ c)
/-- `main_arg11` at boundary 9 holds what it held at boundary 0. -/
theorem at9_arg11 (c : Dev nD) : W9 m ρ c (Proc.devRef .tc main_arg11) = m ((c : Thread nD τ).loc main_arg11) :=
  (keep_hostOps3_arg11 (W8 m ρ c)).trans (at8_arg11 m ρ c)
/-- `main_arg11` at boundary 10 holds what it held at boundary 0. -/
theorem at10_arg11 (c : Dev nD) : W10 m ρ c (Proc.devRef .tc main_arg11) = m ((c : Thread nD τ).loc main_arg11) :=
  (keep_hostOps3_1_arg11 (W9 m ρ c)).trans (at9_arg11 m ρ c)
/-- `main_arg11` at boundary 11 holds what it held at boundary 0. -/
theorem at11_arg11 (c : Dev nD) : W11 m ρ c (Proc.devRef .tc main_arg11) = m ((c : Thread nD τ).loc main_arg11) :=
  (W11_of_ne m ρ c main_arg11 (by decide)).trans (at10_arg11 m ρ c)
/-- `main_arg11` at boundary 12 holds what it held at boundary 0. -/
theorem at12_arg11 (c : Dev nD) : W12 m ρ c (Proc.devRef .tc main_arg11) = m ((c : Thread nD τ).loc main_arg11) :=
  (keep_hostOps4_arg11 (W11 m ρ c)).trans (at11_arg11 m ρ c)
/-- `main_arg11` at boundary 13 holds what it held at boundary 0. -/
theorem at13_arg11 (c : Dev nD) : W13 m ρ c (Proc.devRef .tc main_arg11) = m ((c : Thread nD τ).loc main_arg11) :=
  (W13_of_ne m ρ c main_arg11 (by decide)).trans (at12_arg11 m ρ c)
/-- `main_arg11` at boundary 14 holds what it held at boundary 0. -/
theorem at14_arg11 (c : Dev nD) : W14 m ρ c (Proc.devRef .tc main_arg11) = m ((c : Thread nD τ).loc main_arg11) :=
  (keep_hostOps5_arg11 (W13 m ρ c)).trans (at13_arg11 m ρ c)
/-- `main_arg11` at boundary 15 holds what it held at boundary 0. -/
theorem at15_arg11 (c : Dev nD) : W15 m ρ c (Proc.devRef .tc main_arg11) = m ((c : Thread nD τ).loc main_arg11) :=
  (keep_hostOps5_1_arg11 (W14 m ρ c)).trans (at14_arg11 m ρ c)
/-- `main_arg11` at boundary 16 holds what it held at boundary 0. -/
theorem at16_arg11 (c : Dev nD) : W16 m ρ c (Proc.devRef .tc main_arg11) = m ((c : Thread nD τ).loc main_arg11) :=
  (W16_of_ne m ρ c main_arg11 (by decide)).trans (at15_arg11 m ρ c)

/-- `main_arg12` at boundary 1 holds what it held at boundary 0. -/
theorem at1_arg12 (c : Dev nD) : W1 m ρ c (Proc.devRef .tc main_arg12) = m ((c : Thread nD τ).loc main_arg12) :=
  keep_hostOps0_arg12 (W0 m ρ c)
/-- `main_arg12` at boundary 2 holds what it held at boundary 0. -/
theorem at2_arg12 (c : Dev nD) : W2 m ρ c (Proc.devRef .tc main_arg12) = m ((c : Thread nD τ).loc main_arg12) :=
  (W2_of_ne m ρ c main_arg12 (by decide)).trans (at1_arg12 m ρ c)
/-- `main_arg12` at boundary 3 holds what it held at boundary 0. -/
theorem at3_arg12 (c : Dev nD) : W3 m ρ c (Proc.devRef .tc main_arg12) = m ((c : Thread nD τ).loc main_arg12) :=
  (keep_hostOps1_arg12 (W2 m ρ c)).trans (at2_arg12 m ρ c)
/-- `main_arg12` at boundary 4 holds what it held at boundary 0. -/
theorem at4_arg12 (c : Dev nD) : W4 m ρ c (Proc.devRef .tc main_arg12) = m ((c : Thread nD τ).loc main_arg12) :=
  (keep_hostOps1_1_arg12 (W3 m ρ c)).trans (at3_arg12 m ρ c)
/-- `main_arg12` at boundary 5 holds what it held at boundary 0. -/
theorem at5_arg12 (c : Dev nD) : W5 m ρ c (Proc.devRef .tc main_arg12) = m ((c : Thread nD τ).loc main_arg12) :=
  (keep_hostOps1_2_arg12 (W4 m ρ c)).trans (at4_arg12 m ρ c)
/-- `main_arg12` at boundary 6 holds what it held at boundary 0. -/
theorem at6_arg12 (c : Dev nD) : W6 m ρ c (Proc.devRef .tc main_arg12) = m ((c : Thread nD τ).loc main_arg12) :=
  (W6_of_ne m ρ c main_arg12 (by decide)).trans (at5_arg12 m ρ c)
/-- `main_arg12` at boundary 7 holds what it held at boundary 0. -/
theorem at7_arg12 (c : Dev nD) : W7 m ρ c (Proc.devRef .tc main_arg12) = m ((c : Thread nD τ).loc main_arg12) :=
  (keep_hostOps2_arg12 (W6 m ρ c)).trans (at6_arg12 m ρ c)
/-- `main_arg12` at boundary 8 holds what it held at boundary 0. -/
theorem at8_arg12 (c : Dev nD) : W8 m ρ c (Proc.devRef .tc main_arg12) = m ((c : Thread nD τ).loc main_arg12) :=
  (W8_of_ne m ρ c main_arg12 (by decide)).trans (at7_arg12 m ρ c)
/-- `main_arg12` at boundary 9 holds what it held at boundary 0. -/
theorem at9_arg12 (c : Dev nD) : W9 m ρ c (Proc.devRef .tc main_arg12) = m ((c : Thread nD τ).loc main_arg12) :=
  (keep_hostOps3_arg12 (W8 m ρ c)).trans (at8_arg12 m ρ c)
/-- `main_arg12` at boundary 10 holds what it held at boundary 0. -/
theorem at10_arg12 (c : Dev nD) : W10 m ρ c (Proc.devRef .tc main_arg12) = m ((c : Thread nD τ).loc main_arg12) :=
  (keep_hostOps3_1_arg12 (W9 m ρ c)).trans (at9_arg12 m ρ c)
/-- `main_arg12` at boundary 11 holds what it held at boundary 0. -/
theorem at11_arg12 (c : Dev nD) : W11 m ρ c (Proc.devRef .tc main_arg12) = m ((c : Thread nD τ).loc main_arg12) :=
  (W11_of_ne m ρ c main_arg12 (by decide)).trans (at10_arg12 m ρ c)
/-- `main_arg12` at boundary 12 holds what it held at boundary 0. -/
theorem at12_arg12 (c : Dev nD) : W12 m ρ c (Proc.devRef .tc main_arg12) = m ((c : Thread nD τ).loc main_arg12) :=
  (keep_hostOps4_arg12 (W11 m ρ c)).trans (at11_arg12 m ρ c)
/-- `main_arg12` at boundary 13 holds what it held at boundary 0. -/
theorem at13_arg12 (c : Dev nD) : W13 m ρ c (Proc.devRef .tc main_arg12) = m ((c : Thread nD τ).loc main_arg12) :=
  (W13_of_ne m ρ c main_arg12 (by decide)).trans (at12_arg12 m ρ c)
/-- `main_arg12` at boundary 14 holds what it held at boundary 0. -/
theorem at14_arg12 (c : Dev nD) : W14 m ρ c (Proc.devRef .tc main_arg12) = m ((c : Thread nD τ).loc main_arg12) :=
  (keep_hostOps5_arg12 (W13 m ρ c)).trans (at13_arg12 m ρ c)
/-- `main_arg12` at boundary 15 holds what it held at boundary 0. -/
theorem at15_arg12 (c : Dev nD) : W15 m ρ c (Proc.devRef .tc main_arg12) = m ((c : Thread nD τ).loc main_arg12) :=
  (keep_hostOps5_1_arg12 (W14 m ρ c)).trans (at14_arg12 m ρ c)
/-- `main_arg12` at boundary 16 holds what it held at boundary 0. -/
theorem at16_arg12 (c : Dev nD) : W16 m ρ c (Proc.devRef .tc main_arg12) = m ((c : Thread nD τ).loc main_arg12) :=
  (W16_of_ne m ρ c main_arg12 (by decide)).trans (at15_arg12 m ρ c)

/-- `main_arg13` at boundary 1 holds what it held at boundary 0. -/
theorem at1_arg13 (c : Dev nD) : W1 m ρ c (Proc.devRef .tc main_arg13) = m ((c : Thread nD τ).loc main_arg13) :=
  keep_hostOps0_arg13 (W0 m ρ c)
/-- `main_arg13` at boundary 2 holds what it held at boundary 0. -/
theorem at2_arg13 (c : Dev nD) : W2 m ρ c (Proc.devRef .tc main_arg13) = m ((c : Thread nD τ).loc main_arg13) :=
  (W2_of_ne m ρ c main_arg13 (by decide)).trans (at1_arg13 m ρ c)
/-- `main_arg13` at boundary 3 holds what it held at boundary 0. -/
theorem at3_arg13 (c : Dev nD) : W3 m ρ c (Proc.devRef .tc main_arg13) = m ((c : Thread nD τ).loc main_arg13) :=
  (keep_hostOps1_arg13 (W2 m ρ c)).trans (at2_arg13 m ρ c)
/-- `main_arg13` at boundary 4 holds what it held at boundary 0. -/
theorem at4_arg13 (c : Dev nD) : W4 m ρ c (Proc.devRef .tc main_arg13) = m ((c : Thread nD τ).loc main_arg13) :=
  (keep_hostOps1_1_arg13 (W3 m ρ c)).trans (at3_arg13 m ρ c)
/-- `main_arg13` at boundary 5 holds what it held at boundary 0. -/
theorem at5_arg13 (c : Dev nD) : W5 m ρ c (Proc.devRef .tc main_arg13) = m ((c : Thread nD τ).loc main_arg13) :=
  (keep_hostOps1_2_arg13 (W4 m ρ c)).trans (at4_arg13 m ρ c)
/-- `main_arg13` at boundary 6 holds what it held at boundary 0. -/
theorem at6_arg13 (c : Dev nD) : W6 m ρ c (Proc.devRef .tc main_arg13) = m ((c : Thread nD τ).loc main_arg13) :=
  (W6_of_ne m ρ c main_arg13 (by decide)).trans (at5_arg13 m ρ c)
/-- `main_arg13` at boundary 7 holds what it held at boundary 0. -/
theorem at7_arg13 (c : Dev nD) : W7 m ρ c (Proc.devRef .tc main_arg13) = m ((c : Thread nD τ).loc main_arg13) :=
  (keep_hostOps2_arg13 (W6 m ρ c)).trans (at6_arg13 m ρ c)
/-- `main_arg13` at boundary 8 holds what it held at boundary 0. -/
theorem at8_arg13 (c : Dev nD) : W8 m ρ c (Proc.devRef .tc main_arg13) = m ((c : Thread nD τ).loc main_arg13) :=
  (W8_of_ne m ρ c main_arg13 (by decide)).trans (at7_arg13 m ρ c)
/-- `main_arg13` at boundary 9 holds what it held at boundary 0. -/
theorem at9_arg13 (c : Dev nD) : W9 m ρ c (Proc.devRef .tc main_arg13) = m ((c : Thread nD τ).loc main_arg13) :=
  (keep_hostOps3_arg13 (W8 m ρ c)).trans (at8_arg13 m ρ c)
/-- `main_arg13` at boundary 10 holds what it held at boundary 0. -/
theorem at10_arg13 (c : Dev nD) : W10 m ρ c (Proc.devRef .tc main_arg13) = m ((c : Thread nD τ).loc main_arg13) :=
  (keep_hostOps3_1_arg13 (W9 m ρ c)).trans (at9_arg13 m ρ c)
/-- `main_arg13` at boundary 11 holds what it held at boundary 0. -/
theorem at11_arg13 (c : Dev nD) : W11 m ρ c (Proc.devRef .tc main_arg13) = m ((c : Thread nD τ).loc main_arg13) :=
  (W11_of_ne m ρ c main_arg13 (by decide)).trans (at10_arg13 m ρ c)
/-- `main_arg13` at boundary 12 holds what it held at boundary 0. -/
theorem at12_arg13 (c : Dev nD) : W12 m ρ c (Proc.devRef .tc main_arg13) = m ((c : Thread nD τ).loc main_arg13) :=
  (keep_hostOps4_arg13 (W11 m ρ c)).trans (at11_arg13 m ρ c)
/-- `main_arg13` at boundary 13 holds what it held at boundary 0. -/
theorem at13_arg13 (c : Dev nD) : W13 m ρ c (Proc.devRef .tc main_arg13) = m ((c : Thread nD τ).loc main_arg13) :=
  (W13_of_ne m ρ c main_arg13 (by decide)).trans (at12_arg13 m ρ c)
/-- `main_arg13` at boundary 14 holds what it held at boundary 0. -/
theorem at14_arg13 (c : Dev nD) : W14 m ρ c (Proc.devRef .tc main_arg13) = m ((c : Thread nD τ).loc main_arg13) :=
  (keep_hostOps5_arg13 (W13 m ρ c)).trans (at13_arg13 m ρ c)
/-- `main_arg13` at boundary 15 holds what it held at boundary 0. -/
theorem at15_arg13 (c : Dev nD) : W15 m ρ c (Proc.devRef .tc main_arg13) = m ((c : Thread nD τ).loc main_arg13) :=
  (keep_hostOps5_1_arg13 (W14 m ρ c)).trans (at14_arg13 m ρ c)
/-- `main_arg13` at boundary 16 holds what it held at boundary 0. -/
theorem at16_arg13 (c : Dev nD) : W16 m ρ c (Proc.devRef .tc main_arg13) = m ((c : Thread nD τ).loc main_arg13) :=
  (W16_of_ne m ρ c main_arg13 (by decide)).trans (at15_arg13 m ρ c)
/-- `main_arg13` at boundary 17 holds what it held at boundary 0. -/
theorem at17_arg13 (c : Dev nD) : W17 m ρ c (Proc.devRef .tc main_arg13) = m ((c : Thread nD τ).loc main_arg13) :=
  (keep_hostOps6_arg13 (W16 m ρ c)).trans (at16_arg13 m ρ c)
/-- `main_arg13` at boundary 18 holds what it held at boundary 0. -/
theorem at18_arg13 (c : Dev nD) : W18 m ρ c (Proc.devRef .tc main_arg13) = m ((c : Thread nD τ).loc main_arg13) :=
  (W18_of_ne m ρ c main_arg13 (by decide)).trans (at17_arg13 m ρ c)
/-- `main_arg13` at boundary 19 holds what it held at boundary 0. -/
theorem at19_arg13 (c : Dev nD) : W19 m ρ c (Proc.devRef .tc main_arg13) = m ((c : Thread nD τ).loc main_arg13) :=
  (keep_hostOps7_arg13 (W18 m ρ c)).trans (at18_arg13 m ρ c)

/-- `main_arg15` at boundary 1 holds what it held at boundary 0. -/
theorem at1_arg15 (c : Dev nD) : W1 m ρ c (Proc.devRef .tc main_arg15) = m ((c : Thread nD τ).loc main_arg15) :=
  keep_hostOps0_arg15 (W0 m ρ c)
/-- `main_arg15` at boundary 2 holds what it held at boundary 0. -/
theorem at2_arg15 (c : Dev nD) : W2 m ρ c (Proc.devRef .tc main_arg15) = m ((c : Thread nD τ).loc main_arg15) :=
  (W2_of_ne m ρ c main_arg15 (by decide)).trans (at1_arg15 m ρ c)
/-- `main_arg15` at boundary 3 holds what it held at boundary 0. -/
theorem at3_arg15 (c : Dev nD) : W3 m ρ c (Proc.devRef .tc main_arg15) = m ((c : Thread nD τ).loc main_arg15) :=
  (keep_hostOps1_arg15 (W2 m ρ c)).trans (at2_arg15 m ρ c)
/-- `main_arg15` at boundary 4 holds what it held at boundary 0. -/
theorem at4_arg15 (c : Dev nD) : W4 m ρ c (Proc.devRef .tc main_arg15) = m ((c : Thread nD τ).loc main_arg15) :=
  (keep_hostOps1_1_arg15 (W3 m ρ c)).trans (at3_arg15 m ρ c)
/-- `main_arg15` at boundary 5 holds what it held at boundary 0. -/
theorem at5_arg15 (c : Dev nD) : W5 m ρ c (Proc.devRef .tc main_arg15) = m ((c : Thread nD τ).loc main_arg15) :=
  (keep_hostOps1_2_arg15 (W4 m ρ c)).trans (at4_arg15 m ρ c)
/-- `main_arg15` at boundary 6 holds what it held at boundary 0. -/
theorem at6_arg15 (c : Dev nD) : W6 m ρ c (Proc.devRef .tc main_arg15) = m ((c : Thread nD τ).loc main_arg15) :=
  (W6_of_ne m ρ c main_arg15 (by decide)).trans (at5_arg15 m ρ c)
/-- `main_arg15` at boundary 7 holds what it held at boundary 0. -/
theorem at7_arg15 (c : Dev nD) : W7 m ρ c (Proc.devRef .tc main_arg15) = m ((c : Thread nD τ).loc main_arg15) :=
  (keep_hostOps2_arg15 (W6 m ρ c)).trans (at6_arg15 m ρ c)
/-- `main_arg15` at boundary 8 holds what it held at boundary 0. -/
theorem at8_arg15 (c : Dev nD) : W8 m ρ c (Proc.devRef .tc main_arg15) = m ((c : Thread nD τ).loc main_arg15) :=
  (W8_of_ne m ρ c main_arg15 (by decide)).trans (at7_arg15 m ρ c)
/-- `main_arg15` at boundary 9 holds what it held at boundary 0. -/
theorem at9_arg15 (c : Dev nD) : W9 m ρ c (Proc.devRef .tc main_arg15) = m ((c : Thread nD τ).loc main_arg15) :=
  (keep_hostOps3_arg15 (W8 m ρ c)).trans (at8_arg15 m ρ c)
/-- `main_arg15` at boundary 10 holds what it held at boundary 0. -/
theorem at10_arg15 (c : Dev nD) : W10 m ρ c (Proc.devRef .tc main_arg15) = m ((c : Thread nD τ).loc main_arg15) :=
  (keep_hostOps3_1_arg15 (W9 m ρ c)).trans (at9_arg15 m ρ c)
/-- `main_arg15` at boundary 11 holds what it held at boundary 0. -/
theorem at11_arg15 (c : Dev nD) : W11 m ρ c (Proc.devRef .tc main_arg15) = m ((c : Thread nD τ).loc main_arg15) :=
  (W11_of_ne m ρ c main_arg15 (by decide)).trans (at10_arg15 m ρ c)
/-- `main_arg15` at boundary 12 holds what it held at boundary 0. -/
theorem at12_arg15 (c : Dev nD) : W12 m ρ c (Proc.devRef .tc main_arg15) = m ((c : Thread nD τ).loc main_arg15) :=
  (keep_hostOps4_arg15 (W11 m ρ c)).trans (at11_arg15 m ρ c)
/-- `main_arg15` at boundary 13 holds what it held at boundary 0. -/
theorem at13_arg15 (c : Dev nD) : W13 m ρ c (Proc.devRef .tc main_arg15) = m ((c : Thread nD τ).loc main_arg15) :=
  (W13_of_ne m ρ c main_arg15 (by decide)).trans (at12_arg15 m ρ c)
/-- `main_arg15` at boundary 14 holds what it held at boundary 0. -/
theorem at14_arg15 (c : Dev nD) : W14 m ρ c (Proc.devRef .tc main_arg15) = m ((c : Thread nD τ).loc main_arg15) :=
  (keep_hostOps5_arg15 (W13 m ρ c)).trans (at13_arg15 m ρ c)
/-- `main_arg15` at boundary 15 holds what it held at boundary 0. -/
theorem at15_arg15 (c : Dev nD) : W15 m ρ c (Proc.devRef .tc main_arg15) = m ((c : Thread nD τ).loc main_arg15) :=
  (keep_hostOps5_1_arg15 (W14 m ρ c)).trans (at14_arg15 m ρ c)
/-- `main_arg15` at boundary 16 holds what it held at boundary 0. -/
theorem at16_arg15 (c : Dev nD) : W16 m ρ c (Proc.devRef .tc main_arg15) = m ((c : Thread nD τ).loc main_arg15) :=
  (W16_of_ne m ρ c main_arg15 (by decide)).trans (at15_arg15 m ρ c)
/-- `main_arg15` at boundary 17 holds what it held at boundary 0. -/
theorem at17_arg15 (c : Dev nD) : W17 m ρ c (Proc.devRef .tc main_arg15) = m ((c : Thread nD τ).loc main_arg15) :=
  (keep_hostOps6_arg15 (W16 m ρ c)).trans (at16_arg15 m ρ c)
/-- `main_arg15` at boundary 18 holds what it held at boundary 0. -/
theorem at18_arg15 (c : Dev nD) : W18 m ρ c (Proc.devRef .tc main_arg15) = m ((c : Thread nD τ).loc main_arg15) :=
  (W18_of_ne m ρ c main_arg15 (by decide)).trans (at17_arg15 m ρ c)
/-- `main_arg15` at boundary 19 holds what it held at boundary 0. -/
theorem at19_arg15 (c : Dev nD) : W19 m ρ c (Proc.devRef .tc main_arg15) = m ((c : Thread nD τ).loc main_arg15) :=
  (keep_hostOps7_arg15 (W18 m ρ c)).trans (at18_arg15 m ρ c)

/-- `main_arg14` at boundary 1 holds what it held at boundary 0. -/
theorem at1_arg14 (c : Dev nD) : W1 m ρ c (Proc.devRef .tc main_arg14) = m ((c : Thread nD τ).loc main_arg14) :=
  keep_hostOps0_arg14 (W0 m ρ c)
/-- `main_arg14` at boundary 2 holds what it held at boundary 0. -/
theorem at2_arg14 (c : Dev nD) : W2 m ρ c (Proc.devRef .tc main_arg14) = m ((c : Thread nD τ).loc main_arg14) :=
  (W2_of_ne m ρ c main_arg14 (by decide)).trans (at1_arg14 m ρ c)
/-- `main_arg14` at boundary 3 holds what it held at boundary 0. -/
theorem at3_arg14 (c : Dev nD) : W3 m ρ c (Proc.devRef .tc main_arg14) = m ((c : Thread nD τ).loc main_arg14) :=
  (keep_hostOps1_arg14 (W2 m ρ c)).trans (at2_arg14 m ρ c)
/-- `main_arg14` at boundary 4 holds what it held at boundary 0. -/
theorem at4_arg14 (c : Dev nD) : W4 m ρ c (Proc.devRef .tc main_arg14) = m ((c : Thread nD τ).loc main_arg14) :=
  (keep_hostOps1_1_arg14 (W3 m ρ c)).trans (at3_arg14 m ρ c)
/-- `main_arg14` at boundary 5 holds what it held at boundary 0. -/
theorem at5_arg14 (c : Dev nD) : W5 m ρ c (Proc.devRef .tc main_arg14) = m ((c : Thread nD τ).loc main_arg14) :=
  (keep_hostOps1_2_arg14 (W4 m ρ c)).trans (at4_arg14 m ρ c)
/-- `main_arg14` at boundary 6 holds what it held at boundary 0. -/
theorem at6_arg14 (c : Dev nD) : W6 m ρ c (Proc.devRef .tc main_arg14) = m ((c : Thread nD τ).loc main_arg14) :=
  (W6_of_ne m ρ c main_arg14 (by decide)).trans (at5_arg14 m ρ c)
/-- `main_arg14` at boundary 7 holds what it held at boundary 0. -/
theorem at7_arg14 (c : Dev nD) : W7 m ρ c (Proc.devRef .tc main_arg14) = m ((c : Thread nD τ).loc main_arg14) :=
  (keep_hostOps2_arg14 (W6 m ρ c)).trans (at6_arg14 m ρ c)
/-- `main_arg14` at boundary 8 holds what it held at boundary 0. -/
theorem at8_arg14 (c : Dev nD) : W8 m ρ c (Proc.devRef .tc main_arg14) = m ((c : Thread nD τ).loc main_arg14) :=
  (W8_of_ne m ρ c main_arg14 (by decide)).trans (at7_arg14 m ρ c)
/-- `main_arg14` at boundary 9 holds what it held at boundary 0. -/
theorem at9_arg14 (c : Dev nD) : W9 m ρ c (Proc.devRef .tc main_arg14) = m ((c : Thread nD τ).loc main_arg14) :=
  (keep_hostOps3_arg14 (W8 m ρ c)).trans (at8_arg14 m ρ c)
/-- `main_arg14` at boundary 10 holds what it held at boundary 0. -/
theorem at10_arg14 (c : Dev nD) : W10 m ρ c (Proc.devRef .tc main_arg14) = m ((c : Thread nD τ).loc main_arg14) :=
  (keep_hostOps3_1_arg14 (W9 m ρ c)).trans (at9_arg14 m ρ c)
/-- `main_arg14` at boundary 11 holds what it held at boundary 0. -/
theorem at11_arg14 (c : Dev nD) : W11 m ρ c (Proc.devRef .tc main_arg14) = m ((c : Thread nD τ).loc main_arg14) :=
  (W11_of_ne m ρ c main_arg14 (by decide)).trans (at10_arg14 m ρ c)
/-- `main_arg14` at boundary 12 holds what it held at boundary 0. -/
theorem at12_arg14 (c : Dev nD) : W12 m ρ c (Proc.devRef .tc main_arg14) = m ((c : Thread nD τ).loc main_arg14) :=
  (keep_hostOps4_arg14 (W11 m ρ c)).trans (at11_arg14 m ρ c)
/-- `main_arg14` at boundary 13 holds what it held at boundary 0. -/
theorem at13_arg14 (c : Dev nD) : W13 m ρ c (Proc.devRef .tc main_arg14) = m ((c : Thread nD τ).loc main_arg14) :=
  (W13_of_ne m ρ c main_arg14 (by decide)).trans (at12_arg14 m ρ c)
/-- `main_arg14` at boundary 14 holds what it held at boundary 0. -/
theorem at14_arg14 (c : Dev nD) : W14 m ρ c (Proc.devRef .tc main_arg14) = m ((c : Thread nD τ).loc main_arg14) :=
  (keep_hostOps5_arg14 (W13 m ρ c)).trans (at13_arg14 m ρ c)
/-- `main_arg14` at boundary 15 holds what it held at boundary 0. -/
theorem at15_arg14 (c : Dev nD) : W15 m ρ c (Proc.devRef .tc main_arg14) = m ((c : Thread nD τ).loc main_arg14) :=
  (keep_hostOps5_1_arg14 (W14 m ρ c)).trans (at14_arg14 m ρ c)
/-- `main_arg14` at boundary 16 holds what it held at boundary 0. -/
theorem at16_arg14 (c : Dev nD) : W16 m ρ c (Proc.devRef .tc main_arg14) = m ((c : Thread nD τ).loc main_arg14) :=
  (W16_of_ne m ρ c main_arg14 (by decide)).trans (at15_arg14 m ρ c)
/-- `main_arg14` at boundary 17 holds what it held at boundary 0. -/
theorem at17_arg14 (c : Dev nD) : W17 m ρ c (Proc.devRef .tc main_arg14) = m ((c : Thread nD τ).loc main_arg14) :=
  (keep_hostOps6_arg14 (W16 m ρ c)).trans (at16_arg14 m ρ c)
/-- `main_arg14` at boundary 18 holds what it held at boundary 0. -/
theorem at18_arg14 (c : Dev nD) : W18 m ρ c (Proc.devRef .tc main_arg14) = m ((c : Thread nD τ).loc main_arg14) :=
  (W18_of_ne m ρ c main_arg14 (by decide)).trans (at17_arg14 m ρ c)

/-- `main_arg16` at boundary 1 holds what it held at boundary 0. -/
theorem at1_arg16 (c : Dev nD) : W1 m ρ c (Proc.devRef .tc main_arg16) = m ((c : Thread nD τ).loc main_arg16) :=
  keep_hostOps0_arg16 (W0 m ρ c)
/-- `main_arg16` at boundary 2 holds what it held at boundary 0. -/
theorem at2_arg16 (c : Dev nD) : W2 m ρ c (Proc.devRef .tc main_arg16) = m ((c : Thread nD τ).loc main_arg16) :=
  (W2_of_ne m ρ c main_arg16 (by decide)).trans (at1_arg16 m ρ c)
/-- `main_arg16` at boundary 3 holds what it held at boundary 0. -/
theorem at3_arg16 (c : Dev nD) : W3 m ρ c (Proc.devRef .tc main_arg16) = m ((c : Thread nD τ).loc main_arg16) :=
  (keep_hostOps1_arg16 (W2 m ρ c)).trans (at2_arg16 m ρ c)
/-- `main_arg16` at boundary 4 holds what it held at boundary 0. -/
theorem at4_arg16 (c : Dev nD) : W4 m ρ c (Proc.devRef .tc main_arg16) = m ((c : Thread nD τ).loc main_arg16) :=
  (keep_hostOps1_1_arg16 (W3 m ρ c)).trans (at3_arg16 m ρ c)
/-- `main_arg16` at boundary 5 holds what it held at boundary 0. -/
theorem at5_arg16 (c : Dev nD) : W5 m ρ c (Proc.devRef .tc main_arg16) = m ((c : Thread nD τ).loc main_arg16) :=
  (keep_hostOps1_2_arg16 (W4 m ρ c)).trans (at4_arg16 m ρ c)
/-- `main_arg16` at boundary 6 holds what it held at boundary 0. -/
theorem at6_arg16 (c : Dev nD) : W6 m ρ c (Proc.devRef .tc main_arg16) = m ((c : Thread nD τ).loc main_arg16) :=
  (W6_of_ne m ρ c main_arg16 (by decide)).trans (at5_arg16 m ρ c)
/-- `main_arg16` at boundary 7 holds what it held at boundary 0. -/
theorem at7_arg16 (c : Dev nD) : W7 m ρ c (Proc.devRef .tc main_arg16) = m ((c : Thread nD τ).loc main_arg16) :=
  (keep_hostOps2_arg16 (W6 m ρ c)).trans (at6_arg16 m ρ c)
/-- `main_arg16` at boundary 8 holds what it held at boundary 0. -/
theorem at8_arg16 (c : Dev nD) : W8 m ρ c (Proc.devRef .tc main_arg16) = m ((c : Thread nD τ).loc main_arg16) :=
  (W8_of_ne m ρ c main_arg16 (by decide)).trans (at7_arg16 m ρ c)
/-- `main_arg16` at boundary 9 holds what it held at boundary 0. -/
theorem at9_arg16 (c : Dev nD) : W9 m ρ c (Proc.devRef .tc main_arg16) = m ((c : Thread nD τ).loc main_arg16) :=
  (keep_hostOps3_arg16 (W8 m ρ c)).trans (at8_arg16 m ρ c)
/-- `main_arg16` at boundary 10 holds what it held at boundary 0. -/
theorem at10_arg16 (c : Dev nD) : W10 m ρ c (Proc.devRef .tc main_arg16) = m ((c : Thread nD τ).loc main_arg16) :=
  (keep_hostOps3_1_arg16 (W9 m ρ c)).trans (at9_arg16 m ρ c)
/-- `main_arg16` at boundary 11 holds what it held at boundary 0. -/
theorem at11_arg16 (c : Dev nD) : W11 m ρ c (Proc.devRef .tc main_arg16) = m ((c : Thread nD τ).loc main_arg16) :=
  (W11_of_ne m ρ c main_arg16 (by decide)).trans (at10_arg16 m ρ c)
/-- `main_arg16` at boundary 12 holds what it held at boundary 0. -/
theorem at12_arg16 (c : Dev nD) : W12 m ρ c (Proc.devRef .tc main_arg16) = m ((c : Thread nD τ).loc main_arg16) :=
  (keep_hostOps4_arg16 (W11 m ρ c)).trans (at11_arg16 m ρ c)
/-- `main_arg16` at boundary 13 holds what it held at boundary 0. -/
theorem at13_arg16 (c : Dev nD) : W13 m ρ c (Proc.devRef .tc main_arg16) = m ((c : Thread nD τ).loc main_arg16) :=
  (W13_of_ne m ρ c main_arg16 (by decide)).trans (at12_arg16 m ρ c)
/-- `main_arg16` at boundary 14 holds what it held at boundary 0. -/
theorem at14_arg16 (c : Dev nD) : W14 m ρ c (Proc.devRef .tc main_arg16) = m ((c : Thread nD τ).loc main_arg16) :=
  (keep_hostOps5_arg16 (W13 m ρ c)).trans (at13_arg16 m ρ c)
/-- `main_arg16` at boundary 15 holds what it held at boundary 0. -/
theorem at15_arg16 (c : Dev nD) : W15 m ρ c (Proc.devRef .tc main_arg16) = m ((c : Thread nD τ).loc main_arg16) :=
  (keep_hostOps5_1_arg16 (W14 m ρ c)).trans (at14_arg16 m ρ c)
/-- `main_arg16` at boundary 16 holds what it held at boundary 0. -/
theorem at16_arg16 (c : Dev nD) : W16 m ρ c (Proc.devRef .tc main_arg16) = m ((c : Thread nD τ).loc main_arg16) :=
  (W16_of_ne m ρ c main_arg16 (by decide)).trans (at15_arg16 m ρ c)
/-- `main_arg16` at boundary 17 holds what it held at boundary 0. -/
theorem at17_arg16 (c : Dev nD) : W17 m ρ c (Proc.devRef .tc main_arg16) = m ((c : Thread nD τ).loc main_arg16) :=
  (keep_hostOps6_arg16 (W16 m ρ c)).trans (at16_arg16 m ρ c)
/-- `main_arg16` at boundary 18 holds what it held at boundary 0. -/
theorem at18_arg16 (c : Dev nD) : W18 m ρ c (Proc.devRef .tc main_arg16) = m ((c : Thread nD τ).loc main_arg16) :=
  (W18_of_ne m ρ c main_arg16 (by decide)).trans (at17_arg16 m ρ c)

end Cert.KernelIdeal.Carry

end
-- ==== Proof.Glue.lean ====
/-
  The small re-layouts both programs put around the network's arrays, read index by index.

  A bias vector reshaped to a one-row matrix has entry `(0, j)` equal to the vector's entry `j`. Slice `k` of a stack of
  matrices, with its leading unit axis reshaped away, is the matrix `W[k, ·, ·]`; slice `k` of a stack of bias vectors is the
  row `B[k, ·]`. Row `r` of the edge list, reshaped to a vector, is `ei[r, ·]`. A vector laid out as one column has entry
  `(e, 0)` equal to the vector's entry `e`. A scalar broadcast to any shape is constant. Every one of these holds because a
  reshape keeps an entry's row-major position and a slice shifts an index by its offsets.
-/
import proofs.«425574_j14697378087540_1_alg».proof.Proof.SpecNet
import Idealize.ShloMosaic.Lib.Pipeline.Value
import Idealize.ShloMosaic.Lib.ValueIdx

noncomputable section

open Idealize.ShloMosaic

namespace Cert.Glue

/-- A vector reshaped to a one-row matrix: entry `(0, j)` is entry `j`. -/
theorem reshape_rowOf {d : Nat} (b : FVec Ideal ⟨1, ![d]⟩ .f32) (h : (⟨1, ![d]⟩ : Shape).ShapeCasts ⟨2, ![1, d]⟩) :
    shapeCast ⟨2, ![1, d]⟩ b h = Cert.Spec.rowOf b := by
  funext j
  refine shapeCast_apply b h j (ValueIdx.ix1 (j 1)) ?_
  rw [Shape.rowMajor_val_one, Shape.rowMajor_val_two]
  have h0 : (j 0).val < 1 := ValueIdx.idx2_lt0 j
  show (j 1).val = (j 0).val * d + (j 1).val
  have : (j 0).val = 0 := by omega
  rw [this, Nat.zero_mul, Nat.zero_add]

/-- A one-row matrix reshaped to a vector: entry `j` is entry `(0, j)`. -/
theorem reshape_vecOf {d : Nat} {α : Type} (b : (⟨2, ![1, d]⟩ : Shape).Idx → α) (h : (⟨2, ![1, d]⟩ : Shape).ShapeCasts ⟨1, ![d]⟩) :
    shapeCast ⟨1, ![d]⟩ b h = fun i => b (ValueIdx.ix2 0 (i 0)) := by
  funext j
  refine shapeCast_apply b h j (ValueIdx.ix2 0 (j 0)) ?_
  rw [Shape.rowMajor_val_one, Shape.rowMajor_val_two]
  show (0 : Nat) * d + (j 0).val = (j 0).val
  rw [Nat.zero_mul, Nat.zero_add]

/-- Slice `k` of a stack of matrices, its leading unit axis reshaped away, is the matrix `W[k, ·, ·]`. -/
theorem slice_mat {a b : Nat} (W : FVec Ideal ⟨3, ![3, a, b]⟩ .f32) (k : Fin 3) (off : Fin 3 → Nat) (hoff : off = ![k.val, 0, 0])
    (hs : (⟨3, ![3, a, b]⟩ : Shape).Slices off ⟨3, ![1, a, b]⟩) (hc : (⟨3, ![1, a, b]⟩ : Shape).ShapeCasts ⟨2, ![a, b]⟩) :
    shapeCast ⟨2, ![a, b]⟩ (extractStridedSlice ⟨3, ![1, a, b]⟩ off W hs) hc = Cert.Spec.sliceMat W k := by
  subst hoff
  funext j
  refine (shapeCast_apply _ hc j (ValueIdx.ix3 0 (j 0) (j 1)) ?_).trans ?_
  · rw [Shape.rowMajor_val_three, Shape.rowMajor_val_two]
    show ((0 : Nat) * a + (j 0).val) * b + (j 1).val = (j 0).val * b + (j 1).val
    rw [Nat.zero_mul, Nat.zero_add]
  · refine extractStridedSlice_apply _ W hs _ (ValueIdx.ix3 k (j 0) (j 1)) ?_
    intro ax
    match ax with
    | ⟨0, _⟩ => show k.val = k.val + 0; rfl
    | ⟨1, _⟩ => show (j 0).val = 0 + (j 0).val; rw [Nat.zero_add]
    | ⟨2, _⟩ => show (j 1).val = 0 + (j 1).val; rw [Nat.zero_add]

/-- Slice `k` of a stack of bias vectors, reshaped to a vector, is `B[k, ·]`. -/
theorem slice_vec {d : Nat} (B : FVec Ideal ⟨2, ![3, d]⟩ .f32) (k : Fin 3) (off : Fin 2 → Nat) (hoff : off = ![k.val, 0])
    (hs : (⟨2, ![3, d]⟩ : Shape).Slices off ⟨2, ![1, d]⟩) (h1 : (⟨2, ![1, d]⟩ : Shape).ShapeCasts ⟨1, ![d]⟩) :
    shapeCast ⟨1, ![d]⟩ (extractStridedSlice ⟨2, ![1, d]⟩ off B hs) h1 = fun i => B (ValueIdx.ix2 k (i 0)) := by
  subst hoff
  rw [reshape_vecOf]
  funext j
  refine extractStridedSlice_apply _ B hs _ (ValueIdx.ix2 k (j 0)) ?_
  intro ax
  match ax with
  | ⟨0, _⟩ => show k.val = k.val + 0; rfl
  | ⟨1, _⟩ => show (j 0).val = 0 + (j 0).val; rw [Nat.zero_add]

/-- Slice `k` of a stack of bias vectors is, as a one-row matrix, the row `B[k, ·]`. -/
theorem slice_rowMat {d : Nat} (B : FVec Ideal ⟨2, ![3, d]⟩ .f32) (k : Fin 3) (off : Fin 2 → Nat) (hoff : off = ![k.val, 0])
    (hs : (⟨2, ![3, d]⟩ : Shape).Slices off ⟨2, ![1, d]⟩) :
    extractStridedSlice ⟨2, ![1, d]⟩ off B hs = Cert.Spec.sliceRow B k := by
  subst hoff
  funext j
  refine extractStridedSlice_apply _ B hs _ (ValueIdx.ix2 k (j 1)) ?_
  intro ax
  have h0 : (j 0).val < 1 := ValueIdx.idx2_lt0 j
  match ax with
  | ⟨0, _⟩ => show k.val = k.val + (j 0).val; omega
  | ⟨1, _⟩ => show (j 1).val = 0 + (j 1).val; rw [Nat.zero_add]

/-- The row of a vector read back from a stack's slice: `rowOf` of `B[k, ·]` is the one-row slice. -/
theorem rowOf_slice {d : Nat} (B : FVec Ideal ⟨2, ![3, d]⟩ .f32) (k : Fin 3) :
    Cert.Spec.rowOf (fun i : (⟨1, ![d]⟩ : Shape).Idx => B (ValueIdx.ix2 k (i 0))) = Cert.Spec.sliceRow B k := rfl

/-- Row `r` of the edge list, reshaped to a vector over the edges. -/
theorem edge_row (ei : IVec ⟨2, ![2, 800000]⟩ 32) (r : Fin 2) (off : Fin 2 → Nat) (hoff : off = ![r.val, 0])
    (hs : (⟨2, ![2, 800000]⟩ : Shape).Slices off ⟨2, ![1, 800000]⟩) (hc : (⟨2, ![1, 800000]⟩ : Shape).ShapeCasts ⟨1, ![800000]⟩) :
    shapeCast ⟨1, ![800000]⟩ (extractStridedSlice ⟨2, ![1, 800000]⟩ off ei hs) hc = Cert.Spec.edgeRow ei r := by
  subst hoff
  rw [reshape_vecOf]
  funext j
  refine extractStridedSlice_apply _ ei hs _ (ValueIdx.ix2 r (j 0)) ?_
  intro ax
  match ax with
  | ⟨0, _⟩ => show r.val = r.val + 0; rfl
  | ⟨1, _⟩ => show (j 0).val = 0 + (j 0).val; rw [Nat.zero_add]

/-- A vector over the edges laid out as one column: entry `(e, 0)` is entry `e`. -/
theorem col_of_vec {α : Type} (s : (⟨1, ![800000]⟩ : Shape).Idx → α) (dims : Fin 1 → Fin 2) (hd : dims = ![0])
    (h : (⟨1, ![800000]⟩ : Shape).BroadcastsInDim ⟨2, ![800000, 1]⟩ dims) :
    broadcastInDim ⟨2, ![800000, 1]⟩ dims h s = fun i => s (ValueIdx.ix1 (i 0)) := by
  subst hd
  funext j
  refine broadcastInDim_apply _ h s j (ValueIdx.ix1 (j 0)) ?_
  intro ax
  match ax with
  | ⟨0, _⟩ => show (j 0).val = if (800000 : Nat) = 1 then 0 else (j 0).val; rw [if_neg (by decide)]

/-- A scalar broadcast to any shape is constant. -/
theorem bcast_scalar {t : Shape} {α : Type} (x : (⟨0, ![]⟩ : Shape).Idx → α) (dims : Fin 0 → Fin t.rank)
    (h : (⟨0, ![]⟩ : Shape).BroadcastsInDim t dims) (j : t.Idx) : broadcastInDim t dims h x j = x ValueIdx.ix0 :=
  broadcastInDim_apply _ h x j ValueIdx.ix0 (fun a => a.elim0)

end Cert.Glue

end
-- ==== Proof.KHost.lean ====
/-
  What the host operations between the kernel regions compute, over any contents `V` of the buffers before them.

  The biases are reshaped to one-row matrices; the two rows of the edge list become the source and destination vectors;
  each layer's weights are slice `k` of the stacked arrays; the messages are summed into their destination nodes from zero;
  and the rows of `h` are gathered at the wrapped source indices. The gather is guarded: a row whose wrapped index falls
  outside `0 … 49999` would be replaced by a fill value. With every source index between `-50000` and `49999` the
  wrapped index is always inside that range, the guard is true everywhere, and the guarded gather is the gather.
-/
import proofs.«425574_j14697378087540_1_alg».proof.Proof.Gen.KernelIdeal.Frame
import proofs.«425574_j14697378087540_1_alg».proof.Proof.Glue
import Idealize.ShloMosaic.Lib.StableHlo.Run

noncomputable section

namespace Cert.KernelIdeal.Host

open Cert.KernelIdeal Cert.KernelIdeal.Gen
open Idealize.ShloMosaic Idealize.ShloMosaic.TcCoe Idealize.SL.Sem Idealize.ShloMosaic.StableHlo

/-- Row `k` of a stack of bias vectors, reshaped to a vector and then to a one-row matrix, is the row `B[k, ·]`. -/
theorem slice_row_twice {d : Nat} (B : FVec Ideal ⟨2, ![3, d]⟩ .f32) (k : Fin 3) (off : Fin 2 → Nat) (hoff : off = ![k.val, 0])
    (hs : (⟨2, ![3, d]⟩ : Shape).Slices off ⟨2, ![1, d]⟩) (h1 : (⟨2, ![1, d]⟩ : Shape).ShapeCasts ⟨1, ![d]⟩)
    (h2 : (⟨1, ![d]⟩ : Shape).ShapeCasts ⟨2, ![1, d]⟩) :
    shapeCast ⟨2, ![1, d]⟩ (shapeCast ⟨1, ![d]⟩ (extractStridedSlice ⟨2, ![1, d]⟩ off B hs) h1) h2 = Cert.Spec.sliceRow B k := by
  rw [Cert.Glue.slice_vec B k off hoff, Cert.Glue.reshape_rowOf]
  rfl

variable (V : Valuation τ sig (Elt Ideal))

/-- `main_v0` after `hostOps0`: the bias vector `main_arg4` as a one-row matrix. -/
theorem bias_in : after hostOps0 V (Proc.devRef .tc main_v0) = Cert.Spec.rowOf (V (Proc.devRef .tc main_arg4)) := by
  after_results
  exact Cert.Glue.reshape_rowOf _ _

/-- `main_v1` after `hostOps0`: the bias vector `main_arg6` as a one-row matrix. -/
theorem bias_h : after hostOps0 V (Proc.devRef .tc main_v1) = Cert.Spec.rowOf (V (Proc.devRef .tc main_arg6)) := by
  after_results
  exact Cert.Glue.reshape_rowOf _ _

/-- `main_v4` after `hostOps1`: row 0 of the edge list as a vector over the edges. -/
theorem src_row : after hostOps1 V (Proc.devRef .tc main_v4) = Cert.Spec.edgeRow (V (Proc.devRef .tc main_arg1)) 0 := by
  after_results
  exact Cert.Glue.edge_row _ 0 _ rfl _ _

/-- `main_v6` after `hostOps1`: row 1 of the edge list as a vector over the edges. -/
theorem dst_row : after hostOps1 V (Proc.devRef .tc main_v6) = Cert.Spec.edgeRow (V (Proc.devRef .tc main_arg1)) 1 := by
  after_results
  exact Cert.Glue.edge_row _ 1 _ rfl _ _

/-- `main_v9` after `hostOps1_2`: slice 0 of the stacked edge projections `main_arg7`. -/
theorem edge_w0 : after hostOps1_2 V (Proc.devRef .tc main_v9) = Cert.Spec.sliceMat (V (Proc.devRef .tc main_arg7)) 0 := by
  after_results
  exact Cert.Glue.slice_mat _ 0 _ rfl _ _

/-- `main_v12` after `hostOps1_2`: row 0 of the stacked edge biases `main_arg8`, as a one-row matrix. -/
theorem edge_b0 : after hostOps1_2 V (Proc.devRef .tc main_v12) = Cert.Spec.sliceRow (V (Proc.devRef .tc main_arg8)) 0 := by
  after_results
  exact slice_row_twice _ 0 _ rfl _ _ _

/-- `main_v30` after `hostOps3_1`: slice 1 of the stacked edge projections `main_arg7`. -/
theorem edge_w1 : after hostOps3_1 V (Proc.devRef .tc main_v30) = Cert.Spec.sliceMat (V (Proc.devRef .tc main_arg7)) 1 := by
  after_results
  exact Cert.Glue.slice_mat _ 1 _ rfl _ _

/-- `main_v33` after `hostOps3_1`: row 1 of the stacked edge biases `main_arg8`, as a one-row matrix. -/
theorem edge_b1 : after hostOps3_1 V (Proc.devRef .tc main_v33) = Cert.Spec.sliceRow (V (Proc.devRef .tc main_arg8)) 1 := by
  after_results
  exact slice_row_twice _ 1 _ rfl _ _ _

/-- `main_v51` after `hostOps5_1`: slice 2 of the stacked edge projections `main_arg7`. -/
theorem edge_w2 : after hostOps5_1 V (Proc.devRef .tc main_v51) = Cert.Spec.sliceMat (V (Proc.devRef .tc main_arg7)) 2 := by
  after_results
  exact Cert.Glue.slice_mat _ 2 _ rfl _ _

/-- `main_v54` after `hostOps5_1`: row 2 of the stacked edge biases `main_arg8`, as a one-row matrix. -/
theorem edge_b2 : after hostOps5_1 V (Proc.devRef .tc main_v54) = Cert.Spec.sliceRow (V (Proc.devRef .tc main_arg8)) 2 := by
  after_results
  exact slice_row_twice _ 2 _ rfl _ _ _

/-- `main_v16` after `hostOps2`: the messages `main_v13` summed into their destination nodes, from zero. -/
theorem agg0 : after hostOps2 V (Proc.devRef .tc main_v16)
    = Host.scatterAdd scatter_S50000x64_S800000x1_S800000x64_1_0_0_1 (fun _ => Ideal.ofBits .f32 0x00000000#32) (Cert.Spec.colIdx (V (Proc.devRef .tc main_v6))) (V (Proc.devRef .tc main_v13)) := by
  after_results
  have hz : broadcastInDim S50000x64 ![] bcast_S_S50000x64 (constant (F := Ideal) S_ .f32 0x00000000#32)
      = fun _ => Ideal.ofBits .f32 0x00000000#32 := funext fun j => Cert.Glue.bcast_scalar _ _ _ j
  rw [hz, Cert.Glue.col_of_vec _ _ rfl]
  rfl

/-- `main_v18` after `hostOps2`: slice 0 of the stacked first-layer weights `main_arg9`. -/
theorem node_w0_0 : after hostOps2 V (Proc.devRef .tc main_v18) = Cert.Spec.sliceMat (V (Proc.devRef .tc main_arg9)) 0 := by
  after_results
  exact Cert.Glue.slice_mat _ 0 _ rfl _ _

/-- `main_v25` after `hostOps2`: row 0 of the stacked first-layer biases `main_arg10`, as a one-row matrix. -/
theorem node_b0_0 : after hostOps2 V (Proc.devRef .tc main_v25) = Cert.Spec.sliceRow (V (Proc.devRef .tc main_arg10)) 0 := by
  after_results
  exact slice_row_twice _ 0 _ rfl _ _ _

/-- `main_v22` after `hostOps2`: slice 0 of the stacked second-layer weights `main_arg11`. -/
theorem node_w1_0 : after hostOps2 V (Proc.devRef .tc main_v22) = Cert.Spec.sliceMat (V (Proc.devRef .tc main_arg11)) 0 := by
  after_results
  exact Cert.Glue.slice_mat _ 0 _ rfl _ _

/-- `main_v26` after `hostOps2`: row 0 of the stacked second-layer biases `main_arg12`, as a one-row matrix. -/
theorem node_b1_0 : after hostOps2 V (Proc.devRef .tc main_v26) = Cert.Spec.sliceRow (V (Proc.devRef .tc main_arg12)) 0 := by
  after_results
  exact slice_row_twice _ 0 _ rfl _ _ _

/-- `main_v37` after `hostOps4`: the messages `main_v34` summed into their destination nodes, from zero. -/
theorem agg1 : after hostOps4 V (Proc.devRef .tc main_v37)
    = Host.scatterAdd scatter_S50000x64_S800000x1_S800000x64_1_0_0_1 (fun _ => Ideal.ofBits .f32 0x00000000#32) (Cert.Spec.colIdx (V (Proc.devRef .tc main_v6))) (V (Proc.devRef .tc main_v34)) := by
  after_results
  have hz : broadcastInDim S50000x64 ![] bcast_S_S50000x64 (constant (F := Ideal) S_ .f32 0x00000000#32)
      = fun _ => Ideal.ofBits .f32 0x00000000#32 := funext fun j => Cert.Glue.bcast_scalar _ _ _ j
  rw [hz, Cert.Glue.col_of_vec _ _ rfl]
  rfl

/-- `main_v39` after `hostOps4`: slice 1 of the stacked first-layer weights `main_arg9`. -/
theorem node_w0_1 : after hostOps4 V (Proc.devRef .tc main_v39) = Cert.Spec.sliceMat (V (Proc.devRef .tc main_arg9)) 1 := by
  after_results
  exact Cert.Glue.slice_mat _ 1 _ rfl _ _

/-- `main_v46` after `hostOps4`: row 1 of the stacked first-layer biases `main_arg10`, as a one-row matrix. -/
theorem node_b0_1 : after hostOps4 V (Proc.devRef .tc main_v46) = Cert.Spec.sliceRow (V (Proc.devRef .tc main_arg10)) 1 := by
  after_results
  exact slice_row_twice _ 1 _ rfl _ _ _

/-- `main_v43` after `hostOps4`: slice 1 of the stacked second-layer weights `main_arg11`. -/
theorem node_w1_1 : after hostOps4 V (Proc.devRef .tc main_v43) = Cert.Spec.sliceMat (V (Proc.devRef .tc main_arg11)) 1 := by
  after_results
  exact Cert.Glue.slice_mat _ 1 _ rfl _ _

/-- `main_v47` after `hostOps4`: row 1 of the stacked second-layer biases `main_arg12`, as a one-row matrix. -/
theorem node_b1_1 : after hostOps4 V (Proc.devRef .tc main_v47) = Cert.Spec.sliceRow (V (Proc.devRef .tc main_arg12)) 1 := by
  after_results
  exact slice_row_twice _ 1 _ rfl _ _ _

/-- `main_v58` after `hostOps6`: the messages `main_v55` summed into their destination nodes, from zero. -/
theorem agg2 : after hostOps6 V (Proc.devRef .tc main_v58)
    = Host.scatterAdd scatter_S50000x64_S800000x1_S800000x64_1_0_0_1 (fun _ => Ideal.ofBits .f32 0x00000000#32) (Cert.Spec.colIdx (V (Proc.devRef .tc main_v6))) (V (Proc.devRef .tc main_v55)) := by
  after_results
  have hz : broadcastInDim S50000x64 ![] bcast_S_S50000x64 (constant (F := Ideal) S_ .f32 0x00000000#32)
      = fun _ => Ideal.ofBits .f32 0x00000000#32 := funext fun j => Cert.Glue.bcast_scalar _ _ _ j
  rw [hz, Cert.Glue.col_of_vec _ _ rfl]
  rfl

/-- `main_v60` after `hostOps6`: slice 2 of the stacked first-layer weights `main_arg9`. -/
theorem node_w0_2 : after hostOps6 V (Proc.devRef .tc main_v60) = Cert.Spec.sliceMat (V (Proc.devRef .tc main_arg9)) 2 := by
  after_results
  exact Cert.Glue.slice_mat _ 2 _ rfl _ _

/-- `main_v67` after `hostOps6`: row 2 of the stacked first-layer biases `main_arg10`, as a one-row matrix. -/
theorem node_b0_2 : after hostOps6 V (Proc.devRef .tc main_v67) = Cert.Spec.sliceRow (V (Proc.devRef .tc main_arg10)) 2 := by
  after_results
  exact slice_row_twice _ 2 _ rfl _ _ _

/-- `main_v64` after `hostOps6`: slice 2 of the stacked second-layer weights `main_arg11`. -/
theorem node_w1_2 : after hostOps6 V (Proc.devRef .tc main_v64) = Cert.Spec.sliceMat (V (Proc.devRef .tc main_arg11)) 2 := by
  after_results
  exact Cert.Glue.slice_mat _ 2 _ rfl _ _

/-- `main_v68` after `hostOps6`: row 2 of the stacked second-layer biases `main_arg12`, as a one-row matrix. -/
theorem node_b1_2 : after hostOps6 V (Proc.devRef .tc main_v68) = Cert.Spec.sliceRow (V (Proc.devRef .tc main_arg12)) 2 := by
  after_results
  exact slice_row_twice _ 2 _ rfl _ _ _

/-- `main_v70` after `hostOps7`: the bias vector `main_arg14` as a one-row matrix. -/
theorem bias_q0 : after hostOps7 V (Proc.devRef .tc main_v70) = Cert.Spec.rowOf (V (Proc.devRef .tc main_arg14)) := by
  after_results
  exact Cert.Glue.reshape_rowOf _ _

/-- `main_v71` after `hostOps7`: the bias vector `main_arg16` as a one-row matrix. -/
theorem bias_q1 : after hostOps7 V (Proc.devRef .tc main_v71) = Cert.Spec.rowOf (V (Proc.devRef .tc main_arg16)) := by
  after_results
  exact Cert.Glue.reshape_rowOf _ _

end Cert.KernelIdeal.Host

end
-- ==== Proof.Take.lean ====
/-
  The gather of the edges' source rows, freed of its range guard.

  Array indexing by a signed index first counts a negative index from the end (`s + 50000` when `s < 0`), then
  guards the gather: an index outside `[0, 49999]` would read a fill value instead of a row. The guard is a bit per
  edge, "the wrapped index is at least 0 and at most 49999", folded by "and" along the one-element column axis and
  spread over the 64 features. When every source index lies in `[-50000, 50000)` the wrapped index lies in
  `[0, 49999]`: a negative `s` becomes `s + 50000`, which neither overflows nor leaves the range, and a
  non-negative `s` is kept. So every guard bit is 1, an "and" of ones from one is one, and the selection between the
  gathered rows and the fill is the gathered rows.
-/
import proofs.«425574_j14697378087540_1_alg».proof.Proof.SpecNet
import Idealize.ShloMosaic.Lib.ReduceAll
import Idealize.ShloMosaic.Lib.ValueIdx
import Idealize.ShloMosaic.Lib.ValueLayout

noncomputable section

open Idealize.ShloMosaic

namespace Cert.Take

open Cert.Spec

abbrev S0 : Shape := ⟨0, ![]⟩
abbrev S1 : Shape := ⟨1, ![1]⟩
abbrev S1x1 : Shape := ⟨2, ![1, 1]⟩
abbrev SE : Shape := ⟨1, ![800000]⟩

/-! ## The word fact -/

/-- A source index counted from the end when negative. -/
abbrev wrapWord (s : BitVec 32) : BitVec 32 :=
  Scalar.select (IntOp.cmpi .slt s 0#32) (IntOp.addi s 50000#32) s

theorem toInt_zero32 : (0#32 : BitVec 32).toInt = 0 := by decide
theorem toInt_50000 : (50000#32 : BitVec 32).toInt = 50000 := by decide
theorem toInt_49999 : (49999#32 : BitVec 32).toInt = 49999 := by decide

/-- The wrapped index of a source index in `[-50000, 50000)`, read signed, lies in `[0, 49999]`. -/
theorem wrapWord_toInt (s : BitVec 32) (hlo : (-50000 : Int) ≤ s.toInt) (hhi : s.toInt < 50000) :
    0 ≤ (wrapWord s).toInt ∧ (wrapWord s).toInt ≤ 49999 := by
  by_cases hneg : s.toInt < 0
  · have hc : IntOp.cmpi .slt s 0#32 = 1#1 := IntOp.cmpi_slt.2 (by rw [toInt_zero32]; exact hneg)
    have hw : wrapWord s = s + 50000#32 := by
      show Scalar.select (IntOp.cmpi .slt s 0#32) (IntOp.addi s 50000#32) s = _
      rw [hc]; exact ValueIdx.select_one _ _
    have ht : (s + 50000#32).toInt = s.toInt + 50000 := by
      rw [BitVec.toInt_add, toInt_50000]
      exact Int.bmod_eq_of_le (by omega) (by omega)
    rw [hw, ht]
    omega
  · have hc : ¬ IntOp.cmpi .slt s 0#32 = 1#1 := fun h => hneg (by have := IntOp.cmpi_slt.1 h; rwa [toInt_zero32] at this)
    have hw : wrapWord s = s := by
      show Scalar.select (IntOp.cmpi .slt s 0#32) (IntOp.addi s 50000#32) s = _
      rw [ValueIdx.eq_zero_of_ne_one hc]; exact ValueIdx.select_zero _ _
    rw [hw]
    omega

/-- The two guard comparisons of the wrapped index both come out 1. -/
theorem wrapWord_guard (s : BitVec 32) (hlo : (-50000 : Int) ≤ s.toInt) (hhi : s.toInt < 50000) :
    IntOp.cmpi .sge (wrapWord s) 0#32 = 1#1 ∧ IntOp.cmpi .sle (wrapWord s) 49999#32 = 1#1 := by
  obtain ⟨h0, h1⟩ := wrapWord_toInt s hlo hhi
  exact ⟨IntOp.cmpi_sge.2 (by rw [toInt_zero32]; exact h0), IntOp.cmpi_sle.2 (by rw [toInt_49999]; exact h1)⟩

/-! ## The vector fact -/

/-- A selection under a mask of ones is its first branch. -/
theorem select_ones {s : Shape} {α : Type} (mk : IVec s 1) (hmk : ∀ i, mk i = 1#1) (a b : s.Idx → α) : select mk a b = a := by
  funext i
  rw [ValueIdx.select_apply, hmk i]
  exact ValueIdx.select_one _ _

/-- A left fold by "and" from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- An "and"-reduction from the constant 1 of an array of ones is 1 at every result index, whatever the axes. -/
theorem reduce_andi_ones {s t : Shape} {axes : List (Fin s.rank)} (x : IVec s 1) (hx : ∀ i, x i = 1#1)
    (h : s.ReducesTo axes t) (hu : 0 < S0.numel) (j : t.Idx) :
    Host.reduce IntOp.andi x (constantI S0 1 1#1) h hu j = 1#1 := by
  rw [Host.reduce_eq_foldl]
  exact foldl_andi_ones x hx _

/-- The guard built from an index column: both comparisons, "and"-ed, folded along the column axis,
    spread over the features. -/
abbrev guard (idx : IVec SE1 32)
    (bc0 : S0.BroadcastsInDim SE1 (![] : Fin 0 → Fin SE1.rank))
    (bc1 : S1.BroadcastsInDim S1x1 (![1] : Fin 1 → Fin S1x1.rank))
    (bc2 : S1x1.BroadcastsInDim SE1 (![0, 1] : Fin 2 → Fin SE1.rank))
    (rd : SE1.ReducesTo [1] SE) (hS : 0 < S0.numel)
    (bc3 : SE.BroadcastsInDim SE64 (![0] : Fin 1 → Fin SE64.rank)) : IVec SE64 1 :=
  broadcastInDim SE64 ![0] bc3
    (Host.reduce IntOp.andi
      (andi (cmpi .sge idx (broadcastInDim SE1 ![] bc0 (constantI S0 32 0#32)))
        (cmpi .sle idx (broadcastInDim SE1 ![0, 1] bc2 (broadcastInDim S1x1 ![1] bc1 (constantI S1 32 49999#32)))))
      (constantI S0 1 1#1) rd hS)

/-- When every entry of the index column passes both comparisons, the guard is 1 everywhere. -/
theorem guard_ones (idx : IVec SE1 32)
    (bc0 : S0.BroadcastsInDim SE1 (![] : Fin 0 → Fin SE1.rank))
    (bc1 : S1.BroadcastsInDim S1x1 (![1] : Fin 1 → Fin S1x1.rank))
    (bc2 : S1x1.BroadcastsInDim SE1 (![0, 1] : Fin 2 → Fin SE1.rank))
    (rd : SE1.ReducesTo [1] SE) (hS : 0 < S0.numel)
    (bc3 : SE.BroadcastsInDim SE64 (![0] : Fin 1 → Fin SE64.rank))
    (hidx : ∀ i, IntOp.cmpi .sge (idx i) 0#32 = 1#1 ∧ IntOp.cmpi .sle (idx i) 49999#32 = 1#1) (j : SE64.Idx) :
    guard idx bc0 bc1 bc2 rd hS bc3 j = 1#1 := by
  show Host.reduce IntOp.andi _ (constantI S0 1 1#1) rd hS _ = 1#1
  refine reduce_andi_ones _ (fun i => ?_) rd hS _
  show IntOp.andi (IntOp.cmpi .sge (idx i) 0#32) (IntOp.cmpi .sle (idx i) 49999#32) = 1#1
  exact IntOp.andi_eq_one.2 (hidx i)

/-- The guarded gather is the gather: under a guard of ones the selection takes the gathered rows, never the fill. -/
theorem take_eq_gather (gd : GatherDims SN64 SE1 SE64) (h : FVec Ideal SN64 .f32) (idx : IVec SE1 32)
    (bc0 : S0.BroadcastsInDim SE1 (![] : Fin 0 → Fin SE1.rank))
    (bc1 : S1.BroadcastsInDim S1x1 (![1] : Fin 1 → Fin S1x1.rank))
    (bc2 : S1x1.BroadcastsInDim SE1 (![0, 1] : Fin 2 → Fin SE1.rank))
    (rd : SE1.ReducesTo [1] SE) (hS : 0 < S0.numel)
    (bc3 : SE.BroadcastsInDim SE64 (![0] : Fin 1 → Fin SE64.rank))
    (bc4 : S0.BroadcastsInDim SE64 (![] : Fin 0 → Fin SE64.rank))
    (hidx : ∀ i, IntOp.cmpi .sge (idx i) 0#32 = 1#1 ∧ IntOp.cmpi .sle (idx i) 49999#32 = 1#1) :
    select
      (broadcastInDim SE64 ![0] bc3
        (Host.reduce IntOp.andi
          (andi (cmpi .sge idx (broadcastInDim SE1 ![] bc0 (constantI S0 32 0#32)))
            (cmpi .sle idx (broadcastInDim SE1 ![0, 1] bc2 (broadcastInDim S1x1 ![1] bc1 (constantI S1 32 49999#32)))))
          (constantI S0 1 1#1) rd hS))
      (Host.gather gd h idx)
      (broadcastInDim SE64 ![] bc4 (constant (F := Ideal) S0 .f32 0x7FC00000#32))
    = Host.gather gd h idx :=
  select_ones _ (guard_ones idx bc0 bc1 bc2 rd hS bc3 hidx) _ _

/-! ## The index column -/

/-- The index column built from the source vector (wrap, then one column) is the specification's. -/
theorem idxCol_eq (s : IVec SE 32)
    (b0 : S0.BroadcastsInDim SE (![] : Fin 0 → Fin SE.rank))
    (bc : SE.BroadcastsInDim SE1 (![0] : Fin 1 → Fin SE1.rank)) :
    broadcastInDim SE1 ![0] bc
      (select (cmpi .slt s (broadcastInDim SE ![] b0 (constantI S0 32 0#32)))
        (addi s (broadcastInDim SE ![] b0 (constantI S0 32 50000#32))) s)
    = wrapIdx s := by
  funext i
  refine (broadcastInDim_apply _ bc _ i (ValueIdx.ix1 (i 0)) (fun a => ?_)).trans rfl
  match a with
  | ⟨0, _⟩ => rfl

/-- Every entry of the specification's index column is the wrapped word of a source index. -/
theorem wrapIdx_apply (s : IVec SE 32) (i : SE1.Idx) : wrapIdx s i = wrapWord (s (ValueIdx.ix1 (i 0))) := rfl

/-- With the source indices in range, the guarded gather at the wrapped index column is the specification's gather. -/
theorem take_eq_gath (gd : GatherDims SN64 SE1 SE64) (h : FVec Ideal SN64 .f32) (s : IVec SE 32)
    (bc0 : S0.BroadcastsInDim SE1 (![] : Fin 0 → Fin SE1.rank))
    (bc1 : S1.BroadcastsInDim S1x1 (![1] : Fin 1 → Fin S1x1.rank))
    (bc2 : S1x1.BroadcastsInDim SE1 (![0, 1] : Fin 2 → Fin SE1.rank))
    (rd : SE1.ReducesTo [1] SE) (hS : 0 < S0.numel)
    (bc3 : SE.BroadcastsInDim SE64 (![0] : Fin 1 → Fin SE64.rank))
    (bc4 : S0.BroadcastsInDim SE64 (![] : Fin 0 → Fin SE64.rank))
    (hs : ∀ e : Fin 800000, (-50000 : Int) ≤ (s (ValueIdx.ix1 e)).toInt ∧ (s (ValueIdx.ix1 e)).toInt < 50000) :
    select
      (broadcastInDim SE64 ![0] bc3
        (Host.reduce IntOp.andi
          (andi (cmpi .sge (wrapIdx s) (broadcastInDim SE1 ![] bc0 (constantI S0 32 0#32)))
            (cmpi .sle (wrapIdx s) (broadcastInDim SE1 ![0, 1] bc2 (broadcastInDim S1x1 ![1] bc1 (constantI S1 32 49999#32)))))
          (constantI S0 1 1#1) rd hS))
      (Host.gather gd h (wrapIdx s))
      (broadcastInDim SE64 ![] bc4 (constant (F := Ideal) S0 .f32 0x7FC00000#32))
    = Host.gather gd h (wrapIdx s) :=
  take_eq_gather gd h (wrapIdx s) bc0 bc1 bc2 rd hS bc3 bc4
    (fun i => wrapWord_guard _ (hs (i 0)).1 (hs (i 0)).2)

end Cert.Take

end
-- ==== Proof.KTake.lean ====
/-
  The guarded gather of the kernel's program is the gather.

  Before each edge region the host gathers the rows of `h` at the wrapped source indices and replaces by a fill value every
  row whose wrapped index is outside `0 … 49999`. The stretch is read in three stages: first the index column (a negative
  source index counted from the end, laid out as one column), then the guard vector (both comparisons of the column,
  "and"-ed and folded along the column's one-element axis), then the selection between the gathered rows and the fill.
  With every source index between `-50000` and `49999` the wrapped index is always inside the range, the guard is true
  at every row, and nothing is replaced.
-/
import proofs.«425574_j14697378087540_1_alg».proof.Proof.Gen.KernelIdeal.Frame
import proofs.«425574_j14697378087540_1_alg».proof.Proof.Take
import Idealize.ShloMosaic.Lib.StableHlo.Run

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]

-- the reduction and the gather are compared by their arguments, never opened
attribute [local irreducible] Host.reduce Host.gather

/-- The contents after two stretches run one after the other are the second's after the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The index column the host builds from the source vector: a negative index counted from the end, laid out as one column. -/
abbrev idxCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The guard vector of an index column: true at an edge where the column's entry is within `0 … 49999`. -/
abbrev guardVec (idx : IVec S800000x1 32) : IVec S800000 1 :=
  Host.reduce IntOp.andi
    (andi (cmpi .sge idx (broadcastInDim S800000x1 ![] bcast_S_S800000x1 (constantI S_ 32 0#32)))
      (cmpi .sle idx
        (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The guarded gather, at any float values: the rows of `h` at the wrapped source indices, a row replaced by the fill value
    where its wrapped index is outside `0 … 49999`. -/
def guardedGather (h : FVec F S50000x64 .f32) (s : IVec S800000 32) : FVec F S800000x64 .f32 :=
  select (broadcastInDim S800000x64 ![0] bcast_S800000_S800000x64_0 (guardVec (idxCol s)))
    (Host.gather gather_S50000x64_S800000x1_S800000x64_1_0_n_n_0_1_164 h (idxCol s))
    (broadcastInDim S800000x64 ![] bcast_S_S800000x64 (constant S_ .f32 0x7FC00000#32))

/-- With every source index between `-50000` and `49999` the guard is true at every row, so the guarded gather is the
    gather at the wrapped indices. -/
theorem guarded (h : FVec Ideal S50000x64 .f32) (s : IVec S800000 32)
    (hs : ∀ e : Fin 800000, (-50000 : Int) ≤ (s (ValueIdx.ix1 e)).toInt ∧ (s (ValueIdx.ix1 e)).toInt < 50000) :
    guardedGather (F := Ideal) h s = Host.gather gather_S50000x64_S800000x1_S800000x64_1_0_n_n_0_1_164 h (Cert.Spec.wrapIdx s) := by
  unfold guardedGather
  have hcol : idxCol s = Cert.Spec.wrapIdx s := Cert.Take.idxCol_eq s _ _
  rw [hcol]
  exact Cert.Take.take_eq_gath _ _ _ _ _ _ _ _ _ _ hs

/-! ## The gather before edge region 1 (`hostOps1_1`) -/

/-- The operations of `hostOps1_1` that build the index column. -/
abbrev stA0 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S800000, .i32⟩) (broadcastInDim S800000 ![] bcast_S_S800000),
    StableHlo.TRef.binary (.of main_v4 : StableHlo.TRef sig ⟨S800000, .i32⟩) (.of main_call0_v0 : StableHlo.TRef sig ⟨S800000, .i32⟩) (.of main_call0_v1 : StableHlo.TRef sig ⟨S800000, .i1⟩) (cmpi .slt),
    StableHlo.TRef.nullary (.of main_call0_c_0 : StableHlo.TRef sig ⟨S_, .i32⟩) (constantI S_ 32 50000#32),
    StableHlo.TRef.unary (.of main_call0_c_0 : StableHlo.TRef sig ⟨S_, .i32⟩) (.of main_call0_v2 : StableHlo.TRef sig ⟨S800000, .i32⟩) (broadcastInDim S800000 ![] bcast_S_S800000),
    StableHlo.TRef.binary (.of main_v4 : StableHlo.TRef sig ⟨S800000, .i32⟩) (.of main_call0_v2 : StableHlo.TRef sig ⟨S800000, .i32⟩) (.of main_call0_v3 : StableHlo.TRef sig ⟨S800000, .i32⟩) addi,
    StableHlo.TRef.ternary (.of main_call0_v1 : StableHlo.TRef sig ⟨S800000, .i1⟩) (.of main_call0_v3 : StableHlo.TRef sig ⟨S800000, .i32⟩) (.of main_v4 : StableHlo.TRef sig ⟨S800000, .i32⟩) (.of main_call0_v4 : StableHlo.TRef sig ⟨S800000, .i32⟩) select,
    StableHlo.TRef.unary main_call0_call0.v0 (.of main_call0_v5 : StableHlo.TRef sig ⟨S800000x1, .i32⟩) (broadcastInDim S800000x1 ![0] bcast_S800000_S800000x1_0) ]
/-- The operations of `hostOps1_1` that build the guard vector. -/
abbrev stB0 : List (HloOp τ sig (Elt F)) :=
  [ StableHlo.TRef.nullary (.of main_call0_c_1 : StableHlo.TRef sig ⟨S1, .i32⟩) (constantI S1 32 49999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S800000x1, .i32⟩) (broadcastInDim S800000x1 ![] bcast_S_S800000x1),
    StableHlo.TRef.binary (.of main_call0_v5 : StableHlo.TRef sig ⟨S800000x1, .i32⟩) (.of main_call0_v6 : StableHlo.TRef sig ⟨S800000x1, .i32⟩) (.of main_call0_v7 : StableHlo.TRef sig ⟨S800000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S800000x1, .i32⟩) (broadcastInDim S800000x1 ![0, 1] bcast_S1x1_S800000x1_0_1),
    StableHlo.TRef.binary (.of main_call0_v5 : StableHlo.TRef sig ⟨S800000x1, .i32⟩) (.of main_call0_v9 : StableHlo.TRef sig ⟨S800000x1, .i32⟩) (.of main_call0_v10 : StableHlo.TRef sig ⟨S800000x1, .i1⟩) (cmpi .sle),
    StableHlo.TRef.binary (.of main_call0_v7 : StableHlo.TRef sig ⟨S800000x1, .i1⟩) (.of main_call0_v10 : StableHlo.TRef sig ⟨S800000x1, .i1⟩) (.of main_call0_v11 : StableHlo.TRef sig ⟨S800000x1, .i1⟩) andi,
    StableHlo.TRef.nullary (.of main_call0_c_3 : StableHlo.TRef sig ⟨S_, .i1⟩) (constantI S_ 1 1#1),
    StableHlo.TRef.binary (.of main_call0_v11 : StableHlo.TRef sig ⟨S800000x1, .i1⟩) (.of main_call0_c_3 : StableHlo.TRef sig ⟨S_, .i1⟩) (.of main_call0_v12 : StableHlo.TRef sig ⟨S800000, .i1⟩) (fun x v => Host.reduce IntOp.andi x v reducesTo_S800000x1_S800000_d1 h_S_) ]
/-- The operations of `hostOps1_1` that build the selection. -/
abbrev stC0 : List (HloOp τ sig (Elt F)) :=
  [ StableHlo.TRef.binary (.of main_v2 : StableHlo.TRef sig ⟨S50000x64, .f32⟩) (.of main_call0_v5 : StableHlo.TRef sig ⟨S800000x1, .i32⟩) (.of main_call0_v13 : StableHlo.TRef sig ⟨S800000x64, .f32⟩) (fun x i => Host.gather gather_S50000x64_S800000x1_S800000x64_1_0_n_n_0_1_164 x i),
    StableHlo.TRef.unary (.of main_call0_v12 : StableHlo.TRef sig ⟨S800000, .i1⟩) (.of main_call0_v14 : StableHlo.TRef sig ⟨S800000x64, .i1⟩) (broadcastInDim S800000x64 ![0] bcast_S800000_S800000x64_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S800000x64, .f32⟩) (broadcastInDim S800000x64 ![] bcast_S_S800000x64),
    StableHlo.TRef.ternary (.of main_call0_v14 : StableHlo.TRef sig ⟨S800000x64, .i1⟩) (.of main_call0_v13 : StableHlo.TRef sig ⟨S800000x64, .f32⟩) (.of main_call0_v15 : StableHlo.TRef sig ⟨S800000x64, .f32⟩) (.of main_v7 : StableHlo.TRef sig ⟨S800000x64, .f32⟩) select ]
theorem split0 : (hostOps1_1 : List (HloOp τ sig (Elt F))) = stA0 ++ (stB0 ++ stC0) := rfl

variable (V : Valuation τ sig (Elt F)) in
theorem idx0 : after stA0 V (Proc.devRef .tc main_call0_v5) = idxCol (V (Proc.devRef .tc main_v4)) := by
  after_results
  rfl
variable (V : Valuation τ sig (Elt F)) in
theorem keepA0 : after stA0 V (Proc.devRef .tc main_v2) = V (Proc.devRef .tc main_v2) := by
  after_results
variable (V : Valuation τ sig (Elt F)) in
theorem mask0 : after stB0 V (Proc.devRef .tc main_call0_v12) = guardVec (V (Proc.devRef .tc main_call0_v5)) := by
  after_results
  rfl
variable (V : Valuation τ sig (Elt F)) in
theorem keepB0_idx : after stB0 V (Proc.devRef .tc main_call0_v5) = V (Proc.devRef .tc main_call0_v5) := by
  after_results
variable (V : Valuation τ sig (Elt F)) in
theorem keepB0_h : after stB0 V (Proc.devRef .tc main_v2) = V (Proc.devRef .tc main_v2) := by
  after_results
variable (V : Valuation τ sig (Elt F)) in
theorem sel0 : after stC0 V (Proc.devRef .tc main_v7)
    = select (broadcastInDim S800000x64 ![0] bcast_S800000_S800000x64_0 (V (Proc.devRef .tc main_call0_v12)))
        (Host.gather gather_S50000x64_S800000x1_S800000x64_1_0_n_n_0_1_164 (V (Proc.devRef .tc main_v2)) (V (Proc.devRef .tc main_call0_v5)))
        (broadcastInDim S800000x64 ![] bcast_S_S800000x64 (constant S_ .f32 0x7FC00000#32)) := by
  after_results
  rfl

variable (V : Valuation τ sig (Elt F)) in
/-- `main_v7` after `hostOps1_1`, at any float values, is the guarded gather of `main_v2` at the source vector `main_v4`. -/
theorem take0_term : after hostOps1_1 V (Proc.devRef .tc main_v7) = guardedGather (V (Proc.devRef .tc main_v2)) (V (Proc.devRef .tc main_v4)) := by
  rw [split0, after_append, after_append, sel0, mask0, keepB0_idx, keepB0_h, idx0, keepA0]
  rfl

/-- `main_v7` after `hostOps1_1`: with the source indices in range, the guarded gather of the rows of `main_v2` is the gather at the wrapped indices. -/
theorem take0 (V : Valuation τ sig (Elt Ideal))
    (hs : ∀ e : Fin 800000, (-50000 : Int) ≤ (V (Proc.devRef .tc main_v4) (ValueIdx.ix1 e)).toInt ∧ (V (Proc.devRef .tc main_v4) (ValueIdx.ix1 e)).toInt < 50000) :
    after hostOps1_1 V (Proc.devRef .tc main_v7) = Host.gather gather_S50000x64_S800000x1_S800000x64_1_0_n_n_0_1_164 (V (Proc.devRef .tc main_v2)) (Cert.Spec.wrapIdx (V (Proc.devRef .tc main_v4))) :=
  (take0_term V).trans (guarded _ _ hs)

/-! ## The gather before edge region 3 (`hostOps3`) -/

/-- The operations of `hostOps3` that build the index column. -/
abbrev stA1 : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S800000, .i32⟩) (broadcastInDim S800000 ![] bcast_S_S800000),
    StableHlo.TRef.binary (.of main_v4 : StableHlo.TRef sig ⟨S800000, .i32⟩) (.of main_call1_v0 : StableHlo.TRef sig ⟨S800000, .i32⟩) (.of main_call1_v1 : StableHlo.TRef sig ⟨S800000, .i1⟩) (cmpi .slt),
    StableHlo.TRef.nullary (.of main_call1_c_0 : StableHlo.TRef sig ⟨S_, .i32⟩) (constantI S_ 32 50000#32),
    StableHlo.TRef.unary (.of main_call1_c_0 : StableHlo.TRef sig ⟨S_, .i32⟩) (.of main_call1_v2 : StableHlo.TRef sig ⟨S800000, .i32⟩) (broadcastInDim S800000 ![] bcast_S_S800000),
    StableHlo.TRef.binary (.of main_v4 : StableHlo.TRef sig ⟨S800000, .i32⟩) (.of main_call1_v2 : StableHlo.TRef sig ⟨S800000, .i32⟩) (.of main_call1_v3 : StableHlo.TRef sig ⟨S800000, .i32⟩) addi,
    StableHlo.TRef.ternary (.of main_call1_v1 : StableHlo.TRef sig ⟨S800000, .i1⟩) (.of main_call1_v3 : StableHlo.TRef sig ⟨S800000, .i32⟩) (.of main_v4 : StableHlo.TRef sig ⟨S800000, .i32⟩) (.of main_call1_v4 : StableHlo.TRef sig ⟨S800000, .i32⟩) select,
    StableHlo.TRef.unary main_call1_call0.v0 (.of main_call1_v5 : StableHlo.TRef sig ⟨S800000x1, .i32⟩) (broadcastInDim S800000x1 ![0] bcast_S800000_S800000x1_0) ]
/-- The operations of `hostOps3` that build the guard vector. -/
abbrev stB1 : List (HloOp τ sig (Elt F)) :=
  [ StableHlo.TRef.nullary (.of main_call1_c_1 : StableHlo.TRef sig ⟨S1, .i32⟩) (constantI S1 32 49999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S800000x1, .i32⟩) (broadcastInDim S800000x1 ![] bcast_S_S800000x1),
    StableHlo.TRef.binary (.of main_call1_v5 : StableHlo.TRef sig ⟨S800000x1, .i32⟩) (.of main_call1_v6 : StableHlo.TRef sig ⟨S800000x1, .i32⟩) (.of main_call1_v7 : StableHlo.TRef sig ⟨S800000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S800000x1, .i32⟩) (broadcastInDim S800000x1 ![0, 1] bcast_S1x1_S800000x1_0_1),
    StableHlo.TRef.binary (.of main_call1_v5 : StableHlo.TRef sig ⟨S800000x1, .i32⟩) (.of main_call1_v9 : StableHlo.TRef sig ⟨S800000x1, .i32⟩) (.of main_call1_v10 : StableHlo.TRef sig ⟨S800000x1, .i1⟩) (cmpi .sle),
    StableHlo.TRef.binary (.of main_call1_v7 : StableHlo.TRef sig ⟨S800000x1, .i1⟩) (.of main_call1_v10 : StableHlo.TRef sig ⟨S800000x1, .i1⟩) (.of main_call1_v11 : StableHlo.TRef sig ⟨S800000x1, .i1⟩) andi,
    StableHlo.TRef.nullary (.of main_call1_c_3 : StableHlo.TRef sig ⟨S_, .i1⟩) (constantI S_ 1 1#1),
    StableHlo.TRef.binary (.of main_call1_v11 : StableHlo.TRef sig ⟨S800000x1, .i1⟩) (.of main_call1_c_3 : StableHlo.TRef sig ⟨S_, .i1⟩) (.of main_call1_v12 : StableHlo.TRef sig ⟨S800000, .i1⟩) (fun x v => Host.reduce IntOp.andi x v reducesTo_S800000x1_S800000_d1 h_S_) ]
/-- The operations of `hostOps3` that build the selection. -/
abbrev stC1 : List (HloOp τ sig (Elt F)) :=
  [ StableHlo.TRef.binary (.of main_v27 : StableHlo.TRef sig ⟨S50000x64, .f32⟩) (.of main_call1_v5 : StableHlo.TRef sig ⟨S800000x1, .i32⟩) (.of main_call1_v13 : StableHlo.TRef sig ⟨S800000x64, .f32⟩) (fun x i => Host.gather gather_S50000x64_S800000x1_S800000x64_1_0_n_n_0_1_164 x i),
    StableHlo.TRef.unary (.of main_call1_v12 : StableHlo.TRef sig ⟨S800000, .i1⟩) (.of main_call1_v14 : StableHlo.TRef sig ⟨S800000x64, .i1⟩) (broadcastInDim S800000x64 ![0] bcast_S800000_S800000x64_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S800000x64, .f32⟩) (broadcastInDim S800000x64 ![] bcast_S_S800000x64),
    StableHlo.TRef.ternary (.of main_call1_v14 : StableHlo.TRef sig ⟨S800000x64, .i1⟩) (.of main_call1_v13 : StableHlo.TRef sig ⟨S800000x64, .f32⟩) (.of main_call1_v15 : StableHlo.TRef sig ⟨S800000x64, .f32⟩) (.of main_v28 : StableHlo.TRef sig ⟨S800000x64, .f32⟩) select ]
theorem split1 : (hostOps3 : List (HloOp τ sig (Elt F))) = stA1 ++ (stB1 ++ stC1) := rfl

variable (V : Valuation τ sig (Elt F)) in
theorem idx1 : after stA1 V (Proc.devRef .tc main_call1_v5) = idxCol (V (Proc.devRef .tc main_v4)) := by
  after_results
  rfl
variable (V : Valuation τ sig (Elt F)) in
theorem keepA1 : after stA1 V (Proc.devRef .tc main_v27) = V (Proc.devRef .tc main_v27) := by
  after_results
variable (V : Valuation τ sig (Elt F)) in
theorem mask1 : after stB1 V (Proc.devRef .tc main_call1_v12) = guardVec (V (Proc.devRef .tc main_call1_v5)) := by
  after_results
  rfl
variable (V : Valuation τ sig (Elt F)) in
theorem keepB1_idx : after stB1 V (Proc.devRef .tc main_call1_v5) = V (Proc.devRef .tc main_call1_v5) := by
  after_results
variable (V : Valuation τ sig (Elt F)) in
theorem keepB1_h : after stB1 V (Proc.devRef .tc main_v27) = V (Proc.devRef .tc main_v27) := by
  after_results
variable (V : Valuation τ sig (Elt F)) in
theorem sel1 : after stC1 V (Proc.devRef .tc main_v28)
    = select (broadcastInDim S800000x64 ![0] bcast_S800000_S800000x64_0 (V (Proc.devRef .tc main_call1_v12)))
        (Host.gather gather_S50000x64_S800000x1_S800000x64_1_0_n_n_0_1_164 (V (Proc.devRef .tc main_v27)) (V (Proc.devRef .tc main_call1_v5)))
        (broadcastInDim S800000x64 ![] bcast_S_S800000x64 (constant S_ .f32 0x7FC00000#32)) := by
  after_results
  rfl

variable (V : Valuation τ sig (Elt F)) in
/-- `main_v28` after `hostOps3`, at any float values, is the guarded gather of `main_v27` at the source vector `main_v4`. -/
theorem take1_term : after hostOps3 V (Proc.devRef .tc main_v28) = guardedGather (V (Proc.devRef .tc main_v27)) (V (Proc.devRef .tc main_v4)) := by
  rw [split1, after_append, after_append, sel1, mask1, keepB1_idx, keepB1_h, idx1, keepA1]
  rfl

/-- `main_v28` after `hostOps3`: with the source indices in range, the guarded gather of the rows of `main_v27` is the gather at the wrapped indices. -/
theorem take1 (V : Valuation τ sig (Elt Ideal))
    (hs : ∀ e : Fin 800000, (-50000 : Int) ≤ (V (Proc.devRef .tc main_v4) (ValueIdx.ix1 e)).toInt ∧ (V (Proc.devRef .tc main_v4) (ValueIdx.ix1 e)).toInt < 50000) :
    after hostOps3 V (Proc.devRef .tc main_v28) = Host.gather gather_S50000x64_S800000x1_S800000x64_1_0_n_n_0_1_164 (V (Proc.devRef .tc main_v27)) (Cert.Spec.wrapIdx (V (Proc.devRef .tc main_v4))) :=
  (take1_term V).trans (guarded _ _ hs)

/-! ## The gather before edge region 5 (`hostOps5`) -/

/-- The operations of `hostOps5` that build the index column. -/
abbrev stA2 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S800000, .i32⟩) (broadcastInDim S800000 ![] bcast_S_S800000),
    StableHlo.TRef.binary (.of main_v4 : StableHlo.TRef sig ⟨S800000, .i32⟩) (.of main_call2_v0 : StableHlo.TRef sig ⟨S800000, .i32⟩) (.of main_call2_v1 : StableHlo.TRef sig ⟨S800000, .i1⟩) (cmpi .slt),
    StableHlo.TRef.nullary (.of main_call2_c_0 : StableHlo.TRef sig ⟨S_, .i32⟩) (constantI S_ 32 50000#32),
    StableHlo.TRef.unary (.of main_call2_c_0 : StableHlo.TRef sig ⟨S_, .i32⟩) (.of main_call2_v2 : StableHlo.TRef sig ⟨S800000, .i32⟩) (broadcastInDim S800000 ![] bcast_S_S800000),
    StableHlo.TRef.binary (.of main_v4 : StableHlo.TRef sig ⟨S800000, .i32⟩) (.of main_call2_v2 : StableHlo.TRef sig ⟨S800000, .i32⟩) (.of main_call2_v3 : StableHlo.TRef sig ⟨S800000, .i32⟩) addi,
    StableHlo.TRef.ternary (.of main_call2_v1 : StableHlo.TRef sig ⟨S800000, .i1⟩) (.of main_call2_v3 : StableHlo.TRef sig ⟨S800000, .i32⟩) (.of main_v4 : StableHlo.TRef sig ⟨S800000, .i32⟩) (.of main_call2_v4 : StableHlo.TRef sig ⟨S800000, .i32⟩) select,
    StableHlo.TRef.unary main_call2_call0.v0 (.of main_call2_v5 : StableHlo.TRef sig ⟨S800000x1, .i32⟩) (broadcastInDim S800000x1 ![0] bcast_S800000_S800000x1_0) ]
/-- The operations of `hostOps5` that build the guard vector. -/
abbrev stB2 : List (HloOp τ sig (Elt F)) :=
  [ StableHlo.TRef.nullary (.of main_call2_c_1 : StableHlo.TRef sig ⟨S1, .i32⟩) (constantI S1 32 49999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S800000x1, .i32⟩) (broadcastInDim S800000x1 ![] bcast_S_S800000x1),
    StableHlo.TRef.binary (.of main_call2_v5 : StableHlo.TRef sig ⟨S800000x1, .i32⟩) (.of main_call2_v6 : StableHlo.TRef sig ⟨S800000x1, .i32⟩) (.of main_call2_v7 : StableHlo.TRef sig ⟨S800000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S800000x1, .i32⟩) (broadcastInDim S800000x1 ![0, 1] bcast_S1x1_S800000x1_0_1),
    StableHlo.TRef.binary (.of main_call2_v5 : StableHlo.TRef sig ⟨S800000x1, .i32⟩) (.of main_call2_v9 : StableHlo.TRef sig ⟨S800000x1, .i32⟩) (.of main_call2_v10 : StableHlo.TRef sig ⟨S800000x1, .i1⟩) (cmpi .sle),
    StableHlo.TRef.binary (.of main_call2_v7 : StableHlo.TRef sig ⟨S800000x1, .i1⟩) (.of main_call2_v10 : StableHlo.TRef sig ⟨S800000x1, .i1⟩) (.of main_call2_v11 : StableHlo.TRef sig ⟨S800000x1, .i1⟩) andi,
    StableHlo.TRef.nullary (.of main_call2_c_3 : StableHlo.TRef sig ⟨S_, .i1⟩) (constantI S_ 1 1#1),
    StableHlo.TRef.binary (.of main_call2_v11 : StableHlo.TRef sig ⟨S800000x1, .i1⟩) (.of main_call2_c_3 : StableHlo.TRef sig ⟨S_, .i1⟩) (.of main_call2_v12 : StableHlo.TRef sig ⟨S800000, .i1⟩) (fun x v => Host.reduce IntOp.andi x v reducesTo_S800000x1_S800000_d1 h_S_) ]
/-- The operations of `hostOps5` that build the selection. -/
abbrev stC2 : List (HloOp τ sig (Elt F)) :=
  [ StableHlo.TRef.binary (.of main_v48 : StableHlo.TRef sig ⟨S50000x64, .f32⟩) (.of main_call2_v5 : StableHlo.TRef sig ⟨S800000x1, .i32⟩) (.of main_call2_v13 : StableHlo.TRef sig ⟨S800000x64, .f32⟩) (fun x i => Host.gather gather_S50000x64_S800000x1_S800000x64_1_0_n_n_0_1_164 x i),
    StableHlo.TRef.unary (.of main_call2_v12 : StableHlo.TRef sig ⟨S800000, .i1⟩) (.of main_call2_v14 : StableHlo.TRef sig ⟨S800000x64, .i1⟩) (broadcastInDim S800000x64 ![0] bcast_S800000_S800000x64_0),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S800000x64, .f32⟩) (broadcastInDim S800000x64 ![] bcast_S_S800000x64),
    StableHlo.TRef.ternary (.of main_call2_v14 : StableHlo.TRef sig ⟨S800000x64, .i1⟩) (.of main_call2_v13 : StableHlo.TRef sig ⟨S800000x64, .f32⟩) (.of main_call2_v15 : StableHlo.TRef sig ⟨S800000x64, .f32⟩) (.of main_v49 : StableHlo.TRef sig ⟨S800000x64, .f32⟩) select ]
theorem split2 : (hostOps5 : List (HloOp τ sig (Elt F))) = stA2 ++ (stB2 ++ stC2) := rfl

variable (V : Valuation τ sig (Elt F)) in
theorem idx2 : after stA2 V (Proc.devRef .tc main_call2_v5) = idxCol (V (Proc.devRef .tc main_v4)) := by
  after_results
  rfl
variable (V : Valuation τ sig (Elt F)) in
theorem keepA2 : after stA2 V (Proc.devRef .tc main_v48) = V (Proc.devRef .tc main_v48) := by
  after_results
variable (V : Valuation τ sig (Elt F)) in
theorem mask2 : after stB2 V (Proc.devRef .tc main_call2_v12) = guardVec (V (Proc.devRef .tc main_call2_v5)) := by
  after_results
  rfl
variable (V : Valuation τ sig (Elt F)) in
theorem keepB2_idx : after stB2 V (Proc.devRef .tc main_call2_v5) = V (Proc.devRef .tc main_call2_v5) := by
  after_results
variable (V : Valuation τ sig (Elt F)) in
theorem keepB2_h : after stB2 V (Proc.devRef .tc main_v48) = V (Proc.devRef .tc main_v48) := by
  after_results
variable (V : Valuation τ sig (Elt F)) in
theorem sel2 : after stC2 V (Proc.devRef .tc main_v49)
    = select (broadcastInDim S800000x64 ![0] bcast_S800000_S800000x64_0 (V (Proc.devRef .tc main_call2_v12)))
        (Host.gather gather_S50000x64_S800000x1_S800000x64_1_0_n_n_0_1_164 (V (Proc.devRef .tc main_v48)) (V (Proc.devRef .tc main_call2_v5)))
        (broadcastInDim S800000x64 ![] bcast_S_S800000x64 (constant S_ .f32 0x7FC00000#32)) := by
  after_results
  rfl

variable (V : Valuation τ sig (Elt F)) in
/-- `main_v49` after `hostOps5`, at any float values, is the guarded gather of `main_v48` at the source vector `main_v4`. -/
theorem take2_term : after hostOps5 V (Proc.devRef .tc main_v49) = guardedGather (V (Proc.devRef .tc main_v48)) (V (Proc.devRef .tc main_v4)) := by
  rw [split2, after_append, after_append, sel2, mask2, keepB2_idx, keepB2_h, idx2, keepA2]
  rfl

/-- `main_v49` after `hostOps5`: with the source indices in range, the guarded gather of the rows of `main_v48` is the gather at the wrapped indices. -/
theorem take2 (V : Valuation τ sig (Elt Ideal))
    (hs : ∀ e : Fin 800000, (-50000 : Int) ≤ (V (Proc.devRef .tc main_v4) (ValueIdx.ix1 e)).toInt ∧ (V (Proc.devRef .tc main_v4) (ValueIdx.ix1 e)).toInt < 50000) :
    after hostOps5 V (Proc.devRef .tc main_v49) = Host.gather gather_S50000x64_S800000x1_S800000x64_1_0_n_n_0_1_164 (V (Proc.devRef .tc main_v48)) (Cert.Spec.wrapIdx (V (Proc.devRef .tc main_v4))) :=
  (take2_term V).trans (guarded _ _ hs)

end Cert.KernelIdeal.Host

end
-- ==== Proof.LibPerceptron.lean ====
/-
  Four facts about a two-layer perceptron's arithmetic, free of any particular sizes.

  A block that is loaded or stored whole sits at offset zero on both axes. A product of an n×k matrix by a k×m matrix,
  accumulated from zero, read at row r and column c, is the plain sum over the contracted coordinate of the entries'
  products. A one-row bias broadcast down n rows reads, at (r, c), its entry of column c. And the perceptron
  tanh (lrelu (x · W0 + b0) · W1 + b1) acts on each row by itself: a row of a block that is a row of the whole matrix,
  taken through the same weights and biases, gives that row of the perceptron of the whole matrix.
-/
import proofs.«425574_j14697378087540_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.LibPerceptron

open Idealize.ShloMosaic
open Idealize.ShloMosaic.ValueIdx

/-- The offsets of a block loaded or stored whole are zero on both axes: the pair (0, 0) is the constant function 0. -/
theorem zeroOff : (![0, 0] : Fin 2 → Nat) = fun _ => 0 := funext fun a => by fin_cases a <;> rfl

/-- A plain matrix product (rows of the left operand against columns of the right, one contracted axis) of an n×k by
    a k×m matrix, accumulated from zero and read at (a, b), is the sum over the contracted coordinate c of
    A[a, c] · B[c, b]. -/
theorem matmul_at {n k m : Nat} {φ₁ φ₂ : FTy}
    (w : DotDims.WF ⟨2, ![n, k]⟩ ⟨2, ![k, m]⟩ ⟨2, ![n, m]⟩ [1] [0] [0] [1] [] [])
    (A : FVec Ideal ⟨2, ![n, k]⟩ φ₁) (B : FVec Ideal ⟨2, ![k, m]⟩ φ₂) (a : Fin n) (b : Fin m) :
    matmul (⟨[1], [0], [0], [1], [], [], w⟩ : DotDims ⟨2, ![n, k]⟩ ⟨2, ![k, m]⟩ ⟨2, ![n, m]⟩) none A B
        (constant (F := Ideal) ⟨2, ![n, m]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims ⟨2, ![n, k]⟩ ⟨2, ![k, m]⟩ ⟨2, ![n, m]⟩) k rfl rfl).symm]
  refine Finset.sum_congr rfl fun c _ => ?_
  have c2 := contrEquiv1_symm_val
    (⟨[1], [0], [0], [1], [], [], w⟩ : DotDims ⟨2, ![n, k]⟩ ⟨2, ![k, m]⟩ ⟨2, ![n, m]⟩) k rfl rfl c
  have l2 : (⟨[1], [0], [0], [1], [], [], w⟩ : DotDims ⟨2, ![n, k]⟩ ⟨2, ![k, m]⟩ ⟨2, ![n, m]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![n, k]⟩ ⟨2, ![k, m]⟩ ⟨2, ![n, m]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A one-row bias, recast to its own shape and broadcast down n rows, read at (p, q), is the bias's entry of
    column q. -/
theorem biasRow_at {n d : Nat} (b : (⟨2, ![1, d]⟩ : Shape).Idx → EReal)
    (hs : (⟨2, ![1, d]⟩ : Shape).ShapeCasts ⟨2, ![1, d]⟩) (hb : (⟨2, ![1, d]⟩ : Shape).Broadcasts ⟨2, ![n, d]⟩)
    (p : Fin n) (q : Fin d) :
    broadcastTo ⟨2, ![n, d]⟩ (shapeCast ⟨2, ![1, d]⟩ b hs) hb (ix2 p q) = b (ix2 (0 : Fin 1) q) := by
  rw [broadcastTo_1b_ab_apply, shapeCast_self]

/-- The perceptron works row by row: if row p of the block xb is row r of the matrix X, and the block's weights and
    biases are the whole ones, then the perceptron of the block at (p, q) is the perceptron of X at (r, q). -/
theorem mlpAt_row {n N din dh dout : Nat}
    (xb : FVec Ideal ⟨2, ![n, din]⟩ .f32) (X : FVec Ideal ⟨2, ![N, din]⟩ .f32)
    (W0b W0 : FVec Ideal ⟨2, ![din, dh]⟩ .f32) (b0b b0 : FVec Ideal ⟨2, ![1, dh]⟩ .f32)
    (W1b W1 : FVec Ideal ⟨2, ![dh, dout]⟩ .f32) (b1b b1 : FVec Ideal ⟨2, ![1, dout]⟩ .f32)
    (p : Fin n) (r : Fin N) (q : Fin dout) (I : (⟨2, ![N, dout]⟩ : Shape).Idx)
    (hx : ∀ j : Fin din, xb (ix2 p j) = X (ix2 r j))
    (hW0 : W0b = W0) (hb0 : b0b = b0) (hW1 : W1b = W1) (hb1 : b1b = b1) (hI : I = ix2 r q) :
    Cert.Spec.mlpAt xb W0b b0b W1b b1b (ix2 p q) = Cert.Spec.mlpAt X W0 b0 W1 b1 I := by
  subst hW0 hb0 hW1 hb1 hI
  have hh : ∀ k : Fin dh, Cert.Spec.hidAt xb W0b b0b p k = Cert.Spec.hidAt X W0b b0b r k := fun k => by
    unfold Cert.Spec.hidAt
    simp only [hx]
  show Ideal.tanh ((∑ k : Fin dh, Cert.Spec.hidAt xb W0b b0b p k * W1b (ix2 k q)) + b1b (ix2 0 q))
    = Ideal.tanh ((∑ k : Fin dh, Cert.Spec.hidAt X W0b b0b r k * W1b (ix2 k q)) + b1b (ix2 0 q))
  simp only [hh]

end Cert.LibPerceptron

end
-- ==== Proof.KReg0.lean ====
/-
  The first perceptron's region: what its result array holds when the region ends.

  The region walks the 50000 rows of the node features in five blocks of 10000 rows. At each block it multiplies the
  block by the first weight matrix (a plain sum over the contracted coordinate, from zero), adds the first bias row to
  every row, applies the leaky rectifier entry by entry, multiplies by the second weight matrix, adds the second bias
  row and takes the hyperbolic tangent. Every step acts on each row by itself and the weights and biases arrive whole at
  every block, so block t of the result is block t of the two-layer perceptron of the whole feature matrix; the five
  blocks tile the rows (row r lies in block r / 10000), so the array ends holding that perceptron.
-/
import proofs.«425574_j14697378087540_1_alg».proof.Proof.Gen.KernelIdeal.Frame
import proofs.«425574_j14697378087540_1_alg».proof.Proof.Spec
import proofs.«425574_j14697378087540_1_alg».proof.Proof.LibPerceptron
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegValue

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's arithmetic on whole blocks is the two-layer perceptron of the block's rows. -/
theorem perc_pay0 (x : Vec Ideal S10000x16 .f32) (W0 : Vec Ideal S16x64 .f32) (b0 : Vec Ideal S1x64 .f32)
    (W1 : Vec Ideal S64x64 .f32) (b1 : Vec Ideal S1x64 .f32) :
    k0_pay1 (F := Ideal) x W0 b0 W1 b1 = Cert.Spec.mlpAt x W0 b0 W1 b1 := by
  funext j
  obtain ⟨p, q, rfl⟩ : ∃ (p : Fin 10000) (q : Fin 64), j = ix2 p q := ⟨j 0, j 1, eq_ix2 j⟩
  unfold k0_pay1
  refine congrArg Ideal.tanh ?_
  refine congrArg₂ (· + ·) ?_ ?_
  · refine (Cert.LibPerceptron.matmul_at dot_S10000x64_S64x64_S10000x64_1_0_0_1_n_n_wf _ _ p q).trans ?_
    refine Finset.sum_congr rfl fun k _ => ?_
    refine congrArg₂ (· * ·) ?_ rfl
    refine congrArg Cert.Spec.lrelu ?_
    refine congrArg₂ (· + ·) ?_ ?_
    · exact Cert.LibPerceptron.matmul_at dot_S10000x16_S16x64_S10000x64_1_0_0_1_n_n_wf _ _ p k
    · exact Cert.LibPerceptron.biasRow_at b0 _ _ p k
  · exact Cert.LibPerceptron.biasRow_at b1 _ _ p q

/-- The printed index maps over the five grid points: the row-blocked windows (the features in, the result out) sit at
    block (t, 0); the weight and bias windows are whole, block (0, 0). -/
theorem perc_idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the feature block at point t is row 10000·t + p of the feature matrix. -/
theorem perc_xrow0 (c : Dev nD) (t : Fin cfg0.N) (p : Fin 10000) (r : Fin 50000) (hr : r.val = t.val * 10000 + p.val)
    (j : Fin 16) : (iblk0 V c 0 t : Vec Ideal S10000x16 .f32) (ix2 p j) = (V c main_arg0 : Vec Ideal S50000x16 .f32) (ix2 r j) := by
  obtain ⟨e0, e1, -⟩ := perc_idx0 t
  show V c main_arg0 (((cfg0.win 0).blk t).view.emb (ix2 p j)) = V c main_arg0 (ix2 r j)
  refine congrArg (V c main_arg0) (funext fun a => Fin.ext ?_)
  match a with
  | ⟨0, _⟩ => show win0_0.index t (0 : Fin 2) * 10000 + 1 * p.val = r.val; omega
  | ⟨1, _⟩ => show win0_0.index t (1 : Fin 2) * 16 + 1 * j.val = j.val; omega

/-- The first layer's weights arrive whole at every point. -/
theorem perc_w0_0 (c : Dev nD) (t : Fin cfg0.N) : (iblk0 V c 1 t : Vec Ideal S16x64 .f32) = V c main_arg3 := by
  obtain ⟨-, -, e0, e1, -⟩ := perc_idx0 t
  funext y
  show V c main_arg3 (((cfg0.win 1).blk t).view.emb y) = V c main_arg3 y
  refine congrArg (V c main_arg3) (funext fun a => Fin.ext ?_)
  match a with
  | ⟨0, _⟩ => show win0_1.index t (0 : Fin 2) * 16 + 1 * (y 0).val = (y 0).val; omega
  | ⟨1, _⟩ => show win0_1.index t (1 : Fin 2) * 64 + 1 * (y 1).val = (y 1).val; omega

/-- The first layer's bias row arrives whole at every point. -/
theorem perc_b0_0 (c : Dev nD) (t : Fin cfg0.N) : (iblk0 V c 2 t : Vec Ideal S1x64 .f32) = V c main_v0 := by
  obtain ⟨-, -, -, -, e0, e1, -⟩ := perc_idx0 t
  funext y
  show V c main_v0 (((cfg0.win 2).blk t).view.emb y) = V c main_v0 y
  refine congrArg (V c main_v0) (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- The second layer's weights arrive whole at every point. -/
theorem perc_w1_0 (c : Dev nD) (t : Fin cfg0.N) : (iblk0 V c 3 t : Vec Ideal S64x64 .f32) = V c main_arg5 := by
  obtain ⟨-, -, -, -, -, -, e0, e1, -⟩ := perc_idx0 t
  funext y
  show V c main_arg5 (((cfg0.win 3).blk t).view.emb y) = V c main_arg5 y
  refine congrArg (V c main_arg5) (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- The second layer's bias row arrives whole at every point. -/
theorem perc_b1_0 (c : Dev nD) (t : Fin cfg0.N) : (iblk0 V c 4 t : Vec Ideal S1x64 .f32) = V c main_v1 := by
  obtain ⟨-, -, -, -, -, -, -, -, e0, e1, -⟩ := perc_idx0 t
  funext y
  show V c main_v1 (((cfg0.win 4).blk t).view.emb y) = V c main_v1 y
  refine congrArg (V c main_v1) (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- What point t writes back is block t of the perceptron of the whole feature matrix. -/
theorem perc_flushed0 (c : Dev nD) (t : Fin cfg0.N) :
    (dat0 (F := Ideal) V c).flushed 5 t = ((cfg0.win 5).blk t).view.read (Elt Ideal)
      (Cert.Spec.mlpAt (V c main_arg0) (V c main_arg3) (V c main_v0) (V c main_arg5) (V c main_v1)) := by
  show (cfg0.win 5).cut (grid0.coords t) ((dat0 (F := Ideal) V c).after 5 t) = _
  rw [after0_5]
  unfold out0_5
  rw [View.canon_unit_zero Cert.LibPerceptron.zeroOff]
  simp only [View.ld_unit_zero (S := S10000x16) Cert.LibPerceptron.zeroOff, View.ld_unit_zero (S := S16x64) Cert.LibPerceptron.zeroOff,
    View.ld_unit_zero (S := S1x64) Cert.LibPerceptron.zeroOff, View.ld_unit_zero (S := S64x64) Cert.LibPerceptron.zeroOff]
  rw [perc_pay0]
  obtain ⟨-, -, -, -, -, -, -, -, -, -, e0, e1⟩ := perc_idx0 t
  have hN : cfg0.N = 5 := N_0
  funext j
  obtain ⟨p, q, rfl⟩ : ∃ (p : Fin 10000) (q : Fin 64), j = ix2 p q := ⟨j 0, j 1, eq_ix2 j⟩
  have hlt : t.val * 10000 + p.val < 50000 := by have := t.isLt; have := p.isLt; omega
  refine Cert.LibPerceptron.mlpAt_row _ _ _ _ _ _ _ _ _ _ p ⟨t.val * 10000 + p.val, hlt⟩ q _
    (perc_xrow0 V c t p _ rfl) (perc_w0_0 V c t) (perc_b0_0 V c t) (perc_w1_0 V c t) (perc_b1_0 V c t)
    (funext fun a => Fin.ext ?_)
  match a with
  | ⟨0, _⟩ => show win0_5.index t (0 : Fin 2) * 10000 + 1 * p.val = t.val * 10000 + p.val; omega
  | ⟨1, _⟩ => show win0_5.index t (1 : Fin 2) * 64 + 1 * q.val = q.val; omega

/-- An index of the result is in point t's block iff each coordinate is in the block's range on its axis. -/
theorem perc_mem_blk0 (t : Fin cfg0.N) (i : S50000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v2).slice (win0_5.rect t)).set ↔ _
  rw [View.set_slice_whole, Rect.mem_set_unit]
  exact Iff.rfl

/-- Every row of the result lies in some point's block: row r in that of point r / 10000. -/
theorem perc_cover0 (i : S50000x64.Idx) :
    ∃ t : Fin cfg0.N, (cfg0.win 5).flush t = true ∧ i ∈ ((cfg0.win 5).blk t).view.set := by
  have hN : cfg0.N = 5 := N_0
  have hi0 : (i 0).val < 50000 := (i 0).isLt
  have hi1 : (i 1).val < 64 := (i 1).isLt
  refine ⟨⟨(i 0).val / 10000, by rw [hN]; omega⟩, flush0_5 _, ?_⟩
  rw [perc_mem_blk0]
  obtain ⟨-, -, -, -, -, -, -, -, -, -, e0, e1⟩ := perc_idx0 ⟨(i 0).val / 10000, by rw [hN]; omega⟩
  intro a
  match a with
  | ⟨0, _⟩ =>
    show win0_5.index _ (0 : Fin 2) * 10000 ≤ (i 0).val ∧ (i 0).val < win0_5.index _ (0 : Fin 2) * 10000 + 10000
    rw [e0]; show (i 0).val / 10000 * 10000 ≤ (i 0).val ∧ (i 0).val < (i 0).val / 10000 * 10000 + 10000; omega
  | ⟨1, _⟩ =>
    show win0_5.index _ (1 : Fin 2) * 64 ≤ (i 1).val ∧ (i 1).val < win0_5.index _ (1 : Fin 2) * 64 + 64
    rw [e1]; omega

/-- The first perceptron's region leaves in its result array the two-layer perceptron of the feature matrix. -/
theorem final0 (c : Dev nD) : (dat0 (F := Ideal) V c).arrAt 5 cfg0.N
    = Cert.Spec.mlpAt (V c main_arg0) (V c main_arg3) (V c main_v0) (V c main_arg5) (V c main_v1) :=
  (dat0 (F := Ideal) V c).arrAt_eq_of_cover 5 _ (fun t _ => perc_flushed0 V c t) perc_cover0

end Cert.KernelIdeal.RegValue

end
-- ==== Proof.KReg1.lean ====
/-
  The edge-message kernel of layer 1, read as one function of the arrays it is entered with.

  The kernel walks the 800000 edges in 100 blocks of 8000 rows. At block t it sees rows 8000 t … 8000 t + 7999 of the
  gathered source features and of the edge-weight column, and the whole one-row embedding weight and bias. At row p and
  column q of the block it writes  max (hsrc[p, q] + (w[p, 0] · We[0, q] + be[0, q])) 0 : the column of weights is spread
  along the 64 features, the two rows along the 8000 edges, and the operations act entry by entry. Row r of the output
  array lies in block r / 8000 and in no other, so once every block is written back the output array is the message
  function of the four input arrays at every index.
-/
import proofs.«425574_j14697378087540_1_alg».proof.Proof.Gen.KernelIdeal.Frame
import proofs.«425574_j14697378087540_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegValue

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The body reads and writes each of its buffers from the corner: both offsets are zero. -/
theorem edge1_off : (![0, 0] : Fin 2 → Nat) = fun _ => 0 :=
  funext fun a => match a with | ⟨0, _⟩ => rfl | ⟨1, _⟩ => rfl

/-- One entry of what the body computes from its four blocks: the source entry plus the edge's weight times the
    embedding weight of the column plus the column's bias, cut off below at zero. The weight column is read at column 0
    of the entry's row, the two one-row operands at row 0 of the entry's column. -/
theorem edge1_at (x0 : Vec Ideal S8000x64 .f32) (x1 : Vec Ideal S8000x1 .f32) (x2 x3 : Vec Ideal S1x64 .f32)
    (p : Fin 8000) (q : Fin 64) :
    k1_pay1 (F := Ideal) x0 x1 x2 x3 (ValueIdx.ix2 p q)
      = max (x0 (ValueIdx.ix2 p q) + (x1 (ValueIdx.ix2 p 0) * x2 (ValueIdx.ix2 0 q) + x3 (ValueIdx.ix2 0 q)))
          (Ideal.ofBits .f32 0x00000000#32) := by
  unfold k1_pay1
  simp only [shapeCast_self, ValueIdx.maximumf_apply, ValueIdx.addf_apply, ValueIdx.mulf_apply, ValueIdx.broadcast_apply]
  rw [broadcastTo_apply x1 broadcasts_S8000x1_S8000x64 (ValueIdx.ix2 p q) (ValueIdx.ix2 p 0)
        (fun a => match a with | ⟨0, _⟩ => rfl | ⟨1, _⟩ => rfl),
      broadcastTo_apply x2 broadcasts_S1x64_S8000x64 (ValueIdx.ix2 p q) (ValueIdx.ix2 0 q)
        (fun a => match a with | ⟨0, _⟩ => rfl | ⟨1, _⟩ => rfl),
      broadcastTo_apply x3 broadcasts_S1x64_S8000x64 (ValueIdx.ix2 p q) (ValueIdx.ix2 0 q)
        (fun a => match a with | ⟨0, _⟩ => rfl | ⟨1, _⟩ => rfl)] <;> rfl

/-- Where each window's block sits at grid point t: the two row-blocked inputs and the output at block row t, column
    block 0; the embedding weight and the bias at their one block. -/
theorem edge1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (p, q) of the source block at point t is entry (8000 t + p, q) of the source array. -/
theorem edge1_src_at (c : Dev nD) (t : Fin cfg1.N) (p : Fin 8000) (q : Fin 64) (i : S800000x64.Idx)
    (h0 : (i 0).val = t.val * 8000 + p.val) (h1 : (i 1).val = q.val) :
    (iblk1 V c 0 t : Vec Ideal S8000x64 .f32) (ValueIdx.ix2 p q) = (V c main_v7 : S800000x64.Idx → Elt Ideal .f32) i := by
  obtain ⟨e0, e1, -⟩ := edge1_idx t
  show (V c main_v7 : S800000x64.Idx → Elt Ideal .f32) (((cfg1.win 0).blk t).view.emb (ValueIdx.ix2 p q : S8000x64.Idx)) = _
  refine congrArg _ (funext fun a => Fin.ext ?_)
  match a with
  | ⟨0, _⟩ => show win1_0.index t (0 : Fin 2) * 8000 + 1 * p.val = (i 0).val; omega
  | ⟨1, _⟩ => show win1_0.index t (1 : Fin 2) * 64 + 1 * q.val = (i 1).val; omega

/-- Entry (p, 0) of the weight block at point t is entry (8000 t + p, 0) of the edge-weight column. -/
theorem edge1_w_at (c : Dev nD) (t : Fin cfg1.N) (p : Fin 8000) (k : S800000x1.Idx)
    (h0 : (k 0).val = t.val * 8000 + p.val) (h1 : (k 1).val = 0) :
    (iblk1 V c 1 t : Vec Ideal S8000x1 .f32) (ValueIdx.ix2 p 0) = (V c main_arg2 : S800000x1.Idx → Elt Ideal .f32) k := by
  obtain ⟨-, -, e0, e1, -⟩ := edge1_idx t
  show (V c main_arg2 : S800000x1.Idx → Elt Ideal .f32) (((cfg1.win 1).blk t).view.emb (ValueIdx.ix2 p 0 : S8000x1.Idx)) = _
  refine congrArg _ (funext fun a => Fin.ext ?_)
  match a with
  | ⟨0, _⟩ => show win1_1.index t (0 : Fin 2) * 8000 + 1 * p.val = (k 0).val; omega
  | ⟨1, _⟩ => show win1_1.index t (1 : Fin 2) * 1 + 1 * 0 = (k 1).val; omega

/-- The embedding-weight block is the whole one-row array at every point. -/
theorem edge1_we_at (c : Dev nD) (t : Fin cfg1.N) (q : Fin 64) (k : S1x64.Idx)
    (h0 : (k 0).val = 0) (h1 : (k 1).val = q.val) :
    (iblk1 V c 2 t : Vec Ideal S1x64 .f32) (ValueIdx.ix2 0 q) = (V c main_v9 : S1x64.Idx → Elt Ideal .f32) k := by
  obtain ⟨-, -, -, -, e0, e1, -⟩ := edge1_idx t
  show (V c main_v9 : S1x64.Idx → Elt Ideal .f32) (((cfg1.win 2).blk t).view.emb (ValueIdx.ix2 0 q : S1x64.Idx)) = _
  refine congrArg _ (funext fun a => Fin.ext ?_)
  match a with
  | ⟨0, _⟩ => show win1_2.index t (0 : Fin 2) * 1 + 1 * 0 = (k 0).val; omega
  | ⟨1, _⟩ => show win1_2.index t (1 : Fin 2) * 64 + 1 * q.val = (k 1).val; omega

/-- The bias block is the whole one-row array at every point. -/
theorem edge1_be_at (c : Dev nD) (t : Fin cfg1.N) (q : Fin 64) (k : S1x64.Idx)
    (h0 : (k 0).val = 0) (h1 : (k 1).val = q.val) :
    (iblk1 V c 3 t : Vec Ideal S1x64 .f32) (ValueIdx.ix2 0 q) = (V c main_v12 : S1x64.Idx → Elt Ideal .f32) k := by
  obtain ⟨-, -, -, -, -, -, e0, e1, -⟩ := edge1_idx t
  show (V c main_v12 : S1x64.Idx → Elt Ideal .f32) (((cfg1.win 3).blk t).view.emb (ValueIdx.ix2 0 q : S1x64.Idx)) = _
  refine congrArg _ (funext fun a => Fin.ext ?_)
  match a with
  | ⟨0, _⟩ => show win1_3.index t (0 : Fin 2) * 1 + 1 * 0 = (k 0).val; omega
  | ⟨1, _⟩ => show win1_3.index t (1 : Fin 2) * 64 + 1 * q.val = (k 1).val; omega

/-- What the body computes at entry (p, q) of point t's blocks is the message function of the four arrays at the array
    index (8000 t + p, q). -/
theorem edge1_block (c : Dev nD) (t : Fin cfg1.N) (p : Fin 8000) (q : Fin 64) (i : S800000x64.Idx)
    (h0 : (i 0).val = t.val * 8000 + p.val) (h1 : (i 1).val = q.val) :
    k1_pay1 (F := Ideal) (iblk1 V c 0 t) (iblk1 V c 1 t) (iblk1 V c 2 t) (iblk1 V c 3 t) (ValueIdx.ix2 p q)
      = Cert.Spec.edgeAt (V c main_v7) (V c main_arg2) (V c main_v9) (V c main_v12) i := by
  have hs := edge1_src_at V c t p q i h0 h1
  have hw := edge1_w_at V c t p (ValueIdx.ix2 (i 0) 0 : S800000x1.Idx) h0 rfl
  have hwe := edge1_we_at V c t q (ValueIdx.ix2 0 (i 1) : S1x64.Idx) rfl h1
  have hbe := edge1_be_at V c t q (ValueIdx.ix2 0 (i 1) : S1x64.Idx) rfl h1
  refine (edge1_at _ _ _ _ p q).trans ?_
  rw [hs, hw, hwe, hbe]
  rfl

/-- What point t writes back is block t of the message function of the four arrays. -/
theorem edge1_flushed (c : Dev nD) (t : Fin cfg1.N) :
    (dat1 (F := Ideal) V c).flushed 4 t
      = ((cfg1.win 4).blk t).view.read (Elt Ideal)
          (Cert.Spec.edgeAt (V c main_v7) (V c main_arg2) (V c main_v9) (V c main_v12)) := by
  show (cfg1.win 4).cut (grid1.coords t) ((dat1 V c).after 4 t) = _
  rw [after1_4]
  unfold out1_4
  rw [View.canon_unit_zero edge1_off]
  simp only [View.ld_unit_zero (S := S8000x64) edge1_off, View.ld_unit_zero (S := S8000x1) edge1_off,
    View.ld_unit_zero (S := S1x64) edge1_off]
  obtain ⟨-, -, -, -, -, -, -, -, e0, e1⟩ := edge1_idx t
  funext j
  obtain ⟨p, q, rfl⟩ : ∃ (p : Fin 8000) (q : Fin 64), j = ValueIdx.ix2 p q := ⟨j 0, j 1, ValueIdx.eq_ix2 j⟩
  show k1_pay1 (F := Ideal) (iblk1 V c 0 t) (iblk1 V c 1 t) (iblk1 V c 2 t) (iblk1 V c 3 t) (ValueIdx.ix2 p q)
      = Cert.Spec.edgeAt (V c main_v7) (V c main_arg2) (V c main_v9) (V c main_v12)
          (((cfg1.win 4).blk t).view.emb (ValueIdx.ix2 p q : S8000x64.Idx))
  refine edge1_block V c t p q _ ?_ ?_
  · show win1_4.index t (0 : Fin 2) * 8000 + 1 * p.val = t.val * 8000 + p.val; omega
  · show win1_4.index t (1 : Fin 2) * 64 + 1 * q.val = q.val; omega

/-- An index of the output array is in point t's block iff each coordinate is in the block's range on its axis. -/
theorem edge1_mem_blk (t : Fin cfg1.N) (i : S800000x64.Idx) :
    i ∈ ((cfg1.win 4).blk t).view.set ↔ ∀ a : Fin 2, win1_4.index t a * S8000x64.size a ≤ (i a).val
      ∧ (i a).val < win1_4.index t a * S8000x64.size a + S8000x64.size a := by
  show i ∈ ((View.whole main_v13).slice (win1_4.rect t)).set ↔ _
  rw [View.set_slice_whole, Rect.mem_set_unit]
  exact Iff.rfl

/-- Every index of the output array is written back: row r by the point r / 8000. -/
theorem edge1_cover (i : S800000x64.Idx) :
    ∃ t : Fin cfg1.N, (cfg1.win 4).flush t = true ∧ i ∈ ((cfg1.win 4).blk t).view.set := by
  have hi0 : (i 0).val < 800000 := (i 0).isLt
  have hi1 : (i 1).val < 64 := (i 1).isLt
  obtain ⟨t, ht⟩ : ∃ t : Fin cfg1.N, t.val = (i 0).val / 8000 :=
    ⟨⟨(i 0).val / 8000, Nat.lt_of_lt_of_eq (by omega : (i 0).val / 8000 < 100) N_1.symm⟩, rfl⟩
  obtain ⟨-, -, -, -, -, -, -, -, e0, e1⟩ := edge1_idx t
  refine ⟨t, flush1_4 t, ?_⟩
  rw [edge1_mem_blk]
  intro a
  match a with
  | ⟨0, _⟩ =>
    show win1_4.index t (0 : Fin 2) * 8000 ≤ (i 0).val ∧ (i 0).val < win1_4.index t (0 : Fin 2) * 8000 + 8000
    omega
  | ⟨1, _⟩ =>
    show win1_4.index t (1 : Fin 2) * 64 ≤ (i 1).val ∧ (i 1).val < win1_4.index t (1 : Fin 2) * 64 + 64
    omega

/-- The output array after the region: the message function of the source features, the edge weights, the embedding
    weight and the bias, at every index. -/
theorem final1 (c : Dev nD) : (dat1 (F := Ideal) V c).arrAt 4 cfg1.N
    = Cert.Spec.edgeAt (V c main_v7) (V c main_arg2) (V c main_v9) (V c main_v12) :=
  (dat1 (F := Ideal) V c).arrAt_eq_of_cover 4 _ (fun t _ => edge1_flushed V c t) edge1_cover

end Cert.KernelIdeal.RegValue

end
-- ==== Proof.KReg2.lean ====
/-
  The value of a node-update region: the array it writes is, index by index, the two-layer perceptron of the
  aggregated messages plus the node features, `tanh (lrelu ((agg + h)[r, :] · W0 + b0) · W1 + b1)`.

  The region walks the 50000 rows in ten blocks of 5000 rows; the weights and the bias rows arrive whole at every
  point. One block through the body is the same rows of the update: each layer is a product with a weight matrix,
  read as a plain sum over the 64 contracted positions, plus a bias row broadcast down the rows, and the rest is
  pointwise. The ten blocks cover the array.
-/
import proofs.«425574_j14697378087540_1_alg».proof.Proof.Gen.KernelIdeal.Frame
import proofs.«425574_j14697378087540_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegValue

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The origin of a two-axis rectangle -/

/-- The offsets of a load or store that starts at the first row and first column are the constant zero. -/
theorem nodeOrigin2 : (![0, 0] : Fin 2 → Nat) = fun _ => 0 :=
  funext fun a => by match a with | ⟨0, _⟩ => rfl | ⟨1, _⟩ => rfl

/-! ## The product of a block of rows with a square weight matrix

The product contracts the left operand's columns with the right operand's rows, so at output entry (r, c) and
contraction position k the left operand is read at (r, k) and the right one at (k, c). The four coordinate facts: -/

theorem nodeLhsRow2 (j : S5000x64.Idx) (k : dot_S5000x64_S64x64_S5000x64_1_0_0_1_n_n.contr.Idx) :
    (dot_S5000x64_S64x64_S5000x64_1_0_0_1_n_n.lhsIdx j k 0).val = (j 0).val := by
  simp [DotDims.lhsIdx, dot_S5000x64_S64x64_S5000x64_1_0_0_1_n_n]
  rfl

theorem nodeLhsCol2 (j : S5000x64.Idx) (k : dot_S5000x64_S64x64_S5000x64_1_0_0_1_n_n.contr.Idx) :
    (dot_S5000x64_S64x64_S5000x64_1_0_0_1_n_n.lhsIdx j k 1).val = (k ⟨0, by decide⟩).val :=
  DotDims.lhsIdx_val_of_single _ rfl j k

theorem nodeRhsRow2 (j : S5000x64.Idx) (k : dot_S5000x64_S64x64_S5000x64_1_0_0_1_n_n.contr.Idx) :
    (dot_S5000x64_S64x64_S5000x64_1_0_0_1_n_n.rhsIdx j k 0).val = (k ⟨0, by decide⟩).val :=
  DotDims.rhsIdx_val_of_single _ rfl j k

theorem nodeRhsCol2 (j : S5000x64.Idx) (k : dot_S5000x64_S64x64_S5000x64_1_0_0_1_n_n.contr.Idx) :
    (dot_S5000x64_S64x64_S5000x64_1_0_0_1_n_n.rhsIdx j k 1).val = (j 1).val := by
  simp [DotDims.rhsIdx, dot_S5000x64_S64x64_S5000x64_1_0_0_1_n_n]
  rfl

/-- The product accumulated from zero, at entry (p, q): the sum over the 64 contracted positions of the products of
    the entries. -/
theorem nodeMatmul2 (a : FVec Ideal S5000x64 .bf16) (b : FVec Ideal S64x64 .bf16) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  refine (Ideal.matmul_constant_zero_apply dot_S5000x64_S64x64_S5000x64_1_0_0_1_n_n none a b (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have hl : dot_S5000x64_S64x64_S5000x64_1_0_0_1_n_n.lhsIdx (ix2 p q) ((contrEquiv1 dot_S5000x64_S64x64_S5000x64_1_0_0_1_n_n 64 rfl rfl).symm k) = ix2 p k := by
    funext ax; apply Fin.ext
    match ax with
    | ⟨0, _⟩ => exact nodeLhsRow2 _ _
    | ⟨1, _⟩ => exact (nodeLhsCol2 _ _).trans hk
  have hr : dot_S5000x64_S64x64_S5000x64_1_0_0_1_n_n.rhsIdx (ix2 p q) ((contrEquiv1 dot_S5000x64_S64x64_S5000x64_1_0_0_1_n_n 64 rfl rfl).symm k) = ix2 k q := by
    funext ax; apply Fin.ext
    match ax with
    | ⟨0, _⟩ => exact (nodeRhsRow2 _ _).trans hk
    | ⟨1, _⟩ => exact nodeRhsCol2 _ _
  rw [hl, hr]

/-- One affine layer of the body at entry (p, q): the rows times the weights plus the bias row, which is broadcast
    down the rows. The format changes and the casts to the same shape change nothing. -/
theorem nodeAffine2 (a : FVec Ideal S5000x64 .f32) (w : Vec Ideal S64x64 .f32) (b : Vec Ideal S1x64 .f32) (p : Fin 5000) (q : Fin 64) :
    addf (matmul dot_S5000x64_S64x64_S5000x64_1_0_0_1_n_n none (truncf .bf16 a bitsLt_bf16_f32)
        (truncf .bf16 (shapeCast S64x64 w shapeCasts_S64x64_S64x64) bitsLt_bf16_f32)
        (constant (F := Ideal) S5000x64 .f32 0x00000000#32))
      (broadcastTo S5000x64 (shapeCast S1x64 b shapeCasts_S1x64_S1x64) broadcasts_S1x64_S5000x64) (ix2 p q)
      = (∑ k : Fin 64, a (ix2 p k) * w (ix2 k q)) + b (ix2 0 q) := by
  rw [shapeCast_self, shapeCast_self]
  refine (addf_apply _ _ _).trans ?_
  rw [nodeMatmul2, broadcastTo_1b_ab_apply]
  rfl

/-- The body's result at entry (p, q) of the block: the two-layer perceptron of the sum of the two row blocks. -/
theorem nodePay2_apply (x0 x1 : Vec Ideal S5000x64 .f32) (w0 : Vec Ideal S64x64 .f32) (b0 : Vec Ideal S1x64 .f32)
    (w1 : Vec Ideal S64x64 .f32) (b1 : Vec Ideal S1x64 .f32) (p : Fin 5000) (q : Fin 64) :
    k2_pay1 (F := Ideal) x0 x1 w0 b0 w1 b1 (ix2 p q)
      = Ideal.tanh ((∑ k : Fin 64, Cert.Spec.lrelu ((∑ j : Fin 64, (x0 (ix2 p j) + x1 (ix2 p j)) * w0 (ix2 j k)) + b0 (ix2 0 k))
          * w1 (ix2 k q)) + b1 (ix2 0 q)) := by
  unfold k2_pay1
  refine (congrArg Ideal.tanh (nodeAffine2 _ w1 b1 p q)).trans ?_
  refine congrArg Ideal.tanh (congrArg (· + b1 (ix2 0 q)) (Finset.sum_congr rfl fun k _ => congrArg (· * w1 (ix2 k q)) ?_))
  refine (congrArg Cert.Spec.lrelu (nodeAffine2 _ w0 b0 p k)).trans ?_
  rw [shapeCast_self, shapeCast_self]
  rfl

/-! ## The windows' blocks, read off the arrays -/

/-- The printed index maps, decided over the ten grid points: the three row-blocked windows take block `t` of the rows
    at point `t` and the whole width; the weight and bias windows are whole. -/
theorem nodeIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The aggregated messages' block at point `t` is the array's rows under the output's block. -/
theorem nodeIn2_0 (c : Dev nD) (t : Fin cfg2.N) (y : S5000x64.Idx) :
    (iblk2 (F := Ideal) V c 0 t : Vec Ideal S5000x64 .f32) y = V c main_v16 (((cfg2.win 6).blk t).view.emb y) := by
  obtain ⟨e00, e01, -, -, -, -, -, -, -, -, -, -, e60, e61⟩ := nodeIdx2 t
  show V c main_v16 (((cfg2.win 0).blk t).view.emb y) = V c main_v16 (((cfg2.win 6).blk t).view.emb y)
  refine congrArg _ (funext fun a => Fin.ext ?_)
  match a with
  | ⟨0, _⟩ => show win2_0.index t (0 : Fin 2) * 5000 + 1 * (y 0).val = win2_6.index t (0 : Fin 2) * 5000 + 1 * (y 0).val; omega
  | ⟨1, _⟩ => show win2_0.index t (1 : Fin 2) * 64 + 1 * (y 1).val = win2_6.index t (1 : Fin 2) * 64 + 1 * (y 1).val; omega

/-- The node features' block at point `t` likewise. -/
theorem nodeIn2_1 (c : Dev nD) (t : Fin cfg2.N) (y : S5000x64.Idx) :
    (iblk2 (F := Ideal) V c 1 t : Vec Ideal S5000x64 .f32) y = V c main_v2 (((cfg2.win 6).blk t).view.emb y) := by
  obtain ⟨-, -, e10, e11, -, -, -, -, -, -, -, -, e60, e61⟩ := nodeIdx2 t
  show V c main_v2 (((cfg2.win 1).blk t).view.emb y) = V c main_v2 (((cfg2.win 6).blk t).view.emb y)
  refine congrArg _ (funext fun a => Fin.ext ?_)
  match a with
  | ⟨0, _⟩ => show win2_1.index t (0 : Fin 2) * 5000 + 1 * (y 0).val = win2_6.index t (0 : Fin 2) * 5000 + 1 * (y 0).val; omega
  | ⟨1, _⟩ => show win2_1.index t (1 : Fin 2) * 64 + 1 * (y 1).val = win2_6.index t (1 : Fin 2) * 64 + 1 * (y 1).val; omega

/-- The first layer's weights arrive whole at every point. -/
theorem nodeIn2_2 (c : Dev nD) (t : Fin cfg2.N) :
    (iblk2 (F := Ideal) V c 2 t : Vec Ideal S64x64 .f32) = V c main_v18 := by
  obtain ⟨-, -, -, -, e0, e1, -, -, -, -, -, -, -, -⟩ := nodeIdx2 t
  funext y
  show V c main_v18 (((cfg2.win 2).blk t).view.emb y) = V c main_v18 y
  refine congrArg _ (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- So does the first layer's bias row. -/
theorem nodeIn2_3 (c : Dev nD) (t : Fin cfg2.N) :
    (iblk2 (F := Ideal) V c 3 t : Vec Ideal S1x64 .f32) = V c main_v25 := by
  obtain ⟨-, -, -, -, -, -, e0, e1, -, -, -, -, -, -⟩ := nodeIdx2 t
  funext y
  show V c main_v25 (((cfg2.win 3).blk t).view.emb y) = V c main_v25 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- So do the second layer's weights. -/
theorem nodeIn2_4 (c : Dev nD) (t : Fin cfg2.N) :
    (iblk2 (F := Ideal) V c 4 t : Vec Ideal S64x64 .f32) = V c main_v22 := by
  obtain ⟨-, -, -, -, -, -, -, -, e0, e1, -, -, -, -⟩ := nodeIdx2 t
  funext y
  show V c main_v22 (((cfg2.win 4).blk t).view.emb y) = V c main_v22 y
  refine congrArg _ (funext fun a => Fin.ext ?_)
  match a with
  | ⟨0, _⟩ => show win2_4.index t (0 : Fin 2) * 64 + 1 * (y 0).val = (y 0).val; omega
  | ⟨1, _⟩ => show win2_4.index t (1 : Fin 2) * 64 + 1 * (y 1).val = (y 1).val; omega

/-- And the second layer's bias row. -/
theorem nodeIn2_5 (c : Dev nD) (t : Fin cfg2.N) :
    (iblk2 (F := Ideal) V c 5 t : Vec Ideal S1x64 .f32) = V c main_v26 := by
  obtain ⟨-, -, -, -, -, -, -, -, -, -, e0, e1, -, -⟩ := nodeIdx2 t
  funext y
  show V c main_v26 (((cfg2.win 5).blk t).view.emb y) = V c main_v26 y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 64 + 1 * (y 1).val = (y 1).val; omega

/-! ## From the body's result on a block to the node update of the arrays -/

/-- A block of rows through the body is the same rows of the node update: when the two row blocks are the arrays' rows
    at row `r` for block row `p`, entry (p, q) of the body's result is entry (r, q) of the update. -/
theorem nodeBlock2 (A H : FVec Ideal S50000x64 .f32) (W0 : FVec Ideal S64x64 .f32) (B0 : FVec Ideal S1x64 .f32)
    (W1 : FVec Ideal S64x64 .f32) (B1 : FVec Ideal S1x64 .f32) (x0 x1 : Vec Ideal S5000x64 .f32)
    (p : Fin 5000) (q : Fin 64) (r : Fin 50000)
    (hx0 : ∀ k : Fin 64, x0 (ix2 p k) = A (ix2 r k)) (hx1 : ∀ k : Fin 64, x1 (ix2 p k) = H (ix2 r k)) :
    k2_pay1 (F := Ideal) x0 x1 W0 B0 W1 B1 (ix2 p q) = Cert.Spec.nodeAt A H W0 B0 W1 B1 (ix2 r q) := by
  refine (nodePay2_apply x0 x1 W0 B0 W1 B1 p q).trans ?_
  refine congrArg Ideal.tanh (congrArg (· + B1 (ix2 0 q)) (Finset.sum_congr rfl fun k _ => congrArg (· * W1 (ix2 k q)) ?_))
  refine congrArg Cert.Spec.lrelu (congrArg (· + B0 (ix2 0 k)) (Finset.sum_congr rfl fun j _ => congrArg (· * W0 (ix2 j k)) ?_))
  rw [hx0 j, hx1 j]

/-- WHAT POINT `t` WRITES BACK is block `t` of the node update of the arrays as the region finds them. -/
theorem nodeFlushed2 (c : Dev nD) (t : Fin cfg2.N) :
    (dat2 (F := Ideal) V c).flushed 6 t
      = ((cfg2.win 6).blk t).view.read (Elt Ideal)
          (Cert.Spec.nodeAt (V c main_v16) (V c main_v2) (V c main_v18) (V c main_v25) (V c main_v22) (V c main_v26)) := by
  show (cfg2.win 6).cut (grid2.coords t) ((dat2 (F := Ideal) V c).after 6 t) = _
  rw [after2_6]
  unfold out2_6
  rw [View.canon_unit_zero nodeOrigin2]
  simp only [View.ld_unit_zero (S := S5000x64) nodeOrigin2, View.ld_unit_zero (S := S64x64) nodeOrigin2,
    View.ld_unit_zero (S := S1x64) nodeOrigin2]
  rw [nodeIn2_2 V c t, nodeIn2_3 V c t, nodeIn2_4 V c t, nodeIn2_5 V c t]
  obtain ⟨-, -, -, -, -, -, -, -, -, -, -, -, e60, e61⟩ := nodeIdx2 t
  funext j
  have hj : (j : S5000x64.Idx) = ix2 (j 0) (j 1) := eq_ix2 j
  have hi : ((cfg2.win 6).blk t).view.emb j = ix2 (((cfg2.win 6).blk t).view.emb j 0) (j 1) := by
    funext a; apply Fin.ext
    match a with
    | ⟨0, _⟩ => rfl
    | ⟨1, _⟩ => show win2_6.index t (1 : Fin 2) * 64 + 1 * (j 1).val = (j 1).val; omega
  show k2_pay1 (F := Ideal) _ _ _ _ _ _ j = Cert.Spec.nodeAt _ _ _ _ _ _ (((cfg2.win 6).blk t).view.emb j)
  rw [hi]
  refine (congrArg (k2_pay1 (F := Ideal) _ _ _ _ _ _) hj).trans ?_
  refine nodeBlock2 _ _ _ _ _ _ _ _ (j 0) (j 1) (((cfg2.win 6).blk t).view.emb j 0) (fun k => ?_) (fun k => ?_)
  · refine (nodeIn2_0 V c t (ix2 (j 0) k)).trans (congrArg _ (funext fun a => Fin.ext ?_))
    match a with
    | ⟨0, _⟩ => rfl
    | ⟨1, _⟩ => show win2_6.index t (1 : Fin 2) * 64 + 1 * k.val = k.val; omega
  · refine (nodeIn2_1 V c t (ix2 (j 0) k)).trans (congrArg _ (funext fun a => Fin.ext ?_))
    match a with
    | ⟨0, _⟩ => rfl
    | ⟨1, _⟩ => show win2_6.index t (1 : Fin 2) * 64 + 1 * k.val = k.val; omega

/-! ## The array after the run -/

/-- An index of the output array is in point `t`'s block iff each coordinate is in the block's range on its axis. -/
theorem nodeMemBlk2 (t : Fin cfg2.N) (i : S50000x64.Idx) :
    i ∈ ((cfg2.win 6).blk t).view.set
      ↔ ∀ a : Fin 2, win2_6.index t a * S5000x64.size a ≤ (i a).val ∧ (i a).val < win2_6.index t a * S5000x64.size a + S5000x64.size a := by
  show i ∈ ((View.whole main_v27).slice (win2_6.rect t)).set ↔ _
  rw [View.set_slice_whole, Rect.mem_set_unit]
  exact Iff.rfl

/-- THE ARRAY after the region: the node update of the arrays the region found. Row `r` is in the block of point
    `r / 5000`, so the ten blocks cover the array. -/
theorem final2 (c : Dev nD) :
    (dat2 (F := Ideal) V c).arrAt 6 cfg2.N
      = Cert.Spec.nodeAt (V c main_v16) (V c main_v2) (V c main_v18) (V c main_v25) (V c main_v22) (V c main_v26) :=
  (dat2 (F := Ideal) V c).arrAt_eq_of_cover 6 _ (fun t _ => nodeFlushed2 V c t) fun i => by
    have hi0 : (i 0).val < 50000 := (i 0).isLt
    have hi1 : (i 1).val < 64 := (i 1).isLt
    have hN : cfg2.N = 10 := N_2
    obtain ⟨t, ht⟩ : ∃ t : Fin cfg2.N, t.val = (i 0).val / 5000 := ⟨⟨(i 0).val / 5000, by omega⟩, rfl⟩
    obtain ⟨-, -, -, -, -, -, -, -, -, -, -, -, e60, e61⟩ := nodeIdx2 t
    refine ⟨t, flush2_6 t, ?_⟩
    rw [nodeMemBlk2]
    intro a
    match a with
    | ⟨0, _⟩ =>
      show win2_6.index t (0 : Fin 2) * 5000 ≤ (i 0).val ∧ (i 0).val < win2_6.index t (0 : Fin 2) * 5000 + 5000
      omega
    | ⟨1, _⟩ =>
      show win2_6.index t (1 : Fin 2) * 64 ≤ (i 1).val ∧ (i 1).val < win2_6.index t (1 : Fin 2) * 64 + 64
      omega

end Cert.KernelIdeal.RegValue
end
-- ==== Proof.KReg3.lean ====
/-
  The edge-message kernel of layer 2, read as one function of the arrays it is entered with.

  The kernel walks the 800000 edges in 100 blocks of 8000 rows. At block t it sees rows 8000 t … 8000 t + 7999 of the
  gathered source features and of the edge-weight column, and the whole one-row embedding weight and bias. At row p and
  column q of the block it writes  max (hsrc[p, q] + (w[p, 0] · We[0, q] + be[0, q])) 0 : the column of weights is spread
  along the 64 features, the two rows along the 8000 edges, and the operations act entry by entry. Row r of the output
  array lies in block r / 8000 and in no other, so once every block is written back the output array is the message
  function of the four input arrays at every index.
-/
import proofs.«425574_j14697378087540_1_alg».proof.Proof.Gen.KernelIdeal.Frame
import proofs.«425574_j14697378087540_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegValue

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The body reads and writes each of its buffers from the corner: both offsets are zero. -/
theorem edge3_off : (![0, 0] : Fin 2 → Nat) = fun _ => 0 :=
  funext fun a => match a with | ⟨0, _⟩ => rfl | ⟨1, _⟩ => rfl

/-- One entry of what the body computes from its four blocks: the source entry plus the edge's weight times the
    embedding weight of the column plus the column's bias, cut off below at zero. The weight column is read at column 0
    of the entry's row, the two one-row operands at row 0 of the entry's column. -/
theorem edge3_at (x0 : Vec Ideal S8000x64 .f32) (x1 : Vec Ideal S8000x1 .f32) (x2 x3 : Vec Ideal S1x64 .f32)
    (p : Fin 8000) (q : Fin 64) :
    k3_pay1 (F := Ideal) x0 x1 x2 x3 (ValueIdx.ix2 p q)
      = max (x0 (ValueIdx.ix2 p q) + (x1 (ValueIdx.ix2 p 0) * x2 (ValueIdx.ix2 0 q) + x3 (ValueIdx.ix2 0 q)))
          (Ideal.ofBits .f32 0x00000000#32) := by
  unfold k3_pay1
  simp only [shapeCast_self, ValueIdx.maximumf_apply, ValueIdx.addf_apply, ValueIdx.mulf_apply, ValueIdx.broadcast_apply]
  rw [broadcastTo_apply x1 broadcasts_S8000x1_S8000x64 (ValueIdx.ix2 p q) (ValueIdx.ix2 p 0)
        (fun a => match a with | ⟨0, _⟩ => rfl | ⟨1, _⟩ => rfl),
      broadcastTo_apply x2 broadcasts_S1x64_S8000x64 (ValueIdx.ix2 p q) (ValueIdx.ix2 0 q)
        (fun a => match a with | ⟨0, _⟩ => rfl | ⟨1, _⟩ => rfl),
      broadcastTo_apply x3 broadcasts_S1x64_S8000x64 (ValueIdx.ix2 p q) (ValueIdx.ix2 0 q)
        (fun a => match a with | ⟨0, _⟩ => rfl | ⟨1, _⟩ => rfl)] <;> rfl

/-- Where each window's block sits at grid point t: the two row-blocked inputs and the output at block row t, column
    block 0; the embedding weight and the bias at their one block. -/
theorem edge3_idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Entry (p, q) of the source block at point t is entry (8000 t + p, q) of the source array. -/
theorem edge3_src_at (c : Dev nD) (t : Fin cfg3.N) (p : Fin 8000) (q : Fin 64) (i : S800000x64.Idx)
    (h0 : (i 0).val = t.val * 8000 + p.val) (h1 : (i 1).val = q.val) :
    (iblk3 V c 0 t : Vec Ideal S8000x64 .f32) (ValueIdx.ix2 p q) = (V c main_v28 : S800000x64.Idx → Elt Ideal .f32) i := by
  obtain ⟨e0, e1, -⟩ := edge3_idx t
  show (V c main_v28 : S800000x64.Idx → Elt Ideal .f32) (((cfg3.win 0).blk t).view.emb (ValueIdx.ix2 p q : S8000x64.Idx)) = _
  refine congrArg _ (funext fun a => Fin.ext ?_)
  match a with
  | ⟨0, _⟩ => show win3_0.index t (0 : Fin 2) * 8000 + 1 * p.val = (i 0).val; omega
  | ⟨1, _⟩ => show win3_0.index t (1 : Fin 2) * 64 + 1 * q.val = (i 1).val; omega

/-- Entry (p, 0) of the weight block at point t is entry (8000 t + p, 0) of the edge-weight column. -/
theorem edge3_w_at (c : Dev nD) (t : Fin cfg3.N) (p : Fin 8000) (k : S800000x1.Idx)
    (h0 : (k 0).val = t.val * 8000 + p.val) (h1 : (k 1).val = 0) :
    (iblk3 V c 1 t : Vec Ideal S8000x1 .f32) (ValueIdx.ix2 p 0) = (V c main_arg2 : S800000x1.Idx → Elt Ideal .f32) k := by
  obtain ⟨-, -, e0, e1, -⟩ := edge3_idx t
  show (V c main_arg2 : S800000x1.Idx → Elt Ideal .f32) (((cfg3.win 1).blk t).view.emb (ValueIdx.ix2 p 0 : S8000x1.Idx)) = _
  refine congrArg _ (funext fun a => Fin.ext ?_)
  match a with
  | ⟨0, _⟩ => show win3_1.index t (0 : Fin 2) * 8000 + 1 * p.val = (k 0).val; omega
  | ⟨1, _⟩ => show win3_1.index t (1 : Fin 2) * 1 + 1 * 0 = (k 1).val; omega

/-- The embedding-weight block is the whole one-row array at every point. -/
theorem edge3_we_at (c : Dev nD) (t : Fin cfg3.N) (q : Fin 64) (k : S1x64.Idx)
    (h0 : (k 0).val = 0) (h1 : (k 1).val = q.val) :
    (iblk3 V c 2 t : Vec Ideal S1x64 .f32) (ValueIdx.ix2 0 q) = (V c main_v30 : S1x64.Idx → Elt Ideal .f32) k := by
  obtain ⟨-, -, -, -, e0, e1, -⟩ := edge3_idx t
  show (V c main_v30 : S1x64.Idx → Elt Ideal .f32) (((cfg3.win 2).blk t).view.emb (ValueIdx.ix2 0 q : S1x64.Idx)) = _
  refine congrArg _ (funext fun a => Fin.ext ?_)
  match a with
  | ⟨0, _⟩ => show win3_2.index t (0 : Fin 2) * 1 + 1 * 0 = (k 0).val; omega
  | ⟨1, _⟩ => show win3_2.index t (1 : Fin 2) * 64 + 1 * q.val = (k 1).val; omega

/-- The bias block is the whole one-row array at every point. -/
theorem edge3_be_at (c : Dev nD) (t : Fin cfg3.N) (q : Fin 64) (k : S1x64.Idx)
    (h0 : (k 0).val = 0) (h1 : (k 1).val = q.val) :
    (iblk3 V c 3 t : Vec Ideal S1x64 .f32) (ValueIdx.ix2 0 q) = (V c main_v33 : S1x64.Idx → Elt Ideal .f32) k := by
  obtain ⟨-, -, -, -, -, -, e0, e1, -⟩ := edge3_idx t
  show (V c main_v33 : S1x64.Idx → Elt Ideal .f32) (((cfg3.win 3).blk t).view.emb (ValueIdx.ix2 0 q : S1x64.Idx)) = _
  refine congrArg _ (funext fun a => Fin.ext ?_)
  match a with
  | ⟨0, _⟩ => show win3_3.index t (0 : Fin 2) * 1 + 1 * 0 = (k 0).val; omega
  | ⟨1, _⟩ => show win3_3.index t (1 : Fin 2) * 64 + 1 * q.val = (k 1).val; omega

/-- What the body computes at entry (p, q) of point t's blocks is the message function of the four arrays at the array
    index (8000 t + p, q). -/
theorem edge3_block (c : Dev nD) (t : Fin cfg3.N) (p : Fin 8000) (q : Fin 64) (i : S800000x64.Idx)
    (h0 : (i 0).val = t.val * 8000 + p.val) (h1 : (i 1).val = q.val) :
    k3_pay1 (F := Ideal) (iblk3 V c 0 t) (iblk3 V c 1 t) (iblk3 V c 2 t) (iblk3 V c 3 t) (ValueIdx.ix2 p q)
      = Cert.Spec.edgeAt (V c main_v28) (V c main_arg2) (V c main_v30) (V c main_v33) i := by
  have hs := edge3_src_at V c t p q i h0 h1
  have hw := edge3_w_at V c t p (ValueIdx.ix2 (i 0) 0 : S800000x1.Idx) h0 rfl
  have hwe := edge3_we_at V c t q (ValueIdx.ix2 0 (i 1) : S1x64.Idx) rfl h1
  have hbe := edge3_be_at V c t q (ValueIdx.ix2 0 (i 1) : S1x64.Idx) rfl h1
  refine (edge3_at _ _ _ _ p q).trans ?_
  rw [hs, hw, hwe, hbe]
  rfl

/-- What point t writes back is block t of the message function of the four arrays. -/
theorem edge3_flushed (c : Dev nD) (t : Fin cfg3.N) :
    (dat3 (F := Ideal) V c).flushed 4 t
      = ((cfg3.win 4).blk t).view.read (Elt Ideal)
          (Cert.Spec.edgeAt (V c main_v28) (V c main_arg2) (V c main_v30) (V c main_v33)) := by
  show (cfg3.win 4).cut (grid3.coords t) ((dat3 V c).after 4 t) = _
  rw [after3_4]
  unfold out3_4
  rw [View.canon_unit_zero edge3_off]
  simp only [View.ld_unit_zero (S := S8000x64) edge3_off, View.ld_unit_zero (S := S8000x1) edge3_off,
    View.ld_unit_zero (S := S1x64) edge3_off]
  obtain ⟨-, -, -, -, -, -, -, -, e0, e1⟩ := edge3_idx t
  funext j
  obtain ⟨p, q, rfl⟩ : ∃ (p : Fin 8000) (q : Fin 64), j = ValueIdx.ix2 p q := ⟨j 0, j 1, ValueIdx.eq_ix2 j⟩
  show k3_pay1 (F := Ideal) (iblk3 V c 0 t) (iblk3 V c 1 t) (iblk3 V c 2 t) (iblk3 V c 3 t) (ValueIdx.ix2 p q)
      = Cert.Spec.edgeAt (V c main_v28) (V c main_arg2) (V c main_v30) (V c main_v33)
          (((cfg3.win 4).blk t).view.emb (ValueIdx.ix2 p q : S8000x64.Idx))
  refine edge3_block V c t p q _ ?_ ?_
  · show win3_4.index t (0 : Fin 2) * 8000 + 1 * p.val = t.val * 8000 + p.val; omega
  · show win3_4.index t (1 : Fin 2) * 64 + 1 * q.val = q.val; omega

/-- An index of the output array is in point t's block iff each coordinate is in the block's range on its axis. -/
theorem edge3_mem_blk (t : Fin cfg3.N) (i : S800000x64.Idx) :
    i ∈ ((cfg3.win 4).blk t).view.set ↔ ∀ a : Fin 2, win3_4.index t a * S8000x64.size a ≤ (i a).val
      ∧ (i a).val < win3_4.index t a * S8000x64.size a + S8000x64.size a := by
  show i ∈ ((View.whole main_v34).slice (win3_4.rect t)).set ↔ _
  rw [View.set_slice_whole, Rect.mem_set_unit]
  exact Iff.rfl

/-- Every index of the output array is written back: row r by the point r / 8000. -/
theorem edge3_cover (i : S800000x64.Idx) :
    ∃ t : Fin cfg3.N, (cfg3.win 4).flush t = true ∧ i ∈ ((cfg3.win 4).blk t).view.set := by
  have hi0 : (i 0).val < 800000 := (i 0).isLt
  have hi1 : (i 1).val < 64 := (i 1).isLt
  obtain ⟨t, ht⟩ : ∃ t : Fin cfg3.N, t.val = (i 0).val / 8000 :=
    ⟨⟨(i 0).val / 8000, Nat.lt_of_lt_of_eq (by omega : (i 0).val / 8000 < 100) N_3.symm⟩, rfl⟩
  obtain ⟨-, -, -, -, -, -, -, -, e0, e1⟩ := edge3_idx t
  refine ⟨t, flush3_4 t, ?_⟩
  rw [edge3_mem_blk]
  intro a
  match a with
  | ⟨0, _⟩ =>
    show win3_4.index t (0 : Fin 2) * 8000 ≤ (i 0).val ∧ (i 0).val < win3_4.index t (0 : Fin 2) * 8000 + 8000
    omega
  | ⟨1, _⟩ =>
    show win3_4.index t (1 : Fin 2) * 64 ≤ (i 1).val ∧ (i 1).val < win3_4.index t (1 : Fin 2) * 64 + 64
    omega

/-- The output array after the region: the message function of the source features, the edge weights, the embedding
    weight and the bias, at every index. -/
theorem final3 (c : Dev nD) : (dat3 (F := Ideal) V c).arrAt 4 cfg3.N
    = Cert.Spec.edgeAt (V c main_v28) (V c main_arg2) (V c main_v30) (V c main_v33) :=
  (dat3 (F := Ideal) V c).arrAt_eq_of_cover 4 _ (fun t _ => edge3_flushed V c t) edge3_cover

end Cert.KernelIdeal.RegValue

end
-- ==== Proof.KReg4.lean ====
/-
  The value of a node-update region: the array it writes is, index by index, the two-layer perceptron of the
  aggregated messages plus the node features, `tanh (lrelu ((agg + h)[r, :] · W0 + b0) · W1 + b1)`.

  The region walks the 50000 rows in ten blocks of 5000 rows; the weights and the bias rows arrive whole at every
  point. One block through the body is the same rows of the update: each layer is a product with a weight matrix,
  read as a plain sum over the 64 contracted positions, plus a bias row broadcast down the rows, and the rest is
  pointwise. The ten blocks cover the array.
-/
import proofs.«425574_j14697378087540_1_alg».proof.Proof.Gen.KernelIdeal.Frame
import proofs.«425574_j14697378087540_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegValue

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The origin of a two-axis rectangle -/

/-- The offsets of a load or store that starts at the first row and first column are the constant zero. -/
theorem nodeOrigin4 : (![0, 0] : Fin 2 → Nat) = fun _ => 0 :=
  funext fun a => by match a with | ⟨0, _⟩ => rfl | ⟨1, _⟩ => rfl

/-! ## The product of a block of rows with a square weight matrix

The product contracts the left operand's columns with the right operand's rows, so at output entry (r, c) and
contraction position k the left operand is read at (r, k) and the right one at (k, c). The four coordinate facts: -/

theorem nodeLhsRow4 (j : S5000x64.Idx) (k : dot_S5000x64_S64x64_S5000x64_1_0_0_1_n_n.contr.Idx) :
    (dot_S5000x64_S64x64_S5000x64_1_0_0_1_n_n.lhsIdx j k 0).val = (j 0).val := by
  simp [DotDims.lhsIdx, dot_S5000x64_S64x64_S5000x64_1_0_0_1_n_n]
  rfl

theorem nodeLhsCol4 (j : S5000x64.Idx) (k : dot_S5000x64_S64x64_S5000x64_1_0_0_1_n_n.contr.Idx) :
    (dot_S5000x64_S64x64_S5000x64_1_0_0_1_n_n.lhsIdx j k 1).val = (k ⟨0, by decide⟩).val :=
  DotDims.lhsIdx_val_of_single _ rfl j k

theorem nodeRhsRow4 (j : S5000x64.Idx) (k : dot_S5000x64_S64x64_S5000x64_1_0_0_1_n_n.contr.Idx) :
    (dot_S5000x64_S64x64_S5000x64_1_0_0_1_n_n.rhsIdx j k 0).val = (k ⟨0, by decide⟩).val :=
  DotDims.rhsIdx_val_of_single _ rfl j k

theorem nodeRhsCol4 (j : S5000x64.Idx) (k : dot_S5000x64_S64x64_S5000x64_1_0_0_1_n_n.contr.Idx) :
    (dot_S5000x64_S64x64_S5000x64_1_0_0_1_n_n.rhsIdx j k 1).val = (j 1).val := by
  simp [DotDims.rhsIdx, dot_S5000x64_S64x64_S5000x64_1_0_0_1_n_n]
  rfl

/-- The product accumulated from zero, at entry (p, q): the sum over the 64 contracted positions of the products of
    the entries. -/
theorem nodeMatmul4 (a : FVec Ideal S5000x64 .bf16) (b : FVec Ideal S64x64 .bf16) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  refine (Ideal.matmul_constant_zero_apply dot_S5000x64_S64x64_S5000x64_1_0_0_1_n_n none a b (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have hl : dot_S5000x64_S64x64_S5000x64_1_0_0_1_n_n.lhsIdx (ix2 p q) ((contrEquiv1 dot_S5000x64_S64x64_S5000x64_1_0_0_1_n_n 64 rfl rfl).symm k) = ix2 p k := by
    funext ax; apply Fin.ext
    match ax with
    | ⟨0, _⟩ => exact nodeLhsRow4 _ _
    | ⟨1, _⟩ => exact (nodeLhsCol4 _ _).trans hk
  have hr : dot_S5000x64_S64x64_S5000x64_1_0_0_1_n_n.rhsIdx (ix2 p q) ((contrEquiv1 dot_S5000x64_S64x64_S5000x64_1_0_0_1_n_n 64 rfl rfl).symm k) = ix2 k q := by
    funext ax; apply Fin.ext
    match ax with
    | ⟨0, _⟩ => exact (nodeRhsRow4 _ _).trans hk
    | ⟨1, _⟩ => exact nodeRhsCol4 _ _
  rw [hl, hr]

/-- One affine layer of the body at entry (p, q): the rows times the weights plus the bias row, which is broadcast
    down the rows. The format changes and the casts to the same shape change nothing. -/
theorem nodeAffine4 (a : FVec Ideal S5000x64 .f32) (w : Vec Ideal S64x64 .f32) (b : Vec Ideal S1x64 .f32) (p : Fin 5000) (q : Fin 64) :
    addf (matmul dot_S5000x64_S64x64_S5000x64_1_0_0_1_n_n none (truncf .bf16 a bitsLt_bf16_f32)
        (truncf .bf16 (shapeCast S64x64 w shapeCasts_S64x64_S64x64) bitsLt_bf16_f32)
        (constant (F := Ideal) S5000x64 .f32 0x00000000#32))
      (broadcastTo S5000x64 (shapeCast S1x64 b shapeCasts_S1x64_S1x64) broadcasts_S1x64_S5000x64) (ix2 p q)
      = (∑ k : Fin 64, a (ix2 p k) * w (ix2 k q)) + b (ix2 0 q) := by
  rw [shapeCast_self, shapeCast_self]
  refine (addf_apply _ _ _).trans ?_
  rw [nodeMatmul4, broadcastTo_1b_ab_apply]
  rfl

/-- The body's result at entry (p, q) of the block: the two-layer perceptron of the sum of the two row blocks. -/
theorem nodePay4_apply (x0 x1 : Vec Ideal S5000x64 .f32) (w0 : Vec Ideal S64x64 .f32) (b0 : Vec Ideal S1x64 .f32)
    (w1 : Vec Ideal S64x64 .f32) (b1 : Vec Ideal S1x64 .f32) (p : Fin 5000) (q : Fin 64) :
    k4_pay1 (F := Ideal) x0 x1 w0 b0 w1 b1 (ix2 p q)
      = Ideal.tanh ((∑ k : Fin 64, Cert.Spec.lrelu ((∑ j : Fin 64, (x0 (ix2 p j) + x1 (ix2 p j)) * w0 (ix2 j k)) + b0 (ix2 0 k))
          * w1 (ix2 k q)) + b1 (ix2 0 q)) := by
  unfold k4_pay1
  refine (congrArg Ideal.tanh (nodeAffine4 _ w1 b1 p q)).trans ?_
  refine congrArg Ideal.tanh (congrArg (· + b1 (ix2 0 q)) (Finset.sum_congr rfl fun k _ => congrArg (· * w1 (ix2 k q)) ?_))
  refine (congrArg Cert.Spec.lrelu (nodeAffine4 _ w0 b0 p k)).trans ?_
  rw [shapeCast_self, shapeCast_self]
  rfl

/-! ## The windows' blocks, read off the arrays -/

/-- The printed index maps, decided over the ten grid points: the three row-blocked windows take block `t` of the rows
    at point `t` and the whole width; the weight and bias windows are whole. -/
theorem nodeIdx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- The aggregated messages' block at point `t` is the array's rows under the output's block. -/
theorem nodeIn4_0 (c : Dev nD) (t : Fin cfg4.N) (y : S5000x64.Idx) :
    (iblk4 (F := Ideal) V c 0 t : Vec Ideal S5000x64 .f32) y = V c main_v37 (((cfg4.win 6).blk t).view.emb y) := by
  obtain ⟨e00, e01, -, -, -, -, -, -, -, -, -, -, e60, e61⟩ := nodeIdx4 t
  show V c main_v37 (((cfg4.win 0).blk t).view.emb y) = V c main_v37 (((cfg4.win 6).blk t).view.emb y)
  refine congrArg _ (funext fun a => Fin.ext ?_)
  match a with
  | ⟨0, _⟩ => show win4_0.index t (0 : Fin 2) * 5000 + 1 * (y 0).val = win4_6.index t (0 : Fin 2) * 5000 + 1 * (y 0).val; omega
  | ⟨1, _⟩ => show win4_0.index t (1 : Fin 2) * 64 + 1 * (y 1).val = win4_6.index t (1 : Fin 2) * 64 + 1 * (y 1).val; omega

/-- The node features' block at point `t` likewise. -/
theorem nodeIn4_1 (c : Dev nD) (t : Fin cfg4.N) (y : S5000x64.Idx) :
    (iblk4 (F := Ideal) V c 1 t : Vec Ideal S5000x64 .f32) y = V c main_v27 (((cfg4.win 6).blk t).view.emb y) := by
  obtain ⟨-, -, e10, e11, -, -, -, -, -, -, -, -, e60, e61⟩ := nodeIdx4 t
  show V c main_v27 (((cfg4.win 1).blk t).view.emb y) = V c main_v27 (((cfg4.win 6).blk t).view.emb y)
  refine congrArg _ (funext fun a => Fin.ext ?_)
  match a with
  | ⟨0, _⟩ => show win4_1.index t (0 : Fin 2) * 5000 + 1 * (y 0).val = win4_6.index t (0 : Fin 2) * 5000 + 1 * (y 0).val; omega
  | ⟨1, _⟩ => show win4_1.index t (1 : Fin 2) * 64 + 1 * (y 1).val = win4_6.index t (1 : Fin 2) * 64 + 1 * (y 1).val; omega

/-- The first layer's weights arrive whole at every point. -/
theorem nodeIn4_2 (c : Dev nD) (t : Fin cfg4.N) :
    (iblk4 (F := Ideal) V c 2 t : Vec Ideal S64x64 .f32) = V c main_v39 := by
  obtain ⟨-, -, -, -, e0, e1, -, -, -, -, -, -, -, -⟩ := nodeIdx4 t
  funext y
  show V c main_v39 (((cfg4.win 2).blk t).view.emb y) = V c main_v39 y
  refine congrArg _ (funext fun a => Fin.ext ?_)
  match a with
  | ⟨0, _⟩ => show win4_2.index t (0 : Fin 2) * 64 + 1 * (y 0).val = (y 0).val; omega
  | ⟨1, _⟩ => show win4_2.index t (1 : Fin 2) * 64 + 1 * (y 1).val = (y 1).val; omega

/-- So does the first layer's bias row. -/
theorem nodeIn4_3 (c : Dev nD) (t : Fin cfg4.N) :
    (iblk4 (F := Ideal) V c 3 t : Vec Ideal S1x64 .f32) = V c main_v46 := by
  obtain ⟨-, -, -, -, -, -, e0, e1, -, -, -, -, -, -⟩ := nodeIdx4 t
  funext y
  show V c main_v46 (((cfg4.win 3).blk t).view.emb y) = V c main_v46 y
  refine congrArg _ (funext fun a => Fin.ext ?_)
  match a with
  | ⟨0, _⟩ => show win4_3.index t (0 : Fin 2) * 1 + 1 * (y 0).val = (y 0).val; omega
  | ⟨1, _⟩ => show win4_3.index t (1 : Fin 2) * 64 + 1 * (y 1).val = (y 1).val; omega

/-- So do the second layer's weights. -/
theorem nodeIn4_4 (c : Dev nD) (t : Fin cfg4.N) :
    (iblk4 (F := Ideal) V c 4 t : Vec Ideal S64x64 .f32) = V c main_v43 := by
  obtain ⟨-, -, -, -, -, -, -, -, e0, e1, -, -, -, -⟩ := nodeIdx4 t
  funext y
  show V c main_v43 (((cfg4.win 4).blk t).view.emb y) = V c main_v43 y
  refine congrArg _ (funext fun a => Fin.ext ?_)
  match a with
  | ⟨0, _⟩ => show win4_4.index t (0 : Fin 2) * 64 + 1 * (y 0).val = (y 0).val; omega
  | ⟨1, _⟩ => show win4_4.index t (1 : Fin 2) * 64 + 1 * (y 1).val = (y 1).val; omega

/-- And the second layer's bias row. -/
theorem nodeIn4_5 (c : Dev nD) (t : Fin cfg4.N) :
    (iblk4 (F := Ideal) V c 5 t : Vec Ideal S1x64 .f32) = V c main_v47 := by
  obtain ⟨-, -, -, -, -, -, -, -, -, -, e0, e1, -, -⟩ := nodeIdx4 t
  funext y
  show V c main_v47 (((cfg4.win 5).blk t).view.emb y) = V c main_v47 y
  refine congrArg _ (funext fun a => Fin.ext ?_)
  match a with
  | ⟨0, _⟩ => show win4_5.index t (0 : Fin 2) * 1 + 1 * (y 0).val = (y 0).val; omega
  | ⟨1, _⟩ => show win4_5.index t (1 : Fin 2) * 64 + 1 * (y 1).val = (y 1).val; omega

/-! ## From the body's result on a block to the node update of the arrays -/

/-- A block of rows through the body is the same rows of the node update: when the two row blocks are the arrays' rows
    at row `r` for block row `p`, entry (p, q) of the body's result is entry (r, q) of the update. -/
theorem nodeBlock4 (A H : FVec Ideal S50000x64 .f32) (W0 : FVec Ideal S64x64 .f32) (B0 : FVec Ideal S1x64 .f32)
    (W1 : FVec Ideal S64x64 .f32) (B1 : FVec Ideal S1x64 .f32) (x0 x1 : Vec Ideal S5000x64 .f32)
    (p : Fin 5000) (q : Fin 64) (r : Fin 50000)
    (hx0 : ∀ k : Fin 64, x0 (ix2 p k) = A (ix2 r k)) (hx1 : ∀ k : Fin 64, x1 (ix2 p k) = H (ix2 r k)) :
    k4_pay1 (F := Ideal) x0 x1 W0 B0 W1 B1 (ix2 p q) = Cert.Spec.nodeAt A H W0 B0 W1 B1 (ix2 r q) := by
  refine (nodePay4_apply x0 x1 W0 B0 W1 B1 p q).trans ?_
  refine congrArg Ideal.tanh (congrArg (· + B1 (ix2 0 q)) (Finset.sum_congr rfl fun k _ => congrArg (· * W1 (ix2 k q)) ?_))
  refine congrArg Cert.Spec.lrelu (congrArg (· + B0 (ix2 0 k)) (Finset.sum_congr rfl fun j _ => congrArg (· * W0 (ix2 j k)) ?_))
  rw [hx0 j, hx1 j]

/-- WHAT POINT `t` WRITES BACK is block `t` of the node update of the arrays as the region finds them. -/
theorem nodeFlushed4 (c : Dev nD) (t : Fin cfg4.N) :
    (dat4 (F := Ideal) V c).flushed 6 t
      = ((cfg4.win 6).blk t).view.read (Elt Ideal)
          (Cert.Spec.nodeAt (V c main_v37) (V c main_v27) (V c main_v39) (V c main_v46) (V c main_v43) (V c main_v47)) := by
  show (cfg4.win 6).cut (grid4.coords t) ((dat4 (F := Ideal) V c).after 6 t) = _
  rw [after4_6]
  unfold out4_6
  rw [View.canon_unit_zero nodeOrigin4]
  simp only [View.ld_unit_zero (S := S5000x64) nodeOrigin4, View.ld_unit_zero (S := S64x64) nodeOrigin4,
    View.ld_unit_zero (S := S1x64) nodeOrigin4]
  rw [nodeIn4_2 V c t, nodeIn4_3 V c t, nodeIn4_4 V c t, nodeIn4_5 V c t]
  obtain ⟨-, -, -, -, -, -, -, -, -, -, -, -, e60, e61⟩ := nodeIdx4 t
  funext j
  have hj : (j : S5000x64.Idx) = ix2 (j 0) (j 1) := eq_ix2 j
  have hi : ((cfg4.win 6).blk t).view.emb j = ix2 (((cfg4.win 6).blk t).view.emb j 0) (j 1) := by
    funext a; apply Fin.ext
    match a with
    | ⟨0, _⟩ => rfl
    | ⟨1, _⟩ => show win4_6.index t (1 : Fin 2) * 64 + 1 * (j 1).val = (j 1).val; omega
  show k4_pay1 (F := Ideal) _ _ _ _ _ _ j = Cert.Spec.nodeAt _ _ _ _ _ _ (((cfg4.win 6).blk t).view.emb j)
  rw [hi]
  refine (congrArg (k4_pay1 (F := Ideal) _ _ _ _ _ _) hj).trans ?_
  refine nodeBlock4 _ _ _ _ _ _ _ _ (j 0) (j 1) (((cfg4.win 6).blk t).view.emb j 0) (fun k => ?_) (fun k => ?_)
  · refine (nodeIn4_0 V c t (ix2 (j 0) k)).trans (congrArg _ (funext fun a => Fin.ext ?_))
    match a with
    | ⟨0, _⟩ => rfl
    | ⟨1, _⟩ => show win4_6.index t (1 : Fin 2) * 64 + 1 * k.val = k.val; omega
  · refine (nodeIn4_1 V c t (ix2 (j 0) k)).trans (congrArg _ (funext fun a => Fin.ext ?_))
    match a with
    | ⟨0, _⟩ => rfl
    | ⟨1, _⟩ => show win4_6.index t (1 : Fin 2) * 64 + 1 * k.val = k.val; omega

/-! ## The array after the run -/

/-- An index of the output array is in point `t`'s block iff each coordinate is in the block's range on its axis. -/
theorem nodeMemBlk4 (t : Fin cfg4.N) (i : S50000x64.Idx) :
    i ∈ ((cfg4.win 6).blk t).view.set
      ↔ ∀ a : Fin 2, win4_6.index t a * S5000x64.size a ≤ (i a).val ∧ (i a).val < win4_6.index t a * S5000x64.size a + S5000x64.size a := by
  show i ∈ ((View.whole main_v48).slice (win4_6.rect t)).set ↔ _
  rw [View.set_slice_whole, Rect.mem_set_unit]
  exact Iff.rfl

/-- THE ARRAY after the region: the node update of the arrays the region found. Row `r` is in the block of point
    `r / 5000`, so the ten blocks cover the array. -/
theorem final4 (c : Dev nD) :
    (dat4 (F := Ideal) V c).arrAt 6 cfg4.N
      = Cert.Spec.nodeAt (V c main_v37) (V c main_v27) (V c main_v39) (V c main_v46) (V c main_v43) (V c main_v47) :=
  (dat4 (F := Ideal) V c).arrAt_eq_of_cover 6 _ (fun t _ => nodeFlushed4 V c t) fun i => by
    have hi0 : (i 0).val < 50000 := (i 0).isLt
    have hi1 : (i 1).val < 64 := (i 1).isLt
    have hN : cfg4.N = 10 := N_4
    obtain ⟨t, ht⟩ : ∃ t : Fin cfg4.N, t.val = (i 0).val / 5000 := ⟨⟨(i 0).val / 5000, by omega⟩, rfl⟩
    obtain ⟨-, -, -, -, -, -, -, -, -, -, -, -, e60, e61⟩ := nodeIdx4 t
    refine ⟨t, flush4_6 t, ?_⟩
    rw [nodeMemBlk4]
    intro a
    match a with
    | ⟨0, _⟩ =>
      show win4_6.index t (0 : Fin 2) * 5000 ≤ (i 0).val ∧ (i 0).val < win4_6.index t (0 : Fin 2) * 5000 + 5000
      omega
    | ⟨1, _⟩ =>
      show win4_6.index t (1 : Fin 2) * 64 ≤ (i 1).val ∧ (i 1).val < win4_6.index t (1 : Fin 2) * 64 + 64
      omega

end Cert.KernelIdeal.RegValue
end
-- ==== Proof.KReg5.lean ====
/-
  The edge-message kernel of layer 3, read as one function of the arrays it is entered with.

  The kernel walks the 800000 edges in 100 blocks of 8000 rows. At block t it sees rows 8000 t … 8000 t + 7999 of the
  gathered source features and of the edge-weight column, and the whole one-row embedding weight and bias. At row p and
  column q of the block it writes  max (hsrc[p, q] + (w[p, 0] · We[0, q] + be[0, q])) 0 : the column of weights is spread
  along the 64 features, the two rows along the 8000 edges, and the operations act entry by entry. Row r of the output
  array lies in block r / 8000 and in no other, so once every block is written back the output array is the message
  function of the four input arrays at every index.
-/
import proofs.«425574_j14697378087540_1_alg».proof.Proof.Gen.KernelIdeal.Frame
import proofs.«425574_j14697378087540_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegValue

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The body reads and writes each of its buffers from the corner: both offsets are zero. -/
theorem edge5_off : (![0, 0] : Fin 2 → Nat) = fun _ => 0 :=
  funext fun a => match a with | ⟨0, _⟩ => rfl | ⟨1, _⟩ => rfl

/-- One entry of what the body computes from its four blocks: the source entry plus the edge's weight times the
    embedding weight of the column plus the column's bias, cut off below at zero. The weight column is read at column 0
    of the entry's row, the two one-row operands at row 0 of the entry's column. -/
theorem edge5_at (x0 : Vec Ideal S8000x64 .f32) (x1 : Vec Ideal S8000x1 .f32) (x2 x3 : Vec Ideal S1x64 .f32)
    (p : Fin 8000) (q : Fin 64) :
    k5_pay1 (F := Ideal) x0 x1 x2 x3 (ValueIdx.ix2 p q)
      = max (x0 (ValueIdx.ix2 p q) + (x1 (ValueIdx.ix2 p 0) * x2 (ValueIdx.ix2 0 q) + x3 (ValueIdx.ix2 0 q)))
          (Ideal.ofBits .f32 0x00000000#32) := by
  unfold k5_pay1
  simp only [shapeCast_self, ValueIdx.maximumf_apply, ValueIdx.addf_apply, ValueIdx.mulf_apply, ValueIdx.broadcast_apply]
  rw [broadcastTo_apply x1 broadcasts_S8000x1_S8000x64 (ValueIdx.ix2 p q) (ValueIdx.ix2 p 0)
        (fun a => match a with | ⟨0, _⟩ => rfl | ⟨1, _⟩ => rfl),
      broadcastTo_apply x2 broadcasts_S1x64_S8000x64 (ValueIdx.ix2 p q) (ValueIdx.ix2 0 q)
        (fun a => match a with | ⟨0, _⟩ => rfl | ⟨1, _⟩ => rfl),
      broadcastTo_apply x3 broadcasts_S1x64_S8000x64 (ValueIdx.ix2 p q) (ValueIdx.ix2 0 q)
        (fun a => match a with | ⟨0, _⟩ => rfl | ⟨1, _⟩ => rfl)] <;> rfl

/-- Where each window's block sits at grid point t: the two row-blocked inputs and the output at block row t, column
    block 0; the embedding weight and the bias at their one block. -/
theorem edge5_idx : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Entry (p, q) of the source block at point t is entry (8000 t + p, q) of the source array. -/
theorem edge5_src_at (c : Dev nD) (t : Fin cfg5.N) (p : Fin 8000) (q : Fin 64) (i : S800000x64.Idx)
    (h0 : (i 0).val = t.val * 8000 + p.val) (h1 : (i 1).val = q.val) :
    (iblk5 V c 0 t : Vec Ideal S8000x64 .f32) (ValueIdx.ix2 p q) = (V c main_v49 : S800000x64.Idx → Elt Ideal .f32) i := by
  obtain ⟨e0, e1, -⟩ := edge5_idx t
  show (V c main_v49 : S800000x64.Idx → Elt Ideal .f32) (((cfg5.win 0).blk t).view.emb (ValueIdx.ix2 p q : S8000x64.Idx)) = _
  refine congrArg _ (funext fun a => Fin.ext ?_)
  match a with
  | ⟨0, _⟩ => show win5_0.index t (0 : Fin 2) * 8000 + 1 * p.val = (i 0).val; omega
  | ⟨1, _⟩ => show win5_0.index t (1 : Fin 2) * 64 + 1 * q.val = (i 1).val; omega

/-- Entry (p, 0) of the weight block at point t is entry (8000 t + p, 0) of the edge-weight column. -/
theorem edge5_w_at (c : Dev nD) (t : Fin cfg5.N) (p : Fin 8000) (k : S800000x1.Idx)
    (h0 : (k 0).val = t.val * 8000 + p.val) (h1 : (k 1).val = 0) :
    (iblk5 V c 1 t : Vec Ideal S8000x1 .f32) (ValueIdx.ix2 p 0) = (V c main_arg2 : S800000x1.Idx → Elt Ideal .f32) k := by
  obtain ⟨-, -, e0, e1, -⟩ := edge5_idx t
  show (V c main_arg2 : S800000x1.Idx → Elt Ideal .f32) (((cfg5.win 1).blk t).view.emb (ValueIdx.ix2 p 0 : S8000x1.Idx)) = _
  refine congrArg _ (funext fun a => Fin.ext ?_)
  match a with
  | ⟨0, _⟩ => show win5_1.index t (0 : Fin 2) * 8000 + 1 * p.val = (k 0).val; omega
  | ⟨1, _⟩ => show win5_1.index t (1 : Fin 2) * 1 + 1 * 0 = (k 1).val; omega

/-- The embedding-weight block is the whole one-row array at every point. -/
theorem edge5_we_at (c : Dev nD) (t : Fin cfg5.N) (q : Fin 64) (k : S1x64.Idx)
    (h0 : (k 0).val = 0) (h1 : (k 1).val = q.val) :
    (iblk5 V c 2 t : Vec Ideal S1x64 .f32) (ValueIdx.ix2 0 q) = (V c main_v51 : S1x64.Idx → Elt Ideal .f32) k := by
  obtain ⟨-, -, -, -, e0, e1, -⟩ := edge5_idx t
  show (V c main_v51 : S1x64.Idx → Elt Ideal .f32) (((cfg5.win 2).blk t).view.emb (ValueIdx.ix2 0 q : S1x64.Idx)) = _
  refine congrArg _ (funext fun a => Fin.ext ?_)
  match a with
  | ⟨0, _⟩ => show win5_2.index t (0 : Fin 2) * 1 + 1 * 0 = (k 0).val; omega
  | ⟨1, _⟩ => show win5_2.index t (1 : Fin 2) * 64 + 1 * q.val = (k 1).val; omega

/-- The bias block is the whole one-row array at every point. -/
theorem edge5_be_at (c : Dev nD) (t : Fin cfg5.N) (q : Fin 64) (k : S1x64.Idx)
    (h0 : (k 0).val = 0) (h1 : (k 1).val = q.val) :
    (iblk5 V c 3 t : Vec Ideal S1x64 .f32) (ValueIdx.ix2 0 q) = (V c main_v54 : S1x64.Idx → Elt Ideal .f32) k := by
  obtain ⟨-, -, -, -, -, -, e0, e1, -⟩ := edge5_idx t
  show (V c main_v54 : S1x64.Idx → Elt Ideal .f32) (((cfg5.win 3).blk t).view.emb (ValueIdx.ix2 0 q : S1x64.Idx)) = _
  refine congrArg _ (funext fun a => Fin.ext ?_)
  match a with
  | ⟨0, _⟩ => show win5_3.index t (0 : Fin 2) * 1 + 1 * 0 = (k 0).val; omega
  | ⟨1, _⟩ => show win5_3.index t (1 : Fin 2) * 64 + 1 * q.val = (k 1).val; omega

/-- What the body computes at entry (p, q) of point t's blocks is the message function of the four arrays at the array
    index (8000 t + p, q). -/
theorem edge5_block (c : Dev nD) (t : Fin cfg5.N) (p : Fin 8000) (q : Fin 64) (i : S800000x64.Idx)
    (h0 : (i 0).val = t.val * 8000 + p.val) (h1 : (i 1).val = q.val) :
    k5_pay1 (F := Ideal) (iblk5 V c 0 t) (iblk5 V c 1 t) (iblk5 V c 2 t) (iblk5 V c 3 t) (ValueIdx.ix2 p q)
      = Cert.Spec.edgeAt (V c main_v49) (V c main_arg2) (V c main_v51) (V c main_v54) i := by
  have hs := edge5_src_at V c t p q i h0 h1
  have hw := edge5_w_at V c t p (ValueIdx.ix2 (i 0) 0 : S800000x1.Idx) h0 rfl
  have hwe := edge5_we_at V c t q (ValueIdx.ix2 0 (i 1) : S1x64.Idx) rfl h1
  have hbe := edge5_be_at V c t q (ValueIdx.ix2 0 (i 1) : S1x64.Idx) rfl h1
  refine (edge5_at _ _ _ _ p q).trans ?_
  rw [hs, hw, hwe, hbe]
  rfl

/-- What point t writes back is block t of the message function of the four arrays. -/
theorem edge5_flushed (c : Dev nD) (t : Fin cfg5.N) :
    (dat5 (F := Ideal) V c).flushed 4 t
      = ((cfg5.win 4).blk t).view.read (Elt Ideal)
          (Cert.Spec.edgeAt (V c main_v49) (V c main_arg2) (V c main_v51) (V c main_v54)) := by
  show (cfg5.win 4).cut (grid5.coords t) ((dat5 V c).after 4 t) = _
  rw [after5_4]
  unfold out5_4
  rw [View.canon_unit_zero edge5_off]
  simp only [View.ld_unit_zero (S := S8000x64) edge5_off, View.ld_unit_zero (S := S8000x1) edge5_off,
    View.ld_unit_zero (S := S1x64) edge5_off]
  obtain ⟨-, -, -, -, -, -, -, -, e0, e1⟩ := edge5_idx t
  funext j
  obtain ⟨p, q, rfl⟩ : ∃ (p : Fin 8000) (q : Fin 64), j = ValueIdx.ix2 p q := ⟨j 0, j 1, ValueIdx.eq_ix2 j⟩
  show k5_pay1 (F := Ideal) (iblk5 V c 0 t) (iblk5 V c 1 t) (iblk5 V c 2 t) (iblk5 V c 3 t) (ValueIdx.ix2 p q)
      = Cert.Spec.edgeAt (V c main_v49) (V c main_arg2) (V c main_v51) (V c main_v54)
          (((cfg5.win 4).blk t).view.emb (ValueIdx.ix2 p q : S8000x64.Idx))
  refine edge5_block V c t p q _ ?_ ?_
  · show win5_4.index t (0 : Fin 2) * 8000 + 1 * p.val = t.val * 8000 + p.val; omega
  · show win5_4.index t (1 : Fin 2) * 64 + 1 * q.val = q.val; omega

/-- An index of the output array is in point t's block iff each coordinate is in the block's range on its axis. -/
theorem edge5_mem_blk (t : Fin cfg5.N) (i : S800000x64.Idx) :
    i ∈ ((cfg5.win 4).blk t).view.set ↔ ∀ a : Fin 2, win5_4.index t a * S8000x64.size a ≤ (i a).val
      ∧ (i a).val < win5_4.index t a * S8000x64.size a + S8000x64.size a := by
  show i ∈ ((View.whole main_v55).slice (win5_4.rect t)).set ↔ _
  rw [View.set_slice_whole, Rect.mem_set_unit]
  exact Iff.rfl

/-- Every index of the output array is written back: row r by the point r / 8000. -/
theorem edge5_cover (i : S800000x64.Idx) :
    ∃ t : Fin cfg5.N, (cfg5.win 4).flush t = true ∧ i ∈ ((cfg5.win 4).blk t).view.set := by
  have hi0 : (i 0).val < 800000 := (i 0).isLt
  have hi1 : (i 1).val < 64 := (i 1).isLt
  obtain ⟨t, ht⟩ : ∃ t : Fin cfg5.N, t.val = (i 0).val / 8000 :=
    ⟨⟨(i 0).val / 8000, Nat.lt_of_lt_of_eq (by omega : (i 0).val / 8000 < 100) N_5.symm⟩, rfl⟩
  obtain ⟨-, -, -, -, -, -, -, -, e0, e1⟩ := edge5_idx t
  refine ⟨t, flush5_4 t, ?_⟩
  rw [edge5_mem_blk]
  intro a
  match a with
  | ⟨0, _⟩ =>
    show win5_4.index t (0 : Fin 2) * 8000 ≤ (i 0).val ∧ (i 0).val < win5_4.index t (0 : Fin 2) * 8000 + 8000
    omega
  | ⟨1, _⟩ =>
    show win5_4.index t (1 : Fin 2) * 64 ≤ (i 1).val ∧ (i 1).val < win5_4.index t (1 : Fin 2) * 64 + 64
    omega

/-- The output array after the region: the message function of the source features, the edge weights, the embedding
    weight and the bias, at every index. -/
theorem final5 (c : Dev nD) : (dat5 (F := Ideal) V c).arrAt 4 cfg5.N
    = Cert.Spec.edgeAt (V c main_v49) (V c main_arg2) (V c main_v51) (V c main_v54) :=
  (dat5 (F := Ideal) V c).arrAt_eq_of_cover 4 _ (fun t _ => edge5_flushed V c t) edge5_cover

end Cert.KernelIdeal.RegValue

end
-- ==== Proof.KReg6.lean ====
/-
  The value of a node-update region: the array it writes is, index by index, the two-layer perceptron of the
  aggregated messages plus the node features, `tanh (lrelu ((agg + h)[r, :] · W0 + b0) · W1 + b1)`.

  The region walks the 50000 rows in ten blocks of 5000 rows; the weights and the bias rows arrive whole at every
  point. One block through the body is the same rows of the update: each layer is a product with a weight matrix,
  read as a plain sum over the 64 contracted positions, plus a bias row broadcast down the rows, and the rest is
  pointwise. The ten blocks cover the array.
-/
import proofs.«425574_j14697378087540_1_alg».proof.Proof.Gen.KernelIdeal.Frame
import proofs.«425574_j14697378087540_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegValue

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The origin of a two-axis rectangle -/

/-- The offsets of a load or store that starts at the first row and first column are the constant zero. -/
theorem nodeOrigin6 : (![0, 0] : Fin 2 → Nat) = fun _ => 0 :=
  funext fun a => by match a with | ⟨0, _⟩ => rfl | ⟨1, _⟩ => rfl

/-! ## The product of a block of rows with a square weight matrix

The product contracts the left operand's columns with the right operand's rows, so at output entry (r, c) and
contraction position k the left operand is read at (r, k) and the right one at (k, c). The four coordinate facts: -/

theorem nodeLhsRow6 (j : S5000x64.Idx) (k : dot_S5000x64_S64x64_S5000x64_1_0_0_1_n_n.contr.Idx) :
    (dot_S5000x64_S64x64_S5000x64_1_0_0_1_n_n.lhsIdx j k 0).val = (j 0).val := by
  simp [DotDims.lhsIdx, dot_S5000x64_S64x64_S5000x64_1_0_0_1_n_n]
  rfl

theorem nodeLhsCol6 (j : S5000x64.Idx) (k : dot_S5000x64_S64x64_S5000x64_1_0_0_1_n_n.contr.Idx) :
    (dot_S5000x64_S64x64_S5000x64_1_0_0_1_n_n.lhsIdx j k 1).val = (k ⟨0, by decide⟩).val :=
  DotDims.lhsIdx_val_of_single _ rfl j k

theorem nodeRhsRow6 (j : S5000x64.Idx) (k : dot_S5000x64_S64x64_S5000x64_1_0_0_1_n_n.contr.Idx) :
    (dot_S5000x64_S64x64_S5000x64_1_0_0_1_n_n.rhsIdx j k 0).val = (k ⟨0, by decide⟩).val :=
  DotDims.rhsIdx_val_of_single _ rfl j k

theorem nodeRhsCol6 (j : S5000x64.Idx) (k : dot_S5000x64_S64x64_S5000x64_1_0_0_1_n_n.contr.Idx) :
    (dot_S5000x64_S64x64_S5000x64_1_0_0_1_n_n.rhsIdx j k 1).val = (j 1).val := by
  simp [DotDims.rhsIdx, dot_S5000x64_S64x64_S5000x64_1_0_0_1_n_n]
  rfl

/-- The product accumulated from zero, at entry (p, q): the sum over the 64 contracted positions of the products of
    the entries. -/
theorem nodeMatmul6 (a : FVec Ideal S5000x64 .bf16) (b : FVec Ideal S64x64 .bf16) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  refine (Ideal.matmul_constant_zero_apply dot_S5000x64_S64x64_S5000x64_1_0_0_1_n_n none a b (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have hl : dot_S5000x64_S64x64_S5000x64_1_0_0_1_n_n.lhsIdx (ix2 p q) ((contrEquiv1 dot_S5000x64_S64x64_S5000x64_1_0_0_1_n_n 64 rfl rfl).symm k) = ix2 p k := by
    funext ax; apply Fin.ext
    match ax with
    | ⟨0, _⟩ => exact nodeLhsRow6 _ _
    | ⟨1, _⟩ => exact (nodeLhsCol6 _ _).trans hk
  have hr : dot_S5000x64_S64x64_S5000x64_1_0_0_1_n_n.rhsIdx (ix2 p q) ((contrEquiv1 dot_S5000x64_S64x64_S5000x64_1_0_0_1_n_n 64 rfl rfl).symm k) = ix2 k q := by
    funext ax; apply Fin.ext
    match ax with
    | ⟨0, _⟩ => exact (nodeRhsRow6 _ _).trans hk
    | ⟨1, _⟩ => exact nodeRhsCol6 _ _
  rw [hl, hr]

/-- One affine layer of the body at entry (p, q): the rows times the weights plus the bias row, which is broadcast
    down the rows. The format changes and the casts to the same shape change nothing. -/
theorem nodeAffine6 (a : FVec Ideal S5000x64 .f32) (w : Vec Ideal S64x64 .f32) (b : Vec Ideal S1x64 .f32) (p : Fin 5000) (q : Fin 64) :
    addf (matmul dot_S5000x64_S64x64_S5000x64_1_0_0_1_n_n none (truncf .bf16 a bitsLt_bf16_f32)
        (truncf .bf16 (shapeCast S64x64 w shapeCasts_S64x64_S64x64) bitsLt_bf16_f32)
        (constant (F := Ideal) S5000x64 .f32 0x00000000#32))
      (broadcastTo S5000x64 (shapeCast S1x64 b shapeCasts_S1x64_S1x64) broadcasts_S1x64_S5000x64) (ix2 p q)
      = (∑ k : Fin 64, a (ix2 p k) * w (ix2 k q)) + b (ix2 0 q) := by
  rw [shapeCast_self, shapeCast_self]
  refine (addf_apply _ _ _).trans ?_
  rw [nodeMatmul6, broadcastTo_1b_ab_apply]
  rfl

/-- The body's result at entry (p, q) of the block: the two-layer perceptron of the sum of the two row blocks. -/
theorem nodePay6_apply (x0 x1 : Vec Ideal S5000x64 .f32) (w0 : Vec Ideal S64x64 .f32) (b0 : Vec Ideal S1x64 .f32)
    (w1 : Vec Ideal S64x64 .f32) (b1 : Vec Ideal S1x64 .f32) (p : Fin 5000) (q : Fin 64) :
    k6_pay1 (F := Ideal) x0 x1 w0 b0 w1 b1 (ix2 p q)
      = Ideal.tanh ((∑ k : Fin 64, Cert.Spec.lrelu ((∑ j : Fin 64, (x0 (ix2 p j) + x1 (ix2 p j)) * w0 (ix2 j k)) + b0 (ix2 0 k))
          * w1 (ix2 k q)) + b1 (ix2 0 q)) := by
  unfold k6_pay1
  refine (congrArg Ideal.tanh (nodeAffine6 _ w1 b1 p q)).trans ?_
  refine congrArg Ideal.tanh (congrArg (· + b1 (ix2 0 q)) (Finset.sum_congr rfl fun k _ => congrArg (· * w1 (ix2 k q)) ?_))
  refine (congrArg Cert.Spec.lrelu (nodeAffine6 _ w0 b0 p k)).trans ?_
  rw [shapeCast_self, shapeCast_self]
  rfl

/-! ## The windows' blocks, read off the arrays -/

/-- The printed index maps, decided over the ten grid points: the three row-blocked windows take block `t` of the rows
    at point `t` and the whole width; the weight and bias windows are whole. -/
theorem nodeIdx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- The aggregated messages' block at point `t` is the array's rows under the output's block. -/
theorem nodeIn6_0 (c : Dev nD) (t : Fin cfg6.N) (y : S5000x64.Idx) :
    (iblk6 (F := Ideal) V c 0 t : Vec Ideal S5000x64 .f32) y = V c main_v58 (((cfg6.win 6).blk t).view.emb y) := by
  obtain ⟨e00, e01, -, -, -, -, -, -, -, -, -, -, e60, e61⟩ := nodeIdx6 t
  show V c main_v58 (((cfg6.win 0).blk t).view.emb y) = V c main_v58 (((cfg6.win 6).blk t).view.emb y)
  refine congrArg _ (funext fun a => Fin.ext ?_)
  match a with
  | ⟨0, _⟩ => show win6_0.index t (0 : Fin 2) * 5000 + 1 * (y 0).val = win6_6.index t (0 : Fin 2) * 5000 + 1 * (y 0).val; omega
  | ⟨1, _⟩ => show win6_0.index t (1 : Fin 2) * 64 + 1 * (y 1).val = win6_6.index t (1 : Fin 2) * 64 + 1 * (y 1).val; omega

/-- The node features' block at point `t` likewise. -/
theorem nodeIn6_1 (c : Dev nD) (t : Fin cfg6.N) (y : S5000x64.Idx) :
    (iblk6 (F := Ideal) V c 1 t : Vec Ideal S5000x64 .f32) y = V c main_v48 (((cfg6.win 6).blk t).view.emb y) := by
  obtain ⟨-, -, e10, e11, -, -, -, -, -, -, -, -, e60, e61⟩ := nodeIdx6 t
  show V c main_v48 (((cfg6.win 1).blk t).view.emb y) = V c main_v48 (((cfg6.win 6).blk t).view.emb y)
  refine congrArg _ (funext fun a => Fin.ext ?_)
  match a with
  | ⟨0, _⟩ => show win6_1.index t (0 : Fin 2) * 5000 + 1 * (y 0).val = win6_6.index t (0 : Fin 2) * 5000 + 1 * (y 0).val; omega
  | ⟨1, _⟩ => show win6_1.index t (1 : Fin 2) * 64 + 1 * (y 1).val = win6_6.index t (1 : Fin 2) * 64 + 1 * (y 1).val; omega

/-- The first layer's weights arrive whole at every point. -/
theorem nodeIn6_2 (c : Dev nD) (t : Fin cfg6.N) :
    (iblk6 (F := Ideal) V c 2 t : Vec Ideal S64x64 .f32) = V c main_v60 := by
  obtain ⟨-, -, -, -, e0, e1, -, -, -, -, -, -, -, -⟩ := nodeIdx6 t
  funext y
  show V c main_v60 (((cfg6.win 2).blk t).view.emb y) = V c main_v60 y
  refine congrArg _ (funext fun a => Fin.ext ?_)
  match a with
  | ⟨0, _⟩ => show win6_2.index t (0 : Fin 2) * 64 + 1 * (y 0).val = (y 0).val; omega
  | ⟨1, _⟩ => show win6_2.index t (1 : Fin 2) * 64 + 1 * (y 1).val = (y 1).val; omega

/-- So does the first layer's bias row. -/
theorem nodeIn6_3 (c : Dev nD) (t : Fin cfg6.N) :
    (iblk6 (F := Ideal) V c 3 t : Vec Ideal S1x64 .f32) = V c main_v67 := by
  obtain ⟨-, -, -, -, -, -, e0, e1, -, -, -, -, -, -⟩ := nodeIdx6 t
  funext y
  show V c main_v67 (((cfg6.win 3).blk t).view.emb y) = V c main_v67 y
  refine congrArg _ (funext fun a => Fin.ext ?_)
  match a with
  | ⟨0, _⟩ => show win6_3.index t (0 : Fin 2) * 1 + 1 * (y 0).val = (y 0).val; omega
  | ⟨1, _⟩ => show win6_3.index t (1 : Fin 2) * 64 + 1 * (y 1).val = (y 1).val; omega

/-- So do the second layer's weights. -/
theorem nodeIn6_4 (c : Dev nD) (t : Fin cfg6.N) :
    (iblk6 (F := Ideal) V c 4 t : Vec Ideal S64x64 .f32) = V c main_v64 := by
  obtain ⟨-, -, -, -, -, -, -, -, e0, e1, -, -, -, -⟩ := nodeIdx6 t
  funext y
  show V c main_v64 (((cfg6.win 4).blk t).view.emb y) = V c main_v64 y
  refine congrArg _ (funext fun a => Fin.ext ?_)
  match a with
  | ⟨0, _⟩ => show win6_4.index t (0 : Fin 2) * 64 + 1 * (y 0).val = (y 0).val; omega
  | ⟨1, _⟩ => show win6_4.index t (1 : Fin 2) * 64 + 1 * (y 1).val = (y 1).val; omega

/-- And the second layer's bias row. -/
theorem nodeIn6_5 (c : Dev nD) (t : Fin cfg6.N) :
    (iblk6 (F := Ideal) V c 5 t : Vec Ideal S1x64 .f32) = V c main_v68 := by
  obtain ⟨-, -, -, -, -, -, -, -, -, -, e0, e1, -, -⟩ := nodeIdx6 t
  funext y
  show V c main_v68 (((cfg6.win 5).blk t).view.emb y) = V c main_v68 y
  refine congrArg _ (funext fun a => Fin.ext ?_)
  match a with
  | ⟨0, _⟩ => show win6_5.index t (0 : Fin 2) * 1 + 1 * (y 0).val = (y 0).val; omega
  | ⟨1, _⟩ => show win6_5.index t (1 : Fin 2) * 64 + 1 * (y 1).val = (y 1).val; omega

/-! ## From the body's result on a block to the node update of the arrays -/

/-- A block of rows through the body is the same rows of the node update: when the two row blocks are the arrays' rows
    at row `r` for block row `p`, entry (p, q) of the body's result is entry (r, q) of the update. -/
theorem nodeBlock6 (A H : FVec Ideal S50000x64 .f32) (W0 : FVec Ideal S64x64 .f32) (B0 : FVec Ideal S1x64 .f32)
    (W1 : FVec Ideal S64x64 .f32) (B1 : FVec Ideal S1x64 .f32) (x0 x1 : Vec Ideal S5000x64 .f32)
    (p : Fin 5000) (q : Fin 64) (r : Fin 50000)
    (hx0 : ∀ k : Fin 64, x0 (ix2 p k) = A (ix2 r k)) (hx1 : ∀ k : Fin 64, x1 (ix2 p k) = H (ix2 r k)) :
    k6_pay1 (F := Ideal) x0 x1 W0 B0 W1 B1 (ix2 p q) = Cert.Spec.nodeAt A H W0 B0 W1 B1 (ix2 r q) := by
  refine (nodePay6_apply x0 x1 W0 B0 W1 B1 p q).trans ?_
  refine congrArg Ideal.tanh (congrArg (· + B1 (ix2 0 q)) (Finset.sum_congr rfl fun k _ => congrArg (· * W1 (ix2 k q)) ?_))
  refine congrArg Cert.Spec.lrelu (congrArg (· + B0 (ix2 0 k)) (Finset.sum_congr rfl fun j _ => congrArg (· * W0 (ix2 j k)) ?_))
  rw [hx0 j, hx1 j]

/-- WHAT POINT `t` WRITES BACK is block `t` of the node update of the arrays as the region finds them. -/
theorem nodeFlushed6 (c : Dev nD) (t : Fin cfg6.N) :
    (dat6 (F := Ideal) V c).flushed 6 t
      = ((cfg6.win 6).blk t).view.read (Elt Ideal)
          (Cert.Spec.nodeAt (V c main_v58) (V c main_v48) (V c main_v60) (V c main_v67) (V c main_v64) (V c main_v68)) := by
  show (cfg6.win 6).cut (grid6.coords t) ((dat6 (F := Ideal) V c).after 6 t) = _
  rw [after6_6]
  unfold out6_6
  rw [View.canon_unit_zero nodeOrigin6]
  simp only [View.ld_unit_zero (S := S5000x64) nodeOrigin6, View.ld_unit_zero (S := S64x64) nodeOrigin6,
    View.ld_unit_zero (S := S1x64) nodeOrigin6]
  rw [nodeIn6_2 V c t, nodeIn6_3 V c t, nodeIn6_4 V c t, nodeIn6_5 V c t]
  obtain ⟨-, -, -, -, -, -, -, -, -, -, -, -, e60, e61⟩ := nodeIdx6 t
  funext j
  have hj : (j : S5000x64.Idx) = ix2 (j 0) (j 1) := eq_ix2 j
  have hi : ((cfg6.win 6).blk t).view.emb j = ix2 (((cfg6.win 6).blk t).view.emb j 0) (j 1) := by
    funext a; apply Fin.ext
    match a with
    | ⟨0, _⟩ => rfl
    | ⟨1, _⟩ => show win6_6.index t (1 : Fin 2) * 64 + 1 * (j 1).val = (j 1).val; omega
  show k6_pay1 (F := Ideal) _ _ _ _ _ _ j = Cert.Spec.nodeAt _ _ _ _ _ _ (((cfg6.win 6).blk t).view.emb j)
  rw [hi]
  refine (congrArg (k6_pay1 (F := Ideal) _ _ _ _ _ _) hj).trans ?_
  refine nodeBlock6 _ _ _ _ _ _ _ _ (j 0) (j 1) (((cfg6.win 6).blk t).view.emb j 0) (fun k => ?_) (fun k => ?_)
  · refine (nodeIn6_0 V c t (ix2 (j 0) k)).trans (congrArg _ (funext fun a => Fin.ext ?_))
    match a with
    | ⟨0, _⟩ => rfl
    | ⟨1, _⟩ => show win6_6.index t (1 : Fin 2) * 64 + 1 * k.val = k.val; omega
  · refine (nodeIn6_1 V c t (ix2 (j 0) k)).trans (congrArg _ (funext fun a => Fin.ext ?_))
    match a with
    | ⟨0, _⟩ => rfl
    | ⟨1, _⟩ => show win6_6.index t (1 : Fin 2) * 64 + 1 * k.val = k.val; omega

/-! ## The array after the run -/

/-- An index of the output array is in point `t`'s block iff each coordinate is in the block's range on its axis. -/
theorem nodeMemBlk6 (t : Fin cfg6.N) (i : S50000x64.Idx) :
    i ∈ ((cfg6.win 6).blk t).view.set
      ↔ ∀ a : Fin 2, win6_6.index t a * S5000x64.size a ≤ (i a).val ∧ (i a).val < win6_6.index t a * S5000x64.size a + S5000x64.size a := by
  show i ∈ ((View.whole main_v69).slice (win6_6.rect t)).set ↔ _
  rw [View.set_slice_whole, Rect.mem_set_unit]
  exact Iff.rfl

/-- THE ARRAY after the region: the node update of the arrays the region found. Row `r` is in the block of point
    `r / 5000`, so the ten blocks cover the array. -/
theorem final6 (c : Dev nD) :
    (dat6 (F := Ideal) V c).arrAt 6 cfg6.N
      = Cert.Spec.nodeAt (V c main_v58) (V c main_v48) (V c main_v60) (V c main_v67) (V c main_v64) (V c main_v68) :=
  (dat6 (F := Ideal) V c).arrAt_eq_of_cover 6 _ (fun t _ => nodeFlushed6 V c t) fun i => by
    have hi0 : (i 0).val < 50000 := (i 0).isLt
    have hi1 : (i 1).val < 64 := (i 1).isLt
    have hN : cfg6.N = 10 := N_6
    obtain ⟨t, ht⟩ : ∃ t : Fin cfg6.N, t.val = (i 0).val / 5000 := ⟨⟨(i 0).val / 5000, by omega⟩, rfl⟩
    obtain ⟨-, -, -, -, -, -, -, -, -, -, -, -, e60, e61⟩ := nodeIdx6 t
    refine ⟨t, flush6_6 t, ?_⟩
    rw [nodeMemBlk6]
    intro a
    match a with
    | ⟨0, _⟩ =>
      show win6_6.index t (0 : Fin 2) * 5000 ≤ (i 0).val ∧ (i 0).val < win6_6.index t (0 : Fin 2) * 5000 + 5000
      omega
    | ⟨1, _⟩ =>
      show win6_6.index t (1 : Fin 2) * 64 ≤ (i 1).val ∧ (i 1).val < win6_6.index t (1 : Fin 2) * 64 + 64
      omega

end Cert.KernelIdeal.RegValue
end
-- ==== Proof.KReg7.lean ====
/-
  The last perceptron's region: what its result array holds when the region ends.

  The region walks the 50000 rows of the nodes' hidden features (64 columns) in five blocks of 10000 rows. At each block
  it multiplies the block by the first weight matrix (a plain sum over the contracted coordinate, from zero), adds the
  first bias row to every row, applies the leaky rectifier entry by entry, multiplies by the second weight matrix (64
  rows, 32 columns), adds the second bias row and takes the hyperbolic tangent. Every step acts on each row by itself
  and the weights and biases arrive whole at every block, so block t of the result is block t of the two-layer
  perceptron of the whole hidden-feature matrix; the five blocks tile the rows (row r lies in block r / 10000), so the
  array ends holding that perceptron.
-/
import proofs.«425574_j14697378087540_1_alg».proof.Proof.Gen.KernelIdeal.Frame
import proofs.«425574_j14697378087540_1_alg».proof.Proof.Spec
import proofs.«425574_j14697378087540_1_alg».proof.Proof.LibPerceptron
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegValue

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The body's arithmetic on whole blocks is the two-layer perceptron of the block's rows (the block is first recast
    to its own shape, which changes nothing). -/
theorem post_pay7 (x : Vec Ideal S10000x64 .f32) (W0 : Vec Ideal S64x64 .f32) (b0 : Vec Ideal S1x64 .f32)
    (W1 : Vec Ideal S64x32 .f32) (b1 : Vec Ideal S1x32 .f32) :
    k7_pay1 (F := Ideal) x W0 b0 W1 b1 = Cert.Spec.mlpAt x W0 b0 W1 b1 := by
  funext j
  obtain ⟨p, q, rfl⟩ : ∃ (p : Fin 10000) (q : Fin 32), j = ix2 p q := ⟨j 0, j 1, eq_ix2 j⟩
  unfold k7_pay1
  refine congrArg Ideal.tanh ?_
  refine congrArg₂ (· + ·) ?_ ?_
  · refine (Cert.LibPerceptron.matmul_at dot_S10000x64_S64x32_S10000x32_1_0_0_1_n_n_wf _ _ p q).trans ?_
    refine Finset.sum_congr rfl fun k _ => ?_
    refine congrArg₂ (· * ·) ?_ rfl
    refine congrArg Cert.Spec.lrelu ?_
    refine congrArg₂ (· + ·) ?_ ?_
    · refine (Cert.LibPerceptron.matmul_at dot_S10000x64_S64x64_S10000x64_1_0_0_1_n_n_wf _ _ p k).trans ?_
      refine Finset.sum_congr rfl fun c _ => congrArg₂ (· * ·) ?_ rfl
      exact congrFun (shapeCast_self x _) (ix2 p c)
    · exact Cert.LibPerceptron.biasRow_at b0 _ _ p k
  · exact Cert.LibPerceptron.biasRow_at b1 _ _ p q

/-- The printed index maps over the five grid points: the row-blocked windows (the hidden features in, the result out)
    sit at block (t, 0); the weight and bias windows are whole, block (0, 0). -/
theorem post_idx7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- Row p of the hidden-feature block at point t is row 10000·t + p of the hidden-feature matrix. -/
theorem post_xrow7 (c : Dev nD) (t : Fin cfg7.N) (p : Fin 10000) (r : Fin 50000) (hr : r.val = t.val * 10000 + p.val)
    (j : Fin 64) : (iblk7 V c 0 t : Vec Ideal S10000x64 .f32) (ix2 p j) = (V c main_v69 : Vec Ideal S50000x64 .f32) (ix2 r j) := by
  obtain ⟨e0, e1, -⟩ := post_idx7 t
  show V c main_v69 (((cfg7.win 0).blk t).view.emb (ix2 p j)) = V c main_v69 (ix2 r j)
  refine congrArg (V c main_v69) (funext fun a => Fin.ext ?_)
  match a with
  | ⟨0, _⟩ => show win7_0.index t (0 : Fin 2) * 10000 + 1 * p.val = r.val; omega
  | ⟨1, _⟩ => show win7_0.index t (1 : Fin 2) * 64 + 1 * j.val = j.val; omega

/-- The first layer's weights arrive whole at every point. -/
theorem post_w0_7 (c : Dev nD) (t : Fin cfg7.N) : (iblk7 V c 1 t : Vec Ideal S64x64 .f32) = V c main_arg13 := by
  obtain ⟨-, -, e0, e1, -⟩ := post_idx7 t
  funext y
  show V c main_arg13 (((cfg7.win 1).blk t).view.emb y) = V c main_arg13 y
  refine congrArg (V c main_arg13) (funext fun a => Fin.ext ?_)
  match a with
  | ⟨0, _⟩ => show win7_1.index t (0 : Fin 2) * 64 + 1 * (y 0).val = (y 0).val; omega
  | ⟨1, _⟩ => show win7_1.index t (1 : Fin 2) * 64 + 1 * (y 1).val = (y 1).val; omega

/-- The first layer's bias row arrives whole at every point. -/
theorem post_b0_7 (c : Dev nD) (t : Fin cfg7.N) : (iblk7 V c 2 t : Vec Ideal S1x64 .f32) = V c main_v70 := by
  obtain ⟨-, -, -, -, e0, e1, -⟩ := post_idx7 t
  funext y
  show V c main_v70 (((cfg7.win 2).blk t).view.emb y) = V c main_v70 y
  refine congrArg (V c main_v70) (funext fun a => Fin.ext ?_)
  match a with
  | ⟨0, _⟩ => show win7_2.index t (0 : Fin 2) * 1 + 1 * (y 0).val = (y 0).val; omega
  | ⟨1, _⟩ => show win7_2.index t (1 : Fin 2) * 64 + 1 * (y 1).val = (y 1).val; omega

/-- The second layer's weights arrive whole at every point. -/
theorem post_w1_7 (c : Dev nD) (t : Fin cfg7.N) : (iblk7 V c 3 t : Vec Ideal S64x32 .f32) = V c main_arg15 := by
  obtain ⟨-, -, -, -, -, -, e0, e1, -⟩ := post_idx7 t
  funext y
  show V c main_arg15 (((cfg7.win 3).blk t).view.emb y) = V c main_arg15 y
  refine congrArg (V c main_arg15) (funext fun a => Fin.ext ?_)
  match a with
  | ⟨0, _⟩ => show win7_3.index t (0 : Fin 2) * 64 + 1 * (y 0).val = (y 0).val; omega
  | ⟨1, _⟩ => show win7_3.index t (1 : Fin 2) * 32 + 1 * (y 1).val = (y 1).val; omega

/-- The second layer's bias row arrives whole at every point. -/
theorem post_b1_7 (c : Dev nD) (t : Fin cfg7.N) : (iblk7 V c 4 t : Vec Ideal S1x32 .f32) = V c main_v71 := by
  obtain ⟨-, -, -, -, -, -, -, -, e0, e1, -⟩ := post_idx7 t
  funext y
  show V c main_v71 (((cfg7.win 4).blk t).view.emb y) = V c main_v71 y
  refine congrArg (V c main_v71) (funext fun a => Fin.ext ?_)
  match a with
  | ⟨0, _⟩ => show win7_4.index t (0 : Fin 2) * 1 + 1 * (y 0).val = (y 0).val; omega
  | ⟨1, _⟩ => show win7_4.index t (1 : Fin 2) * 32 + 1 * (y 1).val = (y 1).val; omega

/-- What point t writes back is block t of the perceptron of the whole hidden-feature matrix. -/
theorem post_flushed7 (c : Dev nD) (t : Fin cfg7.N) :
    (dat7 (F := Ideal) V c).flushed 5 t = ((cfg7.win 5).blk t).view.read (Elt Ideal)
      (Cert.Spec.mlpAt (V c main_v69) (V c main_arg13) (V c main_v70) (V c main_arg15) (V c main_v71)) := by
  show (cfg7.win 5).cut (grid7.coords t) ((dat7 (F := Ideal) V c).after 5 t) = _
  rw [after7_5]
  unfold out7_5
  rw [View.canon_unit_zero Cert.LibPerceptron.zeroOff]
  simp only [View.ld_unit_zero (S := S10000x64) Cert.LibPerceptron.zeroOff, View.ld_unit_zero (S := S64x64) Cert.LibPerceptron.zeroOff,
    View.ld_unit_zero (S := S1x64) Cert.LibPerceptron.zeroOff, View.ld_unit_zero (S := S64x32) Cert.LibPerceptron.zeroOff,
    View.ld_unit_zero (S := S1x32) Cert.LibPerceptron.zeroOff]
  rw [post_pay7]
  obtain ⟨-, -, -, -, -, -, -, -, -, -, e0, e1⟩ := post_idx7 t
  have hN : cfg7.N = 5 := N_7
  funext j
  obtain ⟨p, q, rfl⟩ : ∃ (p : Fin 10000) (q : Fin 32), j = ix2 p q := ⟨j 0, j 1, eq_ix2 j⟩
  have hlt : t.val * 10000 + p.val < 50000 := by have := t.isLt; have := p.isLt; omega
  refine Cert.LibPerceptron.mlpAt_row _ _ _ _ _ _ _ _ _ _ p ⟨t.val * 10000 + p.val, hlt⟩ q _
    (post_xrow7 V c t p _ rfl) (post_w0_7 V c t) (post_b0_7 V c t) (post_w1_7 V c t) (post_b1_7 V c t)
    (funext fun a => Fin.ext ?_)
  match a with
  | ⟨0, _⟩ => show win7_5.index t (0 : Fin 2) * 10000 + 1 * p.val = t.val * 10000 + p.val; omega
  | ⟨1, _⟩ => show win7_5.index t (1 : Fin 2) * 32 + 1 * q.val = q.val; omega

/-- An index of the result is in point t's block iff each coordinate is in the block's range on its axis. -/
theorem post_mem_blk7 (t : Fin cfg7.N) (i : S50000x32.Idx) :
    i ∈ ((cfg7.win 5).blk t).view.set ↔ ∀ a : Fin 2, win7_5.index t a * S10000x32.size a ≤ (i a).val
      ∧ (i a).val < win7_5.index t a * S10000x32.size a + S10000x32.size a := by
  show i ∈ ((View.whole main_v72).slice (win7_5.rect t)).set ↔ _
  rw [View.set_slice_whole, Rect.mem_set_unit]
  exact Iff.rfl

/-- Every row of the result lies in some point's block: row r in that of point r / 10000. -/
theorem post_cover7 (i : S50000x32.Idx) :
    ∃ t : Fin cfg7.N, (cfg7.win 5).flush t = true ∧ i ∈ ((cfg7.win 5).blk t).view.set := by
  have hN : cfg7.N = 5 := N_7
  have hi0 : (i 0).val < 50000 := (i 0).isLt
  have hi1 : (i 1).val < 32 := (i 1).isLt
  refine ⟨⟨(i 0).val / 10000, by rw [hN]; omega⟩, flush7_5 _, ?_⟩
  rw [post_mem_blk7]
  obtain ⟨-, -, -, -, -, -, -, -, -, -, e0, e1⟩ := post_idx7 ⟨(i 0).val / 10000, by rw [hN]; omega⟩
  intro a
  match a with
  | ⟨0, _⟩ =>
    show win7_5.index _ (0 : Fin 2) * 10000 ≤ (i 0).val ∧ (i 0).val < win7_5.index _ (0 : Fin 2) * 10000 + 10000
    rw [e0]; show (i 0).val / 10000 * 10000 ≤ (i 0).val ∧ (i 0).val < (i 0).val / 10000 * 10000 + 10000; omega
  | ⟨1, _⟩ =>
    show win7_5.index _ (1 : Fin 2) * 32 ≤ (i 1).val ∧ (i 1).val < win7_5.index _ (1 : Fin 2) * 32 + 32
    rw [e1]; omega

/-- The last perceptron's region leaves in its result array the two-layer perceptron of the hidden-feature matrix. -/
theorem final7 (c : Dev nD) : (dat7 (F := Ideal) V c).arrAt 5 cfg7.N
    = Cert.Spec.mlpAt (V c main_v69) (V c main_arg13) (V c main_v70) (V c main_arg15) (V c main_v71) :=
  (dat7 (F := Ideal) V c).arrAt_eq_of_cover 5 _ (fun t _ => post_flushed7 V c t) post_cover7

end Cert.KernelIdeal.RegValue

end
-- ==== Proof.KFold.lean ====
/-
  The kernel program's result array is the network of its argument arrays.

  The program is walked from the launch to the return. The first region leaves the perceptron of the node features,
  `h₀`. In layer `k` the host gathers the rows of `hₖ` at the wrapped source indices (the guard never fires, the source
  indices being in range), the edge region turns them into messages with slice `k` of the edge weights, the host sums the
  messages into their destination nodes, and the node region applies the layer's perceptron to `agg + hₖ`, leaving `hₖ₊₁`.
  The last region leaves the perceptron of `h₃`. At each step the buffers a region or a stretch reads are followed back to
  where they were written; everything in between leaves them alone.
-/
import proofs.«425574_j14697378087540_1_alg».proof.Proof.Gen.KernelIdeal.Frame
import proofs.«425574_j14697378087540_1_alg».proof.Proof.SpecNet
import proofs.«425574_j14697378087540_1_alg».proof.Proof.KCarry
import proofs.«425574_j14697378087540_1_alg».proof.Proof.KHost
import proofs.«425574_j14697378087540_1_alg».proof.Proof.KTake
import proofs.«425574_j14697378087540_1_alg».proof.Proof.KReg0
import proofs.«425574_j14697378087540_1_alg».proof.Proof.KReg1
import proofs.«425574_j14697378087540_1_alg».proof.Proof.KReg2
import proofs.«425574_j14697378087540_1_alg».proof.Proof.KReg3
import proofs.«425574_j14697378087540_1_alg».proof.Proof.KReg4
import proofs.«425574_j14697378087540_1_alg».proof.Proof.KReg5
import proofs.«425574_j14697378087540_1_alg».proof.Proof.KReg6
import proofs.«425574_j14697378087540_1_alg».proof.Proof.KReg7

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- An argument array as launched, on core `c`. -/
abbrev arg (c : Dev nD) (r : Ref sig .tc) : Buf (Elt Ideal) ((c : Thread nD τ).loc r) := m ((c : Thread nD τ).loc r)

/-- Every source index of the edge list lies between `-50000` and `49999`. -/
def Rng (c : Dev nD) : Prop :=
  ∀ e : Fin 800000, (-50000 : Int) ≤ (arg m c main_arg1 (ValueIdx.ix2 0 e)).toInt ∧ (arg m c main_arg1 (ValueIdx.ix2 0 e)).toInt < 50000

/-- The node features after the first perceptron. -/
abbrev h0 (c : Dev nD) : FVec Ideal Cert.Spec.SN64 .f32 :=
  Cert.Spec.mlpAt (arg m c main_arg0) (arg m c main_arg3) (Cert.Spec.rowOf (arg m c main_arg4)) (arg m c main_arg5) (Cert.Spec.rowOf (arg m c main_arg6))
/-- One layer of the network over the launched arrays. -/
abbrev lay (c : Dev nD) (k : Fin 3) (h : FVec Ideal Cert.Spec.SN64 .f32) : FVec Ideal Cert.Spec.SN64 .f32 :=
  Cert.Spec.layer gather_S50000x64_S800000x1_S800000x64_1_0_n_n_0_1_164 scatter_S50000x64_S800000x1_S800000x64_1_0_0_1 (arg m c main_arg1) (arg m c main_arg2) (arg m c main_arg7) (arg m c main_arg8) (arg m c main_arg9) (arg m c main_arg10) (arg m c main_arg11) (arg m c main_arg12) k h
abbrev h1 (c : Dev nD) : FVec Ideal Cert.Spec.SN64 .f32 := lay m c 0 (h0 m c)
abbrev h2 (c : Dev nD) : FVec Ideal Cert.Spec.SN64 .f32 := lay m c 1 (h1 m c)
abbrev h3 (c : Dev nD) : FVec Ideal Cert.Spec.SN64 .f32 := lay m c 2 (h2 m c)

/-! ## The first perceptron -/

theorem bias_in (c : Dev nD) : W1 m ρ c (Proc.devRef .tc main_v0) = Cert.Spec.rowOf (arg m c main_arg4) := Host.bias_in (W0 m ρ c)
theorem bias_h (c : Dev nD) : W1 m ρ c (Proc.devRef .tc main_v1) = Cert.Spec.rowOf (arg m c main_arg6) := Host.bias_h (W0 m ρ c)

/-- The first region leaves `h₀`. -/
theorem out0 (c : Dev nD) : W2 m ρ c (Proc.devRef .tc main_v2) = h0 m c := by
  refine (W2_arr m ρ c 5).trans ((Cert.KernelIdeal.RegValue.final0 (V1 m ρ) c).trans ?_)
  have e0 : V1 m ρ c main_arg0 = (arg m c main_arg0) := Carry.at1_arg0 m ρ c
  have e1 : V1 m ρ c main_arg3 = (arg m c main_arg3) := Carry.at1_arg3 m ρ c
  have e2 : V1 m ρ c main_v0 = Cert.Spec.rowOf (arg m c main_arg4) := bias_in m ρ c
  have e3 : V1 m ρ c main_arg5 = (arg m c main_arg5) := Carry.at1_arg5 m ρ c
  have e4 : V1 m ρ c main_v1 = Cert.Spec.rowOf (arg m c main_arg6) := bias_h m ρ c
  rw [e0, e1, e2, e3, e4]

/-! ## The source and destination vectors -/

theorem src3 (c : Dev nD) : W3 m ρ c (Proc.devRef .tc main_v4) = Cert.Spec.edgeRow (arg m c main_arg1) 0 :=
  (Host.src_row (W2 m ρ c)).trans (congrArg (fun a => Cert.Spec.edgeRow a 0) (Carry.at2_arg1 m ρ c))
theorem dst3 (c : Dev nD) : W3 m ρ c (Proc.devRef .tc main_v6) = Cert.Spec.edgeRow (arg m c main_arg1) 1 :=
  (Host.dst_row (W2 m ρ c)).trans (congrArg (fun a => Cert.Spec.edgeRow a 1) (Carry.at2_arg1 m ρ c))

/-! ## Layer 0 -/

/-- The rows of `h0` gathered at the wrapped source indices: the guard never fires. -/
theorem gath0 (c : Dev nD) (hs : Rng m c) : W4 m ρ c (Proc.devRef .tc main_v7) = Cert.Spec.gath gather_S50000x64_S800000x1_S800000x64_1_0_n_n_0_1_164 (h0 m c) (arg m c main_arg1) := by
  have e4 : W3 m ρ c (Proc.devRef .tc main_v4) = Cert.Spec.edgeRow (arg m c main_arg1) 0 := src3 m ρ c
  have eh : W3 m ρ c (Proc.devRef .tc main_v2) = h0 m c := (Carry.at3_v2 m ρ c).trans (out0 m ρ c)
  have key := Host.take0 (W3 m ρ c) (by rw [e4]; exact hs)
  rw [e4, eh] at key
  exact key

theorem we0 (c : Dev nD) : W5 m ρ c (Proc.devRef .tc main_v9) = Cert.Spec.sliceMat (arg m c main_arg7) 0 :=
  (Host.edge_w0 (W4 m ρ c)).trans (congrArg (fun a => Cert.Spec.sliceMat a 0) (Carry.at4_arg7 m ρ c))
theorem be0 (c : Dev nD) : W5 m ρ c (Proc.devRef .tc main_v12) = Cert.Spec.sliceRow (arg m c main_arg8) 0 :=
  (Host.edge_b0 (W4 m ρ c)).trans (congrArg (fun a => Cert.Spec.sliceRow a 0) (Carry.at4_arg8 m ρ c))

/-- The edge region leaves the messages of layer 0. -/
theorem msg0 (c : Dev nD) (hs : Rng m c) : W6 m ρ c (Proc.devRef .tc main_v13) = Cert.Spec.edgeAt (Cert.Spec.gath gather_S50000x64_S800000x1_S800000x64_1_0_n_n_0_1_164 (h0 m c) (arg m c main_arg1)) (arg m c main_arg2) (Cert.Spec.sliceMat (arg m c main_arg7) 0) (Cert.Spec.sliceRow (arg m c main_arg8) 0) := by
  refine (W6_arr m ρ c 4).trans ((Cert.KernelIdeal.RegValue.final1 (V5 m ρ) c).trans ?_)
  have e0 : V5 m ρ c main_v7 = Cert.Spec.gath gather_S50000x64_S800000x1_S800000x64_1_0_n_n_0_1_164 (h0 m c) (arg m c main_arg1) := (Carry.at5_v7 m ρ c).trans (gath0 m ρ c hs)
  have e1 : V5 m ρ c main_arg2 = (arg m c main_arg2) := Carry.at5_arg2 m ρ c
  have e2 : V5 m ρ c main_v9 = Cert.Spec.sliceMat (arg m c main_arg7) 0 := we0 m ρ c
  have e3 : V5 m ρ c main_v12 = Cert.Spec.sliceRow (arg m c main_arg8) 0 := be0 m ρ c
  rw [e0, e1, e2, e3]

/-- The messages of layer 0 summed into their destination nodes. -/
theorem agg0 (c : Dev nD) (hs : Rng m c) : W7 m ρ c (Proc.devRef .tc main_v16) = Cert.Spec.scat scatter_S50000x64_S800000x1_S800000x64_1_0_0_1 (arg m c main_arg1) (Cert.Spec.edgeAt (Cert.Spec.gath gather_S50000x64_S800000x1_S800000x64_1_0_n_n_0_1_164 (h0 m c) (arg m c main_arg1)) (arg m c main_arg2) (Cert.Spec.sliceMat (arg m c main_arg7) 0) (Cert.Spec.sliceRow (arg m c main_arg8) 0)) := by
  have e6 : W6 m ρ c (Proc.devRef .tc main_v6) = Cert.Spec.edgeRow (arg m c main_arg1) 1 := (Carry.at6_v6 m ρ c).trans (dst3 m ρ c)
  have em : W6 m ρ c (Proc.devRef .tc main_v13) = Cert.Spec.edgeAt (Cert.Spec.gath gather_S50000x64_S800000x1_S800000x64_1_0_n_n_0_1_164 (h0 m c) (arg m c main_arg1)) (arg m c main_arg2) (Cert.Spec.sliceMat (arg m c main_arg7) 0) (Cert.Spec.sliceRow (arg m c main_arg8) 0) := msg0 m ρ c hs
  have key := Host.agg0 (W6 m ρ c)
  rw [e6, em] at key
  exact key

theorem w0_0 (c : Dev nD) : W7 m ρ c (Proc.devRef .tc main_v18) = Cert.Spec.sliceMat (arg m c main_arg9) 0 :=
  (Host.node_w0_0 (W6 m ρ c)).trans (congrArg (fun a => Cert.Spec.sliceMat a 0) (Carry.at6_arg9 m ρ c))
theorem b0_0 (c : Dev nD) : W7 m ρ c (Proc.devRef .tc main_v25) = Cert.Spec.sliceRow (arg m c main_arg10) 0 :=
  (Host.node_b0_0 (W6 m ρ c)).trans (congrArg (fun a => Cert.Spec.sliceRow a 0) (Carry.at6_arg10 m ρ c))
theorem w1_0 (c : Dev nD) : W7 m ρ c (Proc.devRef .tc main_v22) = Cert.Spec.sliceMat (arg m c main_arg11) 0 :=
  (Host.node_w1_0 (W6 m ρ c)).trans (congrArg (fun a => Cert.Spec.sliceMat a 0) (Carry.at6_arg11 m ρ c))
theorem b1_0 (c : Dev nD) : W7 m ρ c (Proc.devRef .tc main_v26) = Cert.Spec.sliceRow (arg m c main_arg12) 0 :=
  (Host.node_b1_0 (W6 m ρ c)).trans (congrArg (fun a => Cert.Spec.sliceRow a 0) (Carry.at6_arg12 m ρ c))

/-- The node region leaves `h1`. -/
theorem hout0 (c : Dev nD) (hs : Rng m c) : W8 m ρ c (Proc.devRef .tc main_v27) = h1 m c := by
  refine (W8_arr m ρ c 6).trans ((Cert.KernelIdeal.RegValue.final2 (V7 m ρ) c).trans ?_)
  have e0 : V7 m ρ c main_v16 = Cert.Spec.scat scatter_S50000x64_S800000x1_S800000x64_1_0_0_1 (arg m c main_arg1) (Cert.Spec.edgeAt (Cert.Spec.gath gather_S50000x64_S800000x1_S800000x64_1_0_n_n_0_1_164 (h0 m c) (arg m c main_arg1)) (arg m c main_arg2) (Cert.Spec.sliceMat (arg m c main_arg7) 0) (Cert.Spec.sliceRow (arg m c main_arg8) 0)) := agg0 m ρ c hs
  have e1 : V7 m ρ c main_v2 = h0 m c := (Carry.at7_v2 m ρ c).trans (out0 m ρ c)
  have e2 : V7 m ρ c main_v18 = Cert.Spec.sliceMat (arg m c main_arg9) 0 := w0_0 m ρ c
  have e3 : V7 m ρ c main_v25 = Cert.Spec.sliceRow (arg m c main_arg10) 0 := b0_0 m ρ c
  have e4 : V7 m ρ c main_v22 = Cert.Spec.sliceMat (arg m c main_arg11) 0 := w1_0 m ρ c
  have e5 : V7 m ρ c main_v26 = Cert.Spec.sliceRow (arg m c main_arg12) 0 := b1_0 m ρ c
  rw [e0, e1, e2, e3, e4, e5]
  rfl

/-! ## Layer 1 -/

/-- The rows of `h1` gathered at the wrapped source indices: the guard never fires. -/
theorem gath1 (c : Dev nD) (hs : Rng m c) : W9 m ρ c (Proc.devRef .tc main_v28) = Cert.Spec.gath gather_S50000x64_S800000x1_S800000x64_1_0_n_n_0_1_164 (h1 m c) (arg m c main_arg1) := by
  have e4 : W8 m ρ c (Proc.devRef .tc main_v4) = Cert.Spec.edgeRow (arg m c main_arg1) 0 := (Carry.at8_v4 m ρ c).trans (src3 m ρ c)
  have eh : W8 m ρ c (Proc.devRef .tc main_v27) = h1 m c := hout0 m ρ c hs
  have key := Host.take1 (W8 m ρ c) (by rw [e4]; exact hs)
  rw [e4, eh] at key
  exact key

theorem we1 (c : Dev nD) : W10 m ρ c (Proc.devRef .tc main_v30) = Cert.Spec.sliceMat (arg m c main_arg7) 1 :=
  (Host.edge_w1 (W9 m ρ c)).trans (congrArg (fun a => Cert.Spec.sliceMat a 1) (Carry.at9_arg7 m ρ c))
theorem be1 (c : Dev nD) : W10 m ρ c (Proc.devRef .tc main_v33) = Cert.Spec.sliceRow (arg m c main_arg8) 1 :=
  (Host.edge_b1 (W9 m ρ c)).trans (congrArg (fun a => Cert.Spec.sliceRow a 1) (Carry.at9_arg8 m ρ c))

/-- The edge region leaves the messages of layer 1. -/
theorem msg1 (c : Dev nD) (hs : Rng m c) : W11 m ρ c (Proc.devRef .tc main_v34) = Cert.Spec.edgeAt (Cert.Spec.gath gather_S50000x64_S800000x1_S800000x64_1_0_n_n_0_1_164 (h1 m c) (arg m c main_arg1)) (arg m c main_arg2) (Cert.Spec.sliceMat (arg m c main_arg7) 1) (Cert.Spec.sliceRow (arg m c main_arg8) 1) := by
  refine (W11_arr m ρ c 4).trans ((Cert.KernelIdeal.RegValue.final3 (V10 m ρ) c).trans ?_)
  have e0 : V10 m ρ c main_v28 = Cert.Spec.gath gather_S50000x64_S800000x1_S800000x64_1_0_n_n_0_1_164 (h1 m c) (arg m c main_arg1) := (Carry.at10_v28 m ρ c).trans (gath1 m ρ c hs)
  have e1 : V10 m ρ c main_arg2 = (arg m c main_arg2) := Carry.at10_arg2 m ρ c
  have e2 : V10 m ρ c main_v30 = Cert.Spec.sliceMat (arg m c main_arg7) 1 := we1 m ρ c
  have e3 : V10 m ρ c main_v33 = Cert.Spec.sliceRow (arg m c main_arg8) 1 := be1 m ρ c
  rw [e0, e1, e2, e3]

/-- The messages of layer 1 summed into their destination nodes. -/
theorem agg1 (c : Dev nD) (hs : Rng m c) : W12 m ρ c (Proc.devRef .tc main_v37) = Cert.Spec.scat scatter_S50000x64_S800000x1_S800000x64_1_0_0_1 (arg m c main_arg1) (Cert.Spec.edgeAt (Cert.Spec.gath gather_S50000x64_S800000x1_S800000x64_1_0_n_n_0_1_164 (h1 m c) (arg m c main_arg1)) (arg m c main_arg2) (Cert.Spec.sliceMat (arg m c main_arg7) 1) (Cert.Spec.sliceRow (arg m c main_arg8) 1)) := by
  have e6 : W11 m ρ c (Proc.devRef .tc main_v6) = Cert.Spec.edgeRow (arg m c main_arg1) 1 := (Carry.at11_v6 m ρ c).trans (dst3 m ρ c)
  have em : W11 m ρ c (Proc.devRef .tc main_v34) = Cert.Spec.edgeAt (Cert.Spec.gath gather_S50000x64_S800000x1_S800000x64_1_0_n_n_0_1_164 (h1 m c) (arg m c main_arg1)) (arg m c main_arg2) (Cert.Spec.sliceMat (arg m c main_arg7) 1) (Cert.Spec.sliceRow (arg m c main_arg8) 1) := msg1 m ρ c hs
  have key := Host.agg1 (W11 m ρ c)
  rw [e6, em] at key
  exact key

theorem w0_1 (c : Dev nD) : W12 m ρ c (Proc.devRef .tc main_v39) = Cert.Spec.sliceMat (arg m c main_arg9) 1 :=
  (Host.node_w0_1 (W11 m ρ c)).trans (congrArg (fun a => Cert.Spec.sliceMat a 1) (Carry.at11_arg9 m ρ c))
theorem b0_1 (c : Dev nD) : W12 m ρ c (Proc.devRef .tc main_v46) = Cert.Spec.sliceRow (arg m c main_arg10) 1 :=
  (Host.node_b0_1 (W11 m ρ c)).trans (congrArg (fun a => Cert.Spec.sliceRow a 1) (Carry.at11_arg10 m ρ c))
theorem w1_1 (c : Dev nD) : W12 m ρ c (Proc.devRef .tc main_v43) = Cert.Spec.sliceMat (arg m c main_arg11) 1 :=
  (Host.node_w1_1 (W11 m ρ c)).trans (congrArg (fun a => Cert.Spec.sliceMat a 1) (Carry.at11_arg11 m ρ c))
theorem b1_1 (c : Dev nD) : W12 m ρ c (Proc.devRef .tc main_v47) = Cert.Spec.sliceRow (arg m c main_arg12) 1 :=
  (Host.node_b1_1 (W11 m ρ c)).trans (congrArg (fun a => Cert.Spec.sliceRow a 1) (Carry.at11_arg12 m ρ c))

/-- The node region leaves `h2`. -/
theorem hout1 (c : Dev nD) (hs : Rng m c) : W13 m ρ c (Proc.devRef .tc main_v48) = h2 m c := by
  refine (W13_arr m ρ c 6).trans ((Cert.KernelIdeal.RegValue.final4 (V12 m ρ) c).trans ?_)
  have e0 : V12 m ρ c main_v37 = Cert.Spec.scat scatter_S50000x64_S800000x1_S800000x64_1_0_0_1 (arg m c main_arg1) (Cert.Spec.edgeAt (Cert.Spec.gath gather_S50000x64_S800000x1_S800000x64_1_0_n_n_0_1_164 (h1 m c) (arg m c main_arg1)) (arg m c main_arg2) (Cert.Spec.sliceMat (arg m c main_arg7) 1) (Cert.Spec.sliceRow (arg m c main_arg8) 1)) := agg1 m ρ c hs
  have e1 : V12 m ρ c main_v27 = h1 m c := (Carry.at12_v27 m ρ c).trans (hout0 m ρ c hs)
  have e2 : V12 m ρ c main_v39 = Cert.Spec.sliceMat (arg m c main_arg9) 1 := w0_1 m ρ c
  have e3 : V12 m ρ c main_v46 = Cert.Spec.sliceRow (arg m c main_arg10) 1 := b0_1 m ρ c
  have e4 : V12 m ρ c main_v43 = Cert.Spec.sliceMat (arg m c main_arg11) 1 := w1_1 m ρ c
  have e5 : V12 m ρ c main_v47 = Cert.Spec.sliceRow (arg m c main_arg12) 1 := b1_1 m ρ c
  rw [e0, e1, e2, e3, e4, e5]
  rfl

/-! ## Layer 2 -/

/-- The rows of `h2` gathered at the wrapped source indices: the guard never fires. -/
theorem gath2 (c : Dev nD) (hs : Rng m c) : W14 m ρ c (Proc.devRef .tc main_v49) = Cert.Spec.gath gather_S50000x64_S800000x1_S800000x64_1_0_n_n_0_1_164 (h2 m c) (arg m c main_arg1) := by
  have e4 : W13 m ρ c (Proc.devRef .tc main_v4) = Cert.Spec.edgeRow (arg m c main_arg1) 0 := (Carry.at13_v4 m ρ c).trans (src3 m ρ c)
  have eh : W13 m ρ c (Proc.devRef .tc main_v48) = h2 m c := hout1 m ρ c hs
  have key := Host.take2 (W13 m ρ c) (by rw [e4]; exact hs)
  rw [e4, eh] at key
  exact key

theorem we2 (c : Dev nD) : W15 m ρ c (Proc.devRef .tc main_v51) = Cert.Spec.sliceMat (arg m c main_arg7) 2 :=
  (Host.edge_w2 (W14 m ρ c)).trans (congrArg (fun a => Cert.Spec.sliceMat a 2) (Carry.at14_arg7 m ρ c))
theorem be2 (c : Dev nD) : W15 m ρ c (Proc.devRef .tc main_v54) = Cert.Spec.sliceRow (arg m c main_arg8) 2 :=
  (Host.edge_b2 (W14 m ρ c)).trans (congrArg (fun a => Cert.Spec.sliceRow a 2) (Carry.at14_arg8 m ρ c))

/-- The edge region leaves the messages of layer 2. -/
theorem msg2 (c : Dev nD) (hs : Rng m c) : W16 m ρ c (Proc.devRef .tc main_v55) = Cert.Spec.edgeAt (Cert.Spec.gath gather_S50000x64_S800000x1_S800000x64_1_0_n_n_0_1_164 (h2 m c) (arg m c main_arg1)) (arg m c main_arg2) (Cert.Spec.sliceMat (arg m c main_arg7) 2) (Cert.Spec.sliceRow (arg m c main_arg8) 2) := by
  refine (W16_arr m ρ c 4).trans ((Cert.KernelIdeal.RegValue.final5 (V15 m ρ) c).trans ?_)
  have e0 : V15 m ρ c main_v49 = Cert.Spec.gath gather_S50000x64_S800000x1_S800000x64_1_0_n_n_0_1_164 (h2 m c) (arg m c main_arg1) := (Carry.at15_v49 m ρ c).trans (gath2 m ρ c hs)
  have e1 : V15 m ρ c main_arg2 = (arg m c main_arg2) := Carry.at15_arg2 m ρ c
  have e2 : V15 m ρ c main_v51 = Cert.Spec.sliceMat (arg m c main_arg7) 2 := we2 m ρ c
  have e3 : V15 m ρ c main_v54 = Cert.Spec.sliceRow (arg m c main_arg8) 2 := be2 m ρ c
  rw [e0, e1, e2, e3]

/-- The messages of layer 2 summed into their destination nodes. -/
theorem agg2 (c : Dev nD) (hs : Rng m c) : W17 m ρ c (Proc.devRef .tc main_v58) = Cert.Spec.scat scatter_S50000x64_S800000x1_S800000x64_1_0_0_1 (arg m c main_arg1) (Cert.Spec.edgeAt (Cert.Spec.gath gather_S50000x64_S800000x1_S800000x64_1_0_n_n_0_1_164 (h2 m c) (arg m c main_arg1)) (arg m c main_arg2) (Cert.Spec.sliceMat (arg m c main_arg7) 2) (Cert.Spec.sliceRow (arg m c main_arg8) 2)) := by
  have e6 : W16 m ρ c (Proc.devRef .tc main_v6) = Cert.Spec.edgeRow (arg m c main_arg1) 1 := (Carry.at16_v6 m ρ c).trans (dst3 m ρ c)
  have em : W16 m ρ c (Proc.devRef .tc main_v55) = Cert.Spec.edgeAt (Cert.Spec.gath gather_S50000x64_S800000x1_S800000x64_1_0_n_n_0_1_164 (h2 m c) (arg m c main_arg1)) (arg m c main_arg2) (Cert.Spec.sliceMat (arg m c main_arg7) 2) (Cert.Spec.sliceRow (arg m c main_arg8) 2) := msg2 m ρ c hs
  have key := Host.agg2 (W16 m ρ c)
  rw [e6, em] at key
  exact key

theorem w0_2 (c : Dev nD) : W17 m ρ c (Proc.devRef .tc main_v60) = Cert.Spec.sliceMat (arg m c main_arg9) 2 :=
  (Host.node_w0_2 (W16 m ρ c)).trans (congrArg (fun a => Cert.Spec.sliceMat a 2) (Carry.at16_arg9 m ρ c))
theorem b0_2 (c : Dev nD) : W17 m ρ c (Proc.devRef .tc main_v67) = Cert.Spec.sliceRow (arg m c main_arg10) 2 :=
  (Host.node_b0_2 (W16 m ρ c)).trans (congrArg (fun a => Cert.Spec.sliceRow a 2) (Carry.at16_arg10 m ρ c))
theorem w1_2 (c : Dev nD) : W17 m ρ c (Proc.devRef .tc main_v64) = Cert.Spec.sliceMat (arg m c main_arg11) 2 :=
  (Host.node_w1_2 (W16 m ρ c)).trans (congrArg (fun a => Cert.Spec.sliceMat a 2) (Carry.at16_arg11 m ρ c))
theorem b1_2 (c : Dev nD) : W17 m ρ c (Proc.devRef .tc main_v68) = Cert.Spec.sliceRow (arg m c main_arg12) 2 :=
  (Host.node_b1_2 (W16 m ρ c)).trans (congrArg (fun a => Cert.Spec.sliceRow a 2) (Carry.at16_arg12 m ρ c))

/-- The node region leaves `h3`. -/
theorem hout2 (c : Dev nD) (hs : Rng m c) : W18 m ρ c (Proc.devRef .tc main_v69) = h3 m c := by
  refine (W18_arr m ρ c 6).trans ((Cert.KernelIdeal.RegValue.final6 (V17 m ρ) c).trans ?_)
  have e0 : V17 m ρ c main_v58 = Cert.Spec.scat scatter_S50000x64_S800000x1_S800000x64_1_0_0_1 (arg m c main_arg1) (Cert.Spec.edgeAt (Cert.Spec.gath gather_S50000x64_S800000x1_S800000x64_1_0_n_n_0_1_164 (h2 m c) (arg m c main_arg1)) (arg m c main_arg2) (Cert.Spec.sliceMat (arg m c main_arg7) 2) (Cert.Spec.sliceRow (arg m c main_arg8) 2)) := agg2 m ρ c hs
  have e1 : V17 m ρ c main_v48 = h2 m c := (Carry.at17_v48 m ρ c).trans (hout1 m ρ c hs)
  have e2 : V17 m ρ c main_v60 = Cert.Spec.sliceMat (arg m c main_arg9) 2 := w0_2 m ρ c
  have e3 : V17 m ρ c main_v67 = Cert.Spec.sliceRow (arg m c main_arg10) 2 := b0_2 m ρ c
  have e4 : V17 m ρ c main_v64 = Cert.Spec.sliceMat (arg m c main_arg11) 2 := w1_2 m ρ c
  have e5 : V17 m ρ c main_v68 = Cert.Spec.sliceRow (arg m c main_arg12) 2 := b1_2 m ρ c
  rw [e0, e1, e2, e3, e4, e5]
  rfl

/-! ## The last perceptron -/

theorem bias_q0 (c : Dev nD) : W19 m ρ c (Proc.devRef .tc main_v70) = Cert.Spec.rowOf (arg m c main_arg14) :=
  (Host.bias_q0 (W18 m ρ c)).trans (congrArg (fun a => Cert.Spec.rowOf a) (Carry.at18_arg14 m ρ c))
theorem bias_q1 (c : Dev nD) : W19 m ρ c (Proc.devRef .tc main_v71) = Cert.Spec.rowOf (arg m c main_arg16) :=
  (Host.bias_q1 (W18 m ρ c)).trans (congrArg (fun a => Cert.Spec.rowOf a) (Carry.at18_arg16 m ρ c))

/-- The result array after the run is the network of the launched argument arrays. -/
theorem result (c : Dev nD) (hs : Rng m c) : W20 m ρ c (Proc.devRef .tc main_v72)
    = Cert.Spec.net gather_S50000x64_S800000x1_S800000x64_1_0_n_n_0_1_164 scatter_S50000x64_S800000x1_S800000x64_1_0_0_1 (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) := by
  refine (W20_arr m ρ c 5).trans ((Cert.KernelIdeal.RegValue.final7 (V19 m ρ) c).trans ?_)
  have e0 : V19 m ρ c main_v69 = h3 m c := (Carry.at19_v69 m ρ c).trans (hout2 m ρ c hs)
  have e1 : V19 m ρ c main_arg13 = (arg m c main_arg13) := Carry.at19_arg13 m ρ c
  have e2 : V19 m ρ c main_v70 = Cert.Spec.rowOf (arg m c main_arg14) := bias_q0 m ρ c
  have e3 : V19 m ρ c main_arg15 = (arg m c main_arg15) := Carry.at19_arg15 m ρ c
  have e4 : V19 m ρ c main_v71 = Cert.Spec.rowOf (arg m c main_arg16) := bias_q1 m ρ c
  rw [e0, e1, e2, e3, e4]
  rfl

end Cert.KernelIdeal.Fold

end
-- ==== Proof.PreRange.lean ====
/-
  The one fact the proof takes from the precondition: every source index of the edge list lies in [-50000, 50000).

  The precondition is a conjunction of seventeen bits, and the last bit is the "all" of an array of bits, one per edge:
  the edge's source index (row 0 of the edge list) is at least -50000 and below 50000, both read signed. A conjunction
  that is 1 has every conjunct 1; an "all" that is 1 has every bit 1; and a signed comparison bit that is 1 says the
  signed inequality of the two words. The slice of row 0 followed by the reshape to a vector reads, at edge e, the edge
  list at (0, e), and the two bounds are constant words whose signed values are -50000 and 50000.
-/
import proofs.«425574_j14697378087540_1_alg».proof.Pre_finite_inputs
import proofs.«425574_j14697378087540_1_alg».proof.Proof.SpecNet
import Idealize.ShloMosaic.Lib.ReduceAll
import Idealize.ShloMosaic.Lib.StableHlo.Predicate
import Idealize.ShloMosaic.Lib.ValueIdx
import Idealize.ShloMosaic.Lib.ValueLayout

noncomputable section

open Idealize.ShloMosaic

namespace Cert.PreRange

open Cert.Pre_finite_inputs

variable [Cert.Pre_finite_inputs.Facts]

/-- The scalar shape has one index. -/
instance : Subsingleton S_.Idx := ⟨fun a b => funext fun d => d.elim0⟩

/-- The last part of the chain: when its result is 1, both comparison bits are 1 at every edge. -/
theorem part5_bits (v78 : IVec S_ 1) (v82 : IVec S800000 1) (v84 v85 : IVec S800000 32)
    (h : fn_part5 (F := Ideal) v78 v82 v84 v85 = fun _ => 1#1) (i : S800000.Idx) :
    v82 i = 1#1 ∧ IntOp.cmpi .slt (v84 i) (v85 i) = 1#1 := by
  have h0 := congrFun h ValueIdx.ix0
  dsimp only [fn_part5] at h0
  change IntOp.andi _ _ = 1#1 at h0
  have h1 := (IntOp.andi_eq_one.1 h0).2
  have h2 := Host.reduce_andi_all _ _ _ _ _ h1 i
  change IntOp.andi _ _ = 1#1 at h2
  exact IntOp.andi_eq_one.1 h2

/-- The signed value of the lower bound's word. -/
theorem toInt_lo : (4294917296#32 : BitVec 32).toInt = -50000 := by decide

/-- The signed value of the upper bound's word. -/
theorem toInt_hi : (50000#32 : BitVec 32).toInt = 50000 := by decide

/-- Row 0 of the edge list, sliced and reshaped to a vector, reads at edge `e` the edge list at `(0, e)`. -/
theorem row0_apply (a1 : IVec S2x800000 32) (e : Fin 800000) :
    shapeCast S800000 (extractStridedSlice S1x800000 ![0, 0] a1 Facts.slices_S2x800000_S1x800000_0_0)
      Facts.shapeCasts_S1x800000_S800000 (ValueIdx.ix1 e) = a1 (ValueIdx.ix2 0 e) := by
  rw [ValueIdx.shapeCast_1a_a_apply]
  exact ValueIdx.slice2_axis0_apply 0 a1 _ 0 e 0 rfl

/-- The fourth part of the chain: when its result is 1, every source index is in range. -/
theorem part4_range (a1 : IVec S2x800000 32) (a15 : FVec Ideal S64x32 .f32) (a16 : FVec Ideal S32 .f32) (v63 v67 : IVec S_ 1)
    (h : fn_part4 (F := Ideal) a1 a15 a16 v63 v67 = fun _ => 1#1) (e : Fin 800000) :
    (-50000 : Int) ≤ (a1 (ValueIdx.ix2 0 e)).toInt ∧ (a1 (ValueIdx.ix2 0 e)).toInt < 50000 := by
  dsimp only [fn_part4] at h
  obtain ⟨hge, hlt⟩ := part5_bits _ _ _ _ h (ValueIdx.ix1 e)
  change IntOp.cmpi .sge _ (4294917296#32) = 1#1 at hge
  change IntOp.cmpi .slt _ (50000#32) = 1#1 at hlt
  rw [IntOp.cmpi_sge, row0_apply, toInt_lo] at hge
  rw [IntOp.cmpi_slt, row0_apply, toInt_hi] at hlt
  exact ⟨hge, hlt⟩

/-- The precondition gives the range of the source row: every source index, read signed, is in `[-50000, 50000)`. -/
theorem src_range (a0 : FVec Ideal S50000x16 .f32) (a1 : IVec S2x800000 32) (a2 : FVec Ideal S800000x1 .f32)
    (a3 : FVec Ideal S16x64 .f32) (a4 : FVec Ideal S64 .f32) (a5 : FVec Ideal S64x64 .f32) (a6 : FVec Ideal S64 .f32)
    (a7 : FVec Ideal S3x1x64 .f32) (a8 : FVec Ideal S3x64 .f32) (a9 : FVec Ideal S3x64x64 .f32) (a10 : FVec Ideal S3x64 .f32)
    (a11 : FVec Ideal S3x64x64 .f32) (a12 : FVec Ideal S3x64 .f32) (a13 : FVec Ideal S64x64 .f32) (a14 : FVec Ideal S64 .f32)
    (a15 : FVec Ideal S64x32 .f32) (a16 : FVec Ideal S32 .f32)
    (h : Cert.Pre_finite_inputs.fn (F := Ideal) a0 a1 a2 a3 a4 a5 a6 a7 a8 a9 a10 a11 a12 a13 a14 a15 a16 = fun _ => 1#1) :
    ∀ e : Fin 800000, (-50000 : Int) ≤ (a1 (ValueIdx.ix2 0 e)).toInt ∧ (a1 (ValueIdx.ix2 0 e)).toInt < 50000 := by
  intro e
  dsimp only [fn, fn_part1, fn_part2, fn_part3] at h
  exact part4_range a1 a15 a16 _ _ h e

end Cert.PreRange

end
-- ==== Proof.RefRun.lean ====
import proofs.«425574_j14697378087540_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The reference network as one straight line of 191 array operations, in program order. A call of an outlined
    function is its body written out at the call, over that call's own buffers: the leaky rectifier is seven
    operations (the zero, its broadcast, the comparison of x with zero, the slope converted and broadcast, the
    product of slope and x, the selection between x and that product) and the rectifier three (the zero, its
    broadcast, the maximum). Around them: the input perceptron, three rounds of gather by source, edge message,
    scatter-add by destination and node update, and the output perceptron. -/
abbrev ops : List (HloOp τ sig (Elt F)) :=
  [ binary main_arg0 main_arg3 main_v0 ((fun l r => Host.dotGeneral dot_S50000x16_S16x64_S50000x64_1_0_0_1_n_n none l r) : (⟨S50000x16, .f32⟩ : BufTy).Contents (Elt F) → (⟨S16x64, .f32⟩ : BufTy).Contents (Elt F) → (⟨S50000x64, .f32⟩ : BufTy).Contents (Elt F)),
    unary main_arg4 main_v1 (broadcastInDim S1x64 ![1] bcast_S64_S1x64_1 : (⟨S64, .f32⟩ : BufTy).Contents (Elt F) → (⟨S1x64, .f32⟩ : BufTy).Contents (Elt F)),
    unary main_v1 main_v2 (broadcastInDim S50000x64 ![0, 1] bcast_S1x64_S50000x64_0_1 : (⟨S1x64, .f32⟩ : BufTy).Contents (Elt F) → (⟨S50000x64, .f32⟩ : BufTy).Contents (Elt F)),
    binary main_v0 main_v2 main_v3 (addf : (⟨S50000x64, .f32⟩ : BufTy).Contents (Elt F) → (⟨S50000x64, .f32⟩ : BufTy).Contents (Elt F) → (⟨S50000x64, .f32⟩ : BufTy).Contents (Elt F)),
    nullary main_cst (constant S_ .f32 0x3C23D70A#32),
    TRef.nullary main_call0.cst (constant S_ .f32 0x00000000#32),
    TRef.unary main_call0.cst main_call0.v0 (broadcastInDim S50000x64 ![] bcast_S_S50000x64),
    TRef.binary (.of main_v3) main_call0.v0 main_call0.v1 (cmpf .oge),
    TRef.unary (.of main_cst) main_call0.v2 id,
    TRef.unary main_call0.v2 main_call0.v3 (broadcastInDim S50000x64 ![] bcast_S_S50000x64),
    TRef.binary main_call0.v3 (.of main_v3) main_call0.v4 mulf,
    TRef.ternary main_call0.v1 (.of main_v3) main_call0.v4 main_call0.call0.v0 select,
    binary main_v4 main_arg5 main_v5 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg6 main_v6 (broadcastInDim S1x64 ![1] bcast_S64_S1x64_1 : (⟨S64, .f32⟩ : BufTy).Contents (Elt F) → (⟨S1x64, .f32⟩ : BufTy).Contents (Elt F)),
    unary main_v6 main_v7 (broadcastInDim S50000x64 ![0, 1] bcast_S1x64_S50000x64_0_1 : (⟨S1x64, .f32⟩ : BufTy).Contents (Elt F) → (⟨S50000x64, .f32⟩ : BufTy).Contents (Elt F)),
    binary main_v5 main_v7 main_v8 (addf : (⟨S50000x64, .f32⟩ : BufTy).Contents (Elt F) → (⟨S50000x64, .f32⟩ : BufTy).Contents (Elt F) → (⟨S50000x64, .f32⟩ : BufTy).Contents (Elt F)),
    unary main_v8 main_v9 (Host.tanh : (⟨S50000x64, .f32⟩ : BufTy).Contents (Elt F) → (⟨S50000x64, .f32⟩ : BufTy).Contents (Elt F)),
    unary main_arg1 main_v10 ((extractStridedSlice S1x800000 ![0, 0] · slices_S2x800000_S1x800000_0_0) : (⟨S2x800000, .i32⟩ : BufTy).Contents (Elt F) → (⟨S1x800000, .i32⟩ : BufTy).Contents (Elt F)),
    reshape main_v10 main_v11 rfl shapeCasts_S1x800000_S800000,
    unary main_arg1 main_v12 ((extractStridedSlice S1x800000 ![1, 0] · slices_S2x800000_S1x800000_1_0) : (⟨S2x800000, .i32⟩ : BufTy).Contents (Elt F) → (⟨S1x800000, .i32⟩ : BufTy).Contents (Elt F)),
    reshape main_v12 main_v13 rfl shapeCasts_S1x800000_S800000,
    unary main_arg7 main_v14 ((extractStridedSlice S1x1x64 ![0, 0, 0] · slices_S3x1x64_S1x1x64_0_0_0) : (⟨S3x1x64, .f32⟩ : BufTy).Contents (Elt F) → (⟨S1x1x64, .f32⟩ : BufTy).Contents (Elt F)),
    reshape main_v14 main_v15 rfl shapeCasts_S1x1x64_S1x64,
    binary main_arg2 main_v15 main_v16 ((fun l r => Host.dotGeneral dot_S800000x1_S1x64_S800000x64_1_0_0_1_n_n none l r) : (⟨S800000x1, .f32⟩ : BufTy).Contents (Elt F) → (⟨S1x64, .f32⟩ : BufTy).Contents (Elt F) → (⟨S800000x64, .f32⟩ : BufTy).Contents (Elt F)),
    unary main_arg8 main_v17 ((extractStridedSlice S1x64 ![0, 0] · slices_S3x64_S1x64_0_0) : (⟨S3x64, .f32⟩ : BufTy).Contents (Elt F) → (⟨S1x64, .f32⟩ : BufTy).Contents (Elt F)),
    reshape main_v17 main_v18 rfl shapeCasts_S1x64_S64,
    unary main_v18 main_v19 (broadcastInDim S1x64 ![1] bcast_S64_S1x64_1 : (⟨S64, .f32⟩ : BufTy).Contents (Elt F) → (⟨S1x64, .f32⟩ : BufTy).Contents (Elt F)),
    unary main_v19 main_v20 (broadcastInDim S800000x64 ![0, 1] bcast_S1x64_S800000x64_0_1 : (⟨S1x64, .f32⟩ : BufTy).Contents (Elt F) → (⟨S800000x64, .f32⟩ : BufTy).Contents (Elt F)),
    binary main_v16 main_v20 main_v21 (addf : (⟨S800000x64, .f32⟩ : BufTy).Contents (Elt F) → (⟨S800000x64, .f32⟩ : BufTy).Contents (Elt F) → (⟨S800000x64, .f32⟩ : BufTy).Contents (Elt F)),
    nullary main_c (constantI S_ 32 0#32),
    unary main_c main_v22 (broadcastInDim S800000 ![] bcast_S_S800000 : (⟨S_, .i32⟩ : BufTy).Contents (Elt F) → (⟨S800000, .i32⟩ : BufTy).Contents (Elt F)),
    binary main_v11 main_v22 main_v23 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v24 (broadcastInDim S800000 ![] bcast_S_S800000 : (⟨S_, .i32⟩ : BufTy).Contents (Elt F) → (⟨S800000, .i32⟩ : BufTy).Contents (Elt F)),
    binary main_v11 main_v24 main_v25 (addi : (⟨S800000, .i32⟩ : BufTy).Contents (Elt F) → (⟨S800000, .i32⟩ : BufTy).Contents (Elt F) → (⟨S800000, .i32⟩ : BufTy).Contents (Elt F)),
    ternary main_v23 main_v25 main_v11 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v26 main_v27 (broadcastInDim S800000x1 ![0] bcast_S800000_S800000x1_0 : (⟨S800000, .i32⟩ : BufTy).Contents (Elt F) → (⟨S800000x1, .i32⟩ : BufTy).Contents (Elt F)),
    binary main_v9 main_v27 main_v28 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v28 main_v21 main_v29 (addf : (⟨S800000x64, .f32⟩ : BufTy).Contents (Elt F) → (⟨S800000x64, .f32⟩ : BufTy).Contents (Elt F) → (⟨S800000x64, .f32⟩ : BufTy).Contents (Elt F)),
    TRef.nullary main_call1.cst (constant S_ .f32 0x00000000#32),
    TRef.unary main_call1.cst main_call1.v0 (broadcastInDim S800000x64 ![] bcast_S_S800000x64),
    TRef.binary (.of main_v29) main_call1.v0 main_call1.v1 maximumf,
    nullary main_cst_1 (constant S_ .f32 0x00000000#32),
    unary main_cst_1 main_v31 (broadcastInDim S50000x64 ![] bcast_S_S50000x64 : (⟨S_, .f32⟩ : BufTy).Contents (Elt F) → (⟨S50000x64, .f32⟩ : BufTy).Contents (Elt F)),
    unary main_v13 main_v32 (broadcastInDim S800000x1 ![0] bcast_S800000_S800000x1_0 : (⟨S800000, .i32⟩ : BufTy).Contents (Elt F) → (⟨S800000x1, .i32⟩ : BufTy).Contents (Elt F)),
    ternary main_v31 main_v32 main_v30 main_v33 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v33 main_v9 main_v34 (addf : (⟨S50000x64, .f32⟩ : BufTy).Contents (Elt F) → (⟨S50000x64, .f32⟩ : BufTy).Contents (Elt F) → (⟨S50000x64, .f32⟩ : BufTy).Contents (Elt F)),
    unary main_arg9 main_v35 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v35 main_v36 rfl shapeCasts_S1x64x64_S64x64,
    binary main_v34 main_v36 main_v37 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg10 main_v38 ((extractStridedSlice S1x64 ![0, 0] · slices_S3x64_S1x64_0_0) : (⟨S3x64, .f32⟩ : BufTy).Contents (Elt F) → (⟨S1x64, .f32⟩ : BufTy).Contents (Elt F)),
    reshape main_v38 main_v39 rfl shapeCasts_S1x64_S64,
    unary main_v39 main_v40 (broadcastInDim S1x64 ![1] bcast_S64_S1x64_1 : (⟨S64, .f32⟩ : BufTy).Contents (Elt F) → (⟨S1x64, .f32⟩ : BufTy).Contents (Elt F)),
    unary main_v40 main_v41 (broadcastInDim S50000x64 ![0, 1] bcast_S1x64_S50000x64_0_1 : (⟨S1x64, .f32⟩ : BufTy).Contents (Elt F) → (⟨S50000x64, .f32⟩ : BufTy).Contents (Elt F)),
    binary main_v37 main_v41 main_v42 (addf : (⟨S50000x64, .f32⟩ : BufTy).Contents (Elt F) → (⟨S50000x64, .f32⟩ : BufTy).Contents (Elt F) → (⟨S50000x64, .f32⟩ : BufTy).Contents (Elt F)),
    nullary main_cst_2 (constant S_ .f32 0x3C23D70A#32),
    TRef.nullary main_call2.cst (constant S_ .f32 0x00000000#32),
    TRef.unary main_call2.cst main_call2.v0 (broadcastInDim S50000x64 ![] bcast_S_S50000x64),
    TRef.binary (.of main_v42) main_call2.v0 main_call2.v1 (cmpf .oge),
    TRef.unary (.of main_cst_2) main_call2.v2 id,
    TRef.unary main_call2.v2 main_call2.v3 (broadcastInDim S50000x64 ![] bcast_S_S50000x64),
    TRef.binary main_call2.v3 (.of main_v42) main_call2.v4 mulf,
    TRef.ternary main_call2.v1 (.of main_v42) main_call2.v4 main_call2.call0.v0 select,
    unary main_arg11 main_v44 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v44 main_v45 rfl shapeCasts_S1x64x64_S64x64,
    binary main_v43 main_v45 main_v46 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg12 main_v47 ((extractStridedSlice S1x64 ![0, 0] · slices_S3x64_S1x64_0_0) : (⟨S3x64, .f32⟩ : BufTy).Contents (Elt F) → (⟨S1x64, .f32⟩ : BufTy).Contents (Elt F)),
    reshape main_v47 main_v48 rfl shapeCasts_S1x64_S64,
    unary main_v48 main_v49 (broadcastInDim S1x64 ![1] bcast_S64_S1x64_1 : (⟨S64, .f32⟩ : BufTy).Contents (Elt F) → (⟨S1x64, .f32⟩ : BufTy).Contents (Elt F)),
    unary main_v49 main_v50 (broadcastInDim S50000x64 ![0, 1] bcast_S1x64_S50000x64_0_1 : (⟨S1x64, .f32⟩ : BufTy).Contents (Elt F) → (⟨S50000x64, .f32⟩ : BufTy).Contents (Elt F)),
    binary main_v46 main_v50 main_v51 (addf : (⟨S50000x64, .f32⟩ : BufTy).Contents (Elt F) → (⟨S50000x64, .f32⟩ : BufTy).Contents (Elt F) → (⟨S50000x64, .f32⟩ : BufTy).Contents (Elt F)),
    unary main_v51 main_v52 (Host.tanh : (⟨S50000x64, .f32⟩ : BufTy).Contents (Elt F) → (⟨S50000x64, .f32⟩ : BufTy).Contents (Elt F)),
    unary main_arg7 main_v53 ((extractStridedSlice S1x1x64 ![1, 0, 0] · slices_S3x1x64_S1x1x64_1_0_0) : (⟨S3x1x64, .f32⟩ : BufTy).Contents (Elt F) → (⟨S1x1x64, .f32⟩ : BufTy).Contents (Elt F)),
    reshape main_v53 main_v54 rfl shapeCasts_S1x1x64_S1x64,
    binary main_arg2 main_v54 main_v55 ((fun l r => Host.dotGeneral dot_S800000x1_S1x64_S800000x64_1_0_0_1_n_n none l r) : (⟨S800000x1, .f32⟩ : BufTy).Contents (Elt F) → (⟨S1x64, .f32⟩ : BufTy).Contents (Elt F) → (⟨S800000x64, .f32⟩ : BufTy).Contents (Elt F)),
    unary main_arg8 main_v56 ((extractStridedSlice S1x64 ![1, 0] · slices_S3x64_S1x64_1_0) : (⟨S3x64, .f32⟩ : BufTy).Contents (Elt F) → (⟨S1x64, .f32⟩ : BufTy).Contents (Elt F)),
    reshape main_v56 main_v57 rfl shapeCasts_S1x64_S64,
    unary main_v57 main_v58 (broadcastInDim S1x64 ![1] bcast_S64_S1x64_1 : (⟨S64, .f32⟩ : BufTy).Contents (Elt F) → (⟨S1x64, .f32⟩ : BufTy).Contents (Elt F)),
    unary main_v58 main_v59 (broadcastInDim S800000x64 ![0, 1] bcast_S1x64_S800000x64_0_1 : (⟨S1x64, .f32⟩ : BufTy).Contents (Elt F) → (⟨S800000x64, .f32⟩ : BufTy).Contents (Elt F)),
    binary main_v55 main_v59 main_v60 (addf : (⟨S800000x64, .f32⟩ : BufTy).Contents (Elt F) → (⟨S800000x64, .f32⟩ : BufTy).Contents (Elt F) → (⟨S800000x64, .f32⟩ : BufTy).Contents (Elt F)),
    nullary main_c_3 (constantI S_ 32 0#32),
    unary main_c_3 main_v61 (broadcastInDim S800000 ![] bcast_S_S800000 : (⟨S_, .i32⟩ : BufTy).Contents (Elt F) → (⟨S800000, .i32⟩ : BufTy).Contents (Elt F)),
    binary main_v11 main_v61 main_v62 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v63 (broadcastInDim S800000 ![] bcast_S_S800000 : (⟨S_, .i32⟩ : BufTy).Contents (Elt F) → (⟨S800000, .i32⟩ : BufTy).Contents (Elt F)),
    binary main_v11 main_v63 main_v64 (addi : (⟨S800000, .i32⟩ : BufTy).Contents (Elt F) → (⟨S800000, .i32⟩ : BufTy).Contents (Elt F) → (⟨S800000, .i32⟩ : BufTy).Contents (Elt F)),
    ternary main_v62 main_v64 main_v11 main_v65 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v65 main_v66 (broadcastInDim S800000x1 ![0] bcast_S800000_S800000x1_0 : (⟨S800000, .i32⟩ : BufTy).Contents (Elt F) → (⟨S800000x1, .i32⟩ : BufTy).Contents (Elt F)),
    binary main_v52 main_v66 main_v67 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v67 main_v60 main_v68 (addf : (⟨S800000x64, .f32⟩ : BufTy).Contents (Elt F) → (⟨S800000x64, .f32⟩ : BufTy).Contents (Elt F) → (⟨S800000x64, .f32⟩ : BufTy).Contents (Elt F)),
    TRef.nullary main_call3.cst (constant S_ .f32 0x00000000#32),
    TRef.unary main_call3.cst main_call3.v0 (broadcastInDim S800000x64 ![] bcast_S_S800000x64),
    TRef.binary (.of main_v68) main_call3.v0 main_call3.v1 maximumf,
    nullary main_cst_5 (constant S_ .f32 0x00000000#32),
    unary main_cst_5 main_v70 (broadcastInDim S50000x64 ![] bcast_S_S50000x64 : (⟨S_, .f32⟩ : BufTy).Contents (Elt F) → (⟨S50000x64, .f32⟩ : BufTy).Contents (Elt F)),
    unary main_v13 main_v71 (broadcastInDim S800000x1 ![0] bcast_S800000_S800000x1_0 : (⟨S800000, .i32⟩ : BufTy).Contents (Elt F) → (⟨S800000x1, .i32⟩ : BufTy).Contents (Elt F)),
    ternary main_v70 main_v71 main_v69 main_v72 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v72 main_v52 main_v73 (addf : (⟨S50000x64, .f32⟩ : BufTy).Contents (Elt F) → (⟨S50000x64, .f32⟩ : BufTy).Contents (Elt F) → (⟨S50000x64, .f32⟩ : BufTy).Contents (Elt F)),
    unary main_arg9 main_v74 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v74 main_v75 rfl shapeCasts_S1x64x64_S64x64,
    binary main_v73 main_v75 main_v76 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg10 main_v77 ((extractStridedSlice S1x64 ![1, 0] · slices_S3x64_S1x64_1_0) : (⟨S3x64, .f32⟩ : BufTy).Contents (Elt F) → (⟨S1x64, .f32⟩ : BufTy).Contents (Elt F)),
    reshape main_v77 main_v78 rfl shapeCasts_S1x64_S64,
    unary main_v78 main_v79 (broadcastInDim S1x64 ![1] bcast_S64_S1x64_1 : (⟨S64, .f32⟩ : BufTy).Contents (Elt F) → (⟨S1x64, .f32⟩ : BufTy).Contents (Elt F)),
    unary main_v79 main_v80 (broadcastInDim S50000x64 ![0, 1] bcast_S1x64_S50000x64_0_1 : (⟨S1x64, .f32⟩ : BufTy).Contents (Elt F) → (⟨S50000x64, .f32⟩ : BufTy).Contents (Elt F)),
    binary main_v76 main_v80 main_v81 (addf : (⟨S50000x64, .f32⟩ : BufTy).Contents (Elt F) → (⟨S50000x64, .f32⟩ : BufTy).Contents (Elt F) → (⟨S50000x64, .f32⟩ : BufTy).Contents (Elt F)),
    nullary main_cst_6 (constant S_ .f32 0x3C23D70A#32),
    TRef.nullary main_call4.cst (constant S_ .f32 0x00000000#32),
    TRef.unary main_call4.cst main_call4.v0 (broadcastInDim S50000x64 ![] bcast_S_S50000x64),
    TRef.binary (.of main_v81) main_call4.v0 main_call4.v1 (cmpf .oge),
    TRef.unary (.of main_cst_6) main_call4.v2 id,
    TRef.unary main_call4.v2 main_call4.v3 (broadcastInDim S50000x64 ![] bcast_S_S50000x64),
    TRef.binary main_call4.v3 (.of main_v81) main_call4.v4 mulf,
    TRef.ternary main_call4.v1 (.of main_v81) main_call4.v4 main_call4.call0.v0 select,
    unary main_arg11 main_v83 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v83 main_v84 rfl shapeCasts_S1x64x64_S64x64,
    binary main_v82 main_v84 main_v85 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg12 main_v86 ((extractStridedSlice S1x64 ![1, 0] · slices_S3x64_S1x64_1_0) : (⟨S3x64, .f32⟩ : BufTy).Contents (Elt F) → (⟨S1x64, .f32⟩ : BufTy).Contents (Elt F)),
    reshape main_v86 main_v87 rfl shapeCasts_S1x64_S64,
    unary main_v87 main_v88 (broadcastInDim S1x64 ![1] bcast_S64_S1x64_1 : (⟨S64, .f32⟩ : BufTy).Contents (Elt F) → (⟨S1x64, .f32⟩ : BufTy).Contents (Elt F)),
    unary main_v88 main_v89 (broadcastInDim S50000x64 ![0, 1] bcast_S1x64_S50000x64_0_1 : (⟨S1x64, .f32⟩ : BufTy).Contents (Elt F) → (⟨S50000x64, .f32⟩ : BufTy).Contents (Elt F)),
    binary main_v85 main_v89 main_v90 (addf : (⟨S50000x64, .f32⟩ : BufTy).Contents (Elt F) → (⟨S50000x64, .f32⟩ : BufTy).Contents (Elt F) → (⟨S50000x64, .f32⟩ : BufTy).Contents (Elt F)),
    unary main_v90 main_v91 (Host.tanh : (⟨S50000x64, .f32⟩ : BufTy).Contents (Elt F) → (⟨S50000x64, .f32⟩ : BufTy).Contents (Elt F)),
    unary main_arg7 main_v92 ((extractStridedSlice S1x1x64 ![2, 0, 0] · slices_S3x1x64_S1x1x64_2_0_0) : (⟨S3x1x64, .f32⟩ : BufTy).Contents (Elt F) → (⟨S1x1x64, .f32⟩ : BufTy).Contents (Elt F)),
    reshape main_v92 main_v93 rfl shapeCasts_S1x1x64_S1x64,
    binary main_arg2 main_v93 main_v94 ((fun l r => Host.dotGeneral dot_S800000x1_S1x64_S800000x64_1_0_0_1_n_n none l r) : (⟨S800000x1, .f32⟩ : BufTy).Contents (Elt F) → (⟨S1x64, .f32⟩ : BufTy).Contents (Elt F) → (⟨S800000x64, .f32⟩ : BufTy).Contents (Elt F)),
    unary main_arg8 main_v95 ((extractStridedSlice S1x64 ![2, 0] · slices_S3x64_S1x64_2_0) : (⟨S3x64, .f32⟩ : BufTy).Contents (Elt F) → (⟨S1x64, .f32⟩ : BufTy).Contents (Elt F)),
    reshape main_v95 main_v96 rfl shapeCasts_S1x64_S64,
    unary main_v96 main_v97 (broadcastInDim S1x64 ![1] bcast_S64_S1x64_1 : (⟨S64, .f32⟩ : BufTy).Contents (Elt F) → (⟨S1x64, .f32⟩ : BufTy).Contents (Elt F)),
    unary main_v97 main_v98 (broadcastInDim S800000x64 ![0, 1] bcast_S1x64_S800000x64_0_1 : (⟨S1x64, .f32⟩ : BufTy).Contents (Elt F) → (⟨S800000x64, .f32⟩ : BufTy).Contents (Elt F)),
    binary main_v94 main_v98 main_v99 (addf : (⟨S800000x64, .f32⟩ : BufTy).Contents (Elt F) → (⟨S800000x64, .f32⟩ : BufTy).Contents (Elt F) → (⟨S800000x64, .f32⟩ : BufTy).Contents (Elt F)),
    nullary main_c_7 (constantI S_ 32 0#32),
    unary main_c_7 main_v100 (broadcastInDim S800000 ![] bcast_S_S800000 : (⟨S_, .i32⟩ : BufTy).Contents (Elt F) → (⟨S800000, .i32⟩ : BufTy).Contents (Elt F)),
    binary main_v11 main_v100 main_v101 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v102 (broadcastInDim S800000 ![] bcast_S_S800000 : (⟨S_, .i32⟩ : BufTy).Contents (Elt F) → (⟨S800000, .i32⟩ : BufTy).Contents (Elt F)),
    binary main_v11 main_v102 main_v103 (addi : (⟨S800000, .i32⟩ : BufTy).Contents (Elt F) → (⟨S800000, .i32⟩ : BufTy).Contents (Elt F) → (⟨S800000, .i32⟩ : BufTy).Contents (Elt F)),
    ternary main_v101 main_v103 main_v11 main_v104 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v104 main_v105 (broadcastInDim S800000x1 ![0] bcast_S800000_S800000x1_0 : (⟨S800000, .i32⟩ : BufTy).Contents (Elt F) → (⟨S800000x1, .i32⟩ : BufTy).Contents (Elt F)),
    binary main_v91 main_v105 main_v106 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v106 main_v99 main_v107 (addf : (⟨S800000x64, .f32⟩ : BufTy).Contents (Elt F) → (⟨S800000x64, .f32⟩ : BufTy).Contents (Elt F) → (⟨S800000x64, .f32⟩ : BufTy).Contents (Elt F)),
    TRef.nullary main_call5.cst (constant S_ .f32 0x00000000#32),
    TRef.unary main_call5.cst main_call5.v0 (broadcastInDim S800000x64 ![] bcast_S_S800000x64),
    TRef.binary (.of main_v107) main_call5.v0 main_call5.v1 maximumf,
    nullary main_cst_9 (constant S_ .f32 0x00000000#32),
    unary main_cst_9 main_v109 (broadcastInDim S50000x64 ![] bcast_S_S50000x64 : (⟨S_, .f32⟩ : BufTy).Contents (Elt F) → (⟨S50000x64, .f32⟩ : BufTy).Contents (Elt F)),
    unary main_v13 main_v110 (broadcastInDim S800000x1 ![0] bcast_S800000_S800000x1_0 : (⟨S800000, .i32⟩ : BufTy).Contents (Elt F) → (⟨S800000x1, .i32⟩ : BufTy).Contents (Elt F)),
    ternary main_v109 main_v110 main_v108 main_v111 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v111 main_v91 main_v112 (addf : (⟨S50000x64, .f32⟩ : BufTy).Contents (Elt F) → (⟨S50000x64, .f32⟩ : BufTy).Contents (Elt F) → (⟨S50000x64, .f32⟩ : BufTy).Contents (Elt F)),
    unary main_arg9 main_v113 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v113 main_v114 rfl shapeCasts_S1x64x64_S64x64,
    binary main_v112 main_v114 main_v115 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg10 main_v116 ((extractStridedSlice S1x64 ![2, 0] · slices_S3x64_S1x64_2_0) : (⟨S3x64, .f32⟩ : BufTy).Contents (Elt F) → (⟨S1x64, .f32⟩ : BufTy).Contents (Elt F)),
    reshape main_v116 main_v117 rfl shapeCasts_S1x64_S64,
    unary main_v117 main_v118 (broadcastInDim S1x64 ![1] bcast_S64_S1x64_1 : (⟨S64, .f32⟩ : BufTy).Contents (Elt F) → (⟨S1x64, .f32⟩ : BufTy).Contents (Elt F)),
    unary main_v118 main_v119 (broadcastInDim S50000x64 ![0, 1] bcast_S1x64_S50000x64_0_1 : (⟨S1x64, .f32⟩ : BufTy).Contents (Elt F) → (⟨S50000x64, .f32⟩ : BufTy).Contents (Elt F)),
    binary main_v115 main_v119 main_v120 (addf : (⟨S50000x64, .f32⟩ : BufTy).Contents (Elt F) → (⟨S50000x64, .f32⟩ : BufTy).Contents (Elt F) → (⟨S50000x64, .f32⟩ : BufTy).Contents (Elt F)),
    nullary main_cst_10 (constant S_ .f32 0x3C23D70A#32),
    TRef.nullary main_call6.cst (constant S_ .f32 0x00000000#32),
    TRef.unary main_call6.cst main_call6.v0 (broadcastInDim S50000x64 ![] bcast_S_S50000x64),
    TRef.binary (.of main_v120) main_call6.v0 main_call6.v1 (cmpf .oge),
    TRef.unary (.of main_cst_10) main_call6.v2 id,
    TRef.unary main_call6.v2 main_call6.v3 (broadcastInDim S50000x64 ![] bcast_S_S50000x64),
    TRef.binary main_call6.v3 (.of main_v120) main_call6.v4 mulf,
    TRef.ternary main_call6.v1 (.of main_v120) main_call6.v4 main_call6.call0.v0 select,
    unary main_arg11 main_v122 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v122 main_v123 rfl shapeCasts_S1x64x64_S64x64,
    binary main_v121 main_v123 main_v124 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg12 main_v125 ((extractStridedSlice S1x64 ![2, 0] · slices_S3x64_S1x64_2_0) : (⟨S3x64, .f32⟩ : BufTy).Contents (Elt F) → (⟨S1x64, .f32⟩ : BufTy).Contents (Elt F)),
    reshape main_v125 main_v126 rfl shapeCasts_S1x64_S64,
    unary main_v126 main_v127 (broadcastInDim S1x64 ![1] bcast_S64_S1x64_1 : (⟨S64, .f32⟩ : BufTy).Contents (Elt F) → (⟨S1x64, .f32⟩ : BufTy).Contents (Elt F)),
    unary main_v127 main_v128 (broadcastInDim S50000x64 ![0, 1] bcast_S1x64_S50000x64_0_1 : (⟨S1x64, .f32⟩ : BufTy).Contents (Elt F) → (⟨S50000x64, .f32⟩ : BufTy).Contents (Elt F)),
    binary main_v124 main_v128 main_v129 (addf : (⟨S50000x64, .f32⟩ : BufTy).Contents (Elt F) → (⟨S50000x64, .f32⟩ : BufTy).Contents (Elt F) → (⟨S50000x64, .f32⟩ : BufTy).Contents (Elt F)),
    unary main_v129 main_v130 (Host.tanh : (⟨S50000x64, .f32⟩ : BufTy).Contents (Elt F) → (⟨S50000x64, .f32⟩ : BufTy).Contents (Elt F)),
    binary main_v130 main_arg13 main_v131 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg14 main_v132 (broadcastInDim S1x64 ![1] bcast_S64_S1x64_1 : (⟨S64, .f32⟩ : BufTy).Contents (Elt F) → (⟨S1x64, .f32⟩ : BufTy).Contents (Elt F)),
    unary main_v132 main_v133 (broadcastInDim S50000x64 ![0, 1] bcast_S1x64_S50000x64_0_1 : (⟨S1x64, .f32⟩ : BufTy).Contents (Elt F) → (⟨S50000x64, .f32⟩ : BufTy).Contents (Elt F)),
    binary main_v131 main_v133 main_v134 (addf : (⟨S50000x64, .f32⟩ : BufTy).Contents (Elt F) → (⟨S50000x64, .f32⟩ : BufTy).Contents (Elt F) → (⟨S50000x64, .f32⟩ : BufTy).Contents (Elt F)),
    nullary main_cst_11 (constant S_ .f32 0x3C23D70A#32),
    TRef.nullary main_call7.cst (constant S_ .f32 0x00000000#32),
    TRef.unary main_call7.cst main_call7.v0 (broadcastInDim S50000x64 ![] bcast_S_S50000x64),
    TRef.binary (.of main_v134) main_call7.v0 main_call7.v1 (cmpf .oge),
    TRef.unary (.of main_cst_11) main_call7.v2 id,
    TRef.unary main_call7.v2 main_call7.v3 (broadcastInDim S50000x64 ![] bcast_S_S50000x64),
    TRef.binary main_call7.v3 (.of main_v134) main_call7.v4 mulf,
    TRef.ternary main_call7.v1 (.of main_v134) main_call7.v4 main_call7.call0.v0 select,
    binary main_v135 main_arg15 main_v136 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)),
    unary main_arg16 main_v137 (broadcastInDim S1x32 ![1] bcast_S32_S1x32_1 : (⟨S32, .f32⟩ : BufTy).Contents (Elt F) → (⟨S1x32, .f32⟩ : BufTy).Contents (Elt F)),
    unary main_v137 main_v138 (broadcastInDim S50000x32 ![0, 1] bcast_S1x32_S50000x32_0_1 : (⟨S1x32, .f32⟩ : BufTy).Contents (Elt F) → (⟨S50000x32, .f32⟩ : BufTy).Contents (Elt F)),
    binary main_v136 main_v138 main_v139 (addf : (⟨S50000x32, .f32⟩ : BufTy).Contents (Elt F) → (⟨S50000x32, .f32⟩ : BufTy).Contents (Elt F) → (⟨S50000x32, .f32⟩ : BufTy).Contents (Elt F)),
    unary main_v139 main_v140 (Host.tanh : (⟨S50000x32, .f32⟩ : BufTy).Contents (Elt F) → (⟨S50000x32, .f32⟩ : BufTy).Contents (Elt F)) ]

set_option maxRecDepth 16384 in
set_option maxHeartbeats 4000000 in
/-- The program is that straight line: with the outlined functions opened at their calls and sequencing
    reassociated to the right, both sides are the same chain of steps. -/
theorem main_eq (c : Dev nD) : main (F := F) c = seq ops := by
  simp only [main, main_part0, main_part1, main_part2, fn_leaky_relu.body, fn_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the device only. -/
theorem ops_sub : (ops : List (HloOp τ sig (Elt F))).Forall fun op => op.bufs ⊆ tcRefs τ sig :=
  ⟨binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., unary_bufs_sub .., binary_bufs_sub .., unary_bufs_sub .., unary_bufs_sub ..,
    reshape_bufs_sub .., unary_bufs_sub .., reshape_bufs_sub .., unary_bufs_sub .., reshape_bufs_sub .., binary_bufs_sub ..,
    unary_bufs_sub .., reshape_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., unary_bufs_sub .., ternary_bufs_sub .., binary_bufs_sub .., unary_bufs_sub ..,
    reshape_bufs_sub .., binary_bufs_sub .., unary_bufs_sub .., reshape_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., unary_bufs_sub .., reshape_bufs_sub .., binary_bufs_sub ..,
    unary_bufs_sub .., reshape_bufs_sub .., unary_bufs_sub .., unary_bufs_sub .., binary_bufs_sub .., unary_bufs_sub ..,
    unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., unary_bufs_sub ..,
    ternary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    unary_bufs_sub .., reshape_bufs_sub .., binary_bufs_sub .., unary_bufs_sub .., reshape_bufs_sub .., unary_bufs_sub ..,
    unary_bufs_sub .., binary_bufs_sub .., unary_bufs_sub .., unary_bufs_sub .., reshape_bufs_sub .., binary_bufs_sub ..,
    unary_bufs_sub .., reshape_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., unary_bufs_sub .., ternary_bufs_sub .., binary_bufs_sub .., unary_bufs_sub ..,
    reshape_bufs_sub .., binary_bufs_sub .., unary_bufs_sub .., reshape_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., unary_bufs_sub .., reshape_bufs_sub .., binary_bufs_sub ..,
    unary_bufs_sub .., reshape_bufs_sub .., unary_bufs_sub .., unary_bufs_sub .., binary_bufs_sub .., unary_bufs_sub ..,
    binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., unary_bufs_sub .., binary_bufs_sub .., unary_bufs_sub ..⟩

/-- On every device, for any float values, from any memory with zero counters: every weakly fair execution of the
    program terminates, and in every final state each buffer holds the fold of the operations over the contents
    at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Run

end
-- ==== Proof.RefStage.lean ====
/-
  The reference program's stages, each read as the specification's function over the extended reals.

  A product with a weight matrix, read at an entry, is the finite sum over the contracted axis; a bias vector copied into
  every row reads, at `(r, c)`, the vector's entry `c`; the leaky rectifier is entrywise. So each two-layer perceptron of
  the reference is `tanh (lrelu (x · W0 + b0) · W1 + b1)` entry by entry, an edge's message is
  `max (h_src + (w · We + be)) 0` (the product with the one-row matrix `We` is a sum of one term), and a node's update is the
  perceptron of `agg + h`. Slice `k` of a stack of weights with its unit axis reshaped away is the `k`-th matrix or bias
  row; the edge list's two rows, reshaped, are the source and destination vectors; a source index below zero is counted
  from the end, entry by entry, before the vector is laid out as one column.
-/
import proofs.«425574_j14697378087540_1_alg».proof.Proof.Gen.ReferenceIdeal
import proofs.«425574_j14697378087540_1_alg».proof.Proof.SpecNet
import proofs.«425574_j14697378087540_1_alg».proof.Proof.Glue
import Idealize.ShloMosaic.Lib.ValueLayout
import Idealize.ShloMosaic.Lib.IdealHost
import Idealize.ShloMosaic.Lib.StackMember

noncomputable section

open Idealize.ShloMosaic Idealize.ShloMosaic.ValueIdx
open Cert.ReferenceIdeal Cert.ReferenceIdeal.Gen

namespace Cert.ReferenceIdeal.Stage

/-! ## The stages as the reference composes them, at any float instance -/

section Terms
variable {F : FTy → Type} [FloatOps F]

/-- A bias vector of length 64 copied into each of the 50000 rows. -/
def biasN (b : FVec F S64 .f32) : FVec F S50000x64 .f32 :=
  broadcastInDim S50000x64 ![0, 1] bcast_S1x64_S50000x64_0_1 (broadcastInDim S1x64 ![1] bcast_S64_S1x64_1 b)

/-- A bias vector of length 32 copied into each of the 50000 rows. -/
def biasN32 (b : FVec F S32 .f32) : FVec F S50000x32 .f32 :=
  broadcastInDim S50000x32 ![0, 1] bcast_S1x32_S50000x32_0_1 (broadcastInDim S1x32 ![1] bcast_S32_S1x32_1 b)

/-- A bias vector of length 64 copied into each of the 800000 rows. -/
def biasE (b : FVec F S64 .f32) : FVec F S800000x64 .f32 :=
  broadcastInDim S800000x64 ![0, 1] bcast_S1x64_S800000x64_0_1 (broadcastInDim S1x64 ![1] bcast_S64_S1x64_1 b)

/-- The leaky rectifier on a [50000, 64] array: where an entry is at least zero the entry, elsewhere the slope times it. -/
def lrelu (v : FVec F S50000x64 .f32) : FVec F S50000x64 .f32 :=
  select (cmpf .oge v (broadcastInDim S50000x64 ![] bcast_S_S50000x64 (constant S_ .f32 0x00000000#32))) v
    (mulf (broadcastInDim S50000x64 ![] bcast_S_S50000x64 (id (constant S_ .f32 0x3C23D70A#32))) v)

/-- The first perceptron: 16 features to 64 hidden units to 64 outputs. -/
def mlpIn (x : FVec F S50000x16 .f32) (W0 : FVec F S16x64 .f32) (b0 : FVec F S64 .f32) (W1 : FVec F S64x64 .f32)
    (b1 : FVec F S64 .f32) : FVec F S50000x64 .f32 :=
  Host.tanh (addf (Host.dotGeneral dot_S50000x64_S64x64_S50000x64_1_0_0_1_n_n none
    (lrelu (addf (Host.dotGeneral dot_S50000x16_S16x64_S50000x64_1_0_0_1_n_n none x W0) (biasN b0))) W1) (biasN b1))

/-- A layer's perceptron: 64 to 64 to 64. -/
def mlpMid (z : FVec F S50000x64 .f32) (W0 : FVec F S64x64 .f32) (b0 : FVec F S64 .f32) (W1 : FVec F S64x64 .f32)
    (b1 : FVec F S64 .f32) : FVec F S50000x64 .f32 :=
  Host.tanh (addf (Host.dotGeneral dot_S50000x64_S64x64_S50000x64_1_0_0_1_n_n none
    (lrelu (addf (Host.dotGeneral dot_S50000x64_S64x64_S50000x64_1_0_0_1_n_n none z W0) (biasN b0))) W1) (biasN b1))

/-- The last perceptron: 64 to 64 to 32. -/
def mlpOut (z : FVec F S50000x64 .f32) (W0 : FVec F S64x64 .f32) (b0 : FVec F S64 .f32) (W1 : FVec F S64x32 .f32)
    (b1 : FVec F S32 .f32) : FVec F S50000x32 .f32 :=
  Host.tanh (addf (Host.dotGeneral dot_S50000x64_S64x32_S50000x32_1_0_0_1_n_n none
    (lrelu (addf (Host.dotGeneral dot_S50000x64_S64x64_S50000x64_1_0_0_1_n_n none z W0) (biasN b0))) W1) (biasN32 b1))

/-- A node's update: the layer's perceptron of the aggregated messages plus the node's own features. -/
def node (agg h : FVec F S50000x64 .f32) (W0 : FVec F S64x64 .f32) (b0 : FVec F S64 .f32) (W1 : FVec F S64x64 .f32)
    (b1 : FVec F S64 .f32) : FVec F S50000x64 .f32 :=
  mlpMid (addf agg h) W0 b0 W1 b1

/-- An edge's message: the gathered row plus the edge's embedding, rectified at zero. -/
def edge (hs : FVec F S800000x64 .f32) (ew : FVec F S800000x1 .f32) (we : FVec F S1x64 .f32) (be : FVec F S64 .f32) :
    FVec F S800000x64 .f32 :=
  maximumf (addf hs (addf (Host.dotGeneral dot_S800000x1_S1x64_S800000x64_1_0_0_1_n_n none ew we) (biasE be)))
    (broadcastInDim S800000x64 ![] bcast_S_S800000x64 (constant S_ .f32 0x00000000#32))

/-- The zero array a scatter-add starts from. -/
def zeroN : FVec F S50000x64 .f32 := broadcastInDim S50000x64 ![] bcast_S_S50000x64 (constant S_ .f32 0x00000000#32)

/-- Matrix 0 of a stack of three 64 × 64 matrices: the slice with its unit axis reshaped away. -/
def mat0 (W : FVec F S3x64x64 .f32) : FVec F S64x64 .f32 :=
  shapeCast S64x64 (extractStridedSlice S1x64x64 ![0, 0, 0] W slices_S3x64x64_S1x64x64_0_0_0) shapeCasts_S1x64x64_S64x64
/-- Matrix 1 of the stack. -/
def mat1 (W : FVec F S3x64x64 .f32) : FVec F S64x64 .f32 :=
  shapeCast S64x64 (extractStridedSlice S1x64x64 ![1, 0, 0] W slices_S3x64x64_S1x64x64_1_0_0) shapeCasts_S1x64x64_S64x64
/-- Matrix 2 of the stack. -/
def mat2 (W : FVec F S3x64x64 .f32) : FVec F S64x64 .f32 :=
  shapeCast S64x64 (extractStridedSlice S1x64x64 ![2, 0, 0] W slices_S3x64x64_S1x64x64_2_0_0) shapeCasts_S1x64x64_S64x64

/-- Matrix 0 of the stack of three one-row edge-embedding matrices: the slice with its unit axis reshaped away. -/
def emb0 (W : FVec F S3x1x64 .f32) : FVec F S1x64 .f32 :=
  shapeCast S1x64 (extractStridedSlice S1x1x64 ![0, 0, 0] W slices_S3x1x64_S1x1x64_0_0_0) shapeCasts_S1x1x64_S1x64
/-- Matrix 1 of that stack. -/
def emb1 (W : FVec F S3x1x64 .f32) : FVec F S1x64 .f32 :=
  shapeCast S1x64 (extractStridedSlice S1x1x64 ![1, 0, 0] W slices_S3x1x64_S1x1x64_1_0_0) shapeCasts_S1x1x64_S1x64
/-- Matrix 2 of that stack. -/
def emb2 (W : FVec F S3x1x64 .f32) : FVec F S1x64 .f32 :=
  shapeCast S1x64 (extractStridedSlice S1x1x64 ![2, 0, 0] W slices_S3x1x64_S1x1x64_2_0_0) shapeCasts_S1x1x64_S1x64

/-- Row 0 of a stack of three bias vectors, reshaped to a vector. -/
def vec0 (B : FVec F S3x64 .f32) : FVec F S64 .f32 :=
  shapeCast S64 (extractStridedSlice S1x64 ![0, 0] B slices_S3x64_S1x64_0_0) shapeCasts_S1x64_S64
/-- Row 1 of the stack of bias vectors. -/
def vec1 (B : FVec F S3x64 .f32) : FVec F S64 .f32 :=
  shapeCast S64 (extractStridedSlice S1x64 ![1, 0] B slices_S3x64_S1x64_1_0) shapeCasts_S1x64_S64
/-- Row 2 of the stack of bias vectors. -/
def vec2 (B : FVec F S3x64 .f32) : FVec F S64 .f32 :=
  shapeCast S64 (extractStridedSlice S1x64 ![2, 0] B slices_S3x64_S1x64_2_0) shapeCasts_S1x64_S64

end Terms

/-- A source vector as the gather takes it: a negative index has 50000 added, then the vector is one column. -/
def wrapCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- A destination vector as the scatter takes it: one column. -/
def col (s : IVec S800000 32) : IVec S800000x1 32 := broadcastInDim S800000x1 ![0] bcast_S800000_S800000x1_0 s

/-- The edge list's first row, the source nodes, reshaped to a vector over the edges. -/
def src (ei : IVec S2x800000 32) : IVec S800000 32 :=
  shapeCast S800000 (extractStridedSlice S1x800000 ![0, 0] ei slices_S2x800000_S1x800000_0_0) shapeCasts_S1x800000_S800000

/-- The edge list's second row, the destination nodes, reshaped to a vector over the edges. -/
def dst (ei : IVec S2x800000 32) : IVec S800000 32 :=
  shapeCast S800000 (extractStridedSlice S1x800000 ![1, 0] ei slices_S2x800000_S1x800000_1_0) shapeCasts_S1x800000_S800000

/-! ## A layer and the network as the reference composes them -/

section Net
variable {F : FTy → Type} [FloatOps F]

/-- One layer over weights already sliced: gather the source rows, form the messages, sum them into their destination
    nodes from zero, update every node. -/
def layer (we : FVec F S1x64 .f32) (be : FVec F S64 .f32) (W0 : FVec F S64x64 .f32) (b0 : FVec F S64 .f32)
    (W1 : FVec F S64x64 .f32) (b1 : FVec F S64 .f32) (ei : IVec S2x800000 32) (ew : FVec F S800000x1 .f32)
    (h : FVec F S50000x64 .f32) : FVec F S50000x64 .f32 :=
  node (Host.scatterAdd scatter_S50000x64_S800000x1_S800000x64_1_0_0_1 zeroN (col (dst ei))
    (edge (Host.gather gather_S50000x64_S800000x1_S800000x64_1_0_n_n_0_1_164 h (wrapCol (src ei))) ew we be)) h W0 b0 W1 b1

/-- The network: the first perceptron, the three layers with slices 0, 1, 2 of the stacked weights, the last perceptron. -/
def net (x : FVec F S50000x16 .f32) (ei : IVec S2x800000 32) (ew : FVec F S800000x1 .f32)
    (Wp_in : FVec F S16x64 .f32) (bp_in : FVec F S64 .f32) (Wp_h : FVec F S64x64 .f32) (bp_h : FVec F S64 .f32)
    (We : FVec F S3x1x64 .f32) (be : FVec F S3x64 .f32) (Wm0 : FVec F S3x64x64 .f32) (bm0 : FVec F S3x64 .f32)
    (Wm1 : FVec F S3x64x64 .f32) (bm1 : FVec F S3x64 .f32) (Wq0 : FVec F S64x64 .f32) (bq0 : FVec F S64 .f32)
    (Wq1 : FVec F S64x32 .f32) (bq1 : FVec F S32 .f32) : FVec F S50000x32 .f32 :=
  mlpOut
    (layer (emb2 We) (vec2 be) (mat2 Wm0) (vec2 bm0) (mat2 Wm1) (vec2 bm1) ei ew
      (layer (emb1 We) (vec1 be) (mat1 Wm0) (vec1 bm0) (mat1 Wm1) (vec1 bm1) ei ew
        (layer (emb0 We) (vec0 be) (mat0 Wm0) (vec0 bm0) (mat0 Wm1) (vec0 bm1) ei ew
          (mlpIn x Wp_in bp_in Wp_h bp_h))))
    Wq0 bq0 Wq1 bq1

end Net

/-! ## The products at an entry -/

theorem dot16_apply (x : FVec Ideal S50000x16 .f32) (W : FVec Ideal S16x64 .f32) (r : Fin 50000) (c : Fin 64) :
    Host.dotGeneral (F := Ideal) dot_S50000x16_S16x64_S50000x64_1_0_0_1_n_n none x W (ix2 r c)
      = ∑ k : Fin 16, x (ix2 r k) * W (ix2 k c) :=
  StackMember.dotGeneral_plain_apply none x W r c

theorem dot64_apply (x : FVec Ideal S50000x64 .f32) (W : FVec Ideal S64x64 .f32) (r : Fin 50000) (c : Fin 64) :
    Host.dotGeneral (F := Ideal) dot_S50000x64_S64x64_S50000x64_1_0_0_1_n_n none x W (ix2 r c)
      = ∑ k : Fin 64, x (ix2 r k) * W (ix2 k c) :=
  StackMember.dotGeneral_plain_apply none x W r c

theorem dot32_apply (x : FVec Ideal S50000x64 .f32) (W : FVec Ideal S64x32 .f32) (r : Fin 50000) (c : Fin 32) :
    Host.dotGeneral (F := Ideal) dot_S50000x64_S64x32_S50000x32_1_0_0_1_n_n none x W (ix2 r c)
      = ∑ k : Fin 64, x (ix2 r k) * W (ix2 k c) :=
  StackMember.dotGeneral_plain_apply none x W r c

/-- The product of a one-column array with a one-row matrix: a sum of one term. -/
theorem dotE_apply (ew : FVec Ideal S800000x1 .f32) (we : FVec Ideal S1x64 .f32) (r : Fin 800000) (c : Fin 64) :
    Host.dotGeneral (F := Ideal) dot_S800000x1_S1x64_S800000x64_1_0_0_1_n_n none ew we (ix2 r c)
      = ew (ix2 r 0) * we (ix2 0 c) :=
  (StackMember.dotGeneral_plain_apply none ew we r c).trans (Fin.sum_univ_one _)

/-! ## The biases and the rectifier at an entry -/

theorem biasN_apply (b : FVec Ideal S64 .f32) (r : Fin 50000) (c : Fin 64) : biasN b (ix2 r c) = b (ix1 c) := by
  unfold biasN
  refine (broadcastInDim_apply _ _ _ (ix2 r c) (ix2 (0 : Fin 1) c) fun a => ?_).trans ?_
  · match a with
    | ⟨0, _⟩ => rfl
    | ⟨1, _⟩ => rfl
  · refine broadcastInDim_apply _ _ _ (ix2 (0 : Fin 1) c) (ix1 c) fun a => ?_
    match a with
    | ⟨0, _⟩ => rfl

theorem biasN32_apply (b : FVec Ideal S32 .f32) (r : Fin 50000) (c : Fin 32) : biasN32 b (ix2 r c) = b (ix1 c) := by
  unfold biasN32
  refine (broadcastInDim_apply _ _ _ (ix2 r c) (ix2 (0 : Fin 1) c) fun a => ?_).trans ?_
  · match a with
    | ⟨0, _⟩ => rfl
    | ⟨1, _⟩ => rfl
  · refine broadcastInDim_apply _ _ _ (ix2 (0 : Fin 1) c) (ix1 c) fun a => ?_
    match a with
    | ⟨0, _⟩ => rfl

theorem biasE_apply (b : FVec Ideal S64 .f32) (r : Fin 800000) (c : Fin 64) : biasE b (ix2 r c) = b (ix1 c) := by
  unfold biasE
  refine (broadcastInDim_apply _ _ _ (ix2 r c) (ix2 (0 : Fin 1) c) fun a => ?_).trans ?_
  · match a with
    | ⟨0, _⟩ => rfl
    | ⟨1, _⟩ => rfl
  · refine broadcastInDim_apply _ _ _ (ix2 (0 : Fin 1) c) (ix1 c) fun a => ?_
    match a with
    | ⟨0, _⟩ => rfl

theorem lrelu_apply (v : FVec Ideal S50000x64 .f32) (i : S50000x64.Idx) : lrelu v i = Cert.Spec.lrelu (v i) := rfl

/-! ## The perceptrons -/

/-- A perceptron whose two products and second bias read as stated is the specification's perceptron. -/
theorem mlp_of_reads {din dout : Nat} (x : FVec Ideal ⟨2, ![50000, din]⟩ .f32) (W0 : FVec Ideal ⟨2, ![din, 64]⟩ .f32)
    (b0 : FVec Ideal S64 .f32) (W1 : FVec Ideal ⟨2, ![64, dout]⟩ .f32) (b1 : FVec Ideal ⟨1, ![dout]⟩ .f32)
    (P0 : FVec Ideal S50000x64 .f32) (P1 : FVec Ideal S50000x64 .f32 → FVec Ideal ⟨2, ![50000, dout]⟩ .f32)
    (B1 : FVec Ideal ⟨2, ![50000, dout]⟩ .f32)
    (h0 : ∀ r k, P0 (ix2 r k) = ∑ j : Fin din, x (ix2 r j) * W0 (ix2 j k))
    (h1 : ∀ v r c, P1 v (ix2 r c) = ∑ k : Fin 64, v (ix2 r k) * W1 (ix2 k c))
    (hb : ∀ r c, B1 (ix2 r c) = b1 (ix1 c)) :
    Host.tanh (F := Ideal) (addf (P1 (lrelu (addf P0 (biasN b0)))) B1)
      = Cert.Spec.mlpAt x W0 (Cert.Spec.rowOf b0) W1 (Cert.Spec.rowOf b1) := by
  funext i
  obtain ⟨r, c, rfl⟩ : ∃ (r : Fin 50000) (c : Fin dout), i = ix2 r c := ⟨i 0, i 1, eq_ix2 i⟩
  show Ideal.tanh (P1 (lrelu (addf P0 (biasN b0))) (ix2 r c) + B1 (ix2 r c))
    = Ideal.tanh ((∑ k : Fin 64, Cert.Spec.hidAt x W0 (Cert.Spec.rowOf b0) r k * W1 (ix2 k c)) + b1 (ix1 c))
  rw [h1, hb]
  refine congrArg Ideal.tanh (congrArg (· + b1 (ix1 c)) (Finset.sum_congr rfl fun k _ => ?_))
  rw [lrelu_apply]
  show Cert.Spec.lrelu (P0 (ix2 r k) + biasN b0 (ix2 r k)) * W1 (ix2 k c) = _
  rw [h0, biasN_apply]
  rfl

theorem mlpIn_eq (x : FVec Ideal S50000x16 .f32) (W0 : FVec Ideal S16x64 .f32) (b0 : FVec Ideal S64 .f32)
    (W1 : FVec Ideal S64x64 .f32) (b1 : FVec Ideal S64 .f32) :
    mlpIn x W0 b0 W1 b1 = Cert.Spec.mlpAt x W0 (Cert.Spec.rowOf b0) W1 (Cert.Spec.rowOf b1) :=
  mlp_of_reads x W0 b0 W1 b1 _ (fun v => Host.dotGeneral (F := Ideal) dot_S50000x64_S64x64_S50000x64_1_0_0_1_n_n none v W1) _
    (dot16_apply x W0) (fun v => dot64_apply v W1) (biasN_apply b1)

theorem mlpMid_eq (z : FVec Ideal S50000x64 .f32) (W0 : FVec Ideal S64x64 .f32) (b0 : FVec Ideal S64 .f32)
    (W1 : FVec Ideal S64x64 .f32) (b1 : FVec Ideal S64 .f32) :
    mlpMid z W0 b0 W1 b1 = Cert.Spec.mlpAt z W0 (Cert.Spec.rowOf b0) W1 (Cert.Spec.rowOf b1) :=
  mlp_of_reads z W0 b0 W1 b1 _ (fun v => Host.dotGeneral (F := Ideal) dot_S50000x64_S64x64_S50000x64_1_0_0_1_n_n none v W1) _
    (dot64_apply z W0) (fun v => dot64_apply v W1) (biasN_apply b1)

theorem mlpOut_eq (z : FVec Ideal S50000x64 .f32) (W0 : FVec Ideal S64x64 .f32) (b0 : FVec Ideal S64 .f32)
    (W1 : FVec Ideal S64x32 .f32) (b1 : FVec Ideal S32 .f32) :
    mlpOut z W0 b0 W1 b1 = Cert.Spec.mlpAt z W0 (Cert.Spec.rowOf b0) W1 (Cert.Spec.rowOf b1) :=
  mlp_of_reads z W0 b0 W1 b1 _ (fun v => Host.dotGeneral (F := Ideal) dot_S50000x64_S64x32_S50000x32_1_0_0_1_n_n none v W1) _
    (dot64_apply z W0) (fun v => dot32_apply v W1) (biasN32_apply b1)

/-- A node's update is the specification's: the sum `agg + h` is entrywise. -/
theorem node_eq (agg h : FVec Ideal S50000x64 .f32) (W0 : FVec Ideal S64x64 .f32) (b0 : FVec Ideal S64 .f32)
    (W1 : FVec Ideal S64x64 .f32) (b1 : FVec Ideal S64 .f32) :
    node agg h W0 b0 W1 b1 = Cert.Spec.nodeAt agg h W0 (Cert.Spec.rowOf b0) W1 (Cert.Spec.rowOf b1) :=
  mlpMid_eq (addf agg h) W0 b0 W1 b1

/-! ## The edge stage -/

theorem edge_eq (hs : FVec Ideal S800000x64 .f32) (ew : FVec Ideal S800000x1 .f32) (we : FVec Ideal S1x64 .f32)
    (be : FVec Ideal S64 .f32) : edge hs ew we be = Cert.Spec.edgeAt hs ew we (Cert.Spec.rowOf be) := by
  funext i
  obtain ⟨r, c, rfl⟩ : ∃ (r : Fin 800000) (c : Fin 64), i = ix2 r c := ⟨i 0, i 1, eq_ix2 i⟩
  show max (hs (ix2 r c) + (Host.dotGeneral (F := Ideal) dot_S800000x1_S1x64_S800000x64_1_0_0_1_n_n none ew we (ix2 r c)
      + biasE be (ix2 r c))) (Ideal.ofBits .f32 0x00000000#32)
    = max (hs (ix2 r c) + (ew (ix2 r 0) * we (ix2 0 c) + be (ix1 c))) (Ideal.ofBits .f32 0x00000000#32)
  rw [dotE_apply, biasE_apply]

/-! ## The slices -/

theorem mat0_eq (W : FVec Ideal S3x64x64 .f32) : mat0 W = Cert.Spec.sliceMat W 0 := Cert.Glue.slice_mat W 0 _ rfl _ _
theorem mat1_eq (W : FVec Ideal S3x64x64 .f32) : mat1 W = Cert.Spec.sliceMat W 1 := Cert.Glue.slice_mat W 1 _ rfl _ _
theorem mat2_eq (W : FVec Ideal S3x64x64 .f32) : mat2 W = Cert.Spec.sliceMat W 2 := Cert.Glue.slice_mat W 2 _ rfl _ _

theorem emb0_eq (W : FVec Ideal S3x1x64 .f32) : emb0 W = Cert.Spec.sliceMat W 0 := Cert.Glue.slice_mat W 0 _ rfl _ _
theorem emb1_eq (W : FVec Ideal S3x1x64 .f32) : emb1 W = Cert.Spec.sliceMat W 1 := Cert.Glue.slice_mat W 1 _ rfl _ _
theorem emb2_eq (W : FVec Ideal S3x1x64 .f32) : emb2 W = Cert.Spec.sliceMat W 2 := Cert.Glue.slice_mat W 2 _ rfl _ _

theorem vec0_row (B : FVec Ideal S3x64 .f32) : Cert.Spec.rowOf (vec0 B) = Cert.Spec.sliceRow B 0 :=
  (congrArg Cert.Spec.rowOf (Cert.Glue.slice_vec B 0 _ rfl _ _)).trans (Cert.Glue.rowOf_slice B 0)
theorem vec1_row (B : FVec Ideal S3x64 .f32) : Cert.Spec.rowOf (vec1 B) = Cert.Spec.sliceRow B 1 :=
  (congrArg Cert.Spec.rowOf (Cert.Glue.slice_vec B 1 _ rfl _ _)).trans (Cert.Glue.rowOf_slice B 1)
theorem vec2_row (B : FVec Ideal S3x64 .f32) : Cert.Spec.rowOf (vec2 B) = Cert.Spec.sliceRow B 2 :=
  (congrArg Cert.Spec.rowOf (Cert.Glue.slice_vec B 2 _ rfl _ _)).trans (Cert.Glue.rowOf_slice B 2)

/-! ## The index glue -/

theorem src_eq (ei : IVec S2x800000 32) : src ei = Cert.Spec.edgeRow ei 0 := Cert.Glue.edge_row ei 0 _ rfl _ _
theorem dst_eq (ei : IVec S2x800000 32) : dst ei = Cert.Spec.edgeRow ei 1 := Cert.Glue.edge_row ei 1 _ rfl _ _

/-- The wrapped source column: the select, the comparison and the sum are entrywise, the constants broadcast scalars. -/
theorem wrapCol_eq (s : IVec S800000 32) : wrapCol s = Cert.Spec.wrapIdx s := by
  unfold wrapCol
  rw [Cert.Glue.col_of_vec _ _ rfl]
  rfl

theorem col_eq (s : IVec S800000 32) : col s = Cert.Spec.colIdx s := Cert.Glue.col_of_vec s _ rfl _

theorem zeroN_eq : (zeroN : FVec Ideal S50000x64 .f32) = fun _ => Ideal.ofBits .f32 0x00000000#32 := rfl

/-! ## A layer and the network -/

theorem layer0_eq (ei : IVec S2x800000 32) (ew : FVec Ideal S800000x1 .f32) (We : FVec Ideal S3x1x64 .f32)
    (be : FVec Ideal S3x64 .f32) (Wm0 : FVec Ideal S3x64x64 .f32) (bm0 : FVec Ideal S3x64 .f32)
    (Wm1 : FVec Ideal S3x64x64 .f32) (bm1 : FVec Ideal S3x64 .f32) (h : FVec Ideal S50000x64 .f32) :
    layer (emb0 We) (vec0 be) (mat0 Wm0) (vec0 bm0) (mat0 Wm1) (vec0 bm1) ei ew h
      = Cert.Spec.layer gather_S50000x64_S800000x1_S800000x64_1_0_n_n_0_1_164 scatter_S50000x64_S800000x1_S800000x64_1_0_0_1
          ei ew We be Wm0 bm0 Wm1 bm1 0 h := by
  unfold layer
  rw [node_eq, edge_eq, wrapCol_eq, col_eq, src_eq, dst_eq, zeroN_eq, emb0_eq, mat0_eq, mat0_eq, vec0_row, vec0_row, vec0_row]
  rfl

theorem layer1_eq (ei : IVec S2x800000 32) (ew : FVec Ideal S800000x1 .f32) (We : FVec Ideal S3x1x64 .f32)
    (be : FVec Ideal S3x64 .f32) (Wm0 : FVec Ideal S3x64x64 .f32) (bm0 : FVec Ideal S3x64 .f32)
    (Wm1 : FVec Ideal S3x64x64 .f32) (bm1 : FVec Ideal S3x64 .f32) (h : FVec Ideal S50000x64 .f32) :
    layer (emb1 We) (vec1 be) (mat1 Wm0) (vec1 bm0) (mat1 Wm1) (vec1 bm1) ei ew h
      = Cert.Spec.layer gather_S50000x64_S800000x1_S800000x64_1_0_n_n_0_1_164 scatter_S50000x64_S800000x1_S800000x64_1_0_0_1
          ei ew We be Wm0 bm0 Wm1 bm1 1 h := by
  unfold layer
  rw [node_eq, edge_eq, wrapCol_eq, col_eq, src_eq, dst_eq, zeroN_eq, emb1_eq, mat1_eq, mat1_eq, vec1_row, vec1_row, vec1_row]
  rfl

theorem layer2_eq (ei : IVec S2x800000 32) (ew : FVec Ideal S800000x1 .f32) (We : FVec Ideal S3x1x64 .f32)
    (be : FVec Ideal S3x64 .f32) (Wm0 : FVec Ideal S3x64x64 .f32) (bm0 : FVec Ideal S3x64 .f32)
    (Wm1 : FVec Ideal S3x64x64 .f32) (bm1 : FVec Ideal S3x64 .f32) (h : FVec Ideal S50000x64 .f32) :
    layer (emb2 We) (vec2 be) (mat2 Wm0) (vec2 bm0) (mat2 Wm1) (vec2 bm1) ei ew h
      = Cert.Spec.layer gather_S50000x64_S800000x1_S800000x64_1_0_n_n_0_1_164 scatter_S50000x64_S800000x1_S800000x64_1_0_0_1
          ei ew We be Wm0 bm0 Wm1 bm1 2 h := by
  unfold layer
  rw [node_eq, edge_eq, wrapCol_eq, col_eq, src_eq, dst_eq, zeroN_eq, emb2_eq, mat2_eq, mat2_eq, vec2_row, vec2_row, vec2_row]
  rfl

/-- The reference's network is the specification's. -/
theorem net_eq (x : FVec Ideal S50000x16 .f32) (ei : IVec S2x800000 32) (ew : FVec Ideal S800000x1 .f32)
    (Wp_in : FVec Ideal S16x64 .f32) (bp_in : FVec Ideal S64 .f32) (Wp_h : FVec Ideal S64x64 .f32) (bp_h : FVec Ideal S64 .f32)
    (We : FVec Ideal S3x1x64 .f32) (be : FVec Ideal S3x64 .f32) (Wm0 : FVec Ideal S3x64x64 .f32) (bm0 : FVec Ideal S3x64 .f32)
    (Wm1 : FVec Ideal S3x64x64 .f32) (bm1 : FVec Ideal S3x64 .f32) (Wq0 : FVec Ideal S64x64 .f32) (bq0 : FVec Ideal S64 .f32)
    (Wq1 : FVec Ideal S64x32 .f32) (bq1 : FVec Ideal S32 .f32) :
    net x ei ew Wp_in bp_in Wp_h bp_h We be Wm0 bm0 Wm1 bm1 Wq0 bq0 Wq1 bq1
      = Cert.Spec.net gather_S50000x64_S800000x1_S800000x64_1_0_n_n_0_1_164 scatter_S50000x64_S800000x1_S800000x64_1_0_0_1
          x ei ew Wp_in bp_in Wp_h bp_h We be Wm0 bm0 Wm1 bm1 Wq0 bq0 Wq1 bq1 := by
  unfold net
  rw [mlpOut_eq, layer2_eq, layer1_eq, layer0_eq, mlpIn_eq]
  rfl

end Cert.ReferenceIdeal.Stage

end
-- ==== Proof.RefValue.lean ====
/-
  What the reference program leaves in its buffers, as the specification's network of the argument arrays.

  The program is a straight line of array operations, so the result buffer holds the operations' composition applied to
  the arguments' contents at launch: the first perceptron, then three times gather by source, edge message, scatter-add by
  destination from zero and node update, each with its slice of the stacked weights, then the last perceptron. That
  composition is, stage by stage, the specification's network. No operation writes an argument's buffer, so every
  argument still holds what it held at launch.
-/
import proofs.«425574_j14697378087540_1_alg».proof.Proof.RefRun
import proofs.«425574_j14697378087540_1_alg».proof.Proof.RefStage

noncomputable section

open Idealize.ShloMosaic Idealize.ShloMosaic.TcCoe Idealize.ShloMosaic.StableHlo
open Cert.ReferenceIdeal Cert.ReferenceIdeal.Gen Cert.ReferenceIdeal.Run

namespace Cert.ReferenceIdeal.Stage

set_option maxRecDepth 16384 in
set_option maxHeartbeats 40000000 in
/-- The result buffer after the run holds the stages' composition of the arguments' contents, at any float instance:
    each operation's result is its function of its operands' contents, and a call of an outlined function is its body. -/
theorem out_term {F : FTy → Type} [FloatOps F] (V : Valuation τ sig (Elt F)) :
    after (ops (F := F)) V (main_v140 : DevRef τ sig)
      = net (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) := by
  after_results_simp <;> (try simp only [TRef.ofBuf, TRef.toBuf, cast_eq]) <;> rfl

/-- Over the extended reals the result buffer holds the specification's network of the arguments' contents. -/
theorem out_eq (V : Valuation τ sig (Elt Ideal)) :
    after ops V (main_v140 : DevRef τ sig)
      = Cert.Spec.net gather_S50000x64_S800000x1_S800000x64_1_0_n_n_0_1_164 scatter_S50000x64_S800000x1_S800000x64_1_0_0_1
          (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) :=
  (out_term V).trans (net_eq _ _ _ _ _ _ _ _ _ _ _ _ _ _ _ _ _)

/-! ## The arguments keep their contents -/

set_option maxRecDepth 16384 in
set_option maxHeartbeats 4000000 in
theorem arg0_eq {F : FTy → Type} [FloatOps F] (V : Valuation τ sig (Elt F)) :
    after (ops (F := F)) V (main_arg0 : DevRef τ sig) = V (main_arg0 : DevRef τ sig) := by
  after_results_simp <;> rfl

set_option maxRecDepth 16384 in
set_option maxHeartbeats 4000000 in
theorem arg1_eq {F : FTy → Type} [FloatOps F] (V : Valuation τ sig (Elt F)) :
    after (ops (F := F)) V (main_arg1 : DevRef τ sig) = V (main_arg1 : DevRef τ sig) := by
  after_results_simp <;> rfl

set_option maxRecDepth 16384 in
set_option maxHeartbeats 4000000 in
theorem arg2_eq {F : FTy → Type} [FloatOps F] (V : Valuation τ sig (Elt F)) :
    after (ops (F := F)) V (main_arg2 : DevRef τ sig) = V (main_arg2 : DevRef τ sig) := by
  after_results_simp <;> rfl

set_option maxRecDepth 16384 in
set_option maxHeartbeats 4000000 in
theorem arg3_eq {F : FTy → Type} [FloatOps F] (V : Valuation τ sig (Elt F)) :
    after (ops (F := F)) V (main_arg3 : DevRef τ sig) = V (main_arg3 : DevRef τ sig) := by
  after_results_simp <;> rfl

set_option maxRecDepth 16384 in
set_option maxHeartbeats 4000000 in
theorem arg4_eq {F : FTy → Type} [FloatOps F] (V : Valuation τ sig (Elt F)) :
    after (ops (F := F)) V (main_arg4 : DevRef τ sig) = V (main_arg4 : DevRef τ sig) := by
  after_results_simp <;> rfl

set_option maxRecDepth 16384 in
set_option maxHeartbeats 4000000 in
theorem arg5_eq {F : FTy → Type} [FloatOps F] (V : Valuation τ sig (Elt F)) :
    after (ops (F := F)) V (main_arg5 : DevRef τ sig) = V (main_arg5 : DevRef τ sig) := by
  after_results_simp <;> rfl

set_option maxRecDepth 16384 in
set_option maxHeartbeats 4000000 in
theorem arg6_eq {F : FTy → Type} [FloatOps F] (V : Valuation τ sig (Elt F)) :
    after (ops (F := F)) V (main_arg6 : DevRef τ sig) = V (main_arg6 : DevRef τ sig) := by
  after_results_simp <;> rfl

set_option maxRecDepth 16384 in
set_option maxHeartbeats 4000000 in
theorem arg7_eq {F : FTy → Type} [FloatOps F] (V : Valuation τ sig (Elt F)) :
    after (ops (F := F)) V (main_arg7 : DevRef τ sig) = V (main_arg7 : DevRef τ sig) := by
  after_results_simp <;> rfl

set_option maxRecDepth 16384 in
set_option maxHeartbeats 4000000 in
theorem arg8_eq {F : FTy → Type} [FloatOps F] (V : Valuation τ sig (Elt F)) :
    after (ops (F := F)) V (main_arg8 : DevRef τ sig) = V (main_arg8 : DevRef τ sig) := by
  after_results_simp <;> rfl

set_option maxRecDepth 16384 in
set_option maxHeartbeats 4000000 in
theorem arg9_eq {F : FTy → Type} [FloatOps F] (V : Valuation τ sig (Elt F)) :
    after (ops (F := F)) V (main_arg9 : DevRef τ sig) = V (main_arg9 : DevRef τ sig) := by
  after_results_simp <;> rfl

set_option maxRecDepth 16384 in
set_option maxHeartbeats 4000000 in
theorem arg10_eq {F : FTy → Type} [FloatOps F] (V : Valuation τ sig (Elt F)) :
    after (ops (F := F)) V (main_arg10 : DevRef τ sig) = V (main_arg10 : DevRef τ sig) := by
  after_results_simp <;> rfl

set_option maxRecDepth 16384 in
set_option maxHeartbeats 4000000 in
theorem arg11_eq {F : FTy → Type} [FloatOps F] (V : Valuation τ sig (Elt F)) :
    after (ops (F := F)) V (main_arg11 : DevRef τ sig) = V (main_arg11 : DevRef τ sig) := by
  after_results_simp <;> rfl

set_option maxRecDepth 16384 in
set_option maxHeartbeats 4000000 in
theorem arg12_eq {F : FTy → Type} [FloatOps F] (V : Valuation τ sig (Elt F)) :
    after (ops (F := F)) V (main_arg12 : DevRef τ sig) = V (main_arg12 : DevRef τ sig) := by
  after_results_simp <;> rfl

set_option maxRecDepth 16384 in
set_option maxHeartbeats 4000000 in
theorem arg13_eq {F : FTy → Type} [FloatOps F] (V : Valuation τ sig (Elt F)) :
    after (ops (F := F)) V (main_arg13 : DevRef τ sig) = V (main_arg13 : DevRef τ sig) := by
  after_results_simp <;> rfl

set_option maxRecDepth 16384 in
set_option maxHeartbeats 4000000 in
theorem arg14_eq {F : FTy → Type} [FloatOps F] (V : Valuation τ sig (Elt F)) :
    after (ops (F := F)) V (main_arg14 : DevRef τ sig) = V (main_arg14 : DevRef τ sig) := by
  after_results_simp <;> rfl

set_option maxRecDepth 16384 in
set_option maxHeartbeats 4000000 in
theorem arg15_eq {F : FTy → Type} [FloatOps F] (V : Valuation τ sig (Elt F)) :
    after (ops (F := F)) V (main_arg15 : DevRef τ sig) = V (main_arg15 : DevRef τ sig) := by
  after_results_simp <;> rfl

set_option maxRecDepth 16384 in
set_option maxHeartbeats 4000000 in
theorem arg16_eq {F : FTy → Type} [FloatOps F] (V : Valuation τ sig (Elt F)) :
    after (ops (F := F)) V (main_arg16 : DevRef τ sig) = V (main_arg16 : DevRef τ sig) := by
  after_results_simp <;> rfl

end Cert.ReferenceIdeal.Stage

end
-- ==== Proof.lean ====
/-
  The kernel is a graph network: a perceptron of the node features, three rounds of "gather the source nodes' rows, form
  each edge's message, sum the messages into their destination nodes, update every node by a perceptron of the sum plus
  the node's own row", and a last perceptron. Its dense parts run as kernel regions over row blocks, the gather and the
  scatter-add on the host; the reference computes the same with whole-array operations.

  Over the extended reals both programs compute ONE function of the seventeen argument arrays, `Cert.Spec.net`: a matrix
  product into a zero accumulator and a host product are the same finite sum over the contracted index, a change of float
  format is the identity, the one-column product of the edge weight with a one-row matrix is a single product, and every
  other operation is the same elementwise operation on both sides. The gather and the scatter-add are the same host
  operations in both programs and are never opened. The one place the programs differ is a source index outside
  `-50000 … 49999`: there the kernel's gather replaces the row by a fill value while the reference clamps the index, so
  the precondition asks every source index to lie in that range, and under it the kernel's guard never fires.

  Each program terminates without a fault and leaves its arguments unchanged: the kernel programs by their frame
  certificates, the reference because it is a straight line of host operations.
-/
import proofs.«425574_j14697378087540_1_alg».proof.Defs
import proofs.«425574_j14697378087540_1_alg».proof.Proof.Gen.Kernel.Frame
import proofs.«425574_j14697378087540_1_alg».proof.Proof.Gen.KernelIdeal.Frame
import proofs.«425574_j14697378087540_1_alg».proof.Proof.Gen.ReferenceIdeal
import proofs.«425574_j14697378087540_1_alg».proof.Proof.Gen.Pre_finite_inputs
import proofs.«425574_j14697378087540_1_alg».proof.Proof.KernelRun
import proofs.«425574_j14697378087540_1_alg».proof.Proof.KFold
import proofs.«425574_j14697378087540_1_alg».proof.Proof.PreRange
import proofs.«425574_j14697378087540_1_alg».proof.Proof.RefRun
import proofs.«425574_j14697378087540_1_alg».proof.Proof.RefValue

noncomputable section

namespace Cert.Proof

open Idealize.ShloMosaic Idealize.ShloMosaic.TcCoe Idealize.SL.Sem

/-- The kernel's program, word by word: it runs, and its arguments end unchanged. -/
theorem frame_k : Cert.frame_Kernel := fun m ρ _ => Cert.Kernel.Gen.frame m ρ

/-- The kernel's program over the extended reals: it runs, and its arguments end unchanged. -/
theorem frame_ki : Cert.frame_KernelIdeal := fun m ρ _ => Cert.KernelIdeal.Gen.frame m ρ

/-- The reference is a straight line of host operations, none of which writes an argument. -/
theorem frame_ri : Cert.frame_ReferenceIdeal := fun m ρ _ =>
  (θ_run Cert.ReferenceIdeal.defs _ _).mono
    (fun r h c => ⟨(h c Cert.ReferenceIdeal.main_arg0).trans (Cert.ReferenceIdeal.Stage.arg0_eq _),
      (h c Cert.ReferenceIdeal.main_arg1).trans (Cert.ReferenceIdeal.Stage.arg1_eq _),
      (h c Cert.ReferenceIdeal.main_arg2).trans (Cert.ReferenceIdeal.Stage.arg2_eq _),
      (h c Cert.ReferenceIdeal.main_arg3).trans (Cert.ReferenceIdeal.Stage.arg3_eq _),
      (h c Cert.ReferenceIdeal.main_arg4).trans (Cert.ReferenceIdeal.Stage.arg4_eq _),
      (h c Cert.ReferenceIdeal.main_arg5).trans (Cert.ReferenceIdeal.Stage.arg5_eq _),
      (h c Cert.ReferenceIdeal.main_arg6).trans (Cert.ReferenceIdeal.Stage.arg6_eq _),
      (h c Cert.ReferenceIdeal.main_arg7).trans (Cert.ReferenceIdeal.Stage.arg7_eq _),
      (h c Cert.ReferenceIdeal.main_arg8).trans (Cert.ReferenceIdeal.Stage.arg8_eq _),
      (h c Cert.ReferenceIdeal.main_arg9).trans (Cert.ReferenceIdeal.Stage.arg9_eq _),
      (h c Cert.ReferenceIdeal.main_arg10).trans (Cert.ReferenceIdeal.Stage.arg10_eq _),
      (h c Cert.ReferenceIdeal.main_arg11).trans (Cert.ReferenceIdeal.Stage.arg11_eq _),
      (h c Cert.ReferenceIdeal.main_arg12).trans (Cert.ReferenceIdeal.Stage.arg12_eq _),
      (h c Cert.ReferenceIdeal.main_arg13).trans (Cert.ReferenceIdeal.Stage.arg13_eq _),
      (h c Cert.ReferenceIdeal.main_arg14).trans (Cert.ReferenceIdeal.Stage.arg14_eq _),
      (h c Cert.ReferenceIdeal.main_arg15).trans (Cert.ReferenceIdeal.Stage.arg15_eq _),
      (h c Cert.ReferenceIdeal.main_arg16).trans (Cert.ReferenceIdeal.Stage.arg16_eq _)⟩)
    (Cert.ReferenceIdeal.Run.run_main m ρ)

/-- The kernel's idealization rewrote no operation. -/
theorem preserves : Cert.preserves_Kernel_KernelIdeal := trivial

/-- From memories agreeing on the arguments both programs end with the network of the argument arrays. -/
theorem algebraic : Cert.algebraic_KernelIdeal_ReferenceIdeal := by
  intro m ρ m' ρ' hpre hagree
  have hs : ∀ c, Cert.KernelIdeal.Fold.Rng m c := fun c =>
    Cert.PreRange.src_range _ _ _ _ _ _ _ _ _ _ _ _ _ _ _ _ _ (hpre c)
  refine ⟨_, (θ_run Cert.KernelIdeal.defs _ _).mono
      (fun r h c => ⟨(h c).1.trans (Cert.KernelIdeal.Fold.result m ρ c (hs c)), (h c).2⟩)
      (Cert.KernelIdeal.Run.run_named m ρ), ?_⟩
  refine (θ_run Cert.ReferenceIdeal.defs _ _).mono (fun r h c => ⟨?_,
      (h c Cert.ReferenceIdeal.main_arg0).trans (Cert.ReferenceIdeal.Stage.arg0_eq _),
      (h c Cert.ReferenceIdeal.main_arg1).trans (Cert.ReferenceIdeal.Stage.arg1_eq _),
      (h c Cert.ReferenceIdeal.main_arg2).trans (Cert.ReferenceIdeal.Stage.arg2_eq _),
      (h c Cert.ReferenceIdeal.main_arg3).trans (Cert.ReferenceIdeal.Stage.arg3_eq _),
      (h c Cert.ReferenceIdeal.main_arg4).trans (Cert.ReferenceIdeal.Stage.arg4_eq _),
      (h c Cert.ReferenceIdeal.main_arg5).trans (Cert.ReferenceIdeal.Stage.arg5_eq _),
      (h c Cert.ReferenceIdeal.main_arg6).trans (Cert.ReferenceIdeal.Stage.arg6_eq _),
      (h c Cert.ReferenceIdeal.main_arg7).trans (Cert.ReferenceIdeal.Stage.arg7_eq _),
      (h c Cert.ReferenceIdeal.main_arg8).trans (Cert.ReferenceIdeal.Stage.arg8_eq _),
      (h c Cert.ReferenceIdeal.main_arg9).trans (Cert.ReferenceIdeal.Stage.arg9_eq _),
      (h c Cert.ReferenceIdeal.main_arg10).trans (Cert.ReferenceIdeal.Stage.arg10_eq _),
      (h c Cert.ReferenceIdeal.main_arg11).trans (Cert.ReferenceIdeal.Stage.arg11_eq _),
      (h c Cert.ReferenceIdeal.main_arg12).trans (Cert.ReferenceIdeal.Stage.arg12_eq _),
      (h c Cert.ReferenceIdeal.main_arg13).trans (Cert.ReferenceIdeal.Stage.arg13_eq _),
      (h c Cert.ReferenceIdeal.main_arg14).trans (Cert.ReferenceIdeal.Stage.arg14_eq _),
      (h c Cert.ReferenceIdeal.main_arg15).trans (Cert.ReferenceIdeal.Stage.arg15_eq _),
      (h c Cert.ReferenceIdeal.main_arg16).trans (Cert.ReferenceIdeal.Stage.arg16_eq _)⟩)
    (Cert.ReferenceIdeal.Run.run_main m' ρ')
  · refine (h c Cert.ReferenceIdeal.main_v140).trans ((Cert.ReferenceIdeal.Stage.out_eq _).trans ?_)
    have e0 : StableHlo.launchContents m' c (Cert.ReferenceIdeal.main_arg0 : DevRef Cert.ReferenceIdeal.τ Cert.ReferenceIdeal.sig) = m ((c.tc : Thread Cert.KernelIdeal.nD Cert.KernelIdeal.τ).loc Cert.KernelIdeal.main_arg0) := (hagree c).1
    have e1 : StableHlo.launchContents m' c (Cert.ReferenceIdeal.main_arg1 : DevRef Cert.ReferenceIdeal.τ Cert.ReferenceIdeal.sig) = m ((c.tc : Thread Cert.KernelIdeal.nD Cert.KernelIdeal.τ).loc Cert.KernelIdeal.main_arg1) := (hagree c).2.1
    have e2 : StableHlo.launchContents m' c (Cert.ReferenceIdeal.main_arg2 : DevRef Cert.ReferenceIdeal.τ Cert.ReferenceIdeal.sig) = m ((c.tc : Thread Cert.KernelIdeal.nD Cert.KernelIdeal.τ).loc Cert.KernelIdeal.main_arg2) := (hagree c).2.2.1
    have e3 : StableHlo.launchContents m' c (Cert.ReferenceIdeal.main_arg3 : DevRef Cert.ReferenceIdeal.τ Cert.ReferenceIdeal.sig) = m ((c.tc : Thread Cert.KernelIdeal.nD Cert.KernelIdeal.τ).loc Cert.KernelIdeal.main_arg3) := (hagree c).2.2.2.1
    have e4 : StableHlo.launchContents m' c (Cert.ReferenceIdeal.main_arg4 : DevRef Cert.ReferenceIdeal.τ Cert.ReferenceIdeal.sig) = m ((c.tc : Thread Cert.KernelIdeal.nD Cert.KernelIdeal.τ).loc Cert.KernelIdeal.main_arg4) := (hagree c).2.2.2.2.1
    have e5 : StableHlo.launchContents m' c (Cert.ReferenceIdeal.main_arg5 : DevRef Cert.ReferenceIdeal.τ Cert.ReferenceIdeal.sig) = m ((c.tc : Thread Cert.KernelIdeal.nD Cert.KernelIdeal.τ).loc Cert.KernelIdeal.main_arg5) := (hagree c).2.2.2.2.2.1
    have e6 : StableHlo.launchContents m' c (Cert.ReferenceIdeal.main_arg6 : DevRef Cert.ReferenceIdeal.τ Cert.ReferenceIdeal.sig) = m ((c.tc : Thread Cert.KernelIdeal.nD Cert.KernelIdeal.τ).loc Cert.KernelIdeal.main_arg6) := (hagree c).2.2.2.2.2.2.1
    have e7 : StableHlo.launchContents m' c (Cert.ReferenceIdeal.main_arg7 : DevRef Cert.ReferenceIdeal.τ Cert.ReferenceIdeal.sig) = m ((c.tc : Thread Cert.KernelIdeal.nD Cert.KernelIdeal.τ).loc Cert.KernelIdeal.main_arg7) := (hagree c).2.2.2.2.2.2.2.1
    have e8 : StableHlo.launchContents m' c (Cert.ReferenceIdeal.main_arg8 : DevRef Cert.ReferenceIdeal.τ Cert.ReferenceIdeal.sig) = m ((c.tc : Thread Cert.KernelIdeal.nD Cert.KernelIdeal.τ).loc Cert.KernelIdeal.main_arg8) := (hagree c).2.2.2.2.2.2.2.2.1
    have e9 : StableHlo.launchContents m' c (Cert.ReferenceIdeal.main_arg9 : DevRef Cert.ReferenceIdeal.τ Cert.ReferenceIdeal.sig) = m ((c.tc : Thread Cert.KernelIdeal.nD Cert.KernelIdeal.τ).loc Cert.KernelIdeal.main_arg9) := (hagree c).2.2.2.2.2.2.2.2.2.1
    have e10 : StableHlo.launchContents m' c (Cert.ReferenceIdeal.main_arg10 : DevRef Cert.ReferenceIdeal.τ Cert.ReferenceIdeal.sig) = m ((c.tc : Thread Cert.KernelIdeal.nD Cert.KernelIdeal.τ).loc Cert.KernelIdeal.main_arg10) := (hagree c).2.2.2.2.2.2.2.2.2.2.1
    have e11 : StableHlo.launchContents m' c (Cert.ReferenceIdeal.main_arg11 : DevRef Cert.ReferenceIdeal.τ Cert.ReferenceIdeal.sig) = m ((c.tc : Thread Cert.KernelIdeal.nD Cert.KernelIdeal.τ).loc Cert.KernelIdeal.main_arg11) := (hagree c).2.2.2.2.2.2.2.2.2.2.2.1
    have e12 : StableHlo.launchContents m' c (Cert.ReferenceIdeal.main_arg12 : DevRef Cert.ReferenceIdeal.τ Cert.ReferenceIdeal.sig) = m ((c.tc : Thread Cert.KernelIdeal.nD Cert.KernelIdeal.τ).loc Cert.KernelIdeal.main_arg12) := (hagree c).2.2.2.2.2.2.2.2.2.2.2.2.1
    have e13 : StableHlo.launchContents m' c (Cert.ReferenceIdeal.main_arg13 : DevRef Cert.ReferenceIdeal.τ Cert.ReferenceIdeal.sig) = m ((c.tc : Thread Cert.KernelIdeal.nD Cert.KernelIdeal.τ).loc Cert.KernelIdeal.main_arg13) := (hagree c).2.2.2.2.2.2.2.2.2.2.2.2.2.1
    have e14 : StableHlo.launchContents m' c (Cert.ReferenceIdeal.main_arg14 : DevRef Cert.ReferenceIdeal.τ Cert.ReferenceIdeal.sig) = m ((c.tc : Thread Cert.KernelIdeal.nD Cert.KernelIdeal.τ).loc Cert.KernelIdeal.main_arg14) := (hagree c).2.2.2.2.2.2.2.2.2.2.2.2.2.2.1
    have e15 : StableHlo.launchContents m' c (Cert.ReferenceIdeal.main_arg15 : DevRef Cert.ReferenceIdeal.τ Cert.ReferenceIdeal.sig) = m ((c.tc : Thread Cert.KernelIdeal.nD Cert.KernelIdeal.τ).loc Cert.KernelIdeal.main_arg15) := (hagree c).2.2.2.2.2.2.2.2.2.2.2.2.2.2.2.1
    have e16 : StableHlo.launchContents m' c (Cert.ReferenceIdeal.main_arg16 : DevRef Cert.ReferenceIdeal.τ Cert.ReferenceIdeal.sig) = m ((c.tc : Thread Cert.KernelIdeal.nD Cert.KernelIdeal.τ).loc Cert.KernelIdeal.main_arg16) := (hagree c).2.2.2.2.2.2.2.2.2.2.2.2.2.2.2.2
    rw [e0, e1, e2, e3, e4, e5, e6, e7, e8, e9, e10, e11, e12, e13, e14, e15, e16]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
